-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_98" .f32 0x3C272F05#32 ((1 / 98 : ℝ) : EReal)
  ∧ IdealRules.named_const.Statement Cert.KernelIdeal.κ "neg_inv_15" .f32 0xBD888889#32 ((-1 / 15 : ℝ) : EReal)
  ∧ IdealRules.named_const.Statement Cert.KernelIdeal.κ "neg_inv_15" .f32 0xBD888889#32 ((-1 / 15 : ℝ) : EReal)
  ∧ IdealRules.named_const.Statement Cert.KernelIdeal.κ "neg_inv_15" .f32 0xBD888889#32 ((-1 / 15 : ℝ) : EReal)
  ∧ IdealRules.named_const.Statement Cert.KernelIdeal.κ "neg_inv_15" .f32 0xBD888889#32 ((-1 / 15 : ℝ) : EReal)
  ∧ IdealRules.named_const.Statement Cert.KernelIdeal.κ "neg_inv_15" .f32 0xBD888889#32 ((-1 / 15 : ℝ) : EReal)
  ∧ IdealRules.named_const.Statement Cert.KernelIdeal.κ "neg_inv_15" .f32 0xBD888889#32 ((-1 / 15 : ℝ) : EReal)
  ∧ IdealRules.named_const.Statement Cert.KernelIdeal.κ "neg_inv_15" .f32 0xBD888889#32 ((-1 / 15 : ℝ) : EReal)
  ∧ IdealRules.named_const.Statement Cert.KernelIdeal.κ "neg_inv_15" .f32 0xBD888889#32 ((-1 / 15 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x196 : Shape := ⟨2, ![16384, 196]⟩
abbrev S_ : Shape := ⟨0, ![]⟩

class Facts : Prop where
  bcast_S_S16384x196 : S_.BroadcastsInDim S16384x196 (![] : Fin 0 → Fin S16384x196.rank)
  reducesTo_S16384x196_S_d0_1 : S16384x196.ReducesTo [0, 1] S_
  h_S_ : 0 < S_.numel

variable [Facts]

def fn {F : FTy → Type} [FloatOps F] (main_arg0 : FVec F S16384x196 .f32) (main_arg1 : FVec F S16384x196 .f32) : IVec S_ 1 :=
  let main_v0 : FVec F S16384x196 .f32 := Host.absf main_arg0
  let main_cst : FVec F S_ .f32 := constant S_ .f32 0x7F800000#32
  let main_v1 : FVec F S16384x196 .f32 := broadcastInDim S16384x196 ![] bcast_S_S16384x196 main_cst
  let main_v2 : IVec S16384x196 1 := cmpf .olt main_v0 main_v1
  let main_c : IVec S_ 1 := constantI S_ 1 1#1
  let main_v3 : IVec S_ 1 := (fun x v => Host.reduce IntOp.andi x v reducesTo_S16384x196_S_d0_1 h_S_) main_v2 main_c
  let main_v4 : FVec F S16384x196 .f32 := Host.absf main_arg1
  let main_cst_0 : FVec F S_ .f32 := constant S_ .f32 0x7F800000#32
  let main_v5 : FVec F S16384x196 .f32 := broadcastInDim S16384x196 ![] bcast_S_S16384x196 main_cst_0
  let main_v6 : IVec S16384x196 1 := cmpf .olt main_v4 main_v5
  let main_c_1 : IVec S_ 1 := constantI S_ 1 1#1
  let main_v7 : IVec S_ 1 := (fun x v => Host.reduce IntOp.andi x v reducesTo_S16384x196_S_d0_1 h_S_) main_v6 main_c_1
  let main_v8 : IVec S_ 1 := andi main_v3 main_v7
  main_v8
-- ==== Kernel.lean ====
abbrev S16384x196 : Shape := ⟨2, ![16384, 196]⟩
abbrev S16384x98x2 : Shape := ⟨3, ![16384, 98, 2]⟩
abbrev S16384x98x1 : Shape := ⟨3, ![16384, 98, 1]⟩
abbrev S16384x98 : Shape := ⟨2, ![16384, 98]⟩
abbrev S98x16384 : Shape := ⟨2, ![98, 16384]⟩
abbrev S128x8x128 : Shape := ⟨3, ![128, 8, 128]⟩
abbrev S98x128 : Shape := ⟨2, ![98, 128]⟩
abbrev S1x8x128 : Shape := ⟨3, ![1, 8, 128]⟩
abbrev S128 : Shape := ⟨1, ![128]⟩
abbrev S1x128 : Shape := ⟨2, ![1, 128]⟩
abbrev S33x128 : Shape := ⟨2, ![33, 128]⟩
abbrev S32x128 : Shape := ⟨2, ![32, 128]⟩
abbrev S64x128 : Shape := ⟨2, ![64, 128]⟩
abbrev S64x1x128 : Shape := ⟨3, ![64, 1, 128]⟩
abbrev S1x64x128 : Shape := ⟨3, ![1, 64, 128]⟩
abbrev S64x64x128 : Shape := ⟨3, ![64, 64, 128]⟩
abbrev S9x128 : Shape := ⟨2, ![9, 128]⟩
abbrev S8x128 : Shape := ⟨2, ![8, 128]⟩
abbrev S16x128 : Shape := ⟨2, ![16, 128]⟩
abbrev S16x1x128 : Shape := ⟨3, ![16, 1, 128]⟩
abbrev S1x16x128 : Shape := ⟨3, ![1, 16, 128]⟩
abbrev S16x16x128 : Shape := ⟨3, ![16, 16, 128]⟩
abbrev S7x128 : Shape := ⟨2, ![7, 128]⟩
abbrev S14x128 : Shape := ⟨2, ![14, 128]⟩
abbrev S14x1x128 : Shape := ⟨3, ![14, 1, 128]⟩
abbrev S1x14x128 : Shape := ⟨3, ![1, 14, 128]⟩
abbrev S14x14x128 : Shape := ⟨3, ![14, 14, 128]⟩
abbrev S12x128 : Shape := ⟨2, ![12, 128]⟩
abbrev S11x128 : Shape := ⟨2, ![11, 128]⟩
abbrev S22x128 : Shape := ⟨2, ![22, 128]⟩
abbrev S22x1x128 : Shape := ⟨3, ![22, 1, 128]⟩
abbrev S1x22x128 : Shape := ⟨3, ![1, 22, 128]⟩
abbrev S22x22x128 : Shape := ⟨3, ![22, 22, 128]⟩
abbrev S10x128 : Shape := ⟨2, ![10, 128]⟩
abbrev S18x128 : Shape := ⟨2, ![18, 128]⟩
abbrev S18x1x128 : Shape := ⟨3, ![18, 1, 128]⟩
abbrev S1x18x128 : Shape := ⟨3, ![1, 18, 128]⟩
abbrev S18x18x128 : Shape := ⟨3, ![18, 18, 128]⟩
abbrev S1x1x128 : Shape := ⟨3, ![1, 1, 128]⟩
abbrev S_ : Shape := ⟨0, ![]⟩

abbrev nBuf : Space → Nat
  | .hbm => 31
  | .vmem => 12
  | .smem => 0
  | _ => 0

abbrev bufTy : (tb : Table) → Fin (tcTables nBuf tb) → BufTy
  | .hbm, ⟨0, _⟩ => ⟨S16384x196, .f32⟩
  | .hbm, ⟨1, _⟩ => ⟨S16384x196, .f32⟩
  | .hbm, ⟨2, _⟩ => ⟨S16384x98x2, .f32⟩
  | .hbm, ⟨3, _⟩ => ⟨S16384x98x1, .f32⟩
  | .hbm, ⟨4, _⟩ => ⟨S16384x98, .f32⟩
  | .hbm, ⟨5, _⟩ => ⟨S98x16384, .f32⟩
  | .hbm, ⟨6, _⟩ => ⟨S16384x98x1, .f32⟩
  | .hbm, ⟨7, _⟩ => ⟨S16384x98, .f32⟩
  | .hbm, ⟨8, _⟩ => ⟨S98x16384, .f32⟩
  | .hbm, ⟨9, _⟩ => ⟨S16384x98x2, .f32⟩
  | .hbm, ⟨10, _⟩ => ⟨S16384x98x1, .f32⟩
  | .hbm, ⟨11, _⟩ => ⟨S16384x98, .f32⟩
  | .hbm, ⟨12, _⟩ => ⟨S98x16384, .f32⟩
  | .hbm, ⟨13, _⟩ => ⟨S16384x98x1, .f32⟩
  | .hbm, ⟨14, _⟩ => ⟨S16384x98, .f32⟩
  | .hbm, ⟨15, _⟩ => ⟨S98x16384, .f32⟩
  | .hbm, ⟨16, _⟩ => ⟨S128x8x128, .f32⟩
  | .hbm, ⟨17, _⟩ => ⟨S128x8x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S98x128, .f32⟩
  | .local _ .vmem, ⟨1, _⟩ => ⟨S98x128, .f32⟩
  | .local _ .vmem, ⟨2, _⟩ => ⟨S98x128, .f32⟩
  | .local _ .vmem, ⟨3, _⟩ => ⟨S98x128, .f32⟩
  | .local _ .vmem, ⟨4, _⟩ => ⟨S98x128, .f32⟩
  | .local _ .vmem, ⟨5, _⟩ => ⟨S98x128, .f32⟩
  | .local _ .vmem, ⟨6, _⟩ => ⟨S98x128, .f32⟩
  | .local _ .vmem, ⟨7, _⟩ => ⟨S98x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S16384x196, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S98x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S98x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S98x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S98x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384x196_S16384x98x2 : S16384x196.ShapeCasts S16384x98x2
  slices_S16384x98x2_S16384x98x1_0_0_0 : S16384x98x2.Slices ![0, 0, 0] S16384x98x1
  shapeCasts_S16384x98x1_S16384x98 : S16384x98x1.ShapeCasts S16384x98
  transposes_S16384x98_S98x16384_1_0 : S16384x98.Transposes [1, 0] S98x16384
  slices_S16384x98x2_S16384x98x1_0_0_1 : S16384x98x2.Slices ![0, 0, 1] S16384x98x1
  inb_S98x128_S98x128_0_0 : ∀ a, (![0, 0] : Fin 2 → Nat) a + S98x128.size a ≤ S98x128.size a
  h_S98x128 : 0 < S98x128.numel
  shapeCasts_S98x128_S98x128 : S98x128.ShapeCasts S98x128
  reduces_S98x128_S128 : S98x128.Reduces [0] S128
  shapeCasts_S128_S1x128 : S128.ShapeCasts S1x128
  slices_S98x128_o60_0_S1x128 : S98x128.Slices ![60, 0] S1x128
  slices_S98x128_o72_0_S1x128 : S98x128.Slices ![72, 0] S1x128
  slices_S98x128_o0_0_S33x128 : S98x128.Slices ![0, 0] S33x128
  slices_S33x128_o0_0_S32x128 : S33x128.Slices ![0, 0] S32x128
  slices_S33x128_o1_0_S32x128 : S33x128.Slices ![1, 0] S32x128
  concatenates_S32x128_S32x128_S64x128_d0 : Shape.Concatenates [S32x128, S32x128] S64x128 0
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  reduces_S64x64x128_S64x128 : S64x64x128.Reduces [0] S64x128
  reduces_S64x128_S128 : S64x128.Reduces [0] S128
  slices_S98x128_o33_0_S9x128 : S98x128.Slices ![33, 0] S9x128
  slices_S9x128_o0_0_S8x128 : S9x128.Slices ![0, 0] S8x128
  slices_S9x128_o1_0_S8x128 : S9x128.Slices ![1, 0] S8x128
  concatenates_S8x128_S8x128_S16x128_d0 : Shape.Concatenates [S8x128, S8x128] S16x128 0
  shapeCasts_S16x128_S16x1x128 : S16x128.ShapeCasts S16x1x128
  shapeCasts_S16x128_S1x16x128 : S16x128.ShapeCasts S1x16x128
  broadcasts_S16x1x128_S16x16x128 : S16x1x128.Broadcasts S16x16x128
  broadcasts_S1x16x128_S16x16x128 : S1x16x128.Broadcasts S16x16x128
  reduces_S16x16x128_S16x128 : S16x16x128.Reduces [0] S16x128
  reduces_S16x128_S128 : S16x128.Reduces [0] S128
  slices_S98x128_o42_0_S9x128 : S98x128.Slices ![42, 0] S9x128
  slices_S98x128_o51_0_S9x128 : S98x128.Slices ![51, 0] S9x128
  slices_S98x128_o60_0_S8x128 : S98x128.Slices ![60, 0] S8x128
  slices_S8x128_o0_0_S7x128 : S8x128.Slices ![0, 0] S7x128
  slices_S8x128_o1_0_S7x128 : S8x128.Slices ![1, 0] S7x128
  concatenates_S7x128_S7x128_S14x128_d0 : Shape.Concatenates [S7x128, S7x128] S14x128 0
  shapeCasts_S14x128_S14x1x128 : S14x128.ShapeCasts S14x1x128
  shapeCasts_S14x128_S1x14x128 : S14x128.ShapeCasts S1x14x128
  broadcasts_S14x1x128_S14x14x128 : S14x1x128.Broadcasts S14x14x128
  broadcasts_S1x14x128_S14x14x128 : S1x14x128.Broadcasts S14x14x128
  reduces_S14x14x128_S14x128 : S14x14x128.Reduces [0] S14x128
  reduces_S14x128_S128 : S14x128.Reduces [0] S128
  slices_S98x128_o68_0_S8x128 : S98x128.Slices ![68, 0] S8x128
  slices_S98x128_o76_0_S12x128 : S98x128.Slices ![76, 0] S12x128
  slices_S12x128_o0_0_S11x128 : S12x128.Slices ![0, 0] S11x128
  slices_S12x128_o1_0_S11x128 : S12x128.Slices ![1, 0] S11x128
  concatenates_S11x128_S11x128_S22x128_d0 : Shape.Concatenates [S11x128, S11x128] S22x128 0
  shapeCasts_S22x128_S22x1x128 : S22x128.ShapeCasts S22x1x128
  shapeCasts_S22x128_S1x22x128 : S22x128.ShapeCasts S1x22x128
  broadcasts_S22x1x128_S22x22x128 : S22x1x128.Broadcasts S22x22x128
  broadcasts_S1x22x128_S22x22x128 : S1x22x128.Broadcasts S22x22x128
  reduces_S22x22x128_S22x128 : S22x22x128.Reduces [0] S22x128
  reduces_S22x128_S128 : S22x128.Reduces [0] S128
  slices_S98x128_o88_0_S10x128 : S98x128.Slices ![88, 0] S10x128
  slices_S10x128_o0_0_S9x128 : S10x128.Slices ![0, 0] S9x128
  slices_S10x128_o1_0_S9x128 : S10x128.Slices ![1, 0] S9x128
  concatenates_S9x128_S9x128_S18x128_d0 : Shape.Concatenates [S9x128, S9x128] S18x128 0
  shapeCasts_S18x128_S18x1x128 : S18x128.ShapeCasts S18x1x128
  shapeCasts_S18x128_S1x18x128 : S18x128.ShapeCasts S1x18x128
  broadcasts_S18x1x128_S18x18x128 : S18x1x128.Broadcasts S18x18x128
  broadcasts_S1x18x128_S18x18x128 : S1x18x128.Broadcasts S18x18x128
  reduces_S18x18x128_S18x128 : S18x18x128.Reduces [0] S18x128
  reduces_S18x128_S128 : S18x128.Reduces [0] S128
  shapeCasts_S1x128_S1x1x128 : S1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S128x8x128_S_d0_1_2 : S128x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S98x128.size a ≤ S98x16384.size a
  hwx0_0 : ∀ i : grid0.Coords, EltTy.bits .f32 = 32 ∨ (Rect.block (s := S98x16384) S98x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S98x128.size a ≤ S98x16384.size a
  hwx0_1 : ∀ i : grid0.Coords, EltTy.bits .f32 = 32 ∨ (Rect.block (s := S98x16384) S98x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S98x128.size a ≤ S98x16384.size a
  hwx0_2 : ∀ i : grid0.Coords, EltTy.bits .f32 = 32 ∨ (Rect.block (s := S98x16384) S98x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S98x128.size a ≤ S98x16384.size a
  hwx0_3 : ∀ i : grid0.Coords, EltTy.bits .f32 = 32 ∨ (Rect.block (s := S98x16384) S98x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S128x8x128.size a
  hwx0_4 : ∀ i : grid0.Coords, EltTy.bits .f32 = 32 ∨ (Rect.block (s := S128x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S128x8x128.size a
  hwx0_5 : ∀ i : grid0.Coords, EltTy.bits .f32 = 32 ∨ (Rect.block (s := S128x8x128) S1x8x128.size (cc0_transform_5 i) (hinb0_5 i)).WholeWords (EltTy.packing .f32)

variable [Facts₀]

abbrev win0_0 : Pipeline.Window sig grid0 :=
  Pipeline.Window.ofSpec (Memref.whole main_v3) S98x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S98x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S98x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S98x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x196 : Shape := ⟨2, ![16384, 196]⟩
abbrev S16384x98x2 : Shape := ⟨3, ![16384, 98, 2]⟩
abbrev S_ : Shape := ⟨0, ![]⟩
abbrev S16384x98 : Shape := ⟨2, ![16384, 98]⟩
abbrev S16384 : Shape := ⟨1, ![16384]⟩
abbrev S16384x1x2 : Shape := ⟨3, ![16384, 1, 2]⟩
abbrev S16384x2 : Shape := ⟨2, ![16384, 2]⟩
abbrev S16384x33x2 : Shape := ⟨3, ![16384, 33, 2]⟩
abbrev S16384x32x2 : Shape := ⟨3, ![16384, 32, 2]⟩
abbrev S16384x64x2 : Shape := ⟨3, ![16384, 64, 2]⟩
abbrev S16384x64x1x2 : Shape := ⟨4, ![16384, 64, 1, 2]⟩
abbrev S16384x1x64x2 : Shape := ⟨4, ![16384, 1, 64, 2]⟩
abbrev S16384x64x64x2 : Shape := ⟨4, ![16384, 64, 64, 2]⟩
abbrev S16384x64x64 : Shape := ⟨3, ![16384, 64, 64]⟩
abbrev S16384x9x2 : Shape := ⟨3, ![16384, 9, 2]⟩
abbrev S16384x8x2 : Shape := ⟨3, ![16384, 8, 2]⟩
abbrev S16384x16x2 : Shape := ⟨3, ![16384, 16, 2]⟩
abbrev S16384x16x1x2 : Shape := ⟨4, ![16384, 16, 1, 2]⟩
abbrev S16384x1x16x2 : Shape := ⟨4, ![16384, 1, 16, 2]⟩
abbrev S16384x16x16x2 : Shape := ⟨4, ![16384, 16, 16, 2]⟩
abbrev S16384x16x16 : Shape := ⟨3, ![16384, 16, 16]⟩
abbrev S16384x7x2 : Shape := ⟨3, ![16384, 7, 2]⟩
abbrev S16384x14x2 : Shape := ⟨3, ![16384, 14, 2]⟩
abbrev S16384x14x1x2 : Shape := ⟨4, ![16384, 14, 1, 2]⟩
abbrev S16384x1x14x2 : Shape := ⟨4, ![16384, 1, 14, 2]⟩
abbrev S16384x14x14x2 : Shape := ⟨4, ![16384, 14, 14, 2]⟩
abbrev S16384x14x14 : Shape := ⟨3, ![16384, 14, 14]⟩
abbrev S16384x12x2 : Shape := ⟨3, ![16384, 12, 2]⟩
abbrev S16384x11x2 : Shape := ⟨3, ![16384, 11, 2]⟩
abbrev S16384x22x2 : Shape := ⟨3, ![16384, 22, 2]⟩
abbrev S16384x22x1x2 : Shape := ⟨4, ![16384, 22, 1, 2]⟩
abbrev S16384x1x22x2 : Shape := ⟨4, ![16384, 1, 22, 2]⟩
abbrev S16384x22x22x2 : Shape := ⟨4, ![16384, 22, 22, 2]⟩
abbrev S16384x22x22 : Shape := ⟨3, ![16384, 22, 22]⟩
abbrev S16384x10x2 : Shape := ⟨3, ![16384, 10, 2]⟩
abbrev S16384x18x2 : Shape := ⟨3, ![16384, 18, 2]⟩
abbrev S16384x18x1x2 : Shape := ⟨4, ![16384, 18, 1, 2]⟩
abbrev S16384x1x18x2 : Shape := ⟨4, ![16384, 1, 18, 2]⟩
abbrev S16384x18x18x2 : Shape := ⟨4, ![16384, 18, 18, 2]⟩
abbrev S16384x18x18 : Shape := ⟨3, ![16384, 18, 18]⟩

abbrev nBuf : Space → Nat
  | .hbm => 371
  | .vmem => 0
  | .smem => 0
  | _ => 0

abbrev hbmTy0_0 (i : Nat) : BufTy := match i % 128 with
  | 0 => ⟨S16384x196, .f32⟩
  | 1 => ⟨S16384x196, .f32⟩
  | 2 => ⟨S16384x98x2, .f32⟩
  | 3 => ⟨S16384x98x2, .f32⟩
  | 4 => ⟨S16384x98x2, .f32⟩
  | 5 => ⟨S16384x98x2, .f32⟩
  | 6 => ⟨S_, .f32⟩
  | 7 => ⟨S16384x98, .f32⟩
  | 8 => ⟨S16384x98, .f32⟩
  | 9 => ⟨S_, .f32⟩
  | 10 => ⟨S16384, .f32⟩
  | 11 => ⟨S_, .f32⟩
  | 12 => ⟨S16384, .f32⟩
  | 13 => ⟨S16384, .f32⟩
  | 14 => ⟨S16384x1x2, .f32⟩
  | 15 => ⟨S16384x2, .f32⟩
  | 16 => ⟨S16384x1x2, .f32⟩
  | 17 => ⟨S16384x2, .f32⟩
  | 18 => ⟨S16384x2, .f32⟩
  | 19 => ⟨S16384x2, .f32⟩
  | 20 => ⟨S_, .f32⟩
  | 21 => ⟨S16384, .f32⟩
  | 22 => ⟨S16384, .f32⟩
  | 23 => ⟨S16384, .f32⟩
  | 24 => ⟨S_, .f32⟩
  | 25 => ⟨S_, .f32⟩
  | 26 => ⟨S_, .f32⟩
  | 27 => ⟨S_, .f32⟩
  | 28 => ⟨S_, .f32⟩
  | 29 => ⟨S16384, .f32⟩
  | 30 => ⟨S16384x33x2, .f32⟩
  | 31 => ⟨S16384x33x2, .f32⟩
  | 32 => ⟨S16384x32x2, .f32⟩
  | 33 => ⟨S16384x32x2, .f32⟩
  | 34 => ⟨S16384x32x2, .f32⟩
  | 35 => ⟨S_, .f32⟩
  | 36 => ⟨S16384x32x2, .f32⟩
  | 37 => ⟨S16384x32x2, .f32⟩
  | 38 => ⟨S16384x32x2, .f32⟩
  | 39 => ⟨S16384x32x2, .f32⟩
  | 40 => ⟨S16384x32x2, .f32⟩
  | 41 => ⟨S16384x32x2, .f32⟩
  | 42 => ⟨S16384x32x2, .f32⟩
  | 43 => ⟨S16384x32x2, .f32⟩
  | 44 => ⟨S_, .f32⟩
  | 45 => ⟨S16384x32x2, .f32⟩
  | 46 => ⟨S16384x32x2, .f32⟩
  | 47 => ⟨S16384x32x2, .f32⟩
  | 48 => ⟨S16384x32x2, .f32⟩
  | 49 => ⟨S16384x32x2, .f32⟩
  | 50 => ⟨S16384x64x2, .f32⟩
  | 51 => ⟨S16384x32x2, .f32⟩
  | 52 => ⟨S16384x64x2, .f32⟩
  | 53 => ⟨S16384x64x1x2, .f32⟩
  | 54 => ⟨S16384x1x64x2, .f32⟩
  | 55 => ⟨S16384x64x64x2, .f32⟩
  | 56 => ⟨S16384x64x64x2, .f32⟩
  | 57 => ⟨S16384x64x64x2, .f32⟩
  | 58 => ⟨S16384x64x64x2, .f32⟩
  | 59 => ⟨S_, .f32⟩
  | 60 => ⟨S16384x64x64, .f32⟩
  | 61 => ⟨S16384x64x64, .f32⟩
  | 62 => ⟨S_, .f32⟩
  | 63 => ⟨S16384x64x64, .f32⟩
  | 64 => ⟨S16384x64x64, .f32⟩
  | 65 => ⟨S16384x64x64, .f32⟩
  | 66 => ⟨S16384x64x64, .f32⟩
  | 67 => ⟨S16384x64x64, .f32⟩
  | 68 => ⟨S_, .f32⟩
  | 69 => ⟨S16384, .f32⟩
  | 70 => ⟨S16384, .f32⟩
  | 71 => ⟨S16384x9x2, .f32⟩
  | 72 => ⟨S16384x9x2, .f32⟩
  | 73 => ⟨S16384x8x2, .f32⟩
  | 74 => ⟨S16384x8x2, .f32⟩
  | 75 => ⟨S16384x8x2, .f32⟩
  | 76 => ⟨S_, .f32⟩
  | 77 => ⟨S16384x8x2, .f32⟩
  | 78 => ⟨S16384x8x2, .f32⟩
  | 79 => ⟨S16384x8x2, .f32⟩
  | 80 => ⟨S16384x8x2, .f32⟩
  | 81 => ⟨S16384x8x2, .f32⟩
  | 82 => ⟨S16384x8x2, .f32⟩
  | 83 => ⟨S16384x8x2, .f32⟩
  | 84 => ⟨S16384x8x2, .f32⟩
  | 85 => ⟨S_, .f32⟩
  | 86 => ⟨S16384x8x2, .f32⟩
  | 87 => ⟨S16384x8x2, .f32⟩
  | 88 => ⟨S16384x8x2, .f32⟩
  | 89 => ⟨S16384x8x2, .f32⟩
  | 90 => ⟨S16384x8x2, .f32⟩
  | 91 => ⟨S16384x16x2, .f32⟩
  | 92 => ⟨S16384x8x2, .f32⟩
  | 93 => ⟨S16384x16x2, .f32⟩
  | 94 => ⟨S16384x16x1x2, .f32⟩
  | 95 => ⟨S16384x1x16x2, .f32⟩
  | 96 => ⟨S16384x16x16x2, .f32⟩
  | 97 => ⟨S16384x16x16x2, .f32⟩
  | 98 => ⟨S16384x16x16x2, .f32⟩
  | 99 => ⟨S16384x16x16x2, .f32⟩
  | 100 => ⟨S_, .f32⟩
  | 101 => ⟨S16384x16x16, .f32⟩
  | 102 => ⟨S16384x16x16, .f32⟩
  | 103 => ⟨S_, .f32⟩
  | 104 => ⟨S16384x16x16, .f32⟩
  | 105 => ⟨S16384x16x16, .f32⟩
  | 106 => ⟨S16384x16x16, .f32⟩
  | 107 => ⟨S16384x16x16, .f32⟩
  | 108 => ⟨S16384x16x16, .f32⟩
  | 109 => ⟨S_, .f32⟩
  | 110 => ⟨S16384, .f32⟩
  | 111 => ⟨S16384, .f32⟩
  | 112 => ⟨S16384x9x2, .f32⟩
  | 113 => ⟨S16384x9x2, .f32⟩
  | 114 => ⟨S16384x8x2, .f32⟩
  | 115 => ⟨S16384x8x2, .f32⟩
  | 116 => ⟨S16384x8x2, .f32⟩
  | 117 => ⟨S_, .f32⟩
  | 118 => ⟨S16384x8x2, .f32⟩
  | 119 => ⟨S16384x8x2, .f32⟩
  | 120 => ⟨S16384x8x2, .f32⟩
  | 121 => ⟨S16384x8x2, .f32⟩
  | 122 => ⟨S16384x8x2, .f32⟩
  | 123 => ⟨S16384x8x2, .f32⟩
  | 124 => ⟨S16384x8x2, .f32⟩
  | 125 => ⟨S16384x8x2, .f32⟩
  | 126 => ⟨S_, .f32⟩
  | 127 => ⟨S16384x8x2, .f32⟩
  | _ => ⟨S16384x196, .f32⟩

abbrev hbmTy0_1 (i : Nat) : BufTy := match i % 128 with
  | 0 => ⟨S16384x8x2, .f32⟩
  | 1 => ⟨S16384x8x2, .f32⟩
  | 2 => ⟨S16384x8x2, .f32⟩
  | 3 => ⟨S16384x8x2, .f32⟩
  | 4 => ⟨S16384x16x2, .f32⟩
  | 5 => ⟨S16384x8x2, .f32⟩
  | 6 => ⟨S16384x16x2, .f32⟩
  | 7 => ⟨S16384x16x1x2, .f32⟩
  | 8 => ⟨S16384x1x16x2, .f32⟩
  | 9 => ⟨S16384x16x16x2, .f32⟩
  | 10 => ⟨S16384x16x16x2, .f32⟩
  | 11 => ⟨S16384x16x16x2, .f32⟩
  | 12 => ⟨S16384x16x16x2, .f32⟩
  | 13 => ⟨S_, .f32⟩
  | 14 => ⟨S16384x16x16, .f32⟩
  | 15 => ⟨S16384x16x16, .f32⟩
  | 16 => ⟨S_, .f32⟩
  | 17 => ⟨S16384x16x16, .f32⟩
  | 18 => ⟨S16384x16x16, .f32⟩
  | 19 => ⟨S16384x16x16, .f32⟩
  | 20 => ⟨S16384x16x16, .f32⟩
  | 21 => ⟨S16384x16x16, .f32⟩
  | 22 => ⟨S_, .f32⟩
  | 23 => ⟨S16384, .f32⟩
  | 24 => ⟨S16384, .f32⟩
  | 25 => ⟨S16384x9x2, .f32⟩
  | 26 => ⟨S16384x9x2, .f32⟩
  | 27 => ⟨S16384x8x2, .f32⟩
  | 28 => ⟨S16384x8x2, .f32⟩
  | 29 => ⟨S16384x8x2, .f32⟩
  | 30 => ⟨S_, .f32⟩
  | 31 => ⟨S16384x8x2, .f32⟩
  | 32 => ⟨S16384x8x2, .f32⟩
  | 33 => ⟨S16384x8x2, .f32⟩
  | 34 => ⟨S16384x8x2, .f32⟩
  | 35 => ⟨S16384x8x2, .f32⟩
  | 36 => ⟨S16384x8x2, .f32⟩
  | 37 => ⟨S16384x8x2, .f32⟩
  | 38 => ⟨S16384x8x2, .f32⟩
  | 39 => ⟨S_, .f32⟩
  | 40 => ⟨S16384x8x2, .f32⟩
  | 41 => ⟨S16384x8x2, .f32⟩
  | 42 => ⟨S16384x8x2, .f32⟩
  | 43 => ⟨S16384x8x2, .f32⟩
  | 44 => ⟨S16384x8x2, .f32⟩
  | 45 => ⟨S16384x16x2, .f32⟩
  | 46 => ⟨S16384x8x2, .f32⟩
  | 47 => ⟨S16384x16x2, .f32⟩
  | 48 => ⟨S16384x16x1x2, .f32⟩
  | 49 => ⟨S16384x1x16x2, .f32⟩
  | 50 => ⟨S16384x16x16x2, .f32⟩
  | 51 => ⟨S16384x16x16x2, .f32⟩
  | 52 => ⟨S16384x16x16x2, .f32⟩
  | 53 => ⟨S16384x16x16x2, .f32⟩
  | 54 => ⟨S_, .f32⟩
  | 55 => ⟨S16384x16x16, .f32⟩
  | 56 => ⟨S16384x16x16, .f32⟩
  | 57 => ⟨S_, .f32⟩
  | 58 => ⟨S16384x16x16, .f32⟩
  | 59 => ⟨S16384x16x16, .f32⟩
  | 60 => ⟨S16384x16x16, .f32⟩
  | 61 => ⟨S16384x16x16, .f32⟩
  | 62 => ⟨S16384x16x16, .f32⟩
  | 63 => ⟨S_, .f32⟩
  | 64 => ⟨S16384, .f32⟩
  | 65 => ⟨S16384, .f32⟩
  | 66 => ⟨S16384x8x2, .f32⟩
  | 67 => ⟨S16384x8x2, .f32⟩
  | 68 => ⟨S16384x7x2, .f32⟩
  | 69 => ⟨S16384x7x2, .f32⟩
  | 70 => ⟨S16384x7x2, .f32⟩
  | 71 => ⟨S_, .f32⟩
  | 72 => ⟨S16384x7x2, .f32⟩
  | 73 => ⟨S16384x7x2, .f32⟩
  | 74 => ⟨S16384x7x2, .f32⟩
  | 75 => ⟨S16384x7x2, .f32⟩
  | 76 => ⟨S16384x7x2, .f32⟩
  | 77 => ⟨S16384x7x2, .f32⟩
  | 78 => ⟨S16384x7x2, .f32⟩
  | 79 => ⟨S16384x7x2, .f32⟩
  | 80 => ⟨S_, .f32⟩
  | 81 => ⟨S16384x7x2, .f32⟩
  | 82 => ⟨S16384x7x2, .f32⟩
  | 83 => ⟨S16384x7x2, .f32⟩
  | 84 => ⟨S16384x7x2, .f32⟩
  | 85 => ⟨S16384x7x2, .f32⟩
  | 86 => ⟨S16384x14x2, .f32⟩
  | 87 => ⟨S16384x7x2, .f32⟩
  | 88 => ⟨S16384x14x2, .f32⟩
  | 89 => ⟨S16384x14x1x2, .f32⟩
  | 90 => ⟨S16384x1x14x2, .f32⟩
  | 91 => ⟨S16384x14x14x2, .f32⟩
  | 92 => ⟨S16384x14x14x2, .f32⟩
  | 93 => ⟨S16384x14x14x2, .f32⟩
  | 94 => ⟨S16384x14x14x2, .f32⟩
  | 95 => ⟨S_, .f32⟩
  | 96 => ⟨S16384x14x14, .f32⟩
  | 97 => ⟨S16384x14x14, .f32⟩
  | 98 => ⟨S_, .f32⟩
  | 99 => ⟨S16384x14x14, .f32⟩
  | 100 => ⟨S16384x14x14, .f32⟩
  | 101 => ⟨S16384x14x14, .f32⟩
  | 102 => ⟨S16384x14x14, .f32⟩
  | 103 => ⟨S16384x14x14, .f32⟩
  | 104 => ⟨S_, .f32⟩
  | 105 => ⟨S16384, .f32⟩
  | 106 => ⟨S16384, .f32⟩
  | 107 => ⟨S16384x8x2, .f32⟩
  | 108 => ⟨S16384x8x2, .f32⟩
  | 109 => ⟨S16384x7x2, .f32⟩
  | 110 => ⟨S16384x7x2, .f32⟩
  | 111 => ⟨S16384x7x2, .f32⟩
  | 112 => ⟨S_, .f32⟩
  | 113 => ⟨S16384x7x2, .f32⟩
  | 114 => ⟨S16384x7x2, .f32⟩
  | 115 => ⟨S16384x7x2, .f32⟩
  | 116 => ⟨S16384x7x2, .f32⟩
  | 117 => ⟨S16384x7x2, .f32⟩
  | 118 => ⟨S16384x7x2, .f32⟩
  | 119 => ⟨S16384x7x2, .f32⟩
  | 120 => ⟨S16384x7x2, .f32⟩
  | 121 => ⟨S_, .f32⟩
  | 122 => ⟨S16384x7x2, .f32⟩
  | 123 => ⟨S16384x7x2, .f32⟩
  | 124 => ⟨S16384x7x2, .f32⟩
  | 125 => ⟨S16384x7x2, .f32⟩
  | 126 => ⟨S16384x7x2, .f32⟩
  | 127 => ⟨S16384x14x2, .f32⟩
  | _ => ⟨S16384x196, .f32⟩

abbrev hbmTy0_2 (i : Nat) : BufTy := match i % 128 with
  | 0 => ⟨S16384x7x2, .f32⟩
  | 1 => ⟨S16384x14x2, .f32⟩
  | 2 => ⟨S16384x14x1x2, .f32⟩
  | 3 => ⟨S16384x1x14x2, .f32⟩
  | 4 => ⟨S16384x14x14x2, .f32⟩
  | 5 => ⟨S16384x14x14x2, .f32⟩
  | 6 => ⟨S16384x14x14x2, .f32⟩
  | 7 => ⟨S16384x14x14x2, .f32⟩
  | 8 => ⟨S_, .f32⟩
  | 9 => ⟨S16384x14x14, .f32⟩
  | 10 => ⟨S16384x14x14, .f32⟩
  | 11 => ⟨S_, .f32⟩
  | 12 => ⟨S16384x14x14, .f32⟩
  | 13 => ⟨S16384x14x14, .f32⟩
  | 14 => ⟨S16384x14x14, .f32⟩
  | 15 => ⟨S16384x14x14, .f32⟩
  | 16 => ⟨S16384x14x14, .f32⟩
  | 17 => ⟨S_, .f32⟩
  | 18 => ⟨S16384, .f32⟩
  | 19 => ⟨S16384, .f32⟩
  | 20 => ⟨S16384x12x2, .f32⟩
  | 21 => ⟨S16384x12x2, .f32⟩
  | 22 => ⟨S16384x11x2, .f32⟩
  | 23 => ⟨S16384x11x2, .f32⟩
  | 24 => ⟨S16384x11x2, .f32⟩
  | 25 => ⟨S_, .f32⟩
  | 26 => ⟨S16384x11x2, .f32⟩
  | 27 => ⟨S16384x11x2, .f32⟩
  | 28 => ⟨S16384x11x2, .f32⟩
  | 29 => ⟨S16384x11x2, .f32⟩
  | 30 => ⟨S16384x11x2, .f32⟩
  | 31 => ⟨S16384x11x2, .f32⟩
  | 32 => ⟨S16384x11x2, .f32⟩
  | 33 => ⟨S16384x11x2, .f32⟩
  | 34 => ⟨S_, .f32⟩
  | 35 => ⟨S16384x11x2, .f32⟩
  | 36 => ⟨S16384x11x2, .f32⟩
  | 37 => ⟨S16384x11x2, .f32⟩
  | 38 => ⟨S16384x11x2, .f32⟩
  | 39 => ⟨S16384x11x2, .f32⟩
  | 40 => ⟨S16384x22x2, .f32⟩
  | 41 => ⟨S16384x11x2, .f32⟩
  | 42 => ⟨S16384x22x2, .f32⟩
  | 43 => ⟨S16384x22x1x2, .f32⟩
  | 44 => ⟨S16384x1x22x2, .f32⟩
  | 45 => ⟨S16384x22x22x2, .f32⟩
  | 46 => ⟨S16384x22x22x2, .f32⟩
  | 47 => ⟨S16384x22x22x2, .f32⟩
  | 48 => ⟨S16384x22x22x2, .f32⟩
  | 49 => ⟨S_, .f32⟩
  | 50 => ⟨S16384x22x22, .f32⟩
  | 51 => ⟨S16384x22x22, .f32⟩
  | 52 => ⟨S_, .f32⟩
  | 53 => ⟨S16384x22x22, .f32⟩
  | 54 => ⟨S16384x22x22, .f32⟩
  | 55 => ⟨S16384x22x22, .f32⟩
  | 56 => ⟨S16384x22x22, .f32⟩
  | 57 => ⟨S16384x22x22, .f32⟩
  | 58 => ⟨S_, .f32⟩
  | 59 => ⟨S16384, .f32⟩
  | 60 => ⟨S16384, .f32⟩
  | 61 => ⟨S16384x10x2, .f32⟩
  | 62 => ⟨S16384x10x2, .f32⟩
  | 63 => ⟨S16384x9x2, .f32⟩
  | 64 => ⟨S16384x9x2, .f32⟩
  | 65 => ⟨S16384x9x2, .f32⟩
  | 66 => ⟨S_, .f32⟩
  | 67 => ⟨S16384x9x2, .f32⟩
  | 68 => ⟨S16384x9x2, .f32⟩
  | 69 => ⟨S16384x9x2, .f32⟩
  | 70 => ⟨S16384x9x2, .f32⟩
  | 71 => ⟨S16384x9x2, .f32⟩
  | 72 => ⟨S16384x9x2, .f32⟩
  | 73 => ⟨S16384x9x2, .f32⟩
  | 74 => ⟨S16384x9x2, .f32⟩
  | 75 => ⟨S_, .f32⟩
  | 76 => ⟨S16384x9x2, .f32⟩
  | 77 => ⟨S16384x9x2, .f32⟩
  | 78 => ⟨S16384x9x2, .f32⟩
  | 79 => ⟨S16384x9x2, .f32⟩
  | 80 => ⟨S16384x9x2, .f32⟩
  | 81 => ⟨S16384x18x2, .f32⟩
  | 82 => ⟨S16384x9x2, .f32⟩
  | 83 => ⟨S16384x18x2, .f32⟩
  | 84 => ⟨S16384x18x1x2, .f32⟩
  | 85 => ⟨S16384x1x18x2, .f32⟩
  | 86 => ⟨S16384x18x18x2, .f32⟩
  | 87 => ⟨S16384x18x18x2, .f32⟩
  | 88 => ⟨S16384x18x18x2, .f32⟩
  | 89 => ⟨S16384x18x18x2, .f32⟩
  | 90 => ⟨S_, .f32⟩
  | 91 => ⟨S16384x18x18, .f32⟩
  | 92 => ⟨S16384x18x18, .f32⟩
  | 93 => ⟨S_, .f32⟩
  | 94 => ⟨S16384x18x18, .f32⟩
  | 95 => ⟨S16384x18x18, .f32⟩
  | 96 => ⟨S16384x18x18, .f32⟩
  | 97 => ⟨S16384x18x18, .f32⟩
  | 98 => ⟨S16384x18x18, .f32⟩
  | 99 => ⟨S_, .f32⟩
  | 100 => ⟨S16384, .f32⟩
  | 101 => ⟨S16384, .f32⟩
  | 102 => ⟨S_, .f32⟩
  | 103 => ⟨S16384, .f32⟩
  | 104 => ⟨S16384, .f32⟩
  | 105 => ⟨S16384, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | _ => ⟨S16384x196, .f32⟩

abbrev hbmTy (i : Nat) : BufTy := match i / 128 with
  | 0 => hbmTy0_0 i
  | 1 => hbmTy0_1 i
  | 2 => hbmTy0_2 i
  | _ => ⟨S16384x196, .f32⟩

abbrev bufTy : (tb : Table) → Fin (tcTables nBuf tb) → BufTy
  | .hbm, ⟨i, _⟩ => hbmTy i
  | _, _ => ⟨S16384x196, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_11 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_13 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_14 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_15 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_16 : Ref sig .tc := ⟨.hbm, 141, rfl⟩
abbrev main_v116 : Ref sig .tc := ⟨.hbm, 142, rfl⟩
abbrev main_v117 : Ref sig .tc := ⟨.hbm, 143, rfl⟩
abbrev main_cst_17 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_18 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_19 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_20 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_21 : Ref sig .tc := ⟨.hbm, 182, rfl⟩
abbrev main_v152 : Ref sig .tc := ⟨.hbm, 183, rfl⟩
abbrev main_v153 : Ref sig .tc := ⟨.hbm, 184, rfl⟩
abbrev main_cst_22 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_23 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_24 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_cst_25 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_cst_26 : Ref sig .tc := ⟨.hbm, 223, rfl⟩
abbrev main_v188 : Ref sig .tc := ⟨.hbm, 224, rfl⟩
abbrev main_v189 : Ref sig .tc := ⟨.hbm, 225, rfl⟩
abbrev main_cst_27 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_cst_28 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_29 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_cst_30 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_cst_31 : Ref sig .tc := ⟨.hbm, 264, rfl⟩
abbrev main_v224 : Ref sig .tc := ⟨.hbm, 265, rfl⟩
abbrev main_v225 : Ref sig .tc := ⟨.hbm, 266, rfl⟩
abbrev main_cst_32 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_cst_33 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_cst_34 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_cst_35 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_cst_36 : Ref sig .tc := ⟨.hbm, 305, rfl⟩
abbrev main_v260 : Ref sig .tc := ⟨.hbm, 306, rfl⟩
abbrev main_v261 : Ref sig .tc := ⟨.hbm, 307, rfl⟩
abbrev main_cst_37 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_cst_38 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_cst_39 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_cst_40 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_cst_41 : Ref sig .tc := ⟨.hbm, 346, rfl⟩
abbrev main_v296 : Ref sig .tc := ⟨.hbm, 347, rfl⟩
abbrev main_v297 : Ref sig .tc := ⟨.hbm, 348, rfl⟩
abbrev main_cst_42 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_cst_43 : Ref sig .tc := ⟨.hbm, 355, rfl⟩
abbrev main_v303 : Ref sig .tc := ⟨.hbm, 356, rfl⟩
abbrev main_v304 : Ref sig .tc := ⟨.hbm, 357, rfl⟩
abbrev main_cst_44 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_cst_45 : Ref sig .tc := ⟨.hbm, 362, rfl⟩
abbrev main_v308 : Ref sig .tc := ⟨.hbm, 363, rfl⟩
abbrev main_cst_46 : Ref sig .tc := ⟨.hbm, 364, rfl⟩
abbrev main_v309 : Ref sig .tc := ⟨.hbm, 365, rfl⟩
abbrev main_cst_47 : Ref sig .tc := ⟨.hbm, 366, rfl⟩
abbrev main_v310 : Ref sig .tc := ⟨.hbm, 367, rfl⟩
abbrev main_cst_48 : Ref sig .tc := ⟨.hbm, 368, rfl⟩
abbrev main_v311 : Ref sig .tc := ⟨.hbm, 369, rfl⟩
abbrev main_v312 : Ref sig .tc := ⟨.hbm, 370, rfl⟩

abbrev nD : Nat := 1
abbrev τ : Topo := Topo.v7x

variable {F : FTy → Type} [FloatOps F]

class Facts₀ : Prop where
  shapeCasts_S16384x196_S16384x98x2 : S16384x196.ShapeCasts S16384x98x2
  reducesTo_S16384x98x2_S16384x98_d2 : S16384x98x2.ReducesTo [2] S16384x98
  h_S_ : 0 < S_.numel
  reducesTo_S16384x98_S16384_d1 : S16384x98.ReducesTo [1] S16384
  bcast_S_S16384 : S_.BroadcastsInDim S16384 (![] : Fin 0 → Fin S16384.rank)
  slices_S16384x98x2_S16384x1x2_0_60_0 : S16384x98x2.Slices ![0, 60, 0] S16384x1x2
  shapeCasts_S16384x1x2_S16384x2 : S16384x1x2.ShapeCasts S16384x2
  slices_S16384x98x2_S16384x1x2_0_72_0 : S16384x98x2.Slices ![0, 72, 0] S16384x1x2
  reducesTo_S16384x2_S16384_d1 : S16384x2.ReducesTo [1] S16384
  reducesTo_S16384_S_d0 : S16384.ReducesTo [0] S_
  slices_S16384x98x2_S16384x33x2_0_0_0 : S16384x98x2.Slices ![0, 0, 0] S16384x33x2
  slices_S16384x33x2_S16384x32x2_0_0_0 : S16384x33x2.Slices ![0, 0, 0] S16384x32x2
  slices_S16384x33x2_S16384x32x2_0_1_0 : S16384x33x2.Slices ![0, 1, 0] S16384x32x2
  bcast_S_S16384x32x2 : S_.BroadcastsInDim S16384x32x2 (![] : Fin 0 → Fin S16384x32x2.rank)
  concatenates_S16384x32x2_S16384x32x2_S16384x64x2_d1 : Shape.Concatenates [S16384x32x2, S16384x32x2] S16384x64x2 1
  bcast_S16384x64x2_S16384x64x1x2_0_1_3 : S16384x64x2.BroadcastsInDim S16384x64x1x2 (![0, 1, 3] : Fin 3 → Fin S16384x64x1x2.rank)
  bcast_S16384x64x2_S16384x1x64x2_0_2_3 : S16384x64x2.BroadcastsInDim S16384x1x64x2 (![0, 2, 3] : Fin 3 → Fin S16384x1x64x2.rank)
  bcast_S16384x64x1x2_S16384x64x64x2_0_1_2_3 : S16384x64x1x2.BroadcastsInDim S16384x64x64x2 (![0, 1, 2, 3] : Fin 4 → Fin S16384x64x64x2.rank)
  bcast_S16384x1x64x2_S16384x64x64x2_0_1_2_3 : S16384x1x64x2.BroadcastsInDim S16384x64x64x2 (![0, 1, 2, 3] : Fin 4 → Fin S16384x64x64x2.rank)
  reducesTo_S16384x64x64x2_S16384x64x64_d3 : S16384x64x64x2.ReducesTo [3] S16384x64x64
  bcast_S_S16384x64x64 : S_.BroadcastsInDim S16384x64x64 (![] : Fin 0 → Fin S16384x64x64.rank)
  reducesTo_S16384x64x64_S16384_d1_2 : S16384x64x64.ReducesTo [1, 2] S16384
  slices_S16384x98x2_S16384x9x2_0_33_0 : S16384x98x2.Slices ![0, 33, 0] S16384x9x2
  slices_S16384x9x2_S16384x8x2_0_0_0 : S16384x9x2.Slices ![0, 0, 0] S16384x8x2
  slices_S16384x9x2_S16384x8x2_0_1_0 : S16384x9x2.Slices ![0, 1, 0] S16384x8x2
  bcast_S_S16384x8x2 : S_.BroadcastsInDim S16384x8x2 (![] : Fin 0 → Fin S16384x8x2.rank)
  concatenates_S16384x8x2_S16384x8x2_S16384x16x2_d1 : Shape.Concatenates [S16384x8x2, S16384x8x2] S16384x16x2 1
  bcast_S16384x16x2_S16384x16x1x2_0_1_3 : S16384x16x2.BroadcastsInDim S16384x16x1x2 (![0, 1, 3] : Fin 3 → Fin S16384x16x1x2.rank)
  bcast_S16384x16x2_S16384x1x16x2_0_2_3 : S16384x16x2.BroadcastsInDim S16384x1x16x2 (![0, 2, 3] : Fin 3 → Fin S16384x1x16x2.rank)
  bcast_S16384x16x1x2_S16384x16x16x2_0_1_2_3 : S16384x16x1x2.BroadcastsInDim S16384x16x16x2 (![0, 1, 2, 3] : Fin 4 → Fin S16384x16x16x2.rank)
  bcast_S16384x1x16x2_S16384x16x16x2_0_1_2_3 : S16384x1x16x2.BroadcastsInDim S16384x16x16x2 (![0, 1, 2, 3] : Fin 4 → Fin S16384x16x16x2.rank)
  reducesTo_S16384x16x16x2_S16384x16x16_d3 : S16384x16x16x2.ReducesTo [3] S16384x16x16
  bcast_S_S16384x16x16 : S_.BroadcastsInDim S16384x16x16 (![] : Fin 0 → Fin S16384x16x16.rank)
  reducesTo_S16384x16x16_S16384_d1_2 : S16384x16x16.ReducesTo [1, 2] S16384
  slices_S16384x98x2_S16384x9x2_0_42_0 : S16384x98x2.Slices ![0, 42, 0] S16384x9x2
  slices_S16384x98x2_S16384x9x2_0_51_0 : S16384x98x2.Slices ![0, 51, 0] S16384x9x2
  slices_S16384x98x2_S16384x8x2_0_60_0 : S16384x98x2.Slices ![0, 60, 0] S16384x8x2
  slices_S16384x8x2_S16384x7x2_0_0_0 : S16384x8x2.Slices ![0, 0, 0] S16384x7x2
  slices_S16384x8x2_S16384x7x2_0_1_0 : S16384x8x2.Slices ![0, 1, 0] S16384x7x2
  bcast_S_S16384x7x2 : S_.BroadcastsInDim S16384x7x2 (![] : Fin 0 → Fin S16384x7x2.rank)
  concatenates_S16384x7x2_S16384x7x2_S16384x14x2_d1 : Shape.Concatenates [S16384x7x2, S16384x7x2] S16384x14x2 1
  bcast_S16384x14x2_S16384x14x1x2_0_1_3 : S16384x14x2.BroadcastsInDim S16384x14x1x2 (![0, 1, 3] : Fin 3 → Fin S16384x14x1x2.rank)
  bcast_S16384x14x2_S16384x1x14x2_0_2_3 : S16384x14x2.BroadcastsInDim S16384x1x14x2 (![0, 2, 3] : Fin 3 → Fin S16384x1x14x2.rank)
  bcast_S16384x14x1x2_S16384x14x14x2_0_1_2_3 : S16384x14x1x2.BroadcastsInDim S16384x14x14x2 (![0, 1, 2, 3] : Fin 4 → Fin S16384x14x14x2.rank)
  bcast_S16384x1x14x2_S16384x14x14x2_0_1_2_3 : S16384x1x14x2.BroadcastsInDim S16384x14x14x2 (![0, 1, 2, 3] : Fin 4 → Fin S16384x14x14x2.rank)
  reducesTo_S16384x14x14x2_S16384x14x14_d3 : S16384x14x14x2.ReducesTo [3] S16384x14x14
  bcast_S_S16384x14x14 : S_.BroadcastsInDim S16384x14x14 (![] : Fin 0 → Fin S16384x14x14.rank)
  reducesTo_S16384x14x14_S16384_d1_2 : S16384x14x14.ReducesTo [1, 2] S16384
  slices_S16384x98x2_S16384x8x2_0_68_0 : S16384x98x2.Slices ![0, 68, 0] S16384x8x2
  slices_S16384x98x2_S16384x12x2_0_76_0 : S16384x98x2.Slices ![0, 76, 0] S16384x12x2
  slices_S16384x12x2_S16384x11x2_0_0_0 : S16384x12x2.Slices ![0, 0, 0] S16384x11x2
  slices_S16384x12x2_S16384x11x2_0_1_0 : S16384x12x2.Slices ![0, 1, 0] S16384x11x2
  bcast_S_S16384x11x2 : S_.BroadcastsInDim S16384x11x2 (![] : Fin 0 → Fin S16384x11x2.rank)
  concatenates_S16384x11x2_S16384x11x2_S16384x22x2_d1 : Shape.Concatenates [S16384x11x2, S16384x11x2] S16384x22x2 1
  bcast_S16384x22x2_S16384x22x1x2_0_1_3 : S16384x22x2.BroadcastsInDim S16384x22x1x2 (![0, 1, 3] : Fin 3 → Fin S16384x22x1x2.rank)
  bcast_S16384x22x2_S16384x1x22x2_0_2_3 : S16384x22x2.BroadcastsInDim S16384x1x22x2 (![0, 2, 3] : Fin 3 → Fin S16384x1x22x2.rank)
  bcast_S16384x22x1x2_S16384x22x22x2_0_1_2_3 : S16384x22x1x2.BroadcastsInDim S16384x22x22x2 (![0, 1, 2, 3] : Fin 4 → Fin S16384x22x22x2.rank)
  bcast_S16384x1x22x2_S16384x22x22x2_0_1_2_3 : S16384x1x22x2.BroadcastsInDim S16384x22x22x2 (![0, 1, 2, 3] : Fin 4 → Fin S16384x22x22x2.rank)
  reducesTo_S16384x22x22x2_S16384x22x22_d3 : S16384x22x22x2.ReducesTo [3] S16384x22x22
  bcast_S_S16384x22x22 : S_.BroadcastsInDim S16384x22x22 (![] : Fin 0 → Fin S16384x22x22.rank)
  reducesTo_S16384x22x22_S16384_d1_2 : S16384x22x22.ReducesTo [1, 2] S16384
  slices_S16384x98x2_S16384x10x2_0_88_0 : S16384x98x2.Slices ![0, 88, 0] S16384x10x2
  slices_S16384x10x2_S16384x9x2_0_0_0 : S16384x10x2.Slices ![0, 0, 0] S16384x9x2
  slices_S16384x10x2_S16384x9x2_0_1_0 : S16384x10x2.Slices ![0, 1, 0] S16384x9x2
  bcast_S_S16384x9x2 : S_.BroadcastsInDim S16384x9x2 (![] : Fin 0 → Fin S16384x9x2.rank)
  concatenates_S16384x9x2_S16384x9x2_S16384x18x2_d1 : Shape.Concatenates [S16384x9x2, S16384x9x2] S16384x18x2 1
  bcast_S16384x18x2_S16384x18x1x2_0_1_3 : S16384x18x2.BroadcastsInDim S16384x18x1x2 (![0, 1, 3] : Fin 3 → Fin S16384x18x1x2.rank)
  bcast_S16384x18x2_S16384x1x18x2_0_2_3 : S16384x18x2.BroadcastsInDim S16384x1x18x2 (![0, 2, 3] : Fin 3 → Fin S16384x1x18x2.rank)
  bcast_S16384x18x1x2_S16384x18x18x2_0_1_2_3 : S16384x18x1x2.BroadcastsInDim S16384x18x18x2 (![0, 1, 2, 3] : Fin 4 → Fin S16384x18x18x2.rank)
  bcast_S16384x1x18x2_S16384x18x18x2_0_1_2_3 : S16384x1x18x2.BroadcastsInDim S16384x18x18x2 (![0, 1, 2, 3] : Fin 4 → Fin S16384x18x18x2.rank)
  reducesTo_S16384x18x18x2_S16384x18x18_d3 : S16384x18x18x2.ReducesTo [3] S16384x18x18
  bcast_S_S16384x18x18 : S_.BroadcastsInDim S16384x18x18 (![] : Fin 0 → Fin S16384x18x18.rank)
  reducesTo_S16384x18x18_S16384_d1_2 : S16384x18x18.ReducesTo [1, 2] S16384
  dot_S16384x64x2_S16384x64x2_S16384x64x64_2_2_1_1_0_0_wf : DotDims.WF S16384x64x2 S16384x64x2 S16384x64x64 [2] [2] [1] [1] [0] [0]
  dot_S16384x16x2_S16384x16x2_S16384x16x16_2_2_1_1_0_0_wf : DotDims.WF S16384x16x2 S16384x16x2 S16384x16x16 [2] [2] [1] [1] [0] [0]
  dot_S16384x14x2_S16384x14x2_S16384x14x14_2_2_1_1_0_0_wf : DotDims.WF S16384x14x2 S16384x14x2 S16384x14x14 [2] [2] [1] [1] [0] [0]
  dot_S16384x22x2_S16384x22x2_S16384x22x22_2_2_1_1_0_0_wf : DotDims.WF S16384x22x2 S16384x22x2 S16384x22x22 [2] [2] [1] [1] [0] [0]
  dot_S16384x18x2_S16384x18x2_S16384x18x18_2_2_1_1_0_0_wf : DotDims.WF S16384x18x2 S16384x18x2 S16384x18x18 [2] [2] [1] [1] [0] [0]

variable [Facts₀]

def dot_S16384x64x2_S16384x64x2_S16384x64x64_2_2_1_1_0_0 : DotDims S16384x64x2 S16384x64x2 S16384x64x64 where
  lhsContracting := [2]
  rhsContracting := [2]
  lhsNonContracting := [1]
  rhsNonContracting := [1]
  lhsBatch := [0]
  rhsBatch := [0]
  wf := dot_S16384x64x2_S16384x64x2_S16384x64x64_2_2_1_1_0_0_wf
def dot_S16384x16x2_S16384x16x2_S16384x16x16_2_2_1_1_0_0 : DotDims S16384x16x2 S16384x16x2 S16384x16x16 where
  lhsContracting := [2]
  rhsContracting := [2]
  lhsNonContracting := [1]
  rhsNonContracting := [1]
  lhsBatch := [0]
  rhsBatch := [0]
  wf := dot_S16384x16x2_S16384x16x2_S16384x16x16_2_2_1_1_0_0_wf
def dot_S16384x14x2_S16384x14x2_S16384x14x14_2_2_1_1_0_0 : DotDims S16384x14x2 S16384x14x2 S16384x14x14 where
  lhsContracting := [2]
  rhsContracting := [2]
  lhsNonContracting := [1]
  rhsNonContracting := [1]
  lhsBatch := [0]
  rhsBatch := [0]
  wf := dot_S16384x14x2_S16384x14x2_S16384x14x14_2_2_1_1_0_0_wf
def dot_S16384x22x2_S16384x22x2_S16384x22x22_2_2_1_1_0_0 : DotDims S16384x22x2 S16384x22x2 S16384x22x22 where
  lhsContracting := [2]
  rhsContracting := [2]
  lhsNonContracting := [1]
  rhsNonContracting := [1]
  lhsBatch := [0]
  rhsBatch := [0]
  wf := dot_S16384x22x2_S16384x22x2_S16384x22x22_2_2_1_1_0_0_wf
def dot_S16384x18x2_S16384x18x2_S16384x18x18_2_2_1_1_0_0 : DotDims S16384x18x2 S16384x18x2 S16384x18x18 where
  lhsContracting := [2]
  rhsContracting := [2]
  lhsNonContracting := [1]
  rhsNonContracting := [1]
  lhsBatch := [0]
  rhsBatch := [0]
  wf := dot_S16384x18x2_S16384x18x2_S16384x18x18_2_2_1_1_0_0_wf

class Facts : Prop extends Facts₀ where

variable [Facts]
-- ==== Proof.Forms.lean ====
/-
  Arrays written as functions of their coordinates read as natural numbers.

  An array of shape [a, b] whose entry at (i, l) is `f i l` for a function `f : ℕ → ℕ → α` is written `N2 a b f`
  (likewise `N1`, `N3`, `N4` at ranks one, three and four).  In this form every re-indexing operation is a
  substitution in `f`: a slice from row `o` is `fun i l => f (o + i) l`, a concatenation along the rows is a case
  split on `i < n₁`, a unit axis added by a shape cast or filled by a broadcast is an ignored or a zero argument,
  and a sum along the leading axis is a sum over `Finset.range`.  The lemmas below say so for each operation, at
  any extents, so that a long composition of such operations is read off by rewriting from the inside out.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Forms

open Idealize.ShloMosaic Idealize.ShloMosaic.ValueIdx

variable {α : Type}

/-- The rank-one array with entry `f i` at `i`. -/
def N1 (a : ℕ) (f : ℕ → α) : (⟨1, ![a]⟩ : Shape).Idx → α := fun j => f (j 0).val
/-- The rank-two array with entry `f i l` at `(i, l)`. -/
def N2 (a b : ℕ) (f : ℕ → ℕ → α) : (⟨2, ![a, b]⟩ : Shape).Idx → α := fun j => f (j 0).val (j 1).val
/-- The rank-three array with entry `f i j l` at `(i, j, l)`. -/
def N3 (a b c : ℕ) (f : ℕ → ℕ → ℕ → α) : (⟨3, ![a, b, c]⟩ : Shape).Idx → α :=
  fun j => f (j 0).val (j 1).val (j 2).val
/-- The rank-four array with entry `f i j k l` at `(i, j, k, l)`. -/
def N4 (a b c d : ℕ) (f : ℕ → ℕ → ℕ → ℕ → α) : (⟨4, ![a, b, c, d]⟩ : Shape).Idx → α :=
  fun j => f (j 0).val (j 1).val (j 2).val (j 3).val

theorem N1_apply (a : ℕ) (f : ℕ → α) (i : Fin a) : N1 a f (ix1 i) = f i.val := rfl
theorem N2_apply (a b : ℕ) (f : ℕ → ℕ → α) (i : Fin a) (l : Fin b) : N2 a b f (ix2 i l) = f i.val l.val := rfl
theorem N3_apply (a b c : ℕ) (f : ℕ → ℕ → ℕ → α) (i : Fin a) (j : Fin b) (l : Fin c) :
    N3 a b c f (ix3 i j l) = f i.val j.val l.val := rfl

/-- Every rank-two array is of this form: read it at the coordinates where they are in range. -/
def rd2 {a b : ℕ} (x : (⟨2, ![a, b]⟩ : Shape).Idx → α) (z : α) (i l : ℕ) : α :=
  if h : i < a ∧ l < b then x (ix2 ⟨i, h.1⟩ ⟨l, h.2⟩) else z

theorem N2_rd2 {a b : ℕ} (x : (⟨2, ![a, b]⟩ : Shape).Idx → α) (z : α) : N2 a b (rd2 x z) = x := by
  funext j
  have h0 : (j 0).val < a := (j 0).isLt
  have h1 : (j 1).val < b := (j 1).isLt
  show rd2 x z (j 0).val (j 1).val = x j
  unfold rd2
  rw [dif_pos ⟨h0, h1⟩]
  exact congrArg x (eq_ix2 j).symm

/-! ## Slices along the rows -/

theorem slice2_rows {n0 n1 m : ℕ} (o : ℕ) (f : ℕ → ℕ → α)
    (h : (⟨2, ![n0, n1]⟩ : Shape).Slices ![o, 0] ⟨2, ![m, n1]⟩) :
    extractStridedSlice ⟨2, ![m, n1]⟩ ![o, 0] (N2 n0 n1 f) h = N2 m n1 (fun i l => f (o + i) l) := by
  funext j
  show f (o + (j 0).val) (0 + (j 1).val) = f (o + (j 0).val) (j 1).val
  rw [Nat.zero_add]

/-! ## A concatenation along the rows -/

theorem concat2_rows {n1 n2 n w : ℕ} (f g : ℕ → ℕ → α)
    (h : Shape.Concatenates [(⟨2, ![n1, w]⟩ : Shape), ⟨2, ![n2, w]⟩] ⟨2, ![n, w]⟩ 0) :
    concatenate ⟨2, ![n, w]⟩ 0 [⟨⟨2, ![n1, w]⟩, N2 n1 w f⟩, ⟨⟨2, ![n2, w]⟩, N2 n2 w g⟩] h
      = N2 n w (fun i l => if i < n1 then f i l else g (i - n1) l) := by
  funext j
  have hj0 : (j 0).val < n := (j 0).isLt
  have hj1 : (j 1).val < w := (j 1).isLt
  have hn : n1 + n2 = n := by
    have e := h.2.2
    simpa using e
  show _ = if (j 0).val < n1 then f (j 0).val (j 1).val else g ((j 0).val - n1) (j 1).val
  by_cases hlt : (j 0).val < n1
  · rw [if_pos hlt]
    exact concatenate_pair_apply_left 0 _ _ h j rfl (ix2 ⟨(j 0).val, hlt⟩ ⟨(j 1).val, hj1⟩)
      (fun b => by match b with | ⟨0, _⟩ => rfl | ⟨1, _⟩ => rfl)
  · rw [if_neg hlt]
    have h2 : (j 0).val - n1 < n2 := by omega
    exact concatenate_pair_apply_right 0 _ _ h j rfl rfl (ix2 ⟨(j 0).val - n1, h2⟩ ⟨(j 1).val, hj1⟩)
      (fun b hb => by
        match b with
        | ⟨0, _⟩ => exact absurd rfl hb
        | ⟨1, _⟩ => rfl)
      (by show (j 0).val - n1 + n1 = (j 0).val; omega)

/-! ## Unit axes added by a shape cast -/

theorem cast_a_1a {a : ℕ} (f : ℕ → α) (h : (⟨1, ![a]⟩ : Shape).ShapeCasts ⟨2, ![1, a]⟩) :
    shapeCast ⟨2, ![1, a]⟩ (N1 a f) h = N2 1 a (fun _ l => f l) := by
  funext j
  rw [eq_ix2 j]
  exact shapeCast_a_1a_apply (N1 a f) h (j 0) (j 1)

theorem cast_ab_1ab {a b : ℕ} (f : ℕ → ℕ → α) (h : (⟨2, ![a, b]⟩ : Shape).ShapeCasts ⟨3, ![1, a, b]⟩) :
    shapeCast ⟨3, ![1, a, b]⟩ (N2 a b f) h = N3 1 a b (fun _ i l => f i l) := by
  funext j
  rw [eq_ix3 j]
  exact shapeCast_ab_1ab_apply (N2 a b f) h (j 0) (j 1) (j 2)

theorem cast_ab_a1b {a b : ℕ} (f : ℕ → ℕ → α) (h : (⟨2, ![a, b]⟩ : Shape).ShapeCasts ⟨3, ![a, 1, b]⟩) :
    shapeCast ⟨3, ![a, 1, b]⟩ (N2 a b f) h = N3 a 1 b (fun i _ l => f i l) := by
  funext j
  have hu : (j 1).val = 0 := by have h1 : (j 1).val < 1 := (j 1).isLt; omega
  refine (shapeCast_apply (N2 a b f) h j (ix2 (j 0) (j 2)) ?_).trans rfl
  rw [Shape.rowMajor_val_three, Shape.rowMajor_val_two]
  show (j 0).val * b + (j 2).val = ((j 0).val * 1 + (j 1).val) * b + (j 2).val
  rw [hu, Nat.mul_one, Nat.add_zero]

/-! ## Broadcasts along a unit axis -/

theorem bcast_a1c_abc {a b c : ℕ} (f : ℕ → ℕ → ℕ → α)
    (h : (⟨3, ![a, 1, c]⟩ : Shape).Broadcasts ⟨3, ![a, b, c]⟩) :
    broadcastTo ⟨3, ![a, b, c]⟩ (N3 a 1 c f) h = N3 a b c (fun i _ l => f i 0 l) := by
  funext j
  have h0 : (j 0).val < a := (j 0).isLt
  have h2 : (j 2).val < c := (j 2).isLt
  refine (broadcastTo_apply (N3 a 1 c f) h j (ix3 (j 0) (0 : Fin 1) (j 2)) fun ax => ?_).trans rfl
  match ax with
  | ⟨0, _⟩ =>
    show (j 0).val = if a = 1 then 0 else (j 0).val
    split
    · omega
    · rfl
  | ⟨1, _⟩ => rfl
  | ⟨2, _⟩ =>
    show (j 2).val = if c = 1 then 0 else (j 2).val
    split
    · omega
    · rfl

theorem bcast_1bc_abc {a b c : ℕ} (f : ℕ → ℕ → ℕ → α)
    (h : (⟨3, ![1, b, c]⟩ : Shape).Broadcasts ⟨3, ![a, b, c]⟩) :
    broadcastTo ⟨3, ![a, b, c]⟩ (N3 1 b c f) h = N3 a b c (fun _ i l => f 0 i l) := by
  funext j
  have h1 : (j 1).val < b := (j 1).isLt
  have h2 : (j 2).val < c := (j 2).isLt
  refine (broadcastTo_apply (N3 1 b c f) h j (ix3 (0 : Fin 1) (j 1) (j 2)) fun ax => ?_).trans rfl
  match ax with
  | ⟨0, _⟩ => rfl
  | ⟨1, _⟩ =>
    show (j 1).val = if b = 1 then 0 else (j 1).val
    split
    · omega
    · rfl
  | ⟨2, _⟩ =>
    show (j 2).val = if c = 1 then 0 else (j 2).val
    split
    · omega
    · rfl

/-! ## Pointwise operations on the extended reals, constants -/

section Pointwise
variable {φ : FTy}

theorem addf_N1 (a : ℕ) (f g : ℕ → EReal) :
    addf (F := Ideal) (φ := φ) (N1 a f) (N1 a g) = N1 a (fun i => f i + g i) := rfl
theorem addf_N2 (a b : ℕ) (f g : ℕ → ℕ → EReal) :
    addf (F := Ideal) (φ := φ) (N2 a b f) (N2 a b g) = N2 a b (fun i l => f i l + g i l) := rfl
theorem addf_N3 (a b c : ℕ) (f g : ℕ → ℕ → ℕ → EReal) :
    addf (F := Ideal) (φ := φ) (N3 a b c f) (N3 a b c g) = N3 a b c (fun i j l => f i j l + g i j l) := rfl
theorem subf_N2 (a b : ℕ) (f g : ℕ → ℕ → EReal) :
    subf (F := Ideal) (φ := φ) (N2 a b f) (N2 a b g) = N2 a b (fun i l => f i l - g i l) := rfl
theorem subf_N3 (a b c : ℕ) (f g : ℕ → ℕ → ℕ → EReal) :
    subf (F := Ideal) (φ := φ) (N3 a b c f) (N3 a b c g) = N3 a b c (fun i j l => f i j l - g i j l) := rfl
theorem mulf_N2 (a b : ℕ) (f g : ℕ → ℕ → EReal) :
    mulf (F := Ideal) (φ := φ) (N2 a b f) (N2 a b g) = N2 a b (fun i l => f i l * g i l) := rfl
theorem mulf_N3 (a b c : ℕ) (f g : ℕ → ℕ → ℕ → EReal) :
    mulf (F := Ideal) (φ := φ) (N3 a b c f) (N3 a b c g) = N3 a b c (fun i j l => f i j l * g i j l) := rfl
theorem divf_N2 (a b : ℕ) (f g : ℕ → ℕ → EReal) :
    divf (F := Ideal) (φ := φ) (N2 a b f) (N2 a b g) = N2 a b (fun i l => Ideal.div (f i l) (g i l)) := rfl
theorem sqrt_N2 (a b : ℕ) (f : ℕ → ℕ → EReal) :
    sqrt (F := Ideal) (φ := φ) (N2 a b f) = N2 a b (fun i l => Ideal.sqrt (f i l)) := rfl
theorem exp_N3 (a b c : ℕ) (f : ℕ → ℕ → ℕ → EReal) :
    exp (F := Ideal) (φ := φ) (N3 a b c f) = N3 a b c (fun i j l => Ideal.exp (f i j l)) := rfl

theorem broadcast_N2 (a b : ℕ) (x : α) : broadcast (⟨2, ![a, b]⟩ : Shape) x = N2 a b (fun _ _ => x) := rfl
theorem broadcast_N3 (a b c : ℕ) (x : α) : broadcast (⟨3, ![a, b, c]⟩ : Shape) x = N3 a b c (fun _ _ _ => x) := rfl

end Pointwise

/-! ## Sums along the leading axis -/

theorem sum_rows_N2 {a b : ℕ} (f : ℕ → ℕ → EReal)
    (h : (⟨2, ![a, b]⟩ : Shape).Reduces [0] ⟨1, ![b]⟩) (hφ : FKind.Formats .f32)
    (hacc : (0x00000000#32 : BitVec FTy.f32.bits) = FKind.add.neutral .f32 hφ) :
    multiReduction (F := Ideal) (φ := .f32) .add [0] ⟨1, ![b]⟩ (N2 a b f) 0x00000000#32 h hφ hacc
      = N1 b (fun l => ∑ i ∈ Finset.range a, f i l) := by
  funext j
  refine (Ideal.multiReduction_add_single _ 0x00000000#32 h hφ hacc j).trans ?_
  show ∑ k : Fin a, f k.val (j 0).val = ∑ i ∈ Finset.range a, f i (j 0).val
  exact Fin.sum_univ_eq_sum_range (fun i => f i (j 0).val) a

theorem sum_rows_N3 {a b c : ℕ} (f : ℕ → ℕ → ℕ → EReal)
    (h : (⟨3, ![a, b, c]⟩ : Shape).Reduces [0] ⟨2, ![b, c]⟩) (hφ : FKind.Formats .f32)
    (hacc : (0x00000000#32 : BitVec FTy.f32.bits) = FKind.add.neutral .f32 hφ) :
    multiReduction (F := Ideal) (φ := .f32) .add [0] ⟨2, ![b, c]⟩ (N3 a b c f) 0x00000000#32 h hφ hacc
      = N2 b c (fun j l => ∑ i ∈ Finset.range a, f i j l) := by
  funext j
  refine (Ideal.multiReduction_add_single _ 0x00000000#32 h hφ hacc j).trans ?_
  show ∑ k : Fin a, f k.val (j 0).val (j 1).val = ∑ i ∈ Finset.range a, f i (j 0).val (j 1).val
  exact Fin.sum_univ_eq_sum_range (fun i => f i (j 0).val (j 1).val) a

/-! ## Scalars (rank zero) -/

/-- The rank-zero array holding `x`. -/
def N0 (x : α) : (⟨0, ![]⟩ : Shape).Idx → α := fun _ => x

theorem N0_apply (x : α) (i : (⟨0, ![]⟩ : Shape).Idx) : N0 x i = x := rfl

theorem eq_N0 (v : (⟨0, ![]⟩ : Shape).Idx → α) : v = N0 (v ix0) := by
  funext i; rw [eq_ix0 i]; rfl

/-! ## Re-indexings of the host programs -/

/-- Rows of length `b * c` cut into `b` pieces of length `c`. -/
theorem cast_a_bc {a bc b c : ℕ} (hbc : bc = b * c) (f : ℕ → ℕ → α)
    (h : (⟨2, ![a, bc]⟩ : Shape).ShapeCasts ⟨3, ![a, b, c]⟩) :
    shapeCast ⟨3, ![a, b, c]⟩ (N2 a bc f) h = N3 a b c (fun i j k => f i (j * c + k)) := by
  subst hbc
  funext j
  have h0 : (j 0).val < a := (j 0).isLt
  have h1 : (j 1).val < b := (j 1).isLt
  have h2 : (j 2).val < c := (j 2).isLt
  have hlt : (j 1).val * c + (j 2).val < b * c := by
    calc (j 1).val * c + (j 2).val < (j 1).val * c + c := by omega
      _ = ((j 1).val + 1) * c := by ring
      _ ≤ b * c := Nat.mul_le_mul_right c h1
  refine (shapeCast_apply (N2 a (b * c) f) h j (ix2 (j 0) ⟨(j 1).val * c + (j 2).val, hlt⟩) ?_).trans rfl
  rw [Shape.rowMajor_val_three, Shape.rowMajor_val_two]
  show (j 0).val * (b * c) + ((j 1).val * c + (j 2).val) = ((j 0).val * b + (j 1).val) * c + (j 2).val
  ring

/-- A trailing unit axis dropped. -/
theorem cast_ab1_ab {a b : ℕ} (f : ℕ → ℕ → ℕ → α) (h : (⟨3, ![a, b, 1]⟩ : Shape).ShapeCasts ⟨2, ![a, b]⟩) :
    shapeCast ⟨2, ![a, b]⟩ (N3 a b 1 f) h = N2 a b (fun i j => f i j 0) := by
  funext j
  refine (shapeCast_apply (N3 a b 1 f) h j (ix3 (j 0) (j 1) (0 : Fin 1)) ?_).trans rfl
  rw [Shape.rowMajor_val_three, Shape.rowMajor_val_two]
  show ((j 0).val * b + (j 1).val) * 1 + 0 = (j 0).val * b + (j 1).val
  rw [Nat.mul_one, Nat.add_zero]

/-- A middle unit axis dropped. -/
theorem cast_a1c_ac {a c : ℕ} (f : ℕ → ℕ → ℕ → α) (h : (⟨3, ![a, 1, c]⟩ : Shape).ShapeCasts ⟨2, ![a, c]⟩) :
    shapeCast ⟨2, ![a, c]⟩ (N3 a 1 c f) h = N2 a c (fun i k => f i 0 k) := by
  funext j
  refine (shapeCast_apply (N3 a 1 c f) h j (ix3 (j 0) (0 : Fin 1) (j 1)) ?_).trans rfl
  rw [Shape.rowMajor_val_three, Shape.rowMajor_val_two]
  show ((j 0).val * 1 + 0) * c + (j 1).val = (j 0).val * c + (j 1).val
  rw [Nat.mul_one, Nat.add_zero]

/-- A matrix transposed. -/
theorem transpose_N2 {a b : ℕ} (f : ℕ → ℕ → α) (h : (⟨2, ![a, b]⟩ : Shape).Transposes [1, 0] ⟨2, ![b, a]⟩) :
    transpose ⟨2, ![b, a]⟩ [1, 0] (N2 a b f) h = N2 b a (fun i j => f j i) := by
  funext j
  rw [eq_ix2 j]
  exact transpose_ix2_apply (N2 a b f) h (j 0) (j 1)

/-- A rank-three array cut along its middle axis. -/
theorem slice3_mid {n0 n1 n2 m : ℕ} (o : ℕ) (f : ℕ → ℕ → ℕ → α)
    (h : (⟨3, ![n0, n1, n2]⟩ : Shape).Slices ![0, o, 0] ⟨3, ![n0, m, n2]⟩) :
    extractStridedSlice ⟨3, ![n0, m, n2]⟩ ![0, o, 0] (N3 n0 n1 n2 f) h = N3 n0 m n2 (fun i j k => f i (o + j) k) := by
  funext j
  show f (0 + (j 0).val) (o + (j 1).val) (0 + (j 2).val) = f (j 0).val (o + (j 1).val) (j 2).val
  rw [Nat.zero_add, Nat.zero_add]

/-- A rank-three array cut along its last axis. -/
theorem slice3_last {n0 n1 n2 m : ℕ} (o : ℕ) (f : ℕ → ℕ → ℕ → α)
    (h : (⟨3, ![n0, n1, n2]⟩ : Shape).Slices ![0, 0, o] ⟨3, ![n0, n1, m]⟩) :
    extractStridedSlice ⟨3, ![n0, n1, m]⟩ ![0, 0, o] (N3 n0 n1 n2 f) h = N3 n0 n1 m (fun i j k => f i j (o + k)) := by
  funext j
  show f (0 + (j 0).val) (0 + (j 1).val) (o + (j 2).val) = f (j 0).val (j 1).val (o + (j 2).val)
  rw [Nat.zero_add, Nat.zero_add]

/-! ## The landmark coordinates of a sample -/

/-- Row `s` of an input holds landmark `n`'s coordinate `d` at column `n * 2 + d`. -/
def pts {a b : ℕ} (x : (⟨2, ![a, b]⟩ : Shape).Idx → EReal) : ℕ → ℕ → ℕ → EReal :=
  fun s n d => rd2 x 0 s (n * 2 + d)

/-! ## A unit leading axis has only coordinate zero -/

theorem N2_unit (b : ℕ) (f : ℕ → ℕ → α) : N2 1 b f = N2 1 b (fun _ l => f 0 l) := by
  funext j
  have h0 : (j 0).val = 0 := by have h : (j 0).val < 1 := (j 0).isLt; omega
  show f (j 0).val (j 1).val = f 0 (j 1).val
  rw [h0]

theorem N3_unit (b c : ℕ) (f : ℕ → ℕ → ℕ → α) : N3 1 b c f = N3 1 b c (fun _ j l => f 0 j l) := by
  funext j
  have h0 : (j 0).val = 0 := by have h : (j 0).val < 1 := (j 0).isLt; omega
  show f (j 0).val (j 1).val (j 2).val = f 0 (j 1).val (j 2).val
  rw [h0]

/-- Two arrays in coordinate form agree when their entries agree at the coordinates in range. -/
theorem N1_congr {a : ℕ} {f g : ℕ → α} (h : ∀ i, i < a → f i = g i) : N1 a f = N1 a g := by
  funext j; exact h _ (j 0).isLt
theorem N2_congr {a b : ℕ} {f g : ℕ → ℕ → α} (h : ∀ i l, i < a → l < b → f i l = g i l) : N2 a b f = N2 a b g := by
  funext j; exact h _ _ (j 0).isLt (j 1).isLt
theorem N3_congr {a b c : ℕ} {f g : ℕ → ℕ → ℕ → α} (h : ∀ i j l, i < a → j < b → l < c → f i j l = g i j l) :
    N3 a b c f = N3 a b c g := by
  funext j; exact h _ _ _ (j 0).isLt (j 1).isLt (j 2).isLt

end Cert.Forms

end
-- ==== Proof.Spec.lean ====
/-
  The loss both programs compute, written once over the extended reals.

  The two inputs hold, for each of 16384 samples `b`, 98 planar landmarks: coordinate `d` (0 or 1) of landmark
  `n` is entry `n * 2 + d` of row `b`.  Below `A b n d` is the predicted landmark and `G b n d` the true one.

  * The landmark term of a sample is the mean distance between predicted and true landmarks, divided by the
    distance between the two eye corners (landmarks 60 and 72 of the truth).
  * The curve term: the landmarks of each of eight facial curves (a run of consecutive landmarks starting at `a`,
    with `k` segments) give `k` segment midpoints and `k` segment tangents for the prediction, and as many for the
    truth with the tangents negated; over all `2k × 2k` pairs one sums `exp (-‖cᵢ - cⱼ‖² / 15) · ⟨τᵢ, τⱼ⟩`.  The eight
    sums are added up and divided by 98 times the eye distance.
  * The loss is 0.8 times the mean landmark term plus 0.2 times the mean curve term.
-/
import Idealize.ShloMosaic.PureOps.Ideal.Laws

noncomputable section

namespace Cert.Spec

open Idealize.ShloMosaic

/-- The float words the programs share, as the extended reals they denote. -/
def half : EReal := Ideal.ofBits .f32 0x3F000000#32
def w98 : EReal := Ideal.ofBits .f32 0x42C40000#32
def w16384 : EReal := Ideal.ofBits .f32 0x46800000#32
def w08 : EReal := Ideal.ofBits .f32 0x3F4CCCCD#32
def w02 : EReal := Ideal.ofBits .f32 0x3E4CCCCD#32
def eighth : EReal := Ideal.ofBits .f32 0x3E000000#32
def w15 : EReal := Ideal.ofBits .f32 0x41700000#32
/-- The two rationals the idealized kernel names. -/
def inv98 : EReal := ((1 / 98 : ℝ) : EReal)
def negInv15 : EReal := ((-1 / 15 : ℝ) : EReal)

variable (A G : ℕ → ℕ → ℕ → EReal)

/-- Distance between the predicted and the true landmark `n` of sample `b`. -/
def dist (b n : ℕ) : EReal :=
  Ideal.sqrt ((A b n 0 - G b n 0) * (A b n 0 - G b n 0) + (A b n 1 - G b n 1) * (A b n 1 - G b n 1))

/-- Distance between the two eye corners of the truth. -/
def eye (b : ℕ) : EReal :=
  Ideal.sqrt ((G b 60 0 - G b 72 0) * (G b 60 0 - G b 72 0) + (G b 60 1 - G b 72 1) * (G b 60 1 - G b 72 1))

/-- The landmark term of sample `b`. -/
def land (b : ℕ) : EReal :=
  Ideal.div ((∑ n ∈ Finset.range 98, dist A G b n) * inv98) (eye G b)

/-- Midpoint of segment `i` of the curve that starts at landmark `a`. -/
def mid (U : ℕ → ℕ → ℕ → EReal) (a b i d : ℕ) : EReal := (U b (a + i) d + U b (a + (1 + i)) d) * half
/-- Tangent of that segment. -/
def tan (U : ℕ → ℕ → ℕ → EReal) (a b i d : ℕ) : EReal := U b (a + (1 + i)) d - U b (a + i) d

/-- The `2k` midpoints of a curve: the prediction's, then the truth's. -/
def cen (a k b i d : ℕ) : EReal := if i < k then mid A a b i d else mid G a b (i - k) d
/-- The `2k` tangents: the prediction's, then the truth's negated. -/
def tau (a k b i d : ℕ) : EReal := if i < k then tan A a b i d else -(tan G a b (i - k) d)

/-- One pair's contribution. -/
def pair (a k b i j : ℕ) : EReal :=
  Ideal.exp (((cen A G a k b i 0 - cen A G a k b j 0) * (cen A G a k b i 0 - cen A G a k b j 0)
      + (cen A G a k b i 1 - cen A G a k b j 1) * (cen A G a k b i 1 - cen A G a k b j 1)) * negInv15)
    * (tau A G a k b i 0 * tau A G a k b j 0 + tau A G a k b i 1 * tau A G a k b j 1)

/-- One curve's sum over all pairs. -/
def curve (a k b : ℕ) : EReal :=
  ∑ j ∈ Finset.range (k + k), ∑ i ∈ Finset.range (k + k), pair A G a k b i j

/-- The eight curves of the 98-landmark scheme, added in order. -/
def curves (b : ℕ) : EReal :=
  0 + curve A G 0 32 b + curve A G 33 8 b + curve A G 42 8 b + curve A G 51 8 b + curve A G 60 7 b
    + curve A G 68 7 b + curve A G 76 11 b + curve A G 88 9 b

/-- The curve term of sample `b`. -/
def curveTerm (b : ℕ) : EReal := Ideal.div (curves A G b) (eye G b * w98)

/-- The loss. -/
def loss : EReal :=
  w08 * Ideal.div (∑ b ∈ Finset.range 16384, land A G b) w16384
    + w02 * Ideal.div (∑ b ∈ Finset.range 16384, curveTerm A G b) w16384

end Cert.Spec

end
-- ==== Proof.KerBody.lean ====
/-
  What one grid point's body leaves in the two output blocks, as functions of the four input blocks.

  The four input blocks hold, for the 128 samples of the point (one per lane l), the x and y coordinates of the 98
  predicted and true landmarks (one per row n): entry (n, l) of the first block is A l n 0, of the second A l n 1, of
  the third and fourth G l n 0 and G l n 1.  Both output blocks hold the same value on each of their 8 rows: at lane l,
  one eighth of the sample's landmark term, and one eighth of its curve term.

  Every array the body forms is read in coordinate form (an array of shape [a, b] with entry f i l at (i, l) is
  N2 a b f): a slice shifts the row coordinate, a concatenation is a case split on the row, the unit axes that the
  pairwise differences are broadcast along are ignored arguments, and the two sums over the leading axis are sums over
  a range.  For one curve with k segments this gives, at lane l, the sum over all pairs (i, j) of the 2k midpoints
  and tangents of exp (|c i - c j|² · (-1/15)) · <τ i, τ j>, which is the specification's curve sum once the named
  constant is read as -1/15, the zero word as 0 and 0 - x as -x.
-/
import proofs.«429135_j77395310674027_3_alg».proof.Proof.Gen.KernelIdeal.Frame
import proofs.«429135_j77395310674027_3_alg».proof.Proof.Forms
import proofs.«429135_j77395310674027_3_alg».proof.Proof.Spec
import Idealize.ShloMosaic.PureOps.IdealRules

noncomputable section
namespace Cert.KernelIdeal.Body

open Idealize.ShloMosaic Idealize.ShloMosaic.ValueIdx Cert.KernelIdeal Cert.KernelIdeal.Gen Cert.Forms

theorem hz2 : (![0, 0] : Fin 2 → ℕ) = fun _ => 0 := by funext a; fin_cases a <;> rfl
theorem hz3 : (![0, 0, 0] : Fin 3 → ℕ) = fun _ => 0 := by funext a; fin_cases a <;> rfl

theorem named_inv98 : Named.named (F := Ideal) Cert.KernelIdeal.κ "inv_98" (φ := .f32) 0x3C272F05#32 = Cert.Spec.inv98 :=
  IdealRules.named_const.ideal_named_scalar _ _ _ _ rfl
theorem named_negInv15 : Named.named (F := Ideal) Cert.KernelIdeal.κ "neg_inv_15" (φ := .f32) 0xBD888889#32 = Cert.Spec.negInv15 :=
  IdealRules.named_const.ideal_named_scalar _ _ _ _ rfl

/-- A sum over the rows of a matrix in coordinate form. -/
theorem sum_rows2 {a b : ℕ} (f : ℕ → ℕ → EReal) (h : (⟨2, ![a, b]⟩ : Shape).Reduces [0] ⟨1, ![b]⟩) :
    FloatOps.reduceAdd (F := Ideal) (φ := .f32) [0] h (N2 a b f) = N1 b (fun l => ∑ i ∈ Finset.range a, f i l) := by
  funext j
  refine (Ideal.reduceAdd_single h _ j).trans ?_
  show ∑ k : Fin a, f k.val (j 0).val = ∑ i ∈ Finset.range a, f i (j 0).val
  exact Fin.sum_univ_eq_sum_range (fun i => f i (j 0).val) a

/-- A sum over the leading axis of a rank-three array in coordinate form. -/
theorem sum_rows3 {a b c : ℕ} (f : ℕ → ℕ → ℕ → EReal) (h : (⟨3, ![a, b, c]⟩ : Shape).Reduces [0] ⟨2, ![b, c]⟩) :
    FloatOps.reduceAdd (F := Ideal) (φ := .f32) [0] h (N3 a b c f) = N2 b c (fun j l => ∑ i ∈ Finset.range a, f i j l) := by
  funext j
  refine (Ideal.reduceAdd_single h _ j).trans ?_
  show ∑ k : Fin a, f k.val (j 0).val (j 1).val = ∑ i ∈ Finset.range a, f i (j 0).val (j 1).val
  exact Fin.sum_univ_eq_sum_range (fun i => f i (j 0).val (j 1).val) a

/-- Two blocks of rows put one under the other (the concatenation along the rows, named so that its two operands are
    ordinary arguments). -/
def cat2 {α : Type} (n1 n2 n w : ℕ) (x1 : (⟨2, ![n1, w]⟩ : Shape).Idx → α) (x2 : (⟨2, ![n2, w]⟩ : Shape).Idx → α)
    (h : Shape.Concatenates [(⟨2, ![n1, w]⟩ : Shape), ⟨2, ![n2, w]⟩] ⟨2, ![n, w]⟩ 0) : (⟨2, ![n, w]⟩ : Shape).Idx → α :=
  concatenate ⟨2, ![n, w]⟩ 0 [⟨⟨2, ![n1, w]⟩, x1⟩, ⟨⟨2, ![n2, w]⟩, x2⟩] h

theorem concat_eq_cat2 {α : Type} {n1 n2 n w : ℕ} (x1 : (⟨2, ![n1, w]⟩ : Shape).Idx → α) (x2 : (⟨2, ![n2, w]⟩ : Shape).Idx → α)
    (h : Shape.Concatenates [(⟨2, ![n1, w]⟩ : Shape), ⟨2, ![n2, w]⟩] ⟨2, ![n, w]⟩ 0) :
    concatenate ⟨2, ![n, w]⟩ 0 [⟨⟨2, ![n1, w]⟩, x1⟩, ⟨⟨2, ![n2, w]⟩, x2⟩] h = cat2 n1 n2 n w x1 x2 h := rfl

theorem cat2_N2 {α : Type} {n1 n2 n w : ℕ} (f g : ℕ → ℕ → α)
    (h : Shape.Concatenates [(⟨2, ![n1, w]⟩ : Shape), ⟨2, ![n2, w]⟩] ⟨2, ![n, w]⟩ 0) :
    cat2 n1 n2 n w (N2 n1 w f) (N2 n2 w g) h = N2 n w (fun i l => if i < n1 then f i l else g (i - n1) l) :=
  concat2_rows f g h

variable (A G : ℕ → ℕ → ℕ → EReal)

/-- The landmark output block: the mean landmark distance over the eye distance, times one eighth. -/
theorem out0_4_N :
    out0_4 (F := Ideal) (N2 98 128 fun n l => A l n 0) (N2 98 128 fun n l => A l n 1)
        (N2 98 128 fun n l => G l n 0) (N2 98 128 fun n l => G l n 1)
      = N3 1 8 128 fun _ _ l => Cert.Spec.land A G l * Cert.Spec.eighth := by
  unfold out0_4
  rw [View.canon_unit_zero hz3]
  simp only [View.ld_unit_zero (S := S98x128) hz2]
  simp only [k0_pay1, k0_pay8, k0_pay7, k0_pay3, k0_pay4, k0_pay5, k0_pay6]
  delta multiReduction
  simp only [shapeCast_self, slice2_rows, subf_N2, mulf_N2, addf_N2, sqrt_N2, broadcast_N2, broadcast_N3]
  rw [sum_rows2]
  simp only [cast_a_1a, mulf_N2, divf_N2, cast_ab_1ab, bcast_a1c_abc, mulf_N3]
  rw [N3_unit]
  refine N3_congr fun i j l _ _ _ => ?_
  simp only [Nat.add_zero, named_inv98, Cert.Spec.land, Cert.Spec.dist, Cert.Spec.eye, Cert.Spec.eighth, Ideal.ofBits_def]

/-- The running total after curve 1 (landmarks 0 to 32): the total before it plus the curve's sum over all pairs. -/
theorem total1 (t0 : ℕ → ℕ → EReal) :
    k0_pay20 (F := Ideal) (N2 1 128 t0)
      (k0_pay18 (k0_pay12 (N2 98 128 fun n l => G l n 0)) (k0_pay13 (N2 98 128 fun n l => G l n 1)) (k0_pay14 (N2 98 128 fun n l => A l n 0)) (k0_pay15 (N2 98 128 fun n l => A l n 1)))
      (k0_pay19 (k0_pay11 (N2 98 128 fun n l => A l n 1)) (k0_pay12 (N2 98 128 fun n l => G l n 0)) (k0_pay13 (N2 98 128 fun n l => G l n 1)) (k0_pay16 (N2 98 128 fun n l => A l n 0)) (k0_pay17 (N2 98 128 fun n l => A l n 0)))
      = N2 1 128 fun i l => t0 i l + Cert.Spec.curve A G 0 32 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  simp only [cast_a_1a, addf_N2]
  refine N2_congr fun i l _ _ => ?_
  refine congrArg (t0 i l + ·) ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The running total after curve 2 (landmarks 33 to 41): the total before it plus the curve's sum over all pairs. -/
theorem total2 (t0 : ℕ → ℕ → EReal) :
    k0_pay31 (F := Ideal) (N2 1 128 t0)
      (k0_pay26 (k0_pay4 (N2 98 128 fun n l => A l n 1)) (k0_pay6 (N2 98 128 fun n l => G l n 1)))
      (k0_pay27 (k0_pay3 (N2 98 128 fun n l => A l n 0)) (k0_pay5 (N2 98 128 fun n l => G l n 0)))
      (k0_pay28 (k0_pay4 (N2 98 128 fun n l => A l n 1)) (k0_pay6 (N2 98 128 fun n l => G l n 1)))
      (k0_pay29 (k0_pay3 (N2 98 128 fun n l => A l n 0)) (k0_pay5 (N2 98 128 fun n l => G l n 0)))
      (k0_pay30 (k0_pay3 (N2 98 128 fun n l => A l n 0)) (k0_pay5 (N2 98 128 fun n l => G l n 0)))
      = N2 1 128 fun i l => t0 i l + Cert.Spec.curve A G 33 8 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  simp only [cast_a_1a, addf_N2]
  refine N2_congr fun i l _ _ => ?_
  refine congrArg (t0 i l + ·) ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The running total after curve 3 (landmarks 42 to 50): the total before it plus the curve's sum over all pairs. -/
theorem total3 (t0 : ℕ → ℕ → EReal) :
    k0_pay41 (F := Ideal) (N2 1 128 t0)
      (k0_pay34 (k0_pay5 (N2 98 128 fun n l => G l n 0)))
      (k0_pay35 (k0_pay6 (N2 98 128 fun n l => G l n 1)))
      (k0_pay36 (k0_pay3 (N2 98 128 fun n l => A l n 0)))
      (k0_pay37 (k0_pay4 (N2 98 128 fun n l => A l n 1)))
      (k0_pay38 (k0_pay3 (N2 98 128 fun n l => A l n 0)))
      (k0_pay39 (k0_pay4 (N2 98 128 fun n l => A l n 1)))
      (k0_pay40 (k0_pay5 (N2 98 128 fun n l => G l n 0)))
      = N2 1 128 fun i l => t0 i l + Cert.Spec.curve A G 42 8 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  simp only [cast_a_1a, addf_N2]
  refine N2_congr fun i l _ _ => ?_
  refine congrArg (t0 i l + ·) ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The running total after curve 4 (landmarks 51 to 59): the total before it plus the curve's sum over all pairs. -/
theorem total4 (t0 : ℕ → ℕ → EReal) :
    k0_pay49 (F := Ideal) (N2 1 128 t0)
      (k0_pay46 (k0_pay42 (k0_pay3 (N2 98 128 fun n l => A l n 0))) (k0_pay44 (k0_pay5 (N2 98 128 fun n l => G l n 0))))
      (k0_pay47 (k0_pay6 (N2 98 128 fun n l => G l n 1)) (k0_pay43 (k0_pay4 (N2 98 128 fun n l => A l n 1))))
      (k0_pay48 (k0_pay6 (N2 98 128 fun n l => G l n 1)) (k0_pay42 (k0_pay3 (N2 98 128 fun n l => A l n 0))) (k0_pay43 (k0_pay4 (N2 98 128 fun n l => A l n 1))) (k0_pay44 (k0_pay5 (N2 98 128 fun n l => G l n 0))))
      = N2 1 128 fun i l => t0 i l + Cert.Spec.curve A G 51 8 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  simp only [cast_a_1a, addf_N2]
  refine N2_congr fun i l _ _ => ?_
  refine congrArg (t0 i l + ·) ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The running total after curve 5 (landmarks 60 to 67): the total before it plus the curve's sum over all pairs. -/
theorem total5 (t0 : ℕ → ℕ → EReal) :
    k0_pay62 (F := Ideal) (N2 1 128 t0)
      (k0_pay53 (k0_pay6 (N2 98 128 fun n l => G l n 1)))
      (k0_pay54 (k0_pay3 (N2 98 128 fun n l => A l n 0)))
      (k0_pay55 (k0_pay4 (N2 98 128 fun n l => A l n 1)))
      (k0_pay56 (k0_pay3 (N2 98 128 fun n l => A l n 0)))
      (k0_pay57 (k0_pay4 (N2 98 128 fun n l => A l n 1)))
      (k0_pay58 (k0_pay5 (N2 98 128 fun n l => G l n 0)))
      (k0_pay59 (k0_pay6 (N2 98 128 fun n l => G l n 1)))
      (k0_pay60 (k0_pay5 (N2 98 128 fun n l => G l n 0)))
      (k0_pay61 (k0_pay6 (N2 98 128 fun n l => G l n 1)))
      = N2 1 128 fun i l => t0 i l + Cert.Spec.curve A G 60 7 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  simp only [cast_a_1a, addf_N2]
  refine N2_congr fun i l _ _ => ?_
  refine congrArg (t0 i l + ·) ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The running total after curve 6 (landmarks 68 to 75): the total before it plus the curve's sum over all pairs. -/
theorem total6 (t0 : ℕ → ℕ → EReal) :
    k0_pay73 (F := Ideal) (N2 1 128 t0)
      (k0_pay69 (k0_pay64 (k0_pay4 (N2 98 128 fun n l => A l n 1))) (k0_pay66 (k0_pay6 (N2 98 128 fun n l => G l n 1))))
      (k0_pay70 (k0_pay65 (k0_pay5 (N2 98 128 fun n l => G l n 0))) (k0_pay66 (k0_pay6 (N2 98 128 fun n l => G l n 1))) (k0_pay67 (k0_pay3 (N2 98 128 fun n l => A l n 0))) (k0_pay68 (k0_pay4 (N2 98 128 fun n l => A l n 1))))
      (k0_pay71 (k0_pay63 (k0_pay3 (N2 98 128 fun n l => A l n 0))) (k0_pay65 (k0_pay5 (N2 98 128 fun n l => G l n 0))))
      (k0_pay72 (k0_pay64 (k0_pay4 (N2 98 128 fun n l => A l n 1))) (k0_pay66 (k0_pay6 (N2 98 128 fun n l => G l n 1))))
      = N2 1 128 fun i l => t0 i l + Cert.Spec.curve A G 68 7 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  simp only [cast_a_1a, addf_N2]
  refine N2_congr fun i l _ _ => ?_
  refine congrArg (t0 i l + ·) ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The running total after curve 7 (landmarks 76 to 87): the total before it plus the curve's sum over all pairs. -/
theorem total7 (t0 : ℕ → ℕ → EReal) :
    k0_pay84 (F := Ideal) (N2 1 128 t0)
      (k0_pay78 (k0_pay4 (N2 98 128 fun n l => A l n 1)))
      (k0_pay79 (k0_pay6 (N2 98 128 fun n l => G l n 1)))
      (k0_pay80 (k0_pay3 (N2 98 128 fun n l => A l n 0)) (k0_pay5 (N2 98 128 fun n l => G l n 0)))
      (k0_pay81 (k0_pay4 (N2 98 128 fun n l => A l n 1)) (k0_pay6 (N2 98 128 fun n l => G l n 1)))
      (k0_pay82 (k0_pay3 (N2 98 128 fun n l => A l n 0)) (k0_pay5 (N2 98 128 fun n l => G l n 0)))
      (k0_pay83 (F := Ideal))
      = N2 1 128 fun i l => t0 i l + Cert.Spec.curve A G 76 11 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  simp only [cast_a_1a, addf_N2]
  refine N2_congr fun i l _ _ => ?_
  refine congrArg (t0 i l + ·) ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The last curve's sum (landmarks 88 to 97), one value per lane. -/
theorem last_curve :
    k0_pay94 (F := Ideal)
      (k0_pay87 (k0_pay5 (N2 98 128 fun n l => G l n 0)))
      (k0_pay88 (k0_pay6 (N2 98 128 fun n l => G l n 1)))
      (k0_pay89 (k0_pay3 (N2 98 128 fun n l => A l n 0)))
      (k0_pay90 (k0_pay4 (N2 98 128 fun n l => A l n 1)))
      (k0_pay91 (k0_pay3 (N2 98 128 fun n l => A l n 0)))
      (k0_pay92 (k0_pay4 (N2 98 128 fun n l => A l n 1)))
      (k0_pay93 (k0_pay5 (N2 98 128 fun n l => G l n 0)))
      = N1 128 fun l => Cert.Spec.curve A G 88 9 l := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  delta multiReduction
  simp only [shapeCast_self, slice2_rows, subf_N2, mulf_N2, addf_N2, broadcast_N2, broadcast_N3, concat_eq_cat2, cat2_N2,
    cast_ab_a1b, cast_ab_1ab, bcast_a1c_abc, bcast_1bc_abc, subf_N3, mulf_N3, addf_N3, exp_N3, sum_rows3, sum_rows2, cast_a_1a]
  rw [sum_rows3, sum_rows2]
  refine N1_congr fun l _ => ?_
  simp only [Cert.Spec.curve, Cert.Spec.pair, Cert.Spec.cen, Cert.Spec.tau, Cert.Spec.mid, Cert.Spec.tan, Cert.Spec.half,
    named_negInv15, Ideal.ofBits_def, Ideal.ofBits_zero_f32, Nat.zero_add, Nat.reduceAdd, zero_sub]

/-- The curve output block: the eight curve sums added up, divided by 98 times the eye distance, times one eighth. -/
theorem out0_5_N :
    out0_5 (F := Ideal) (N2 98 128 fun n l => A l n 0) (N2 98 128 fun n l => A l n 1)
        (N2 98 128 fun n l => G l n 0) (N2 98 128 fun n l => G l n 1)
      = N3 1 8 128 fun _ _ l => Cert.Spec.curveTerm A G l * Cert.Spec.eighth := by
  unfold out0_5
  rw [View.canon_unit_zero hz3]
  simp only [View.ld_unit_zero (S := S98x128) hz2]
  simp only [k0_pay9, broadcast_N2]
  rw [total1, total2, total3, total4, total5, total6, total7, last_curve]
  simp only [k0_pay2, k0_pay7, k0_pay5, k0_pay6, shapeCast_self, slice2_rows, subf_N2, mulf_N2, addf_N2, sqrt_N2, divf_N2,
    broadcast_N2, broadcast_N3, cast_a_1a, cast_ab_1ab, bcast_a1c_abc, mulf_N3]
  rw [N3_unit]
  refine N3_congr fun i j l _ _ _ => ?_
  simp only [Nat.add_zero, Cert.Spec.curveTerm, Cert.Spec.curves, Cert.Spec.eye, Cert.Spec.eighth, Cert.Spec.w98,
    Ideal.ofBits_def, Ideal.ofBits_zero_f32]

end Cert.KernelIdeal.Body

end
-- ==== Proof.KerA1.lean ====
/-
  The four arrays the kernel's region stages, read off the operations that make them from the two inputs.
-/
import proofs.«429135_j77395310674027_3_alg».proof.Proof.KerBody
import Idealize.ShloMosaic.Lib.StableHlo.Run

noncomputable section

namespace Cert.KernelIdeal.Arrays

open Idealize.ShloMosaic Idealize.ShloMosaic.TcCoe Idealize.SL.Sem Idealize.ShloMosaic.ValueIdx Cert.KernelIdeal Cert.KernelIdeal.Gen Cert.Forms

variable (m : (ℓ : Loc nD τ sig) → Buf (Elt Ideal) ℓ)

/-! ## The four arrays the region stages

Each input holds, in row `s`, the 98 landmarks of sample `s` with the two coordinates interleaved.  Cutting the
rows into 98 pairs, keeping coordinate `d` of each pair and transposing gives the array whose entry at
(landmark `n`, sample `s`) is coordinate `d` of landmark `n` of sample `s`. -/

/-- One coordinate of every landmark of every sample, landmarks along the rows and samples along the columns. -/
theorem coord_plane (x : S16384x196.Idx → EReal) (d : ℕ) (hs : S16384x98x2.Slices ![0, 0, d] S16384x98x1) :
    transpose S98x16384 [1, 0]
        (shapeCast S16384x98
          (extractStridedSlice S16384x98x1 ![0, 0, d] (shapeCast S16384x98x2 x shapeCasts_S16384x196_S16384x98x2) hs)
          shapeCasts_S16384x98x1_S16384x98)
        transposes_S16384x98_S98x16384_1_0
      = N2 98 16384 fun n s => pts x s n d := by
  conv_lhs => rw [← N2_rd2 x 0]
  rw [cast_a_bc (b := 98) (c := 2) rfl, slice3_last, cast_ab1_ab, transpose_N2]
  rfl

/-- The predicted landmarks' first coordinates, as the region finds them. -/
theorem V_v3 (c : Dev nD) :
    (V m c main_v3 : S98x16384.Idx → EReal) = N2 98 16384 fun n s => pts (m ((c.tc : Thread nD τ).loc main_arg0)) s n 0 := by
  dsimp only [Gen.V, Gen.V0]
  simp only [Gen.hostOps0, List.flatten_cons, List.flatten_nil, List.append_nil, List.cons_append, List.nil_append]
  after_results
  exact coord_plane _ 0 _

/-- The predicted landmarks' second coordinates. -/
theorem V_v6 (c : Dev nD) :
    (V m c main_v6 : S98x16384.Idx → EReal) = N2 98 16384 fun n s => pts (m ((c.tc : Thread nD τ).loc main_arg0)) s n 1 := by
  dsimp only [Gen.V, Gen.V0]
  simp only [Gen.hostOps0, List.flatten_cons, List.flatten_nil, List.append_nil, List.cons_append, List.nil_append]
  after_results
  exact coord_plane _ 1 _

/-- The true landmarks' first coordinates. -/
theorem V_v10 (c : Dev nD) :
    (V m c main_v10 : S98x16384.Idx → EReal) = N2 98 16384 fun n s => pts (m ((c.tc : Thread nD τ).loc main_arg1)) s n 0 := by
  dsimp only [Gen.V, Gen.V0]
  simp only [Gen.hostOps0, List.flatten_cons, List.flatten_nil, List.append_nil, List.cons_append, List.nil_append]
  after_results
  exact coord_plane _ 0 _

/-- The true landmarks' second coordinates. -/
theorem V_v13 (c : Dev nD) :
    (V m c main_v13 : S98x16384.Idx → EReal) = N2 98 16384 fun n s => pts (m ((c.tc : Thread nD τ).loc main_arg1)) s n 1 := by
  dsimp only [Gen.V, Gen.V0]
  simp only [Gen.hostOps0, List.flatten_cons, List.flatten_nil, List.append_nil, List.cons_append, List.nil_append]
  after_results
  exact coord_plane _ 1 _

end Cert.KernelIdeal.Arrays

end
-- ==== Proof.KerA2.lean ====
/-
  The blocks the kernel's grid points stage and write back, and the two result arrays after the region.
-/
import proofs.«429135_j77395310674027_3_alg».proof.Proof.KerA1
import Idealize.ShloMosaic.Lib.Pipeline.Value

noncomputable section

namespace Cert.KernelIdeal.Arrays

open Idealize.ShloMosaic Idealize.ShloMosaic.TcCoe Idealize.SL.Sem Idealize.ShloMosaic.ValueIdx Cert.KernelIdeal Cert.KernelIdeal.Gen Cert.Forms

variable (m : (ℓ : Loc nD τ sig) → Buf (Elt Ideal) ℓ)

/-! ## The blocks at a grid point

Point `t` stages, of each of the four arrays, all 98 rows of columns `t * 128 … t * 128 + 127`: lane `l` of the
block is sample `t * 128 + l`.  Its two output blocks are row `t` of the two result arrays. -/

/-- The landmarks of the samples of block `t`: lane `l` is sample `t * 128 + l`. -/
def blkPts (x : S16384x196.Idx → EReal) (t : ℕ) : ℕ → ℕ → ℕ → EReal := fun l => pts x (t * 128 + l)

/-- The index maps over the grid: an input block is the column block `t`, an output block the row `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- An entry of a column block of an array given by coordinates. -/
theorem blk_of_N2 (f : ℕ → ℕ → EReal) (A : S98x16384.Idx → EReal) (hA : A = N2 98 16384 f) (t : ℕ)
    (y : S98x128.Idx) (k : S98x16384.Idx) (h0 : (k 0).val = (y 0).val) (h1 : (k 1).val = t * 128 + (y 1).val) :
    A k = f (y 0).val (t * 128 + (y 1).val) := by
  subst hA
  show f (k 0).val (k 1).val = _
  rw [h0, h1]

/-- The block of the predicted landmarks' first coordinates. -/
theorem iblk0_eq (c : Dev nD) (t : Fin cfg0.N) :
    (iblk m c 0 t : Vec Ideal S98x128 .f32)
      = N2 98 128 fun n l => blkPts (m ((c.tc : Thread nD τ).loc main_arg0)) t.val l n 0 := by
  have e := idx_facts t
  funext y
  unfold iblk
  rw [View.read_apply]
  show (V m c main_v3 : S98x16384.Idx → EReal) (((cfg0.win 0).blk t).view.emb y) = _
  refine (blk_of_N2 _ _ (V_v3 m c) t.val y _ ?_ ?_).trans rfl
  · show win0_0.index t (0 : Fin 2) * 98 + 1 * (y 0).val = (y 0).val
    omega
  · show win0_0.index t (1 : Fin 2) * 128 + 1 * (y 1).val = t.val * 128 + (y 1).val
    omega

/-- The block of the predicted landmarks' second coordinates. -/
theorem iblk1_eq (c : Dev nD) (t : Fin cfg0.N) :
    (iblk m c 1 t : Vec Ideal S98x128 .f32)
      = N2 98 128 fun n l => blkPts (m ((c.tc : Thread nD τ).loc main_arg0)) t.val l n 1 := by
  have e := idx_facts t
  funext y
  unfold iblk
  rw [View.read_apply]
  show (V m c main_v6 : S98x16384.Idx → EReal) (((cfg0.win 1).blk t).view.emb y) = _
  refine (blk_of_N2 _ _ (V_v6 m c) t.val y _ ?_ ?_).trans rfl
  · show win0_1.index t (0 : Fin 2) * 98 + 1 * (y 0).val = (y 0).val
    omega
  · show win0_1.index t (1 : Fin 2) * 128 + 1 * (y 1).val = t.val * 128 + (y 1).val
    omega

/-- The block of the true landmarks' first coordinates. -/
theorem iblk2_eq (c : Dev nD) (t : Fin cfg0.N) :
    (iblk m c 2 t : Vec Ideal S98x128 .f32)
      = N2 98 128 fun n l => blkPts (m ((c.tc : Thread nD τ).loc main_arg1)) t.val l n 0 := by
  have e := idx_facts t
  funext y
  unfold iblk
  rw [View.read_apply]
  show (V m c main_v10 : S98x16384.Idx → EReal) (((cfg0.win 2).blk t).view.emb y) = _
  refine (blk_of_N2 _ _ (V_v10 m c) t.val y _ ?_ ?_).trans rfl
  · show win0_2.index t (0 : Fin 2) * 98 + 1 * (y 0).val = (y 0).val
    omega
  · show win0_2.index t (1 : Fin 2) * 128 + 1 * (y 1).val = t.val * 128 + (y 1).val
    omega

/-- The block of the true landmarks' second coordinates. -/
theorem iblk3_eq (c : Dev nD) (t : Fin cfg0.N) :
    (iblk m c 3 t : Vec Ideal S98x128 .f32)
      = N2 98 128 fun n l => blkPts (m ((c.tc : Thread nD τ).loc main_arg1)) t.val l n 1 := by
  have e := idx_facts t
  funext y
  unfold iblk
  rw [View.read_apply]
  show (V m c main_v13 : S98x16384.Idx → EReal) (((cfg0.win 3).blk t).view.emb y) = _
  refine (blk_of_N2 _ _ (V_v13 m c) t.val y _ ?_ ?_).trans rfl
  · show win0_3.index t (0 : Fin 2) * 98 + 1 * (y 0).val = (y 0).val
    omega
  · show win0_3.index t (1 : Fin 2) * 128 + 1 * (y 1).val = t.val * 128 + (y 1).val
    omega

/-! ## The two result arrays after the region -/

/-- A sample's terms only read that sample's landmarks: the terms of lane `l` of block `t` are those of sample
    `t * 128 + l`. -/
theorem land_blk (x0 x1 : S16384x196.Idx → EReal) (t l : ℕ) :
    Cert.Spec.land (blkPts x0 t) (blkPts x1 t) l = Cert.Spec.land (pts x0) (pts x1) (t * 128 + l) := rfl
theorem curveTerm_blk (x0 x1 : S16384x196.Idx → EReal) (t l : ℕ) :
    Cert.Spec.curveTerm (blkPts x0 t) (blkPts x1 t) l = Cert.Spec.curveTerm (pts x0) (pts x1) (t * 128 + l) := rfl

/-- The array of landmark terms: row `t` holds, on each of its 8 sublanes, an eighth of the term of sample
    `t * 128 + l` at lane `l`. -/
def landArr (x0 x1 : S16384x196.Idx → EReal) : S128x8x128.Idx → EReal :=
  N3 128 8 128 fun t _ l => Cert.Spec.land (pts x0) (pts x1) (t * 128 + l) * Cert.Spec.eighth
/-- The array of curve terms, likewise. -/
def curveArr (x0 x1 : S16384x196.Idx → EReal) : S128x8x128.Idx → EReal :=
  N3 128 8 128 fun t _ l => Cert.Spec.curveTerm (pts x0) (pts x1) (t * 128 + l) * Cert.Spec.eighth

/-- Row `t` of an array given by coordinates. -/
theorem row_of_N3 (f : ℕ → ℕ → ℕ → EReal) (t : ℕ) (j : S1x8x128.Idx) (k : S128x8x128.Idx)
    (h0 : (k 0).val = t) (h2 : (k 2).val = (j 2).val) :
    N3 128 8 128 (fun t' _ l => f t' 0 l) k = f t 0 (j 2).val := by
  show f (k 0).val 0 (k 2).val = _
  rw [h0, h2]

/-- What point `t` writes back to the first result array is row `t` of the landmark terms. -/
theorem flushed4_eq (c : Dev nD) (t : Fin cfg0.N) :
    (dats m 0 c).flushed 4 t = ((cfg0.win 4).blk t).view.read (Elt Ideal)
      (landArr (m ((c.tc : Thread nD τ).loc main_arg0)) (m ((c.tc : Thread nD τ).loc main_arg1))) := by
  show (cfg0.win 4).cut (grid0.coords t) ((dats m 0 c).after 4 t) = _
  rw [after0_4, iblk0_eq, iblk1_eq, iblk2_eq, iblk3_eq, Cert.KernelIdeal.Body.out0_4_N]
  have e := idx_facts t
  funext j
  rw [View.read_apply]
  have hj0 : (j 0).val < 1 := (j 0).isLt
  show Cert.Spec.land (blkPts _ t.val) (blkPts _ t.val) (j 2).val * Cert.Spec.eighth
    = landArr _ _ (((cfg0.win 4).blk t).view.emb j)
  rw [land_blk]
  refine (row_of_N3 (fun t' _ l => Cert.Spec.land (pts _) (pts _) (t' * 128 + l) * Cert.Spec.eighth) t.val j _ ?_ ?_).symm
  · show win0_4.index t (0 : Fin 3) * 1 + 1 * (j 0).val = t.val
    omega
  · show win0_4.index t (2 : Fin 3) * 128 + 1 * (j 2).val = (j 2).val
    omega

/-- What point `t` writes back to the second result array is row `t` of the curve terms. -/
theorem flushed5_eq (c : Dev nD) (t : Fin cfg0.N) :
    (dats m 0 c).flushed 5 t = ((cfg0.win 5).blk t).view.read (Elt Ideal)
      (curveArr (m ((c.tc : Thread nD τ).loc main_arg0)) (m ((c.tc : Thread nD τ).loc main_arg1))) := by
  show (cfg0.win 5).cut (grid0.coords t) ((dats m 0 c).after 5 t) = _
  rw [after0_5, iblk0_eq, iblk1_eq, iblk2_eq, iblk3_eq, Cert.KernelIdeal.Body.out0_5_N]
  have e := idx_facts t
  funext j
  rw [View.read_apply]
  have hj0 : (j 0).val < 1 := (j 0).isLt
  show Cert.Spec.curveTerm (blkPts _ t.val) (blkPts _ t.val) (j 2).val * Cert.Spec.eighth
    = curveArr _ _ (((cfg0.win 5).blk t).view.emb j)
  rw [curveTerm_blk]
  refine (row_of_N3 (fun t' _ l => Cert.Spec.curveTerm (pts _) (pts _) (t' * 128 + l) * Cert.Spec.eighth) t.val j _ ?_ ?_).symm
  · show win0_5.index t (0 : Fin 3) * 1 + 1 * (j 0).val = t.val
    omega
  · show win0_5.index t (2 : Fin 3) * 128 + 1 * (j 2).val = (j 2).val
    omega

/-- An index of a result array is in point `t`'s block iff each coordinate is in the block's range on its axis. -/
theorem mem_blk4 (t : Fin cfg0.N) (i : S128x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v14_0).slice (win0_4.rect t)).set ↔ _
  rw [View.set_slice_whole, Rect.mem_set_unit]
  exact Iff.rfl
theorem mem_blk5 (t : Fin cfg0.N) (i : S128x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v14_1).slice (win0_5.rect t)).set ↔ _
  rw [View.set_slice_whole, Rect.mem_set_unit]
  exact Iff.rfl

/-- The point that writes row `r` of the result arrays is point `r`. -/
def rowPoint (i : S128x8x128.Idx) : Fin cfg0.N := ⟨(i 0).val, by
  have h : (i 0).val < 128 := (i 0).isLt
  rw [show cfg0.N = 128 from N_0]; exact h⟩

/-- Every index of the first result array is in the block of the point of its row. -/
theorem cover4 (i : S128x8x128.Idx) :
    ∃ t : Fin cfg0.N, (cfg0.win 4).flush t = true ∧ i ∈ ((cfg0.win 4).blk t).view.set := by
  refine ⟨rowPoint i, flush0_4 _, ?_⟩
  rw [mem_blk4]
  have e := idx_facts (rowPoint i)
  have ht : (rowPoint i).val = (i 0).val := rfl
  have h1 : (i 1).val < 8 := (i 1).isLt
  have h2 : (i 2).val < 128 := (i 2).isLt
  intro a
  match a with
  | ⟨0, _⟩ =>
    show win0_4.index (rowPoint i) (0 : Fin 3) * 1 ≤ (i 0).val ∧ (i 0).val < win0_4.index (rowPoint i) (0 : Fin 3) * 1 + 1
    omega
  | ⟨1, _⟩ =>
    show win0_4.index (rowPoint i) (1 : Fin 3) * 8 ≤ (i 1).val ∧ (i 1).val < win0_4.index (rowPoint i) (1 : Fin 3) * 8 + 8
    omega
  | ⟨2, _⟩ =>
    show win0_4.index (rowPoint i) (2 : Fin 3) * 128 ≤ (i 2).val ∧ (i 2).val < win0_4.index (rowPoint i) (2 : Fin 3) * 128 + 128
    omega

/-- Every index of the second result array is in the block of the point of its row. -/
theorem cover5 (i : S128x8x128.Idx) :
    ∃ t : Fin cfg0.N, (cfg0.win 5).flush t = true ∧ i ∈ ((cfg0.win 5).blk t).view.set := by
  refine ⟨rowPoint i, flush0_5 _, ?_⟩
  rw [mem_blk5]
  have e := idx_facts (rowPoint i)
  have ht : (rowPoint i).val = (i 0).val := rfl
  have h1 : (i 1).val < 8 := (i 1).isLt
  have h2 : (i 2).val < 128 := (i 2).isLt
  intro a
  match a with
  | ⟨0, _⟩ =>
    show win0_5.index (rowPoint i) (0 : Fin 3) * 1 ≤ (i 0).val ∧ (i 0).val < win0_5.index (rowPoint i) (0 : Fin 3) * 1 + 1
    omega
  | ⟨1, _⟩ =>
    show win0_5.index (rowPoint i) (1 : Fin 3) * 8 ≤ (i 1).val ∧ (i 1).val < win0_5.index (rowPoint i) (1 : Fin 3) * 8 + 8
    omega
  | ⟨2, _⟩ =>
    show win0_5.index (rowPoint i) (2 : Fin 3) * 128 ≤ (i 2).val ∧ (i 2).val < win0_5.index (rowPoint i) (2 : Fin 3) * 128 + 128
    omega

/-- The first result array after the region: the landmark terms. -/
theorem final4 (c : Dev nD) : (dats m 0 c).arrAt 4 cfg0.N
    = landArr (m ((c.tc : Thread nD τ).loc main_arg0)) (m ((c.tc : Thread nD τ).loc main_arg1)) :=
  (dats m 0 c).arrAt_eq_of_cover 4 _ (fun t _ => flushed4_eq m c t) cover4

/-- The second result array after the region: the curve terms. -/
theorem final5 (c : Dev nD) : (dats m 0 c).arrAt 5 cfg0.N
    = curveArr (m ((c.tc : Thread nD τ).loc main_arg0)) (m ((c.tc : Thread nD τ).loc main_arg1)) :=
  (dats m 0 c).arrAt_eq_of_cover 5 _ (fun t _ => flushed5_eq m c t) cover5

end Cert.KernelIdeal.Arrays

end
-- ==== Proof.KerArrays.lean ====
/-
  The idealized kernel's run with its result named: the loss of the two inputs.

  The region leaves in its two result arrays, at row `t` and lane `l`, an eighth of the landmark term and of the
  curve term of sample `t * 128 + l`, on each of 8 sublanes.  The lines after the region sum each array, divide by
  the number of samples, weight the two means and add them.
-/
import proofs.«429135_j77395310674027_3_alg».proof.Proof.KerA2

noncomputable section

namespace Cert.KernelIdeal.Arrays

open Idealize.ShloMosaic Idealize.ShloMosaic.TcCoe Idealize.SL.Sem Idealize.ShloMosaic.ValueIdx Cert.KernelIdeal Cert.KernelIdeal.Gen Cert.Forms

section Value

variable (m : (ℓ : Loc nD τ sig) → Buf (Elt Ideal) ℓ)

/-! ## The sum of a result array

Each result array holds every sample's term eight times over, each time an eighth of it: the sum of all its
entries is the sum of the terms over the 16384 samples. -/

/-- The float word of one eighth is the real 1/8. -/
theorem eighth_eq : Cert.Spec.eighth = ((1 / 8 : ℝ) : EReal) := by
  unfold Cert.Spec.eighth
  simp [Ideal.ofBits, Ideal.ieee]
  rw [← EReal.coe_mul]
  congr 1
  norm_num

/-- Eight eighths of any extended real add up to it. -/
theorem eight_eighths (x : EReal) : ∑ _b : Fin 8, x * Cert.Spec.eighth = x := by
  rw [eighth_eq, Fin.sum_univ_eight]
  induction x using EReal.rec with
  | bot => rw [EReal.bot_mul_coe_of_pos (by norm_num)]; simp
  | top => rw [EReal.top_mul_coe_of_pos (by norm_num)]; simp
  | coe r =>
    rw [← EReal.coe_mul]
    simp only [← EReal.coe_add]
    congr 1
    ring

/-- A rank-three index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over `n * k` consecutive naturals, cut into `n` runs of `k`. -/
theorem sum_range_blocks (g : ℕ → EReal) (k : ℕ) :
    ∀ n, ∑ a ∈ Finset.range n, ∑ c ∈ Finset.range k, g (a * k + c) = ∑ s ∈ Finset.range (n * k), g s
  | 0 => by simp
  | n + 1 => by rw [Finset.sum_range_succ, sum_range_blocks g k n, Nat.succ_mul, Finset.sum_range_add]

/-- The sum of all entries of a result array: each sample's term once. -/
theorem sum_rows (L : ℕ → EReal) :
    ∑ i : S128x8x128.Idx, N3 128 8 128 (fun t _ l => L (t * 128 + l) * Cert.Spec.eighth) i
      = ∑ s ∈ Finset.range 16384, L s := by
  rw [sum_idx3]
  have h : ∀ a : Fin 128, (∑ b : Fin 8, ∑ c : Fin 128,
      N3 128 8 128 (fun t _ l => L (t * 128 + l) * Cert.Spec.eighth) (ix3 a b c)) = ∑ c : Fin 128, L (a.val * 128 + c.val) := by
    intro a
    show ∑ b : Fin 8, ∑ c : Fin 128, L (a.val * 128 + c.val) * Cert.Spec.eighth = _
    rw [Finset.sum_comm]
    exact Finset.sum_congr rfl fun c _ => eight_eighths _
  rw [Finset.sum_congr rfl fun a _ => h a]
  have h2 : ∀ a : ℕ, ∑ c : Fin 128, L (a * 128 + c.val) = ∑ c ∈ Finset.range 128, L (a * 128 + c) :=
    fun a => Fin.sum_univ_eq_sum_range (fun c => L (a * 128 + c)) 128
  rw [Finset.sum_congr rfl fun a _ => h2 a.val]
  rw [Fin.sum_univ_eq_sum_range (fun a => ∑ c ∈ Finset.range 128, L (a * 128 + c)) 128]
  exact sum_range_blocks L 128 128

/-! ## The lines after the region -/

/-- The host's sum of a whole result array into a scalar, from zero. -/
theorem host_sum (x : S128x8x128.Idx → EReal) (i : S_.Idx) :
    Host.reduceAdd (F := Ideal) (φ := .f32) x (constant S_ .f32 0x00000000#32) reducesTo_S128x8x128_S_d0_1_2 h_S_ i
      = ∑ k, x k := by
  show Ideal.hostReduceAdd reducesTo_S128x8x128_S_d0_1_2 x (Ideal.ofBits .f32 0x00000000#32) i = _
  rw [Ideal.hostReduceAdd_total _ (fun b => b.elim0), Ideal.ofBits_zero_f32, zero_add]

/-- The result: both result arrays summed, each sum divided by the number of samples, weighted and added. -/
theorem tail_v21 (c : Dev nD) :
    Pipeline.afterTail₀ cfgs (dats m) 0 (V0 m) [hostOps1] c main_v21
      = N0 (Cert.Spec.loss (pts (m ((c.tc : Thread nD τ).loc main_arg0))) (pts (m ((c.tc : Thread nD τ).loc main_arg1)))) := by
  unfold Pipeline.afterTail₀
  show StableHlo.after hostOps1 _ (Proc.devRef .tc main_v21) = _
  after_results
  have h4 := (Pipeline.withArrays_arr spec0 launch0.win.arr_inj c (V0 m c) (fun w => (dats m 0 c).arrAt w cfg0.N) 4).trans
    (final4 m c)
  have h5 := (Pipeline.withArrays_arr spec0 launch0.win.arr_inj c (V0 m c) (fun w => (dats m 0 c).arrAt w cfg0.N) 5).trans
    (final5 m c)
  rw [show Pipeline.withArrays (cfgs 0).spec c (V0 m c) (fun w => (dats m 0 c).arrAt w (cfgs 0).N) (Proc.devRef .tc main_v14_0)
        = landArr (m ((c.tc : Thread nD τ).loc main_arg0)) (m ((c.tc : Thread nD τ).loc main_arg1)) from h4,
    show Pipeline.withArrays (cfgs 0).spec c (V0 m c) (fun w => (dats m 0 c).arrAt w (cfgs 0).N) (Proc.devRef .tc main_v14_1)
        = curveArr (m ((c.tc : Thread nD τ).loc main_arg0)) (m ((c.tc : Thread nD τ).loc main_arg1)) from h5]
  funext i
  show Cert.Spec.w08 * Ideal.div (Host.reduceAdd (F := Ideal) (φ := .f32) (landArr _ _) (constant S_ .f32 0x00000000#32)
        reducesTo_S128x8x128_S_d0_1_2 h_S_ i) Cert.Spec.w16384
      + Cert.Spec.w02 * Ideal.div (Host.reduceAdd (F := Ideal) (φ := .f32) (curveArr _ _) (constant S_ .f32 0x00000000#32)
        reducesTo_S128x8x128_S_d0_1_2 h_S_ i) Cert.Spec.w16384 = _
  rw [host_sum, host_sum]
  unfold landArr curveArr
  rw [sum_rows, sum_rows]
  rfl

end Value

/-! ## The run -/

/-- Every weakly fair execution of the idealized kernel's @main ends with its result at the loss of the two
    argument arrays, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = N0 (Cert.Spec.loss (pts (m ((c.tc : Thread nD τ).loc main_arg0))) (pts (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v21 (Pipeline.mem_restRefs_of main_v21 (by decide) (by decide))).trans (tail_v21 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (Gen.run_main m ρ)

end Cert.KernelIdeal.Arrays

end
-- ==== Proof.RefStages.lean ====
/- The reference program's operations as STAGES: one definition per operation, the value it writes as a function of
   the two argument arrays, each built from the stages of its operands (x0 the prediction, x1 the truth). -/
import proofs.«429135_j77395310674027_3_alg».proof.Proof.Gen.ReferenceIdeal
import Idealize.ShloMosaic.Lib.Pipeline.Value

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg0 : (tensor<16384x196xf32>) -> tensor<16384x98x2xf32>
def val_main_v0 (x0 : (⟨S16384x196, .f32⟩ : BufTy).Contents (Elt F)) : (⟨S16384x98x2, .f32⟩ : BufTy).Contents (Elt F) :=
  shapeCast _ (x0) shapeCasts_S16384x196_S16384x98x2

-- %1 = stablehlo.reshape %arg1 : (tensor<16384x196xf32>) -> tensor<16384x98x2xf32>
def val_main_v1 (x1 : (⟨S16384x196, .f32⟩ : BufTy).Contents (Elt F)) : (⟨S16384x98x2, .f32⟩ : BufTy).Contents (Elt F) :=
  shapeCast _ (x1) shapeCasts_S16384x196_S16384x98x2

-- %2 = stablehlo.subtract %0, %1 : tensor<16384x98x2xf32>
def val_main_v2 (x0 x1 : (⟨S16384x196, .f32⟩ : BufTy).Contents (Elt F)) : (⟨S16384x98x2, .f32⟩ : BufTy).Contents (Elt F) :=
  subf (val_main_v0 (F := F) x0) (val_main_v1 (F := F) x1)

-- @norm's %0 = stablehlo.multiply %arg0, %arg0 : tensor<16384x98x2xf32>, in %3 = func.call @norm(…) (record main_call0)
def val_main_call0_v0 (x0 x1 : (⟨S16384x196, .f32⟩ : BufTy).Contents (Elt F)) : (⟨S16384x98x2, .f32⟩ : BufTy).Contents (Elt F) :=
  mulf (val_main_v2 (F := F) x0 x1) (val_main_v2 (F := F) x0 x1)

-- @norm's %cst = stablehlo.constant dense<0.000000e+00> : tensor<f32>, in %3 = func.call @norm(…) (record main_call0)
def val_main_call0_cst : (⟨S_, .f32⟩ : BufTy).Contents (Elt F) :=
  constant S_ .f32 0x00000000#32

-- @norm's %1 = stablehlo.reduce(%0 init: %cst) applies stablehlo.add across dimensions = [2] : (tensor<16384x98x2xf32>, tensor<f32>) -> tensor<16384x98xf32> {, in %3 = func.call @norm(…) (record main_call0)
def val_main_call0_v1 (x0 x1 : (⟨S16384x196, .f32⟩ : BufTy).Contents (Elt F)) : (⟨S16384x98, .f32⟩ : BufTy).Contents (Elt F) :=
  Host.reduceAdd (val_main_call0_v0 (F := F) x0 x1) (val_main_call0_cst (F := F)) reducesTo_S16384x98x2_S16384x98_d2 h_S_

-- %3 = func.call @norm(…) (record main_call0) result 0: @norm's %2 = stablehlo.sqrt %1 : tensor<16384x98xf32>
def val_main_v3 (x0 x1 : (⟨S16384x196, .f32⟩ : BufTy).Contents (Elt F)) : (⟨S16384x98, .f32⟩ : BufTy).Contents (Elt F) :=
  Host.sqrt (val_main_call0_v1 (F := F) x0 x1)

-- %cst = stablehlo.constant dense<0.000000e+00> : tensor<f32>
def val_main_cst : (⟨S_, .f32⟩ : BufTy).Contents (Elt F) :=
  constant S_ .f32 0x00000000#32

-- %4 = stablehlo.reduce(%3 init: %cst) applies stablehlo.add across dimensions = [1] : (tensor<16384x98xf32>, tensor<f32>) -> tensor<16384xf32> {
def val_main_v4 (x0 x1 : (⟨S16384x196, .f32⟩ : BufTy).Contents (Elt F)) : (⟨S16384, .f32⟩ : BufTy).Contents (Elt F) :=
  Host.reduceAdd (val_main_v3 (F := F) x0 x1) (val_main_cst (F := F)) reducesTo_S16384x98_S16384_d1 h_S_

-- %cst_0 = stablehlo.constant dense<9.800000e+01> : tensor<f32>
def val_main_cst_0 : (⟨S_, .f32⟩ : BufTy).Contents (Elt F) :=
  constant S_ .f32 0x42C40000#32

-- %5 = stablehlo.broadcast_in_dim %cst_0, dims = [] : (tensor<f32>) -> tensor<16384xf32>
def val_main_v5 : (⟨S16384, .f32⟩ : BufTy).Contents (Elt F) :=
  broadcastInDim S16384 ![] bcast_S_S16384 (val_main_cst_0 (F := F))

-- %6 = stablehlo.divide %4, %5 : tensor<16384xf32>
def val_main_v6 (x0 x1 : (⟨S16384x196, .f32⟩ : BufTy).Contents (Elt F)) : (⟨S16384, .f32⟩ : BufTy).Contents (Elt F) :=
  Host.divf (val_main_v4 (F := F) x0 x1) (val_main_v5 (F := F))

-- %7 = stablehlo.slice %1 [0:16384, 60:61, 0:2] : (tensor<16384x98x2xf32>) -> tensor<16384x1x2xf32>
def val_main_v7 (x1 : (⟨S16384x196, .f32⟩ : BufTy).Contents (Elt F)) : (⟨S16384x1x2, .f32⟩ : BufTy).Contents (Elt F) :=
  extractStridedSlice S16384x1x2 ![0, 60, 0] (val_main_v1 (F := F) x1) slices_S16384x98x2_S16384x1x2_0_60_0

-- %8 = stablehlo.reshape %7 : (tensor<16384x1x2xf32>) -> tensor<16384x2xf32>
def val_main_v8 (x1 : (⟨S16384x196, .f32⟩ : BufTy).Contents (Elt F)) : (⟨S16384x2, .f32⟩ : BufTy).Contents (Elt F) :=
  shapeCast _ (val_main_v7 (F := F) x1) shapeCasts_S16384x1x2_S16384x2

-- %9 = stablehlo.slice %1 [0:16384, 72:73, 0:2] : (tensor<16384x98x2xf32>) -> tensor<16384x1x2xf32>
def val_main_v9 (x1 : (⟨S16384x196, .f32⟩ : BufTy).Contents (Elt F)) : (⟨S16384x1x2, .f32⟩ : BufTy).Contents (Elt F) :=
  extractStridedSlice S16384x1x2 ![0, 72, 0] (val_main_v1 (F := F) x1) slices_S16384x98x2_S16384x1x2_0_72_0

-- %10 = stablehlo.reshape %9 : (tensor<16384x1x2xf32>) -> tensor<16384x2xf32>
def val_main_v10 (x1 : (⟨S16384x196, .f32⟩ : BufTy).Contents (Elt F)) : (⟨S16384x2, .f32⟩ : BufTy).Contents (Elt F) :=
  shapeCast _ (val_main_v9 (F := F) x1) shapeCasts_S16384x1x2_S16384x2

-- %11 = stablehlo.subtract %8, %10 : tensor<16384x2xf32>
def val_main_v11 (x1 : (⟨S16384x196, .f32⟩ : BufTy).Contents (Elt F)) : (⟨S16384x2, .f32⟩ : BufTy).Contents (Elt F) :=
  subf (val_main_v8 (F := F) x1) (val_main_v10 (F := F) x1)

-- @norm_0's %0 = stablehlo.multiply %arg0, %arg0 : tensor<16384x2xf32>, in %12 = func.call @norm_0(…) (record main_call1)
def val_main_call1_v0 (x1 : (⟨S16384x196, .f32⟩ : BufTy).Contents (Elt F)) : (⟨S16384x2, .f32⟩ : BufTy).Contents (Elt F) :=
  mulf (val_main_v11 (F := F) x1) (val_main_v11 (F := F) x1)

-- @norm_0's %cst = stablehlo.constant dense<0.000000e+00> : tensor<f32>, in %12 = func.call @norm_0(…) (record main_call1)
def val_main_call1_cst : (⟨S_, .f32⟩ : BufTy).Contents (Elt F) :=
  constant S_ .f32 0x00000000#32

-- @norm_0's %1 = stablehlo.reduce(%0 init: %cst) applies stablehlo.add across dimensions = [1] : (tensor<16384x2xf32>, tensor<f32>) -> tensor<16384xf32> {, in %12 = func.call @norm_0(…) (record main_call1)
def val_main_call1_v1 (x1 : (⟨S16384x196, .f32⟩ : BufTy).Contents (Elt F)) : (⟨S16384, .f32⟩ : BufTy).Contents (Elt F) :=
  Host.reduceAdd (val_main_call1_v0 (F := F) x1) (val_main_call1_cst (F := F)) reducesTo_S16384x2_S16384_d1 h_S_

-- %12 = func.call @norm_0(…) (record main_call1) result 0: @norm_0's %2 = stablehlo.sqrt %1 : tensor<16384xf32>
def val_main_v12 (x1 : (⟨S16384x196, .f32⟩ : BufTy).Contents (Elt F)) : (⟨S16384, .f32⟩ : BufTy).Contents (Elt F) :=
  Host.sqrt (val_main_call1_v1 (F := F) x1)

-- %13 = stablehlo.divide %6, %12 : tensor<16384xf32>
def val_main_v13 (x0 x1 : (⟨S16384x196, .f32⟩ : BufTy).Contents (Elt F)) : (⟨S16384, .f32⟩ : BufTy).Contents (Elt F) :=
  Host.divf (val_main_v6 (F := F) x0 x1) (val_main_v12 (F := F) x1)

-- %cst_1 = stablehlo.constant dense<0.000000e+00> : tensor<f32>
def val_main_cst_1 : (⟨S_, .f32⟩ : BufTy).Contents (Elt F) :=
  constant S_ .f32 0x00000000#32

-- %14 = stablehlo.reduce(%13 init: %cst_1) applies stablehlo.add across dimensions = [0] : (tensor<16384xf32>, tensor<f32>) -> tensor<f32> {
def val_main_v14 (x0 x1 : (⟨S16384x196, .f32⟩ : BufTy).Contents (Elt F)) : (⟨S_, .f32⟩ : BufTy).Contents (Elt F) :=
  Host.reduceAdd (val_main_v13 (F := F) x0 x1) (val_main_cst_1 (F := F)) reducesTo_S16384_S_d0 h_S_

-- %cst_2 = stablehlo.constant dense<1.638400e+04> : tensor<f32>
def val_main_cst_2 : (⟨S_, .f32⟩ : BufTy).Contents (Elt F) :=
  constant S_ .f32 0x46800000#32

-- %15 = stablehlo.divide %14, %cst_2 : tensor<f32>
def val_main_v15 (x0 x1 : (⟨S16384x196, .f32⟩ : BufTy).Contents (Elt F)) : (⟨S_, .f32⟩ : BufTy).Contents (Elt F) :=
  Host.divf (val_main_v14 (F := F) x0 x1) (val_main_cst_2 (F := F))

-- %cst_3 = stablehlo.constant dense<0.000000e+00> : tensor<f32>
def val_main_cst_3 : (⟨S_, .f32⟩ : BufTy).Contents (Elt F) :=
  constant S_ .f32 0x00000000#32

-- %16 = stablehlo.broadcast_in_dim %cst_3, dims = [] : (tensor<f32>) -> tensor<16384xf32>
def val_main_v16 : (⟨S16384, .f32⟩ : BufTy).Contents (Elt F) :=
  broadcastInDim S16384 ![] bcast_S_S16384 (val_main_cst_3 (F := F))

-- %17 = stablehlo.slice %0 [0:16384, 0:33, 0:2] : (tensor<16384x98x2xf32>) -> tensor<16384x33x2xf32>
def val_main_v17 (x0 : (⟨S16384x196, .f32⟩ : BufTy).Contents (Elt F)) : (⟨S16384x33x2, .f32⟩ : BufTy).Contents (Elt F) :=
  extractStridedSlice S16384x33x2 ![0, 0, 0] (val_main_v0 (F := F) x0) slices_S16384x98x2_S16384x33x2_0_0_0

-- %18 = stablehlo.slice %1 [0:16384, 0:33, 0:2] : (tensor<16384x98x2xf32>) -> tensor<16384x33x2xf32>
def val_main_v18 (x1 : (⟨S16384x196, .f32⟩ : BufTy).Contents (Elt F)) : (⟨S16384x33x2, .f32⟩ : BufTy).Contents (Elt F) :=
  extractStridedSlice S16384x33x2 ![0, 0, 0] (val_main_v1 (F := F) x1) slices_S16384x98x2_S16384x33x2_0_0_0

-- %19 = stablehlo.slice %17 [0:16384, 0:32, 0:2] : (tensor<16384x33x2xf32>) -> tensor<16384x32x2xf32>
def val_main_v19 (x0 : (⟨S16384x196, .f32⟩ : BufTy).Contents (Elt F)) : (⟨S16384x32x2, .f32⟩ : BufTy).Contents (Elt F) :=
  extractStridedSlice S16384x32x2 ![0, 0, 0] (val_main_v17 (F := F) x0) slices_S16384x33x2_S16384x32x2_0_0_0

-- %20 = stablehlo.slice %17 [0:16384, 1:33, 0:2] : (tensor<16384x33x2xf32>) -> tensor<16384x32x2xf32>
def val_main_v20 (x0 : (⟨S16384x196, .f32⟩ : BufTy).Contents (Elt F)) : (⟨S16384x32x2, .f32⟩ : BufTy).Contents (Elt F) :=
  extractStridedSlice S16384x32x2 ![0, 1, 0] (val_main_v17 (F := F) x0) slices_S16384x33x2_S16384x32x2_0_1_0

-- %21 = stablehlo.add %19, %20 : tensor<16384x32x2xf32>
def val_main_v21 (x0 : (⟨S16384x196, .f32⟩ : BufTy).Contents (Elt F)) : (⟨S16384x32x2, .f32⟩ : BufTy).Contents (Elt F) :=
  addf (val_main_v19 (F := F) x0) (val_main_v20 (F := F) x0)

-- %cst_4 = stablehlo.constant dense<5.000000e-01> : tensor<f32>
def val_main_cst_4 : (⟨S_, .f32⟩ : BufTy).Contents (Elt F) :=
  constant S_ .f32 0x3F000000#32

-- %22 = stablehlo.broadcast_in_dim %cst_4, dims = [] : (tensor<f32>) -> tensor<16384x32x2xf32>
def val_main_v22 : (⟨S16384x32x2, .f32⟩ : BufTy).Contents (Elt F) :=
  broadcastInDim S16384x32x2 ![] bcast_S_S16384x32x2 (val_main_cst_4 (F := F))

-- %23 = stablehlo.multiply %21, %22 : tensor<16384x32x2xf32>
def val_main_v23 (x0 : (⟨S16384x196, .f32⟩ : BufTy).Contents (Elt F)) : (⟨S16384x32x2, .f32⟩ : BufTy).Contents (Elt F) :=
  mulf (val_main_v21 (F := F) x0) (val_main_v22 (F := F))

-- %24 = stablehlo.slice %17 [0:16384, 1:33, 0:2] : (tensor<16384x33x2xf32>) -> tensor<16384x32x2xf32>
def val_main_v24 (x0 : (⟨S16384x196, .f32⟩ : BufTy).Contents (Elt F)) : (⟨S16384x32x2, .f32⟩ : BufTy).Contents (Elt F) :=
  extractStridedSlice S16384x32x2 ![0, 1, 0] (val_main_v17 (F := F) x0) slices_S16384x33x2_S16384x32x2_0_1_0

-- %25 = stablehlo.slice %17 [0:16384, 0:32, 0:2] : (tensor<16384x33x2xf32>) -> tensor<16384x32x2xf32>
def val_main_v25 (x0 : (⟨S16384x196, .f32⟩ : BufTy).Contents (Elt F)) : (⟨S16384x32x2, .f32⟩ : BufTy).Contents (Elt F) :=
  extractStridedSlice S16384x32x2 ![0, 0, 0] (val_main_v17 (F := F) x0) slices_S16384x33x2_S16384x32x2_0_0_0

-- %26 = stablehlo.subtract %24, %25 : tensor<16384x32x2xf32>
def val_main_v26 (x0 : (⟨S16384x196, .f32⟩ : BufTy).Contents (Elt F)) : (⟨S16384x32x2, .f32⟩ : BufTy).Contents (Elt F) :=
  subf (val_main_v24 (F := F) x0) (val_main_v25 (F := F) x0)

-- %27 = stablehlo.slice %18 [0:16384, 0:32, 0:2] : (tensor<16384x33x2xf32>) -> tensor<16384x32x2xf32>
def val_main_v27 (x1 : (⟨S16384x196, .f32⟩ : BufTy).Contents (Elt F)) : (⟨S16384x32x2, .f32⟩ : BufTy).Contents (Elt F) :=
  extractStridedSlice S16384x32x2 ![0, 0, 0] (val_main_v18 (F := F) x1) slices_S16384x33x2_S16384x32x2_0_0_0

-- %28 = stablehlo.slice %18 [0:16384, 1:33, 0:2] : (tensor<16384x33x2xf32>) -> tensor<16384x32x2xf32>
def val_main_v28 (x1 : (⟨S16384x196, .f32⟩ : BufTy).Contents (Elt F)) : (⟨S16384x32x2, .f32⟩ : BufTy).Contents (Elt F) :=
  extractStridedSlice S16384x32x2 ![0, 1, 0] (val_main_v18 (F := F) x1) slices_S16384x33x2_S16384x32x2_0_1_0

-- %29 = stablehlo.add %27, %28 : tensor<16384x32x2xf32>
def val_main_v29 (x1 : (⟨S16384x196, .f32⟩ : BufTy).Contents (Elt F)) : (⟨S16384x32x2, .f32⟩ : BufTy).Contents (Elt F) :=
  addf (val_main_v27 (F := F) x1) (val_main_v28 (F := F) x1)

-- %cst_5 = stablehlo.constant dense<5.000000e-01> : tensor<f32>
def val_main_cst_5 : (⟨S_, .f32⟩ : BufTy).Contents (Elt F) :=
  constant S_ .f32 0x3F000000#32

-- %30 = stablehlo.broadcast_in_dim %cst_5, dims = [] : (tensor<f32>) -> tensor<16384x32x2xf32>
def val_main_v30 : (⟨S16384x32x2, .f32⟩ : BufTy).Contents (Elt F) :=
  broadcastInDim S16384x32x2 ![] bcast_S_S16384x32x2 (val_main_cst_5 (F := F))

-- %31 = stablehlo.multiply %29, %30 : tensor<16384x32x2xf32>
def val_main_v31 (x1 : (⟨S16384x196, .f32⟩ : BufTy).Contents (Elt F)) : (⟨S16384x32x2, .f32⟩ : BufTy).Contents (Elt F) :=
  mulf (val_main_v29 (F := F) x1) (val_main_v30 (F := F))

-- %32 = stablehlo.slice %18 [0:16384, 1:33, 0:2] : (tensor<16384x33x2xf32>) -> tensor<16384x32x2xf32>
def val_main_v32 (x1 : (⟨S16384x196, .f32⟩ : BufTy).Contents (Elt F)) : (⟨S16384x32x2, .f32⟩ : BufTy).Contents (Elt F) :=
  extractStridedSlice S16384x32x2 ![0, 1, 0] (val_main_v18 (F := F) x1) slices_S16384x33x2_S16384x32x2_0_1_0

-- %33 = stablehlo.slice %18 [0:16384, 0:32, 0:2] : (tensor<16384x33x2xf32>) -> tensor<16384x32x2xf32>
def val_main_v33 (x1 : (⟨S16384x196, .f32⟩ : BufTy).Contents (Elt F)) : (⟨S16384x32x2, .f32⟩ : BufTy).Contents (Elt F) :=
  extractStridedSlice S16384x32x2 ![0, 0, 0] (val_main_v18 (F := F) x1) slices_S16384x33x2_S16384x32x2_0_0_0

-- %34 = stablehlo.subtract %32, %33 : tensor<16384x32x2xf32>
def val_main_v34 (x1 : (⟨S16384x196, .f32⟩ : BufTy).Contents (Elt F)) : (⟨S16384x32x2, .f32⟩ : BufTy).Contents (Elt F) :=
  subf (val_main_v32 (F := F) x1) (val_main_v33 (F := F) x1)

-- %35 = stablehlo.concatenate %23, %31, dim = 1 : (tensor<16384x32x2xf32>, tensor<16384x32x2xf32>) -> tensor<16384x64x2xf32>
def val_main_v35 (x0 x1 : (⟨S16384x196, .f32⟩ : BufTy).Contents (Elt F)) : (⟨S16384x64x2, .f32⟩ : BufTy).Contents (Elt F) :=
  concatenate S16384x64x2 1 [⟨S16384x32x2, (val_main_v23 (F := F) x0)⟩, ⟨S16384x32x2, (val_main_v31 (F := F) x1)⟩] concatenates_S16384x32x2_S16384x32x2_S16384x64x2_d1

-- %36 = stablehlo.negate %34 : tensor<16384x32x2xf32>
def val_main_v36 (x1 : (⟨S16384x196, .f32⟩ : BufTy).Contents (Elt F)) : (⟨S16384x32x2, .f32⟩ : BufTy).Contents (Elt F) :=
  Host.negf (val_main_v34 (F := F) x1)

-- %37 = stablehlo.concatenate %26, %36, dim = 1 : (tensor<16384x32x2xf32>, tensor<16384x32x2xf32>) -> tensor<16384x64x2xf32>
def val_main_v37 (x0 x1 : (⟨S16384x196, .f32⟩ : BufTy).Contents (Elt F)) : (⟨S16384x64x2, .f32⟩ : BufTy).Contents (Elt F) :=
  concatenate S16384x64x2 1 [⟨S16384x32x2, (val_main_v26 (F := F) x0)⟩, ⟨S16384x32x2, (val_main_v36 (F := F) x1)⟩] concatenates_S16384x32x2_S16384x32x2_S16384x64x2_d1

-- %38 = stablehlo.broadcast_in_dim %35, dims = [0, 1, 3] : (tensor<16384x64x2xf32>) -> tensor<16384x64x1x2xf32>
def val_main_v38 (x0 x1 : (⟨S16384x196, .f32⟩ : BufTy).Contents (Elt F)) : (⟨S16384x64x1x2, .f32⟩ : BufTy).Contents (Elt F) :=
  broadcastInDim S16384x64x1x2 ![0, 1, 3] bcast_S16384x64x2_S16384x64x1x2_0_1_3 (val_main_v35 (F := F) x0 x1)

-- %39 = stablehlo.broadcast_in_dim %35, dims = [0, 2, 3] : (tensor<16384x64x2xf32>) -> tensor<16384x1x64x2xf32>
def val_main_v39 (x0 x1 : (⟨S16384x196, .f32⟩ : BufTy).Contents (Elt F)) : (⟨S16384x1x64x2, .f32⟩ : BufTy).Contents (Elt F) :=
  broadcastInDim S16384x1x64x2 ![0, 2, 3] bcast_S16384x64x2_S16384x1x64x2_0_2_3 (val_main_v35 (F := F) x0 x1)

-- %40 = stablehlo.broadcast_in_dim %38, dims = [0, 1, 2, 3] : (tensor<16384x64x1x2xf32>) -> tensor<16384x64x64x2xf32>
def val_main_v40 (x0 x1 : (⟨S16384x196, .f32⟩ : BufTy).Contents (Elt F)) : (⟨S16384x64x64x2, .f32⟩ : BufTy).Contents (Elt F) :=
  broadcastInDim S16384x64x64x2 ![0, 1, 2, 3] bcast_S16384x64x1x2_S16384x64x64x2_0_1_2_3 (val_main_v38 (F := F) x0 x1)

-- %41 = stablehlo.broadcast_in_dim %39, dims = [0, 1, 2, 3] : (tensor<16384x1x64x2xf32>) -> tensor<16384x64x64x2xf32>
def val_main_v41 (x0 x1 : (⟨S16384x196, .f32⟩ : BufTy).Contents (Elt F)) : (⟨S16384x64x64x2, .f32⟩ : BufTy).Contents (Elt F) :=
  broadcastInDim S16384x64x64x2 ![0, 1, 2, 3] bcast_S16384x1x64x2_S16384x64x64x2_0_1_2_3 (val_main_v39 (F := F) x0 x1)

-- %42 = stablehlo.subtract %40, %41 : tensor<16384x64x64x2xf32>
def val_main_v42 (x0 x1 : (⟨S16384x196, .f32⟩ : BufTy).Contents (Elt F)) : (⟨S16384x64x64x2, .f32⟩ : BufTy).Contents (Elt F) :=
  subf (val_main_v40 (F := F) x0 x1) (val_main_v41 (F := F) x0 x1)

-- %43 = stablehlo.multiply %42, %42 : tensor<16384x64x64x2xf32>
def val_main_v43 (x0 x1 : (⟨S16384x196, .f32⟩ : BufTy).Contents (Elt F)) : (⟨S16384x64x64x2, .f32⟩ : BufTy).Contents (Elt F) :=
  mulf (val_main_v42 (F := F) x0 x1) (val_main_v42 (F := F) x0 x1)

-- %cst_6 = stablehlo.constant dense<0.000000e+00> : tensor<f32>
def val_main_cst_6 : (⟨S_, .f32⟩ : BufTy).Contents (Elt F) :=
  constant S_ .f32 0x00000000#32

-- %44 = stablehlo.reduce(%43 init: %cst_6) applies stablehlo.add across dimensions = [3] : (tensor<16384x64x64x2xf32>, tensor<f32>) -> tensor<16384x64x64xf32> {
def val_main_v44 (x0 x1 : (⟨S16384x196, .f32⟩ : BufTy).Contents (Elt F)) : (⟨S16384x64x64, .f32⟩ : BufTy).Contents (Elt F) :=
  Host.reduceAdd (val_main_v43 (F := F) x0 x1) (val_main_cst_6 (F := F)) reducesTo_S16384x64x64x2_S16384x64x64_d3 h_S_

-- %45 = stablehlo.negate %44 : tensor<16384x64x64xf32>
def val_main_v45 (x0 x1 : (⟨S16384x196, .f32⟩ : BufTy).Contents (Elt F)) : (⟨S16384x64x64, .f32⟩ : BufTy).Contents (Elt F) :=
  Host.negf (val_main_v44 (F := F) x0 x1)

-- %cst_7 = stablehlo.constant dense<1.500000e+01> : tensor<f32>
def val_main_cst_7 : (⟨S_, .f32⟩ : BufTy).Contents (Elt F) :=
  constant S_ .f32 0x41700000#32

-- %46 = stablehlo.broadcast_in_dim %cst_7, dims = [] : (tensor<f32>) -> tensor<16384x64x64xf32>
def val_main_v46 : (⟨S16384x64x64, .f32⟩ : BufTy).Contents (Elt F) :=
  broadcastInDim S16384x64x64 ![] bcast_S_S16384x64x64 (val_main_cst_7 (F := F))

-- %47 = stablehlo.divide %45, %46 : tensor<16384x64x64xf32>
def val_main_v47 (x0 x1 : (⟨S16384x196, .f32⟩ : BufTy).Contents (Elt F)) : (⟨S16384x64x64, .f32⟩ : BufTy).Contents (Elt F) :=
  Host.divf (val_main_v45 (F := F) x0 x1) (val_main_v46 (F := F))

-- %48 = stablehlo.exponential %47 : tensor<16384x64x64xf32>
def val_main_v48 (x0 x1 : (⟨S16384x196, .f32⟩ : BufTy).Contents (Elt F)) : (⟨S16384x64x64, .f32⟩ : BufTy).Contents (Elt F) :=
  Host.exp (val_main_v47 (F := F) x0 x1)

-- %49 = stablehlo.dot_general %37, %37, batching_dims = [0] x [0], contracting_dims = [2] x [2], precision = [DEFAULT, DEFAULT] : (tensor<16384x64x2xf32>, tensor<16384x64x2xf32>) -> tensor<16384x64x64xf32>
def val_main_v49 (x0 x1 : (⟨S16384x196, .f32⟩ : BufTy).Contents (Elt F)) : (⟨S16384x64x64, .f32⟩ : BufTy).Contents (Elt F) :=
  Host.dotGeneral dot_S16384x64x2_S16384x64x2_S16384x64x64_2_2_1_1_0_0 none (val_main_v37 (F := F) x0 x1) (val_main_v37 (F := F) x0 x1)

-- %50 = stablehlo.multiply %48, %49 : tensor<16384x64x64xf32>
def val_main_v50 (x0 x1 : (⟨S16384x196, .f32⟩ : BufTy).Contents (Elt F)) : (⟨S16384x64x64, .f32⟩ : BufTy).Contents (Elt F) :=
  mulf (val_main_v48 (F := F) x0 x1) (val_main_v49 (F := F) x0 x1)

-- %cst_8 = stablehlo.constant dense<0.000000e+00> : tensor<f32>
def val_main_cst_8 : (⟨S_, .f32⟩ : BufTy).Contents (Elt F) :=
  constant S_ .f32 0x00000000#32

-- %51 = stablehlo.reduce(%50 init: %cst_8) applies stablehlo.add across dimensions = [1, 2] : (tensor<16384x64x64xf32>, tensor<f32>) -> tensor<16384xf32> {
def val_main_v51 (x0 x1 : (⟨S16384x196, .f32⟩ : BufTy).Contents (Elt F)) : (⟨S16384, .f32⟩ : BufTy).Contents (Elt F) :=
  Host.reduceAdd (val_main_v50 (F := F) x0 x1) (val_main_cst_8 (F := F)) reducesTo_S16384x64x64_S16384_d1_2 h_S_

-- %52 = stablehlo.add %16, %51 : tensor<16384xf32>
def val_main_v52 (x0 x1 : (⟨S16384x196, .f32⟩ : BufTy).Contents (Elt F)) : (⟨S16384, .f32⟩ : BufTy).Contents (Elt F) :=
  addf (val_main_v16 (F := F)) (val_main_v51 (F := F) x0 x1)

-- %53 = stablehlo.slice %0 [0:16384, 33:42, 0:2] : (tensor<16384x98x2xf32>) -> tensor<16384x9x2xf32>
def val_main_v53 (x0 : (⟨S16384x196, .f32⟩ : BufTy).Contents (Elt F)) : (⟨S16384x9x2, .f32⟩ : BufTy).Contents (Elt F) :=
  extractStridedSlice S16384x9x2 ![0, 33, 0] (val_main_v0 (F := F) x0) slices_S16384x98x2_S16384x9x2_0_33_0

-- %54 = stablehlo.slice %1 [0:16384, 33:42, 0:2] : (tensor<16384x98x2xf32>) -> tensor<16384x9x2xf32>
def val_main_v54 (x1 : (⟨S16384x196, .f32⟩ : BufTy).Contents (Elt F)) : (⟨S16384x9x2, .f32⟩ : BufTy).Contents (Elt F) :=
  extractStridedSlice S16384x9x2 ![0, 33, 0] (val_main_v1 (F := F) x1) slices_S16384x98x2_S16384x9x2_0_33_0

-- %55 = stablehlo.slice %53 [0:16384, 0:8, 0:2] : (tensor<16384x9x2xf32>) -> tensor<16384x8x2xf32>
def val_main_v55 (x0 : (⟨S16384x196, .f32⟩ : BufTy).Contents (Elt F)) : (⟨S16384x8x2, .f32⟩ : BufTy).Contents (Elt F) :=
  extractStridedSlice S16384x8x2 ![0, 0, 0] (val_main_v53 (F := F) x0) slices_S16384x9x2_S16384x8x2_0_0_0

-- %56 = stablehlo.slice %53 [0:16384, 1:9, 0:2] : (tensor<16384x9x2xf32>) -> tensor<16384x8x2xf32>
def val_main_v56 (x0 : (⟨S16384x196, .f32⟩ : BufTy).Contents (Elt F)) : (⟨S16384x8x2, .f32⟩ : BufTy).Contents (Elt F) :=
  extractStridedSlice S16384x8x2 ![0, 1, 0] (val_main_v53 (F := F) x0) slices_S16384x9x2_S16384x8x2_0_1_0

-- %57 = stablehlo.add %55, %56 : tensor<16384x8x2xf32>
def val_main_v57 (x0 : (⟨S16384x196, .f32⟩ : BufTy).Contents (Elt F)) : (⟨S16384x8x2, .f32⟩ : BufTy).Contents (Elt F) :=
  addf (val_main_v55 (F := F) x0) (val_main_v56 (F := F) x0)

-- %cst_9 = stablehlo.constant dense<5.000000e-01> : tensor<f32>
def val_main_cst_9 : (⟨S_, .f32⟩ : BufTy).Contents (Elt F) :=
  constant S_ .f32 0x3F000000#32

-- %58 = stablehlo.broadcast_in_dim %cst_9, dims = [] : (tensor<f32>) -> tensor<16384x8x2xf32>
def val_main_v58 : (⟨S16384x8x2, .f32⟩ : BufTy).Contents (Elt F) :=
  broadcastInDim S16384x8x2 ![] bcast_S_S16384x8x2 (val_main_cst_9 (F := F))

-- %59 = stablehlo.multiply %57, %58 : tensor<16384x8x2xf32>
def val_main_v59 (x0 : (⟨S16384x196, .f32⟩ : BufTy).Contents (Elt F)) : (⟨S16384x8x2, .f32⟩ : BufTy).Contents (Elt F) :=
  mulf (val_main_v57 (F := F) x0) (val_main_v58 (F := F))

-- %60 = stablehlo.slice %53 [0:16384, 1:9, 0:2] : (tensor<16384x9x2xf32>) -> tensor<16384x8x2xf32>
def val_main_v60 (x0 : (⟨S16384x196, .f32⟩ : BufTy).Contents (Elt F)) : (⟨S16384x8x2, .f32⟩ : BufTy).Contents (Elt F) :=
  extractStridedSlice S16384x8x2 ![0, 1, 0] (val_main_v53 (F := F) x0) slices_S16384x9x2_S16384x8x2_0_1_0

-- %61 = stablehlo.slice %53 [0:16384, 0:8, 0:2] : (tensor<16384x9x2xf32>) -> tensor<16384x8x2xf32>
def val_main_v61 (x0 : (⟨S16384x196, .f32⟩ : BufTy).Contents (Elt F)) : (⟨S16384x8x2, .f32⟩ : BufTy).Contents (Elt F) :=
  extractStridedSlice S16384x8x2 ![0, 0, 0] (val_main_v53 (F := F) x0) slices_S16384x9x2_S16384x8x2_0_0_0

-- %62 = stablehlo.subtract %60, %61 : tensor<16384x8x2xf32>
def val_main_v62 (x0 : (⟨S16384x196, .f32⟩ : BufTy).Contents (Elt F)) : (⟨S16384x8x2, .f32⟩ : BufTy).Contents (Elt F) :=
  subf (val_main_v60 (F := F) x0) (val_main_v61 (F := F) x0)

-- %63 = stablehlo.slice %54 [0:16384, 0:8, 0:2] : (tensor<16384x9x2xf32>) -> tensor<16384x8x2xf32>
def val_main_v63 (x1 : (⟨S16384x196, .f32⟩ : BufTy).Contents (Elt F)) : (⟨S16384x8x2, .f32⟩ : BufTy).Contents (Elt F) :=
  extractStridedSlice S16384x8x2 ![0, 0, 0] (val_main_v54 (F := F) x1) slices_S16384x9x2_S16384x8x2_0_0_0

-- %64 = stablehlo.slice %54 [0:16384, 1:9, 0:2] : (tensor<16384x9x2xf32>) -> tensor<16384x8x2xf32>
def val_main_v64 (x1 : (⟨S16384x196, .f32⟩ : BufTy).Contents (Elt F)) : (⟨S16384x8x2, .f32⟩ : BufTy).Contents (Elt F) :=
  extractStridedSlice S16384x8x2 ![0, 1, 0] (val_main_v54 (F := F) x1) slices_S16384x9x2_S16384x8x2_0_1_0

-- %65 = stablehlo.add %63, %64 : tensor<16384x8x2xf32>
def val_main_v65 (x1 : (⟨S16384x196, .f32⟩ : BufTy).Contents (Elt F)) : (⟨S16384x8x2, .f32⟩ : BufTy).Contents (Elt F) :=
  addf (val_main_v63 (F := F) x1) (val_main_v64 (F := F) x1)

-- %cst_10 = stablehlo.constant dense<5.000000e-01> : tensor<f32>
def val_main_cst_10 : (⟨S_, .f32⟩ : BufTy).Contents (Elt F) :=
  constant S_ .f32 0x3F000000#32

-- %66 = stablehlo.broadcast_in_dim %cst_10, dims = [] : (tensor<f32>) -> tensor<16384x8x2xf32>
def val_main_v66 : (⟨S16384x8x2, .f32⟩ : BufTy).Contents (Elt F) :=
  broadcastInDim S16384x8x2 ![] bcast_S_S16384x8x2 (val_main_cst_10 (F := F))

-- %67 = stablehlo.multiply %65, %66 : tensor<16384x8x2xf32>
def val_main_v67 (x1 : (⟨S16384x196, .f32⟩ : BufTy).Contents (Elt F)) : (⟨S16384x8x2, .f32⟩ : BufTy).Contents (Elt F) :=
  mulf (val_main_v65 (F := F) x1) (val_main_v66 (F := F))

-- %68 = stablehlo.slice %54 [0:16384, 1:9, 0:2] : (tensor<16384x9x2xf32>) -> tensor<16384x8x2xf32>
def val_main_v68 (x1 : (⟨S16384x196, .f32⟩ : BufTy).Contents (Elt F)) : (⟨S16384x8x2, .f32⟩ : BufTy).Contents (Elt F) :=
  extractStridedSlice S16384x8x2 ![0, 1, 0] (val_main_v54 (F := F) x1) slices_S16384x9x2_S16384x8x2_0_1_0

-- %69 = stablehlo.slice %54 [0:16384, 0:8, 0:2] : (tensor<16384x9x2xf32>) -> tensor<16384x8x2xf32>
def val_main_v69 (x1 : (⟨S16384x196, .f32⟩ : BufTy).Contents (Elt F)) : (⟨S16384x8x2, .f32⟩ : BufTy).Contents (Elt F) :=
  extractStridedSlice S16384x8x2 ![0, 0, 0] (val_main_v54 (F := F) x1) slices_S16384x9x2_S16384x8x2_0_0_0

-- %70 = stablehlo.subtract %68, %69 : tensor<16384x8x2xf32>
def val_main_v70 (x1 : (⟨S16384x196, .f32⟩ : BufTy).Contents (Elt F)) : (⟨S16384x8x2, .f32⟩ : BufTy).Contents (Elt F) :=
  subf (val_main_v68 (F := F) x1) (val_main_v69 (F := F) x1)

-- %71 = stablehlo.concatenate %59, %67, dim = 1 : (tensor<16384x8x2xf32>, tensor<16384x8x2xf32>) -> tensor<16384x16x2xf32>
def val_main_v71 (x0 x1 : (⟨S16384x196, .f32⟩ : BufTy).Contents (Elt F)) : (⟨S16384x16x2, .f32⟩ : BufTy).Contents (Elt F) :=
  concatenate S16384x16x2 1 [⟨S16384x8x2, (val_main_v59 (F := F) x0)⟩, ⟨S16384x8x2, (val_main_v67 (F := F) x1)⟩] concatenates_S16384x8x2_S16384x8x2_S16384x16x2_d1

-- %72 = stablehlo.negate %70 : tensor<16384x8x2xf32>
def val_main_v72 (x1 : (⟨S16384x196, .f32⟩ : BufTy).Contents (Elt F)) : (⟨S16384x8x2, .f32⟩ : BufTy).Contents (Elt F) :=
  Host.negf (val_main_v70 (F := F) x1)

-- %73 = stablehlo.concatenate %62, %72, dim = 1 : (tensor<16384x8x2xf32>, tensor<16384x8x2xf32>) -> tensor<16384x16x2xf32>
def val_main_v73 (x0 x1 : (⟨S16384x196, .f32⟩ : BufTy).Contents (Elt F)) : (⟨S16384x16x2, .f32⟩ : BufTy).Contents (Elt F) :=
  concatenate S16384x16x2 1 [⟨S16384x8x2, (val_main_v62 (F := F) x0)⟩, ⟨S16384x8x2, (val_main_v72 (F := F) x1)⟩] concatenates_S16384x8x2_S16384x8x2_S16384x16x2_d1

-- %74 = stablehlo.broadcast_in_dim %71, dims = [0, 1, 3] : (tensor<16384x16x2xf32>) -> tensor<16384x16x1x2xf32>
def val_main_v74 (x0 x1 : (⟨S16384x196, .f32⟩ : BufTy).Contents (Elt F)) : (⟨S16384x16x1x2, .f32⟩ : BufTy).Contents (Elt F) :=
  broadcastInDim S16384x16x1x2 ![0, 1, 3] bcast_S16384x16x2_S16384x16x1x2_0_1_3 (val_main_v71 (F := F) x0 x1)

-- %75 = stablehlo.broadcast_in_dim %71, dims = [0, 2, 3] : (tensor<16384x16x2xf32>) -> tensor<16384x1x16x2xf32>
def val_main_v75 (x0 x1 : (⟨S16384x196, .f32⟩ : BufTy).Contents (Elt F)) : (⟨S16384x1x16x2, .f32⟩ : BufTy).Contents (Elt F) :=
  broadcastInDim S16384x1x16x2 ![0, 2, 3] bcast_S16384x16x2_S16384x1x16x2_0_2_3 (val_main_v71 (F := F) x0 x1)

-- %76 = stablehlo.broadcast_in_dim %74, dims = [0, 1, 2, 3] : (tensor<16384x16x1x2xf32>) -> tensor<16384x16x16x2xf32>
def val_main_v76 (x0 x1 : (⟨S16384x196, .f32⟩ : BufTy).Contents (Elt F)) : (⟨S16384x16x16x2, .f32⟩ : BufTy).Contents (Elt F) :=
  broadcastInDim S16384x16x16x2 ![0, 1, 2, 3] bcast_S16384x16x1x2_S16384x16x16x2_0_1_2_3 (val_main_v74 (F := F) x0 x1)

-- %77 = stablehlo.broadcast_in_dim %75, dims = [0, 1, 2, 3] : (tensor<16384x1x16x2xf32>) -> tensor<16384x16x16x2xf32>
def val_main_v77 (x0 x1 : (⟨S16384x196, .f32⟩ : BufTy).Contents (Elt F)) : (⟨S16384x16x16x2, .f32⟩ : BufTy).Contents (Elt F) :=
  broadcastInDim S16384x16x16x2 ![0, 1, 2, 3] bcast_S16384x1x16x2_S16384x16x16x2_0_1_2_3 (val_main_v75 (F := F) x0 x1)

-- %78 = stablehlo.subtract %76, %77 : tensor<16384x16x16x2xf32>
def val_main_v78 (x0 x1 : (⟨S16384x196, .f32⟩ : BufTy).Contents (Elt F)) : (⟨S16384x16x16x2, .f32⟩ : BufTy).Contents (Elt F) :=
  subf (val_main_v76 (F := F) x0 x1) (val_main_v77 (F := F) x0 x1)

-- %79 = stablehlo.multiply %78, %78 : tensor<16384x16x16x2xf32>
def val_main_v79 (x0 x1 : (⟨S16384x196, .f32⟩ : BufTy).Contents (Elt F)) : (⟨S16384x16x16x2, .f32⟩ : BufTy).Contents (Elt F) :=
  mulf (val_main_v78 (F := F) x0 x1) (val_main_v78 (F := F) x0 x1)

-- %cst_11 = stablehlo.constant dense<0.000000e+00> : tensor<f32>
def val_main_cst_11 : (⟨S_, .f32⟩ : BufTy).Contents (Elt F) :=
  constant S_ .f32 0x00000000#32

-- %80 = stablehlo.reduce(%79 init: %cst_11) applies stablehlo.add across dimensions = [3] : (tensor<16384x16x16x2xf32>, tensor<f32>) -> tensor<16384x16x16xf32> {
def val_main_v80 (x0 x1 : (⟨S16384x196, .f32⟩ : BufTy).Contents (Elt F)) : (⟨S16384x16x16, .f32⟩ : BufTy).Contents (Elt F) :=
  Host.reduceAdd (val_main_v79 (F := F) x0 x1) (val_main_cst_11 (F := F)) reducesTo_S16384x16x16x2_S16384x16x16_d3 h_S_

-- %81 = stablehlo.negate %80 : tensor<16384x16x16xf32>
def val_main_v81 (x0 x1 : (⟨S16384x196, .f32⟩ : BufTy).Contents (Elt F)) : (⟨S16384x16x16, .f32⟩ : BufTy).Contents (Elt F) :=
  Host.negf (val_main_v80 (F := F) x0 x1)

-- %cst_12 = stablehlo.constant dense<1.500000e+01> : tensor<f32>
def val_main_cst_12 : (⟨S_, .f32⟩ : BufTy).Contents (Elt F) :=
  constant S_ .f32 0x41700000#32

-- %82 = stablehlo.broadcast_in_dim %cst_12, dims = [] : (tensor<f32>) -> tensor<16384x16x16xf32>
def val_main_v82 : (⟨S16384x16x16, .f32⟩ : BufTy).Contents (Elt F) :=
  broadcastInDim S16384x16x16 ![] bcast_S_S16384x16x16 (val_main_cst_12 (F := F))

-- %83 = stablehlo.divide %81, %82 : tensor<16384x16x16xf32>
def val_main_v83 (x0 x1 : (⟨S16384x196, .f32⟩ : BufTy).Contents (Elt F)) : (⟨S16384x16x16, .f32⟩ : BufTy).Contents (Elt F) :=
  Host.divf (val_main_v81 (F := F) x0 x1) (val_main_v82 (F := F))

-- %84 = stablehlo.exponential %83 : tensor<16384x16x16xf32>
def val_main_v84 (x0 x1 : (⟨S16384x196, .f32⟩ : BufTy).Contents (Elt F)) : (⟨S16384x16x16, .f32⟩ : BufTy).Contents (Elt F) :=
  Host.exp (val_main_v83 (F := F) x0 x1)

-- %85 = stablehlo.dot_general %73, %73, batching_dims = [0] x [0], contracting_dims = [2] x [2], precision = [DEFAULT, DEFAULT] : (tensor<16384x16x2xf32>, tensor<16384x16x2xf32>) -> tensor<16384x16x16xf32>
def val_main_v85 (x0 x1 : (⟨S16384x196, .f32⟩ : BufTy).Contents (Elt F)) : (⟨S16384x16x16, .f32⟩ : BufTy).Contents (Elt F) :=
  Host.dotGeneral dot_S16384x16x2_S16384x16x2_S16384x16x16_2_2_1_1_0_0 none (val_main_v73 (F := F) x0 x1) (val_main_v73 (F := F) x0 x1)

-- %86 = stablehlo.multiply %84, %85 : tensor<16384x16x16xf32>
def val_main_v86 (x0 x1 : (⟨S16384x196, .f32⟩ : BufTy).Contents (Elt F)) : (⟨S16384x16x16, .f32⟩ : BufTy).Contents (Elt F) :=
  mulf (val_main_v84 (F := F) x0 x1) (val_main_v85 (F := F) x0 x1)

-- %cst_13 = stablehlo.constant dense<0.000000e+00> : tensor<f32>
def val_main_cst_13 : (⟨S_, .f32⟩ : BufTy).Contents (Elt F) :=
  constant S_ .f32 0x00000000#32

-- %87 = stablehlo.reduce(%86 init: %cst_13) applies stablehlo.add across dimensions = [1, 2] : (tensor<16384x16x16xf32>, tensor<f32>) -> tensor<16384xf32> {
def val_main_v87 (x0 x1 : (⟨S16384x196, .f32⟩ : BufTy).Contents (Elt F)) : (⟨S16384, .f32⟩ : BufTy).Contents (Elt F) :=
  Host.reduceAdd (val_main_v86 (F := F) x0 x1) (val_main_cst_13 (F := F)) reducesTo_S16384x16x16_S16384_d1_2 h_S_

-- %88 = stablehlo.add %52, %87 : tensor<16384xf32>
def val_main_v88 (x0 x1 : (⟨S16384x196, .f32⟩ : BufTy).Contents (Elt F)) : (⟨S16384, .f32⟩ : BufTy).Contents (Elt F) :=
  addf (val_main_v52 (F := F) x0 x1) (val_main_v87 (F := F) x0 x1)

-- %89 = stablehlo.slice %0 [0:16384, 42:51, 0:2] : (tensor<16384x98x2xf32>) -> tensor<16384x9x2xf32>
def val_main_v89 (x0 : (⟨S16384x196, .f32⟩ : BufTy).Contents (Elt F)) : (⟨S16384x9x2, .f32⟩ : BufTy).Contents (Elt F) :=
  extractStridedSlice S16384x9x2 ![0, 42, 0] (val_main_v0 (F := F) x0) slices_S16384x98x2_S16384x9x2_0_42_0

-- %90 = stablehlo.slice %1 [0:16384, 42:51, 0:2] : (tensor<16384x98x2xf32>) -> tensor<16384x9x2xf32>
def val_main_v90 (x1 : (⟨S16384x196, .f32⟩ : BufTy).Contents (Elt F)) : (⟨S16384x9x2, .f32⟩ : BufTy).Contents (Elt F) :=
  extractStridedSlice S16384x9x2 ![0, 42, 0] (val_main_v1 (F := F) x1) slices_S16384x98x2_S16384x9x2_0_42_0

-- %91 = stablehlo.slice %89 [0:16384, 0:8, 0:2] : (tensor<16384x9x2xf32>) -> tensor<16384x8x2xf32>
def val_main_v91 (x0 : (⟨S16384x196, .f32⟩ : BufTy).Contents (Elt F)) : (⟨S16384x8x2, .f32⟩ : BufTy).Contents (Elt F) :=
  extractStridedSlice S16384x8x2 ![0, 0, 0] (val_main_v89 (F := F) x0) slices_S16384x9x2_S16384x8x2_0_0_0

-- %92 = stablehlo.slice %89 [0:16384, 1:9, 0:2] : (tensor<16384x9x2xf32>) -> tensor<16384x8x2xf32>
def val_main_v92 (x0 : (⟨S16384x196, .f32⟩ : BufTy).Contents (Elt F)) : (⟨S16384x8x2, .f32⟩ : BufTy).Contents (Elt F) :=
  extractStridedSlice S16384x8x2 ![0, 1, 0] (val_main_v89 (F := F) x0) slices_S16384x9x2_S16384x8x2_0_1_0

-- %93 = stablehlo.add %91, %92 : tensor<16384x8x2xf32>
def val_main_v93 (x0 : (⟨S16384x196, .f32⟩ : BufTy).Contents (Elt F)) : (⟨S16384x8x2, .f32⟩ : BufTy).Contents (Elt F) :=
  addf (val_main_v91 (F := F) x0) (val_main_v92 (F := F) x0)

-- %cst_14 = stablehlo.constant dense<5.000000e-01> : tensor<f32>
def val_main_cst_14 : (⟨S_, .f32⟩ : BufTy).Contents (Elt F) :=
  constant S_ .f32 0x3F000000#32

-- %94 = stablehlo.broadcast_in_dim %cst_14, dims = [] : (tensor<f32>) -> tensor<16384x8x2xf32>
def val_main_v94 : (⟨S16384x8x2, .f32⟩ : BufTy).Contents (Elt F) :=
  broadcastInDim S16384x8x2 ![] bcast_S_S16384x8x2 (val_main_cst_14 (F := F))

-- %95 = stablehlo.multiply %93, %94 : tensor<16384x8x2xf32>
def val_main_v95 (x0 : (⟨S16384x196, .f32⟩ : BufTy).Contents (Elt F)) : (⟨S16384x8x2, .f32⟩ : BufTy).Contents (Elt F) :=
  mulf (val_main_v93 (F := F) x0) (val_main_v94 (F := F))

-- %96 = stablehlo.slice %89 [0:16384, 1:9, 0:2] : (tensor<16384x9x2xf32>) -> tensor<16384x8x2xf32>
def val_main_v96 (x0 : (⟨S16384x196, .f32⟩ : BufTy).Contents (Elt F)) : (⟨S16384x8x2, .f32⟩ : BufTy).Contents (Elt F) :=
  extractStridedSlice S16384x8x2 ![0, 1, 0] (val_main_v89 (F := F) x0) slices_S16384x9x2_S16384x8x2_0_1_0

-- %97 = stablehlo.slice %89 [0:16384, 0:8, 0:2] : (tensor<16384x9x2xf32>) -> tensor<16384x8x2xf32>
def val_main_v97 (x0 : (⟨S16384x196, .f32⟩ : BufTy).Contents (Elt F)) : (⟨S16384x8x2, .f32⟩ : BufTy).Contents (Elt F) :=
  extractStridedSlice S16384x8x2 ![0, 0, 0] (val_main_v89 (F := F) x0) slices_S16384x9x2_S16384x8x2_0_0_0

-- %98 = stablehlo.subtract %96, %97 : tensor<16384x8x2xf32>
def val_main_v98 (x0 : (⟨S16384x196, .f32⟩ : BufTy).Contents (Elt F)) : (⟨S16384x8x2, .f32⟩ : BufTy).Contents (Elt F) :=
  subf (val_main_v96 (F := F) x0) (val_main_v97 (F := F) x0)

-- %99 = stablehlo.slice %90 [0:16384, 0:8, 0:2] : (tensor<16384x9x2xf32>) -> tensor<16384x8x2xf32>
def val_main_v99 (x1 : (⟨S16384x196, .f32⟩ : BufTy).Contents (Elt F)) : (⟨S16384x8x2, .f32⟩ : BufTy).Contents (Elt F) :=
  extractStridedSlice S16384x8x2 ![0, 0, 0] (val_main_v90 (F := F) x1) slices_S16384x9x2_S16384x8x2_0_0_0

-- %100 = stablehlo.slice %90 [0:16384, 1:9, 0:2] : (tensor<16384x9x2xf32>) -> tensor<16384x8x2xf32>
def val_main_v100 (x1 : (⟨S16384x196, .f32⟩ : BufTy).Contents (Elt F)) : (⟨S16384x8x2, .f32⟩ : BufTy).Contents (Elt F) :=
  extractStridedSlice S16384x8x2 ![0, 1, 0] (val_main_v90 (F := F) x1) slices_S16384x9x2_S16384x8x2_0_1_0

-- %101 = stablehlo.add %99, %100 : tensor<16384x8x2xf32>
def val_main_v101 (x1 : (⟨S16384x196, .f32⟩ : BufTy).Contents (Elt F)) : (⟨S16384x8x2, .f32⟩ : BufTy).Contents (Elt F) :=
  addf (val_main_v99 (F := F) x1) (val_main_v100 (F := F) x1)

-- %cst_15 = stablehlo.constant dense<5.000000e-01> : tensor<f32>
def val_main_cst_15 : (⟨S_, .f32⟩ : BufTy).Contents (Elt F) :=
  constant S_ .f32 0x3F000000#32

-- %102 = stablehlo.broadcast_in_dim %cst_15, dims = [] : (tensor<f32>) -> tensor<16384x8x2xf32>
def val_main_v102 : (⟨S16384x8x2, .f32⟩ : BufTy).Contents (Elt F) :=
  broadcastInDim S16384x8x2 ![] bcast_S_S16384x8x2 (val_main_cst_15 (F := F))

-- %103 = stablehlo.multiply %101, %102 : tensor<16384x8x2xf32>
def val_main_v103 (x1 : (⟨S16384x196, .f32⟩ : BufTy).Contents (Elt F)) : (⟨S16384x8x2, .f32⟩ : BufTy).Contents (Elt F) :=
  mulf (val_main_v101 (F := F) x1) (val_main_v102 (F := F))

-- %104 = stablehlo.slice %90 [0:16384, 1:9, 0:2] : (tensor<16384x9x2xf32>) -> tensor<16384x8x2xf32>
def val_main_v104 (x1 : (⟨S16384x196, .f32⟩ : BufTy).Contents (Elt F)) : (⟨S16384x8x2, .f32⟩ : BufTy).Contents (Elt F) :=
  extractStridedSlice S16384x8x2 ![0, 1, 0] (val_main_v90 (F := F) x1) slices_S16384x9x2_S16384x8x2_0_1_0

-- %105 = stablehlo.slice %90 [0:16384, 0:8, 0:2] : (tensor<16384x9x2xf32>) -> tensor<16384x8x2xf32>
def val_main_v105 (x1 : (⟨S16384x196, .f32⟩ : BufTy).Contents (Elt F)) : (⟨S16384x8x2, .f32⟩ : BufTy).Contents (Elt F) :=
  extractStridedSlice S16384x8x2 ![0, 0, 0] (val_main_v90 (F := F) x1) slices_S16384x9x2_S16384x8x2_0_0_0

-- %106 = stablehlo.subtract %104, %105 : tensor<16384x8x2xf32>
def val_main_v106 (x1 : (⟨S16384x196, .f32⟩ : BufTy).Contents (Elt F)) : (⟨S16384x8x2, .f32⟩ : BufTy).Contents (Elt F) :=
  subf (val_main_v104 (F := F) x1) (val_main_v105 (F := F) x1)

-- %107 = stablehlo.concatenate %95, %103, dim = 1 : (tensor<16384x8x2xf32>, tensor<16384x8x2xf32>) -> tensor<16384x16x2xf32>
def val_main_v107 (x0 x1 : (⟨S16384x196, .f32⟩ : BufTy).Contents (Elt F)) : (⟨S16384x16x2, .f32⟩ : BufTy).Contents (Elt F) :=
  concatenate S16384x16x2 1 [⟨S16384x8x2, (val_main_v95 (F := F) x0)⟩, ⟨S16384x8x2, (val_main_v103 (F := F) x1)⟩] concatenates_S16384x8x2_S16384x8x2_S16384x16x2_d1

-- %108 = stablehlo.negate %106 : tensor<16384x8x2xf32>
def val_main_v108 (x1 : (⟨S16384x196, .f32⟩ : BufTy).Contents (Elt F)) : (⟨S16384x8x2, .f32⟩ : BufTy).Contents (Elt F) :=
  Host.negf (val_main_v106 (F := F) x1)

-- %109 = stablehlo.concatenate %98, %108, dim = 1 : (tensor<16384x8x2xf32>, tensor<16384x8x2xf32>) -> tensor<16384x16x2xf32>
def val_main_v109 (x0 x1 : (⟨S16384x196, .f32⟩ : BufTy).Contents (Elt F)) : (⟨S16384x16x2, .f32⟩ : BufTy).Contents (Elt F) :=
  concatenate S16384x16x2 1 [⟨S16384x8x2, (val_main_v98 (F := F) x0)⟩, ⟨S16384x8x2, (val_main_v108 (F := F) x1)⟩] concatenates_S16384x8x2_S16384x8x2_S16384x16x2_d1

-- %110 = stablehlo.broadcast_in_dim %107, dims = [0, 1, 3] : (tensor<16384x16x2xf32>) -> tensor<16384x16x1x2xf32>
def val_main_v110 (x0 x1 : (⟨S16384x196, .f32⟩ : BufTy).Contents (Elt F)) : (⟨S16384x16x1x2, .f32⟩ : BufTy).Contents (Elt F) :=
  broadcastInDim S16384x16x1x2 ![0, 1, 3] bcast_S16384x16x2_S16384x16x1x2_0_1_3 (val_main_v107 (F := F) x0 x1)

-- %111 = stablehlo.broadcast_in_dim %107, dims = [0, 2, 3] : (tensor<16384x16x2xf32>) -> tensor<16384x1x16x2xf32>
def val_main_v111 (x0 x1 : (⟨S16384x196, .f32⟩ : BufTy).Contents (Elt F)) : (⟨S16384x1x16x2, .f32⟩ : BufTy).Contents (Elt F) :=
  broadcastInDim S16384x1x16x2 ![0, 2, 3] bcast_S16384x16x2_S16384x1x16x2_0_2_3 (val_main_v107 (F := F) x0 x1)

-- %112 = stablehlo.broadcast_in_dim %110, dims = [0, 1, 2, 3] : (tensor<16384x16x1x2xf32>) -> tensor<16384x16x16x2xf32>
def val_main_v112 (x0 x1 : (⟨S16384x196, .f32⟩ : BufTy).Contents (Elt F)) : (⟨S16384x16x16x2, .f32⟩ : BufTy).Contents (Elt F) :=
  broadcastInDim S16384x16x16x2 ![0, 1, 2, 3] bcast_S16384x16x1x2_S16384x16x16x2_0_1_2_3 (val_main_v110 (F := F) x0 x1)

-- %113 = stablehlo.broadcast_in_dim %111, dims = [0, 1, 2, 3] : (tensor<16384x1x16x2xf32>) -> tensor<16384x16x16x2xf32>
def val_main_v113 (x0 x1 : (⟨S16384x196, .f32⟩ : BufTy).Contents (Elt F)) : (⟨S16384x16x16x2, .f32⟩ : BufTy).Contents (Elt F) :=
  broadcastInDim S16384x16x16x2 ![0, 1, 2, 3] bcast_S16384x1x16x2_S16384x16x16x2_0_1_2_3 (val_main_v111 (F := F) x0 x1)

-- %114 = stablehlo.subtract %112, %113 : tensor<16384x16x16x2xf32>
def val_main_v114 (x0 x1 : (⟨S16384x196, .f32⟩ : BufTy).Contents (Elt F)) : (⟨S16384x16x16x2, .f32⟩ : BufTy).Contents (Elt F) :=
  subf (val_main_v112 (F := F) x0 x1) (val_main_v113 (F := F) x0 x1)

-- %115 = stablehlo.multiply %114, %114 : tensor<16384x16x16x2xf32>
def val_main_v115 (x0 x1 : (⟨S16384x196, .f32⟩ : BufTy).Contents (Elt F)) : (⟨S16384x16x16x2, .f32⟩ : BufTy).Contents (Elt F) :=
  mulf (val_main_v114 (F := F) x0 x1) (val_main_v114 (F := F) x0 x1)

-- %cst_16 = stablehlo.constant dense<0.000000e+00> : tensor<f32>
def val_main_cst_16 : (⟨S_, .f32⟩ : BufTy).Contents (Elt F) :=
  constant S_ .f32 0x00000000#32

-- %116 = stablehlo.reduce(%115 init: %cst_16) applies stablehlo.add across dimensions = [3] : (tensor<16384x16x16x2xf32>, tensor<f32>) -> tensor<16384x16x16xf32> {
def val_main_v116 (x0 x1 : (⟨S16384x196, .f32⟩ : BufTy).Contents (Elt F)) : (⟨S16384x16x16, .f32⟩ : BufTy).Contents (Elt F) :=
  Host.reduceAdd (val_main_v115 (F := F) x0 x1) (val_main_cst_16 (F := F)) reducesTo_S16384x16x16x2_S16384x16x16_d3 h_S_

-- %117 = stablehlo.negate %116 : tensor<16384x16x16xf32>
def val_main_v117 (x0 x1 : (⟨S16384x196, .f32⟩ : BufTy).Contents (Elt F)) : (⟨S16384x16x16, .f32⟩ : BufTy).Contents (Elt F) :=
  Host.negf (val_main_v116 (F := F) x0 x1)

-- %cst_17 = stablehlo.constant dense<1.500000e+01> : tensor<f32>
def val_main_cst_17 : (⟨S_, .f32⟩ : BufTy).Contents (Elt F) :=
  constant S_ .f32 0x41700000#32

-- %118 = stablehlo.broadcast_in_dim %cst_17, dims = [] : (tensor<f32>) -> tensor<16384x16x16xf32>
def val_main_v118 : (⟨S16384x16x16, .f32⟩ : BufTy).Contents (Elt F) :=
  broadcastInDim S16384x16x16 ![] bcast_S_S16384x16x16 (val_main_cst_17 (F := F))

-- %119 = stablehlo.divide %117, %118 : tensor<16384x16x16xf32>
def val_main_v119 (x0 x1 : (⟨S16384x196, .f32⟩ : BufTy).Contents (Elt F)) : (⟨S16384x16x16, .f32⟩ : BufTy).Contents (Elt F) :=
  Host.divf (val_main_v117 (F := F) x0 x1) (val_main_v118 (F := F))

-- %120 = stablehlo.exponential %119 : tensor<16384x16x16xf32>
def val_main_v120 (x0 x1 : (⟨S16384x196, .f32⟩ : BufTy).Contents (Elt F)) : (⟨S16384x16x16, .f32⟩ : BufTy).Contents (Elt F) :=
  Host.exp (val_main_v119 (F := F) x0 x1)

-- %121 = stablehlo.dot_general %109, %109, batching_dims = [0] x [0], contracting_dims = [2] x [2], precision = [DEFAULT, DEFAULT] : (tensor<16384x16x2xf32>, tensor<16384x16x2xf32>) -> tensor<16384x16x16xf32>
def val_main_v121 (x0 x1 : (⟨S16384x196, .f32⟩ : BufTy).Contents (Elt F)) : (⟨S16384x16x16, .f32⟩ : BufTy).Contents (Elt F) :=
  Host.dotGeneral dot_S16384x16x2_S16384x16x2_S16384x16x16_2_2_1_1_0_0 none (val_main_v109 (F := F) x0 x1) (val_main_v109 (F := F) x0 x1)

-- %122 = stablehlo.multiply %120, %121 : tensor<16384x16x16xf32>
def val_main_v122 (x0 x1 : (⟨S16384x196, .f32⟩ : BufTy).Contents (Elt F)) : (⟨S16384x16x16, .f32⟩ : BufTy).Contents (Elt F) :=
  mulf (val_main_v120 (F := F) x0 x1) (val_main_v121 (F := F) x0 x1)

-- %cst_18 = stablehlo.constant dense<0.000000e+00> : tensor<f32>
def val_main_cst_18 : (⟨S_, .f32⟩ : BufTy).Contents (Elt F) :=
  constant S_ .f32 0x00000000#32

-- %123 = stablehlo.reduce(%122 init: %cst_18) applies stablehlo.add across dimensions = [1, 2] : (tensor<16384x16x16xf32>, tensor<f32>) -> tensor<16384xf32> {
def val_main_v123 (x0 x1 : (⟨S16384x196, .f32⟩ : BufTy).Contents (Elt F)) : (⟨S16384, .f32⟩ : BufTy).Contents (Elt F) :=
  Host.reduceAdd (val_main_v122 (F := F) x0 x1) (val_main_cst_18 (F := F)) reducesTo_S16384x16x16_S16384_d1_2 h_S_

-- %124 = stablehlo.add %88, %123 : tensor<16384xf32>
def val_main_v124 (x0 x1 : (⟨S16384x196, .f32⟩ : BufTy).Contents (Elt F)) : (⟨S16384, .f32⟩ : BufTy).Contents (Elt F) :=
  addf (val_main_v88 (F := F) x0 x1) (val_main_v123 (F := F) x0 x1)

-- %125 = stablehlo.slice %0 [0:16384, 51:60, 0:2] : (tensor<16384x98x2xf32>) -> tensor<16384x9x2xf32>
def val_main_v125 (x0 : (⟨S16384x196, .f32⟩ : BufTy).Contents (Elt F)) : (⟨S16384x9x2, .f32⟩ : BufTy).Contents (Elt F) :=
  extractStridedSlice S16384x9x2 ![0, 51, 0] (val_main_v0 (F := F) x0) slices_S16384x98x2_S16384x9x2_0_51_0

-- %126 = stablehlo.slice %1 [0:16384, 51:60, 0:2] : (tensor<16384x98x2xf32>) -> tensor<16384x9x2xf32>
def val_main_v126 (x1 : (⟨S16384x196, .f32⟩ : BufTy).Contents (Elt F)) : (⟨S16384x9x2, .f32⟩ : BufTy).Contents (Elt F) :=
  extractStridedSlice S16384x9x2 ![0, 51, 0] (val_main_v1 (F := F) x1) slices_S16384x98x2_S16384x9x2_0_51_0

-- %127 = stablehlo.slice %125 [0:16384, 0:8, 0:2] : (tensor<16384x9x2xf32>) -> tensor<16384x8x2xf32>
def val_main_v127 (x0 : (⟨S16384x196, .f32⟩ : BufTy).Contents (Elt F)) : (⟨S16384x8x2, .f32⟩ : BufTy).Contents (Elt F) :=
  extractStridedSlice S16384x8x2 ![0, 0, 0] (val_main_v125 (F := F) x0) slices_S16384x9x2_S16384x8x2_0_0_0

-- %128 = stablehlo.slice %125 [0:16384, 1:9, 0:2] : (tensor<16384x9x2xf32>) -> tensor<16384x8x2xf32>
def val_main_v128 (x0 : (⟨S16384x196, .f32⟩ : BufTy).Contents (Elt F)) : (⟨S16384x8x2, .f32⟩ : BufTy).Contents (Elt F) :=
  extractStridedSlice S16384x8x2 ![0, 1, 0] (val_main_v125 (F := F) x0) slices_S16384x9x2_S16384x8x2_0_1_0

-- %129 = stablehlo.add %127, %128 : tensor<16384x8x2xf32>
def val_main_v129 (x0 : (⟨S16384x196, .f32⟩ : BufTy).Contents (Elt F)) : (⟨S16384x8x2, .f32⟩ : BufTy).Contents (Elt F) :=
  addf (val_main_v127 (F := F) x0) (val_main_v128 (F := F) x0)

-- %cst_19 = stablehlo.constant dense<5.000000e-01> : tensor<f32>
def val_main_cst_19 : (⟨S_, .f32⟩ : BufTy).Contents (Elt F) :=
  constant S_ .f32 0x3F000000#32

-- %130 = stablehlo.broadcast_in_dim %cst_19, dims = [] : (tensor<f32>) -> tensor<16384x8x2xf32>
def val_main_v130 : (⟨S16384x8x2, .f32⟩ : BufTy).Contents (Elt F) :=
  broadcastInDim S16384x8x2 ![] bcast_S_S16384x8x2 (val_main_cst_19 (F := F))

-- %131 = stablehlo.multiply %129, %130 : tensor<16384x8x2xf32>
def val_main_v131 (x0 : (⟨S16384x196, .f32⟩ : BufTy).Contents (Elt F)) : (⟨S16384x8x2, .f32⟩ : BufTy).Contents (Elt F) :=
  mulf (val_main_v129 (F := F) x0) (val_main_v130 (F := F))

-- %132 = stablehlo.slice %125 [0:16384, 1:9, 0:2] : (tensor<16384x9x2xf32>) -> tensor<16384x8x2xf32>
def val_main_v132 (x0 : (⟨S16384x196, .f32⟩ : BufTy).Contents (Elt F)) : (⟨S16384x8x2, .f32⟩ : BufTy).Contents (Elt F) :=
  extractStridedSlice S16384x8x2 ![0, 1, 0] (val_main_v125 (F := F) x0) slices_S16384x9x2_S16384x8x2_0_1_0

-- %133 = stablehlo.slice %125 [0:16384, 0:8, 0:2] : (tensor<16384x9x2xf32>) -> tensor<16384x8x2xf32>
def val_main_v133 (x0 : (⟨S16384x196, .f32⟩ : BufTy).Contents (Elt F)) : (⟨S16384x8x2, .f32⟩ : BufTy).Contents (Elt F) :=
  extractStridedSlice S16384x8x2 ![0, 0, 0] (val_main_v125 (F := F) x0) slices_S16384x9x2_S16384x8x2_0_0_0

-- %134 = stablehlo.subtract %132, %133 : tensor<16384x8x2xf32>
def val_main_v134 (x0 : (⟨S16384x196, .f32⟩ : BufTy).Contents (Elt F)) : (⟨S16384x8x2, .f32⟩ : BufTy).Contents (Elt F) :=
  subf (val_main_v132 (F := F) x0) (val_main_v133 (F := F) x0)

-- %135 = stablehlo.slice %126 [0:16384, 0:8, 0:2] : (tensor<16384x9x2xf32>) -> tensor<16384x8x2xf32>
def val_main_v135 (x1 : (⟨S16384x196, .f32⟩ : BufTy).Contents (Elt F)) : (⟨S16384x8x2, .f32⟩ : BufTy).Contents (Elt F) :=
  extractStridedSlice S16384x8x2 ![0, 0, 0] (val_main_v126 (F := F) x1) slices_S16384x9x2_S16384x8x2_0_0_0

-- %136 = stablehlo.slice %126 [0:16384, 1:9, 0:2] : (tensor<16384x9x2xf32>) -> tensor<16384x8x2xf32>
def val_main_v136 (x1 : (⟨S16384x196, .f32⟩ : BufTy).Contents (Elt F)) : (⟨S16384x8x2, .f32⟩ : BufTy).Contents (Elt F) :=
  extractStridedSlice S16384x8x2 ![0, 1, 0] (val_main_v126 (F := F) x1) slices_S16384x9x2_S16384x8x2_0_1_0

-- %137 = stablehlo.add %135, %136 : tensor<16384x8x2xf32>
def val_main_v137 (x1 : (⟨S16384x196, .f32⟩ : BufTy).Contents (Elt F)) : (⟨S16384x8x2, .f32⟩ : BufTy).Contents (Elt F) :=
  addf (val_main_v135 (F := F) x1) (val_main_v136 (F := F) x1)

-- %cst_20 = stablehlo.constant dense<5.000000e-01> : tensor<f32>
def val_main_cst_20 : (⟨S_, .f32⟩ : BufTy).Contents (Elt F) :=
  constant S_ .f32 0x3F000000#32

-- %138 = stablehlo.broadcast_in_dim %cst_20, dims = [] : (tensor<f32>) -> tensor<16384x8x2xf32>
def val_main_v138 : (⟨S16384x8x2, .f32⟩ : BufTy).Contents (Elt F) :=
  broadcastInDim S16384x8x2 ![] bcast_S_S16384x8x2 (val_main_cst_20 (F := F))

-- %139 = stablehlo.multiply %137, %138 : tensor<16384x8x2xf32>
def val_main_v139 (x1 : (⟨S16384x196, .f32⟩ : BufTy).Contents (Elt F)) : (⟨S16384x8x2, .f32⟩ : BufTy).Contents (Elt F) :=
  mulf (val_main_v137 (F := F) x1) (val_main_v138 (F := F))

-- %140 = stablehlo.slice %126 [0:16384, 1:9, 0:2] : (tensor<16384x9x2xf32>) -> tensor<16384x8x2xf32>
def val_main_v140 (x1 : (⟨S16384x196, .f32⟩ : BufTy).Contents (Elt F)) : (⟨S16384x8x2, .f32⟩ : BufTy).Contents (Elt F) :=
  extractStridedSlice S16384x8x2 ![0, 1, 0] (val_main_v126 (F := F) x1) slices_S16384x9x2_S16384x8x2_0_1_0

-- %141 = stablehlo.slice %126 [0:16384, 0:8, 0:2] : (tensor<16384x9x2xf32>) -> tensor<16384x8x2xf32>
def val_main_v141 (x1 : (⟨S16384x196, .f32⟩ : BufTy).Contents (Elt F)) : (⟨S16384x8x2, .f32⟩ : BufTy).Contents (Elt F) :=
  extractStridedSlice S16384x8x2 ![0, 0, 0] (val_main_v126 (F := F) x1) slices_S16384x9x2_S16384x8x2_0_0_0

-- %142 = stablehlo.subtract %140, %141 : tensor<16384x8x2xf32>
def val_main_v142 (x1 : (⟨S16384x196, .f32⟩ : BufTy).Contents (Elt F)) : (⟨S16384x8x2, .f32⟩ : BufTy).Contents (Elt F) :=
  subf (val_main_v140 (F := F) x1) (val_main_v141 (F := F) x1)

-- %143 = stablehlo.concatenate %131, %139, dim = 1 : (tensor<16384x8x2xf32>, tensor<16384x8x2xf32>) -> tensor<16384x16x2xf32>
def val_main_v143 (x0 x1 : (⟨S16384x196, .f32⟩ : BufTy).Contents (Elt F)) : (⟨S16384x16x2, .f32⟩ : BufTy).Contents (Elt F) :=
  concatenate S16384x16x2 1 [⟨S16384x8x2, (val_main_v131 (F := F) x0)⟩, ⟨S16384x8x2, (val_main_v139 (F := F) x1)⟩] concatenates_S16384x8x2_S16384x8x2_S16384x16x2_d1

-- %144 = stablehlo.negate %142 : tensor<16384x8x2xf32>
def val_main_v144 (x1 : (⟨S16384x196, .f32⟩ : BufTy).Contents (Elt F)) : (⟨S16384x8x2, .f32⟩ : BufTy).Contents (Elt F) :=
  Host.negf (val_main_v142 (F := F) x1)

-- %145 = stablehlo.concatenate %134, %144, dim = 1 : (tensor<16384x8x2xf32>, tensor<16384x8x2xf32>) -> tensor<16384x16x2xf32>
def val_main_v145 (x0 x1 : (⟨S16384x196, .f32⟩ : BufTy).Contents (Elt F)) : (⟨S16384x16x2, .f32⟩ : BufTy).Contents (Elt F) :=
  concatenate S16384x16x2 1 [⟨S16384x8x2, (val_main_v134 (F := F) x0)⟩, ⟨S16384x8x2, (val_main_v144 (F := F) x1)⟩] concatenates_S16384x8x2_S16384x8x2_S16384x16x2_d1

-- %146 = stablehlo.broadcast_in_dim %143, dims = [0, 1, 3] : (tensor<16384x16x2xf32>) -> tensor<16384x16x1x2xf32>
def val_main_v146 (x0 x1 : (⟨S16384x196, .f32⟩ : BufTy).Contents (Elt F)) : (⟨S16384x16x1x2, .f32⟩ : BufTy).Contents (Elt F) :=
  broadcastInDim S16384x16x1x2 ![0, 1, 3] bcast_S16384x16x2_S16384x16x1x2_0_1_3 (val_main_v143 (F := F) x0 x1)

-- %147 = stablehlo.broadcast_in_dim %143, dims = [0, 2, 3] : (tensor<16384x16x2xf32>) -> tensor<16384x1x16x2xf32>
def val_main_v147 (x0 x1 : (⟨S16384x196, .f32⟩ : BufTy).Contents (Elt F)) : (⟨S16384x1x16x2, .f32⟩ : BufTy).Contents (Elt F) :=
  broadcastInDim S16384x1x16x2 ![0, 2, 3] bcast_S16384x16x2_S16384x1x16x2_0_2_3 (val_main_v143 (F := F) x0 x1)

-- %148 = stablehlo.broadcast_in_dim %146, dims = [0, 1, 2, 3] : (tensor<16384x16x1x2xf32>) -> tensor<16384x16x16x2xf32>
def val_main_v148 (x0 x1 : (⟨S16384x196, .f32⟩ : BufTy).Contents (Elt F)) : (⟨S16384x16x16x2, .f32⟩ : BufTy).Contents (Elt F) :=
  broadcastInDim S16384x16x16x2 ![0, 1, 2, 3] bcast_S16384x16x1x2_S16384x16x16x2_0_1_2_3 (val_main_v146 (F := F) x0 x1)

-- %149 = stablehlo.broadcast_in_dim %147, dims = [0, 1, 2, 3] : (tensor<16384x1x16x2xf32>) -> tensor<16384x16x16x2xf32>
def val_main_v149 (x0 x1 : (⟨S16384x196, .f32⟩ : BufTy).Contents (Elt F)) : (⟨S16384x16x16x2, .f32⟩ : BufTy).Contents (Elt F) :=
  broadcastInDim S16384x16x16x2 ![0, 1, 2, 3] bcast_S16384x1x16x2_S16384x16x16x2_0_1_2_3 (val_main_v147 (F := F) x0 x1)

-- %150 = stablehlo.subtract %148, %149 : tensor<16384x16x16x2xf32>
def val_main_v150 (x0 x1 : (⟨S16384x196, .f32⟩ : BufTy).Contents (Elt F)) : (⟨S16384x16x16x2, .f32⟩ : BufTy).Contents (Elt F) :=
  subf (val_main_v148 (F := F) x0 x1) (val_main_v149 (F := F) x0 x1)

-- %151 = stablehlo.multiply %150, %150 : tensor<16384x16x16x2xf32>
def val_main_v151 (x0 x1 : (⟨S16384x196, .f32⟩ : BufTy).Contents (Elt F)) : (⟨S16384x16x16x2, .f32⟩ : BufTy).Contents (Elt F) :=
  mulf (val_main_v150 (F := F) x0 x1) (val_main_v150 (F := F) x0 x1)

-- %cst_21 = stablehlo.constant dense<0.000000e+00> : tensor<f32>
def val_main_cst_21 : (⟨S_, .f32⟩ : BufTy).Contents (Elt F) :=
  constant S_ .f32 0x00000000#32

-- %152 = stablehlo.reduce(%151 init: %cst_21) applies stablehlo.add across dimensions = [3] : (tensor<16384x16x16x2xf32>, tensor<f32>) -> tensor<16384x16x16xf32> {
def val_main_v152 (x0 x1 : (⟨S16384x196, .f32⟩ : BufTy).Contents (Elt F)) : (⟨S16384x16x16, .f32⟩ : BufTy).Contents (Elt F) :=
  Host.reduceAdd (val_main_v151 (F := F) x0 x1) (val_main_cst_21 (F := F)) reducesTo_S16384x16x16x2_S16384x16x16_d3 h_S_

-- %153 = stablehlo.negate %152 : tensor<16384x16x16xf32>
def val_main_v153 (x0 x1 : (⟨S16384x196, .f32⟩ : BufTy).Contents (Elt F)) : (⟨S16384x16x16, .f32⟩ : BufTy).Contents (Elt F) :=
  Host.negf (val_main_v152 (F := F) x0 x1)

-- %cst_22 = stablehlo.constant dense<1.500000e+01> : tensor<f32>
def val_main_cst_22 : (⟨S_, .f32⟩ : BufTy).Contents (Elt F) :=
  constant S_ .f32 0x41700000#32

-- %154 = stablehlo.broadcast_in_dim %cst_22, dims = [] : (tensor<f32>) -> tensor<16384x16x16xf32>
def val_main_v154 : (⟨S16384x16x16, .f32⟩ : BufTy).Contents (Elt F) :=
  broadcastInDim S16384x16x16 ![] bcast_S_S16384x16x16 (val_main_cst_22 (F := F))

-- %155 = stablehlo.divide %153, %154 : tensor<16384x16x16xf32>
def val_main_v155 (x0 x1 : (⟨S16384x196, .f32⟩ : BufTy).Contents (Elt F)) : (⟨S16384x16x16, .f32⟩ : BufTy).Contents (Elt F) :=
  Host.divf (val_main_v153 (F := F) x0 x1) (val_main_v154 (F := F))

-- %156 = stablehlo.exponential %155 : tensor<16384x16x16xf32>
def val_main_v156 (x0 x1 : (⟨S16384x196, .f32⟩ : BufTy).Contents (Elt F)) : (⟨S16384x16x16, .f32⟩ : BufTy).Contents (Elt F) :=
  Host.exp (val_main_v155 (F := F) x0 x1)

-- %157 = stablehlo.dot_general %145, %145, batching_dims = [0] x [0], contracting_dims = [2] x [2], precision = [DEFAULT, DEFAULT] : (tensor<16384x16x2xf32>, tensor<16384x16x2xf32>) -> tensor<16384x16x16xf32>
def val_main_v157 (x0 x1 : (⟨S16384x196, .f32⟩ : BufTy).Contents (Elt F)) : (⟨S16384x16x16, .f32⟩ : BufTy).Contents (Elt F) :=
  Host.dotGeneral dot_S16384x16x2_S16384x16x2_S16384x16x16_2_2_1_1_0_0 none (val_main_v145 (F := F) x0 x1) (val_main_v145 (F := F) x0 x1)

-- %158 = stablehlo.multiply %156, %157 : tensor<16384x16x16xf32>
def val_main_v158 (x0 x1 : (⟨S16384x196, .f32⟩ : BufTy).Contents (Elt F)) : (⟨S16384x16x16, .f32⟩ : BufTy).Contents (Elt F) :=
  mulf (val_main_v156 (F := F) x0 x1) (val_main_v157 (F := F) x0 x1)

-- %cst_23 = stablehlo.constant dense<0.000000e+00> : tensor<f32>
def val_main_cst_23 : (⟨S_, .f32⟩ : BufTy).Contents (Elt F) :=
  constant S_ .f32 0x00000000#32

-- %159 = stablehlo.reduce(%158 init: %cst_23) applies stablehlo.add across dimensions = [1, 2] : (tensor<16384x16x16xf32>, tensor<f32>) -> tensor<16384xf32> {
def val_main_v159 (x0 x1 : (⟨S16384x196, .f32⟩ : BufTy).Contents (Elt F)) : (⟨S16384, .f32⟩ : BufTy).Contents (Elt F) :=
  Host.reduceAdd (val_main_v158 (F := F) x0 x1) (val_main_cst_23 (F := F)) reducesTo_S16384x16x16_S16384_d1_2 h_S_

-- %160 = stablehlo.add %124, %159 : tensor<16384xf32>
def val_main_v160 (x0 x1 : (⟨S16384x196, .f32⟩ : BufTy).Contents (Elt F)) : (⟨S16384, .f32⟩ : BufTy).Contents (Elt F) :=
  addf (val_main_v124 (F := F) x0 x1) (val_main_v159 (F := F) x0 x1)

-- %161 = stablehlo.slice %0 [0:16384, 60:68, 0:2] : (tensor<16384x98x2xf32>) -> tensor<16384x8x2xf32>
def val_main_v161 (x0 : (⟨S16384x196, .f32⟩ : BufTy).Contents (Elt F)) : (⟨S16384x8x2, .f32⟩ : BufTy).Contents (Elt F) :=
  extractStridedSlice S16384x8x2 ![0, 60, 0] (val_main_v0 (F := F) x0) slices_S16384x98x2_S16384x8x2_0_60_0

-- %162 = stablehlo.slice %1 [0:16384, 60:68, 0:2] : (tensor<16384x98x2xf32>) -> tensor<16384x8x2xf32>
def val_main_v162 (x1 : (⟨S16384x196, .f32⟩ : BufTy).Contents (Elt F)) : (⟨S16384x8x2, .f32⟩ : BufTy).Contents (Elt F) :=
  extractStridedSlice S16384x8x2 ![0, 60, 0] (val_main_v1 (F := F) x1) slices_S16384x98x2_S16384x8x2_0_60_0

-- %163 = stablehlo.slice %161 [0:16384, 0:7, 0:2] : (tensor<16384x8x2xf32>) -> tensor<16384x7x2xf32>
def val_main_v163 (x0 : (⟨S16384x196, .f32⟩ : BufTy).Contents (Elt F)) : (⟨S16384x7x2, .f32⟩ : BufTy).Contents (Elt F) :=
  extractStridedSlice S16384x7x2 ![0, 0, 0] (val_main_v161 (F := F) x0) slices_S16384x8x2_S16384x7x2_0_0_0

-- %164 = stablehlo.slice %161 [0:16384, 1:8, 0:2] : (tensor<16384x8x2xf32>) -> tensor<16384x7x2xf32>
def val_main_v164 (x0 : (⟨S16384x196, .f32⟩ : BufTy).Contents (Elt F)) : (⟨S16384x7x2, .f32⟩ : BufTy).Contents (Elt F) :=
  extractStridedSlice S16384x7x2 ![0, 1, 0] (val_main_v161 (F := F) x0) slices_S16384x8x2_S16384x7x2_0_1_0

-- %165 = stablehlo.add %163, %164 : tensor<16384x7x2xf32>
def val_main_v165 (x0 : (⟨S16384x196, .f32⟩ : BufTy).Contents (Elt F)) : (⟨S16384x7x2, .f32⟩ : BufTy).Contents (Elt F) :=
  addf (val_main_v163 (F := F) x0) (val_main_v164 (F := F) x0)

-- %cst_24 = stablehlo.constant dense<5.000000e-01> : tensor<f32>
def val_main_cst_24 : (⟨S_, .f32⟩ : BufTy).Contents (Elt F) :=
  constant S_ .f32 0x3F000000#32

-- %166 = stablehlo.broadcast_in_dim %cst_24, dims = [] : (tensor<f32>) -> tensor<16384x7x2xf32>
def val_main_v166 : (⟨S16384x7x2, .f32⟩ : BufTy).Contents (Elt F) :=
  broadcastInDim S16384x7x2 ![] bcast_S_S16384x7x2 (val_main_cst_24 (F := F))

-- %167 = stablehlo.multiply %165, %166 : tensor<16384x7x2xf32>
def val_main_v167 (x0 : (⟨S16384x196, .f32⟩ : BufTy).Contents (Elt F)) : (⟨S16384x7x2, .f32⟩ : BufTy).Contents (Elt F) :=
  mulf (val_main_v165 (F := F) x0) (val_main_v166 (F := F))

-- %168 = stablehlo.slice %161 [0:16384, 1:8, 0:2] : (tensor<16384x8x2xf32>) -> tensor<16384x7x2xf32>
def val_main_v168 (x0 : (⟨S16384x196, .f32⟩ : BufTy).Contents (Elt F)) : (⟨S16384x7x2, .f32⟩ : BufTy).Contents (Elt F) :=
  extractStridedSlice S16384x7x2 ![0, 1, 0] (val_main_v161 (F := F) x0) slices_S16384x8x2_S16384x7x2_0_1_0

-- %169 = stablehlo.slice %161 [0:16384, 0:7, 0:2] : (tensor<16384x8x2xf32>) -> tensor<16384x7x2xf32>
def val_main_v169 (x0 : (⟨S16384x196, .f32⟩ : BufTy).Contents (Elt F)) : (⟨S16384x7x2, .f32⟩ : BufTy).Contents (Elt F) :=
  extractStridedSlice S16384x7x2 ![0, 0, 0] (val_main_v161 (F := F) x0) slices_S16384x8x2_S16384x7x2_0_0_0

-- %170 = stablehlo.subtract %168, %169 : tensor<16384x7x2xf32>
def val_main_v170 (x0 : (⟨S16384x196, .f32⟩ : BufTy).Contents (Elt F)) : (⟨S16384x7x2, .f32⟩ : BufTy).Contents (Elt F) :=
  subf (val_main_v168 (F := F) x0) (val_main_v169 (F := F) x0)

-- %171 = stablehlo.slice %162 [0:16384, 0:7, 0:2] : (tensor<16384x8x2xf32>) -> tensor<16384x7x2xf32>
def val_main_v171 (x1 : (⟨S16384x196, .f32⟩ : BufTy).Contents (Elt F)) : (⟨S16384x7x2, .f32⟩ : BufTy).Contents (Elt F) :=
  extractStridedSlice S16384x7x2 ![0, 0, 0] (val_main_v162 (F := F) x1) slices_S16384x8x2_S16384x7x2_0_0_0

-- %172 = stablehlo.slice %162 [0:16384, 1:8, 0:2] : (tensor<16384x8x2xf32>) -> tensor<16384x7x2xf32>
def val_main_v172 (x1 : (⟨S16384x196, .f32⟩ : BufTy).Contents (Elt F)) : (⟨S16384x7x2, .f32⟩ : BufTy).Contents (Elt F) :=
  extractStridedSlice S16384x7x2 ![0, 1, 0] (val_main_v162 (F := F) x1) slices_S16384x8x2_S16384x7x2_0_1_0

-- %173 = stablehlo.add %171, %172 : tensor<16384x7x2xf32>
def val_main_v173 (x1 : (⟨S16384x196, .f32⟩ : BufTy).Contents (Elt F)) : (⟨S16384x7x2, .f32⟩ : BufTy).Contents (Elt F) :=
  addf (val_main_v171 (F := F) x1) (val_main_v172 (F := F) x1)

-- %cst_25 = stablehlo.constant dense<5.000000e-01> : tensor<f32>
def val_main_cst_25 : (⟨S_, .f32⟩ : BufTy).Contents (Elt F) :=
  constant S_ .f32 0x3F000000#32

-- %174 = stablehlo.broadcast_in_dim %cst_25, dims = [] : (tensor<f32>) -> tensor<16384x7x2xf32>
def val_main_v174 : (⟨S16384x7x2, .f32⟩ : BufTy).Contents (Elt F) :=
  broadcastInDim S16384x7x2 ![] bcast_S_S16384x7x2 (val_main_cst_25 (F := F))

-- %175 = stablehlo.multiply %173, %174 : tensor<16384x7x2xf32>
def val_main_v175 (x1 : (⟨S16384x196, .f32⟩ : BufTy).Contents (Elt F)) : (⟨S16384x7x2, .f32⟩ : BufTy).Contents (Elt F) :=
  mulf (val_main_v173 (F := F) x1) (val_main_v174 (F := F))

-- %176 = stablehlo.slice %162 [0:16384, 1:8, 0:2] : (tensor<16384x8x2xf32>) -> tensor<16384x7x2xf32>
def val_main_v176 (x1 : (⟨S16384x196, .f32⟩ : BufTy).Contents (Elt F)) : (⟨S16384x7x2, .f32⟩ : BufTy).Contents (Elt F) :=
  extractStridedSlice S16384x7x2 ![0, 1, 0] (val_main_v162 (F := F) x1) slices_S16384x8x2_S16384x7x2_0_1_0

-- %177 = stablehlo.slice %162 [0:16384, 0:7, 0:2] : (tensor<16384x8x2xf32>) -> tensor<16384x7x2xf32>
def val_main_v177 (x1 : (⟨S16384x196, .f32⟩ : BufTy).Contents (Elt F)) : (⟨S16384x7x2, .f32⟩ : BufTy).Contents (Elt F) :=
  extractStridedSlice S16384x7x2 ![0, 0, 0] (val_main_v162 (F := F) x1) slices_S16384x8x2_S16384x7x2_0_0_0

-- %178 = stablehlo.subtract %176, %177 : tensor<16384x7x2xf32>
def val_main_v178 (x1 : (⟨S16384x196, .f32⟩ : BufTy).Contents (Elt F)) : (⟨S16384x7x2, .f32⟩ : BufTy).Contents (Elt F) :=
  subf (val_main_v176 (F := F) x1) (val_main_v177 (F := F) x1)

-- %179 = stablehlo.concatenate %167, %175, dim = 1 : (tensor<16384x7x2xf32>, tensor<16384x7x2xf32>) -> tensor<16384x14x2xf32>
def val_main_v179 (x0 x1 : (⟨S16384x196, .f32⟩ : BufTy).Contents (Elt F)) : (⟨S16384x14x2, .f32⟩ : BufTy).Contents (Elt F) :=
  concatenate S16384x14x2 1 [⟨S16384x7x2, (val_main_v167 (F := F) x0)⟩, ⟨S16384x7x2, (val_main_v175 (F := F) x1)⟩] concatenates_S16384x7x2_S16384x7x2_S16384x14x2_d1

-- %180 = stablehlo.negate %178 : tensor<16384x7x2xf32>
def val_main_v180 (x1 : (⟨S16384x196, .f32⟩ : BufTy).Contents (Elt F)) : (⟨S16384x7x2, .f32⟩ : BufTy).Contents (Elt F) :=
  Host.negf (val_main_v178 (F := F) x1)

-- %181 = stablehlo.concatenate %170, %180, dim = 1 : (tensor<16384x7x2xf32>, tensor<16384x7x2xf32>) -> tensor<16384x14x2xf32>
def val_main_v181 (x0 x1 : (⟨S16384x196, .f32⟩ : BufTy).Contents (Elt F)) : (⟨S16384x14x2, .f32⟩ : BufTy).Contents (Elt F) :=
  concatenate S16384x14x2 1 [⟨S16384x7x2, (val_main_v170 (F := F) x0)⟩, ⟨S16384x7x2, (val_main_v180 (F := F) x1)⟩] concatenates_S16384x7x2_S16384x7x2_S16384x14x2_d1

-- %182 = stablehlo.broadcast_in_dim %179, dims = [0, 1, 3] : (tensor<16384x14x2xf32>) -> tensor<16384x14x1x2xf32>
def val_main_v182 (x0 x1 : (⟨S16384x196, .f32⟩ : BufTy).Contents (Elt F)) : (⟨S16384x14x1x2, .f32⟩ : BufTy).Contents (Elt F) :=
  broadcastInDim S16384x14x1x2 ![0, 1, 3] bcast_S16384x14x2_S16384x14x1x2_0_1_3 (val_main_v179 (F := F) x0 x1)

-- %183 = stablehlo.broadcast_in_dim %179, dims = [0, 2, 3] : (tensor<16384x14x2xf32>) -> tensor<16384x1x14x2xf32>
def val_main_v183 (x0 x1 : (⟨S16384x196, .f32⟩ : BufTy).Contents (Elt F)) : (⟨S16384x1x14x2, .f32⟩ : BufTy).Contents (Elt F) :=
  broadcastInDim S16384x1x14x2 ![0, 2, 3] bcast_S16384x14x2_S16384x1x14x2_0_2_3 (val_main_v179 (F := F) x0 x1)

-- %184 = stablehlo.broadcast_in_dim %182, dims = [0, 1, 2, 3] : (tensor<16384x14x1x2xf32>) -> tensor<16384x14x14x2xf32>
def val_main_v184 (x0 x1 : (⟨S16384x196, .f32⟩ : BufTy).Contents (Elt F)) : (⟨S16384x14x14x2, .f32⟩ : BufTy).Contents (Elt F) :=
  broadcastInDim S16384x14x14x2 ![0, 1, 2, 3] bcast_S16384x14x1x2_S16384x14x14x2_0_1_2_3 (val_main_v182 (F := F) x0 x1)

-- %185 = stablehlo.broadcast_in_dim %183, dims = [0, 1, 2, 3] : (tensor<16384x1x14x2xf32>) -> tensor<16384x14x14x2xf32>
def val_main_v185 (x0 x1 : (⟨S16384x196, .f32⟩ : BufTy).Contents (Elt F)) : (⟨S16384x14x14x2, .f32⟩ : BufTy).Contents (Elt F) :=
  broadcastInDim S16384x14x14x2 ![0, 1, 2, 3] bcast_S16384x1x14x2_S16384x14x14x2_0_1_2_3 (val_main_v183 (F := F) x0 x1)

-- %186 = stablehlo.subtract %184, %185 : tensor<16384x14x14x2xf32>
def val_main_v186 (x0 x1 : (⟨S16384x196, .f32⟩ : BufTy).Contents (Elt F)) : (⟨S16384x14x14x2, .f32⟩ : BufTy).Contents (Elt F) :=
  subf (val_main_v184 (F := F) x0 x1) (val_main_v185 (F := F) x0 x1)

-- %187 = stablehlo.multiply %186, %186 : tensor<16384x14x14x2xf32>
def val_main_v187 (x0 x1 : (⟨S16384x196, .f32⟩ : BufTy).Contents (Elt F)) : (⟨S16384x14x14x2, .f32⟩ : BufTy).Contents (Elt F) :=
  mulf (val_main_v186 (F := F) x0 x1) (val_main_v186 (F := F) x0 x1)

-- %cst_26 = stablehlo.constant dense<0.000000e+00> : tensor<f32>
def val_main_cst_26 : (⟨S_, .f32⟩ : BufTy).Contents (Elt F) :=
  constant S_ .f32 0x00000000#32

-- %188 = stablehlo.reduce(%187 init: %cst_26) applies stablehlo.add across dimensions = [3] : (tensor<16384x14x14x2xf32>, tensor<f32>) -> tensor<16384x14x14xf32> {
def val_main_v188 (x0 x1 : (⟨S16384x196, .f32⟩ : BufTy).Contents (Elt F)) : (⟨S16384x14x14, .f32⟩ : BufTy).Contents (Elt F) :=
  Host.reduceAdd (val_main_v187 (F := F) x0 x1) (val_main_cst_26 (F := F)) reducesTo_S16384x14x14x2_S16384x14x14_d3 h_S_

-- %189 = stablehlo.negate %188 : tensor<16384x14x14xf32>
def val_main_v189 (x0 x1 : (⟨S16384x196, .f32⟩ : BufTy).Contents (Elt F)) : (⟨S16384x14x14, .f32⟩ : BufTy).Contents (Elt F) :=
  Host.negf (val_main_v188 (F := F) x0 x1)

-- %cst_27 = stablehlo.constant dense<1.500000e+01> : tensor<f32>
def val_main_cst_27 : (⟨S_, .f32⟩ : BufTy).Contents (Elt F) :=
  constant S_ .f32 0x41700000#32

-- %190 = stablehlo.broadcast_in_dim %cst_27, dims = [] : (tensor<f32>) -> tensor<16384x14x14xf32>
def val_main_v190 : (⟨S16384x14x14, .f32⟩ : BufTy).Contents (Elt F) :=
  broadcastInDim S16384x14x14 ![] bcast_S_S16384x14x14 (val_main_cst_27 (F := F))

-- %191 = stablehlo.divide %189, %190 : tensor<16384x14x14xf32>
def val_main_v191 (x0 x1 : (⟨S16384x196, .f32⟩ : BufTy).Contents (Elt F)) : (⟨S16384x14x14, .f32⟩ : BufTy).Contents (Elt F) :=
  Host.divf (val_main_v189 (F := F) x0 x1) (val_main_v190 (F := F))

-- %192 = stablehlo.exponential %191 : tensor<16384x14x14xf32>
def val_main_v192 (x0 x1 : (⟨S16384x196, .f32⟩ : BufTy).Contents (Elt F)) : (⟨S16384x14x14, .f32⟩ : BufTy).Contents (Elt F) :=
  Host.exp (val_main_v191 (F := F) x0 x1)

-- %193 = stablehlo.dot_general %181, %181, batching_dims = [0] x [0], contracting_dims = [2] x [2], precision = [DEFAULT, DEFAULT] : (tensor<16384x14x2xf32>, tensor<16384x14x2xf32>) -> tensor<16384x14x14xf32>
def val_main_v193 (x0 x1 : (⟨S16384x196, .f32⟩ : BufTy).Contents (Elt F)) : (⟨S16384x14x14, .f32⟩ : BufTy).Contents (Elt F) :=
  Host.dotGeneral dot_S16384x14x2_S16384x14x2_S16384x14x14_2_2_1_1_0_0 none (val_main_v181 (F := F) x0 x1) (val_main_v181 (F := F) x0 x1)

-- %194 = stablehlo.multiply %192, %193 : tensor<16384x14x14xf32>
def val_main_v194 (x0 x1 : (⟨S16384x196, .f32⟩ : BufTy).Contents (Elt F)) : (⟨S16384x14x14, .f32⟩ : BufTy).Contents (Elt F) :=
  mulf (val_main_v192 (F := F) x0 x1) (val_main_v193 (F := F) x0 x1)

-- %cst_28 = stablehlo.constant dense<0.000000e+00> : tensor<f32>
def val_main_cst_28 : (⟨S_, .f32⟩ : BufTy).Contents (Elt F) :=
  constant S_ .f32 0x00000000#32

-- %195 = stablehlo.reduce(%194 init: %cst_28) applies stablehlo.add across dimensions = [1, 2] : (tensor<16384x14x14xf32>, tensor<f32>) -> tensor<16384xf32> {
def val_main_v195 (x0 x1 : (⟨S16384x196, .f32⟩ : BufTy).Contents (Elt F)) : (⟨S16384, .f32⟩ : BufTy).Contents (Elt F) :=
  Host.reduceAdd (val_main_v194 (F := F) x0 x1) (val_main_cst_28 (F := F)) reducesTo_S16384x14x14_S16384_d1_2 h_S_

-- %196 = stablehlo.add %160, %195 : tensor<16384xf32>
def val_main_v196 (x0 x1 : (⟨S16384x196, .f32⟩ : BufTy).Contents (Elt F)) : (⟨S16384, .f32⟩ : BufTy).Contents (Elt F) :=
  addf (val_main_v160 (F := F) x0 x1) (val_main_v195 (F := F) x0 x1)

-- %197 = stablehlo.slice %0 [0:16384, 68:76, 0:2] : (tensor<16384x98x2xf32>) -> tensor<16384x8x2xf32>
def val_main_v197 (x0 : (⟨S16384x196, .f32⟩ : BufTy).Contents (Elt F)) : (⟨S16384x8x2, .f32⟩ : BufTy).Contents (Elt F) :=
  extractStridedSlice S16384x8x2 ![0, 68, 0] (val_main_v0 (F := F) x0) slices_S16384x98x2_S16384x8x2_0_68_0

-- %198 = stablehlo.slice %1 [0:16384, 68:76, 0:2] : (tensor<16384x98x2xf32>) -> tensor<16384x8x2xf32>
def val_main_v198 (x1 : (⟨S16384x196, .f32⟩ : BufTy).Contents (Elt F)) : (⟨S16384x8x2, .f32⟩ : BufTy).Contents (Elt F) :=
  extractStridedSlice S16384x8x2 ![0, 68, 0] (val_main_v1 (F := F) x1) slices_S16384x98x2_S16384x8x2_0_68_0

-- %199 = stablehlo.slice %197 [0:16384, 0:7, 0:2] : (tensor<16384x8x2xf32>) -> tensor<16384x7x2xf32>
def val_main_v199 (x0 : (⟨S16384x196, .f32⟩ : BufTy).Contents (Elt F)) : (⟨S16384x7x2, .f32⟩ : BufTy).Contents (Elt F) :=
  extractStridedSlice S16384x7x2 ![0, 0, 0] (val_main_v197 (F := F) x0) slices_S16384x8x2_S16384x7x2_0_0_0

-- %200 = stablehlo.slice %197 [0:16384, 1:8, 0:2] : (tensor<16384x8x2xf32>) -> tensor<16384x7x2xf32>
def val_main_v200 (x0 : (⟨S16384x196, .f32⟩ : BufTy).Contents (Elt F)) : (⟨S16384x7x2, .f32⟩ : BufTy).Contents (Elt F) :=
  extractStridedSlice S16384x7x2 ![0, 1, 0] (val_main_v197 (F := F) x0) slices_S16384x8x2_S16384x7x2_0_1_0

-- %201 = stablehlo.add %199, %200 : tensor<16384x7x2xf32>
def val_main_v201 (x0 : (⟨S16384x196, .f32⟩ : BufTy).Contents (Elt F)) : (⟨S16384x7x2, .f32⟩ : BufTy).Contents (Elt F) :=
  addf (val_main_v199 (F := F) x0) (val_main_v200 (F := F) x0)

-- %cst_29 = stablehlo.constant dense<5.000000e-01> : tensor<f32>
def val_main_cst_29 : (⟨S_, .f32⟩ : BufTy).Contents (Elt F) :=
  constant S_ .f32 0x3F000000#32

-- %202 = stablehlo.broadcast_in_dim %cst_29, dims = [] : (tensor<f32>) -> tensor<16384x7x2xf32>
def val_main_v202 : (⟨S16384x7x2, .f32⟩ : BufTy).Contents (Elt F) :=
  broadcastInDim S16384x7x2 ![] bcast_S_S16384x7x2 (val_main_cst_29 (F := F))

-- %203 = stablehlo.multiply %201, %202 : tensor<16384x7x2xf32>
def val_main_v203 (x0 : (⟨S16384x196, .f32⟩ : BufTy).Contents (Elt F)) : (⟨S16384x7x2, .f32⟩ : BufTy).Contents (Elt F) :=
  mulf (val_main_v201 (F := F) x0) (val_main_v202 (F := F))

-- %204 = stablehlo.slice %197 [0:16384, 1:8, 0:2] : (tensor<16384x8x2xf32>) -> tensor<16384x7x2xf32>
def val_main_v204 (x0 : (⟨S16384x196, .f32⟩ : BufTy).Contents (Elt F)) : (⟨S16384x7x2, .f32⟩ : BufTy).Contents (Elt F) :=
  extractStridedSlice S16384x7x2 ![0, 1, 0] (val_main_v197 (F := F) x0) slices_S16384x8x2_S16384x7x2_0_1_0

-- %205 = stablehlo.slice %197 [0:16384, 0:7, 0:2] : (tensor<16384x8x2xf32>) -> tensor<16384x7x2xf32>
def val_main_v205 (x0 : (⟨S16384x196, .f32⟩ : BufTy).Contents (Elt F)) : (⟨S16384x7x2, .f32⟩ : BufTy).Contents (Elt F) :=
  extractStridedSlice S16384x7x2 ![0, 0, 0] (val_main_v197 (F := F) x0) slices_S16384x8x2_S16384x7x2_0_0_0

-- %206 = stablehlo.subtract %204, %205 : tensor<16384x7x2xf32>
def val_main_v206 (x0 : (⟨S16384x196, .f32⟩ : BufTy).Contents (Elt F)) : (⟨S16384x7x2, .f32⟩ : BufTy).Contents (Elt F) :=
  subf (val_main_v204 (F := F) x0) (val_main_v205 (F := F) x0)

-- %207 = stablehlo.slice %198 [0:16384, 0:7, 0:2] : (tensor<16384x8x2xf32>) -> tensor<16384x7x2xf32>
def val_main_v207 (x1 : (⟨S16384x196, .f32⟩ : BufTy).Contents (Elt F)) : (⟨S16384x7x2, .f32⟩ : BufTy).Contents (Elt F) :=
  extractStridedSlice S16384x7x2 ![0, 0, 0] (val_main_v198 (F := F) x1) slices_S16384x8x2_S16384x7x2_0_0_0

-- %208 = stablehlo.slice %198 [0:16384, 1:8, 0:2] : (tensor<16384x8x2xf32>) -> tensor<16384x7x2xf32>
def val_main_v208 (x1 : (⟨S16384x196, .f32⟩ : BufTy).Contents (Elt F)) : (⟨S16384x7x2, .f32⟩ : BufTy).Contents (Elt F) :=
  extractStridedSlice S16384x7x2 ![0, 1, 0] (val_main_v198 (F := F) x1) slices_S16384x8x2_S16384x7x2_0_1_0

-- %209 = stablehlo.add %207, %208 : tensor<16384x7x2xf32>
def val_main_v209 (x1 : (⟨S16384x196, .f32⟩ : BufTy).Contents (Elt F)) : (⟨S16384x7x2, .f32⟩ : BufTy).Contents (Elt F) :=
  addf (val_main_v207 (F := F) x1) (val_main_v208 (F := F) x1)

-- %cst_30 = stablehlo.constant dense<5.000000e-01> : tensor<f32>
def val_main_cst_30 : (⟨S_, .f32⟩ : BufTy).Contents (Elt F) :=
  constant S_ .f32 0x3F000000#32

-- %210 = stablehlo.broadcast_in_dim %cst_30, dims = [] : (tensor<f32>) -> tensor<16384x7x2xf32>
def val_main_v210 : (⟨S16384x7x2, .f32⟩ : BufTy).Contents (Elt F) :=
  broadcastInDim S16384x7x2 ![] bcast_S_S16384x7x2 (val_main_cst_30 (F := F))

-- %211 = stablehlo.multiply %209, %210 : tensor<16384x7x2xf32>
def val_main_v211 (x1 : (⟨S16384x196, .f32⟩ : BufTy).Contents (Elt F)) : (⟨S16384x7x2, .f32⟩ : BufTy).Contents (Elt F) :=
  mulf (val_main_v209 (F := F) x1) (val_main_v210 (F := F))

-- %212 = stablehlo.slice %198 [0:16384, 1:8, 0:2] : (tensor<16384x8x2xf32>) -> tensor<16384x7x2xf32>
def val_main_v212 (x1 : (⟨S16384x196, .f32⟩ : BufTy).Contents (Elt F)) : (⟨S16384x7x2, .f32⟩ : BufTy).Contents (Elt F) :=
  extractStridedSlice S16384x7x2 ![0, 1, 0] (val_main_v198 (F := F) x1) slices_S16384x8x2_S16384x7x2_0_1_0

-- %213 = stablehlo.slice %198 [0:16384, 0:7, 0:2] : (tensor<16384x8x2xf32>) -> tensor<16384x7x2xf32>
def val_main_v213 (x1 : (⟨S16384x196, .f32⟩ : BufTy).Contents (Elt F)) : (⟨S16384x7x2, .f32⟩ : BufTy).Contents (Elt F) :=
  extractStridedSlice S16384x7x2 ![0, 0, 0] (val_main_v198 (F := F) x1) slices_S16384x8x2_S16384x7x2_0_0_0

-- %214 = stablehlo.subtract %212, %213 : tensor<16384x7x2xf32>
def val_main_v214 (x1 : (⟨S16384x196, .f32⟩ : BufTy).Contents (Elt F)) : (⟨S16384x7x2, .f32⟩ : BufTy).Contents (Elt F) :=
  subf (val_main_v212 (F := F) x1) (val_main_v213 (F := F) x1)

-- %215 = stablehlo.concatenate %203, %211, dim = 1 : (tensor<16384x7x2xf32>, tensor<16384x7x2xf32>) -> tensor<16384x14x2xf32>
def val_main_v215 (x0 x1 : (⟨S16384x196, .f32⟩ : BufTy).Contents (Elt F)) : (⟨S16384x14x2, .f32⟩ : BufTy).Contents (Elt F) :=
  concatenate S16384x14x2 1 [⟨S16384x7x2, (val_main_v203 (F := F) x0)⟩, ⟨S16384x7x2, (val_main_v211 (F := F) x1)⟩] concatenates_S16384x7x2_S16384x7x2_S16384x14x2_d1

-- %216 = stablehlo.negate %214 : tensor<16384x7x2xf32>
def val_main_v216 (x1 : (⟨S16384x196, .f32⟩ : BufTy).Contents (Elt F)) : (⟨S16384x7x2, .f32⟩ : BufTy).Contents (Elt F) :=
  Host.negf (val_main_v214 (F := F) x1)

-- %217 = stablehlo.concatenate %206, %216, dim = 1 : (tensor<16384x7x2xf32>, tensor<16384x7x2xf32>) -> tensor<16384x14x2xf32>
def val_main_v217 (x0 x1 : (⟨S16384x196, .f32⟩ : BufTy).Contents (Elt F)) : (⟨S16384x14x2, .f32⟩ : BufTy).Contents (Elt F) :=
  concatenate S16384x14x2 1 [⟨S16384x7x2, (val_main_v206 (F := F) x0)⟩, ⟨S16384x7x2, (val_main_v216 (F := F) x1)⟩] concatenates_S16384x7x2_S16384x7x2_S16384x14x2_d1

-- %218 = stablehlo.broadcast_in_dim %215, dims = [0, 1, 3] : (tensor<16384x14x2xf32>) -> tensor<16384x14x1x2xf32>
def val_main_v218 (x0 x1 : (⟨S16384x196, .f32⟩ : BufTy).Contents (Elt F)) : (⟨S16384x14x1x2, .f32⟩ : BufTy).Contents (Elt F) :=
  broadcastInDim S16384x14x1x2 ![0, 1, 3] bcast_S16384x14x2_S16384x14x1x2_0_1_3 (val_main_v215 (F := F) x0 x1)

-- %219 = stablehlo.broadcast_in_dim %215, dims = [0, 2, 3] : (tensor<16384x14x2xf32>) -> tensor<16384x1x14x2xf32>
def val_main_v219 (x0 x1 : (⟨S16384x196, .f32⟩ : BufTy).Contents (Elt F)) : (⟨S16384x1x14x2, .f32⟩ : BufTy).Contents (Elt F) :=
  broadcastInDim S16384x1x14x2 ![0, 2, 3] bcast_S16384x14x2_S16384x1x14x2_0_2_3 (val_main_v215 (F := F) x0 x1)

-- %220 = stablehlo.broadcast_in_dim %218, dims = [0, 1, 2, 3] : (tensor<16384x14x1x2xf32>) -> tensor<16384x14x14x2xf32>
def val_main_v220 (x0 x1 : (⟨S16384x196, .f32⟩ : BufTy).Contents (Elt F)) : (⟨S16384x14x14x2, .f32⟩ : BufTy).Contents (Elt F) :=
  broadcastInDim S16384x14x14x2 ![0, 1, 2, 3] bcast_S16384x14x1x2_S16384x14x14x2_0_1_2_3 (val_main_v218 (F := F) x0 x1)

-- %221 = stablehlo.broadcast_in_dim %219, dims = [0, 1, 2, 3] : (tensor<16384x1x14x2xf32>) -> tensor<16384x14x14x2xf32>
def val_main_v221 (x0 x1 : (⟨S16384x196, .f32⟩ : BufTy).Contents (Elt F)) : (⟨S16384x14x14x2, .f32⟩ : BufTy).Contents (Elt F) :=
  broadcastInDim S16384x14x14x2 ![0, 1, 2, 3] bcast_S16384x1x14x2_S16384x14x14x2_0_1_2_3 (val_main_v219 (F := F) x0 x1)

-- %222 = stablehlo.subtract %220, %221 : tensor<16384x14x14x2xf32>
def val_main_v222 (x0 x1 : (⟨S16384x196, .f32⟩ : BufTy).Contents (Elt F)) : (⟨S16384x14x14x2, .f32⟩ : BufTy).Contents (Elt F) :=
  subf (val_main_v220 (F := F) x0 x1) (val_main_v221 (F := F) x0 x1)

-- %223 = stablehlo.multiply %222, %222 : tensor<16384x14x14x2xf32>
def val_main_v223 (x0 x1 : (⟨S16384x196, .f32⟩ : BufTy).Contents (Elt F)) : (⟨S16384x14x14x2, .f32⟩ : BufTy).Contents (Elt F) :=
  mulf (val_main_v222 (F := F) x0 x1) (val_main_v222 (F := F) x0 x1)

-- %cst_31 = stablehlo.constant dense<0.000000e+00> : tensor<f32>
def val_main_cst_31 : (⟨S_, .f32⟩ : BufTy).Contents (Elt F) :=
  constant S_ .f32 0x00000000#32

-- %224 = stablehlo.reduce(%223 init: %cst_31) applies stablehlo.add across dimensions = [3] : (tensor<16384x14x14x2xf32>, tensor<f32>) -> tensor<16384x14x14xf32> {
def val_main_v224 (x0 x1 : (⟨S16384x196, .f32⟩ : BufTy).Contents (Elt F)) : (⟨S16384x14x14, .f32⟩ : BufTy).Contents (Elt F) :=
  Host.reduceAdd (val_main_v223 (F := F) x0 x1) (val_main_cst_31 (F := F)) reducesTo_S16384x14x14x2_S16384x14x14_d3 h_S_

-- %225 = stablehlo.negate %224 : tensor<16384x14x14xf32>
def val_main_v225 (x0 x1 : (⟨S16384x196, .f32⟩ : BufTy).Contents (Elt F)) : (⟨S16384x14x14, .f32⟩ : BufTy).Contents (Elt F) :=
  Host.negf (val_main_v224 (F := F) x0 x1)

-- %cst_32 = stablehlo.constant dense<1.500000e+01> : tensor<f32>
def val_main_cst_32 : (⟨S_, .f32⟩ : BufTy).Contents (Elt F) :=
  constant S_ .f32 0x41700000#32

-- %226 = stablehlo.broadcast_in_dim %cst_32, dims = [] : (tensor<f32>) -> tensor<16384x14x14xf32>
def val_main_v226 : (⟨S16384x14x14, .f32⟩ : BufTy).Contents (Elt F) :=
  broadcastInDim S16384x14x14 ![] bcast_S_S16384x14x14 (val_main_cst_32 (F := F))

-- %227 = stablehlo.divide %225, %226 : tensor<16384x14x14xf32>
def val_main_v227 (x0 x1 : (⟨S16384x196, .f32⟩ : BufTy).Contents (Elt F)) : (⟨S16384x14x14, .f32⟩ : BufTy).Contents (Elt F) :=
  Host.divf (val_main_v225 (F := F) x0 x1) (val_main_v226 (F := F))

-- %228 = stablehlo.exponential %227 : tensor<16384x14x14xf32>
def val_main_v228 (x0 x1 : (⟨S16384x196, .f32⟩ : BufTy).Contents (Elt F)) : (⟨S16384x14x14, .f32⟩ : BufTy).Contents (Elt F) :=
  Host.exp (val_main_v227 (F := F) x0 x1)

-- %229 = stablehlo.dot_general %217, %217, batching_dims = [0] x [0], contracting_dims = [2] x [2], precision = [DEFAULT, DEFAULT] : (tensor<16384x14x2xf32>, tensor<16384x14x2xf32>) -> tensor<16384x14x14xf32>
def val_main_v229 (x0 x1 : (⟨S16384x196, .f32⟩ : BufTy).Contents (Elt F)) : (⟨S16384x14x14, .f32⟩ : BufTy).Contents (Elt F) :=
  Host.dotGeneral dot_S16384x14x2_S16384x14x2_S16384x14x14_2_2_1_1_0_0 none (val_main_v217 (F := F) x0 x1) (val_main_v217 (F := F) x0 x1)

-- %230 = stablehlo.multiply %228, %229 : tensor<16384x14x14xf32>
def val_main_v230 (x0 x1 : (⟨S16384x196, .f32⟩ : BufTy).Contents (Elt F)) : (⟨S16384x14x14, .f32⟩ : BufTy).Contents (Elt F) :=
  mulf (val_main_v228 (F := F) x0 x1) (val_main_v229 (F := F) x0 x1)

-- %cst_33 = stablehlo.constant dense<0.000000e+00> : tensor<f32>
def val_main_cst_33 : (⟨S_, .f32⟩ : BufTy).Contents (Elt F) :=
  constant S_ .f32 0x00000000#32

-- %231 = stablehlo.reduce(%230 init: %cst_33) applies stablehlo.add across dimensions = [1, 2] : (tensor<16384x14x14xf32>, tensor<f32>) -> tensor<16384xf32> {
def val_main_v231 (x0 x1 : (⟨S16384x196, .f32⟩ : BufTy).Contents (Elt F)) : (⟨S16384, .f32⟩ : BufTy).Contents (Elt F) :=
  Host.reduceAdd (val_main_v230 (F := F) x0 x1) (val_main_cst_33 (F := F)) reducesTo_S16384x14x14_S16384_d1_2 h_S_

-- %232 = stablehlo.add %196, %231 : tensor<16384xf32>
def val_main_v232 (x0 x1 : (⟨S16384x196, .f32⟩ : BufTy).Contents (Elt F)) : (⟨S16384, .f32⟩ : BufTy).Contents (Elt F) :=
  addf (val_main_v196 (F := F) x0 x1) (val_main_v231 (F := F) x0 x1)

-- %233 = stablehlo.slice %0 [0:16384, 76:88, 0:2] : (tensor<16384x98x2xf32>) -> tensor<16384x12x2xf32>
def val_main_v233 (x0 : (⟨S16384x196, .f32⟩ : BufTy).Contents (Elt F)) : (⟨S16384x12x2, .f32⟩ : BufTy).Contents (Elt F) :=
  extractStridedSlice S16384x12x2 ![0, 76, 0] (val_main_v0 (F := F) x0) slices_S16384x98x2_S16384x12x2_0_76_0

-- %234 = stablehlo.slice %1 [0:16384, 76:88, 0:2] : (tensor<16384x98x2xf32>) -> tensor<16384x12x2xf32>
def val_main_v234 (x1 : (⟨S16384x196, .f32⟩ : BufTy).Contents (Elt F)) : (⟨S16384x12x2, .f32⟩ : BufTy).Contents (Elt F) :=
  extractStridedSlice S16384x12x2 ![0, 76, 0] (val_main_v1 (F := F) x1) slices_S16384x98x2_S16384x12x2_0_76_0

-- %235 = stablehlo.slice %233 [0:16384, 0:11, 0:2] : (tensor<16384x12x2xf32>) -> tensor<16384x11x2xf32>
def val_main_v235 (x0 : (⟨S16384x196, .f32⟩ : BufTy).Contents (Elt F)) : (⟨S16384x11x2, .f32⟩ : BufTy).Contents (Elt F) :=
  extractStridedSlice S16384x11x2 ![0, 0, 0] (val_main_v233 (F := F) x0) slices_S16384x12x2_S16384x11x2_0_0_0

-- %236 = stablehlo.slice %233 [0:16384, 1:12, 0:2] : (tensor<16384x12x2xf32>) -> tensor<16384x11x2xf32>
def val_main_v236 (x0 : (⟨S16384x196, .f32⟩ : BufTy).Contents (Elt F)) : (⟨S16384x11x2, .f32⟩ : BufTy).Contents (Elt F) :=
  extractStridedSlice S16384x11x2 ![0, 1, 0] (val_main_v233 (F := F) x0) slices_S16384x12x2_S16384x11x2_0_1_0

-- %237 = stablehlo.add %235, %236 : tensor<16384x11x2xf32>
def val_main_v237 (x0 : (⟨S16384x196, .f32⟩ : BufTy).Contents (Elt F)) : (⟨S16384x11x2, .f32⟩ : BufTy).Contents (Elt F) :=
  addf (val_main_v235 (F := F) x0) (val_main_v236 (F := F) x0)

-- %cst_34 = stablehlo.constant dense<5.000000e-01> : tensor<f32>
def val_main_cst_34 : (⟨S_, .f32⟩ : BufTy).Contents (Elt F) :=
  constant S_ .f32 0x3F000000#32

-- %238 = stablehlo.broadcast_in_dim %cst_34, dims = [] : (tensor<f32>) -> tensor<16384x11x2xf32>
def val_main_v238 : (⟨S16384x11x2, .f32⟩ : BufTy).Contents (Elt F) :=
  broadcastInDim S16384x11x2 ![] bcast_S_S16384x11x2 (val_main_cst_34 (F := F))

-- %239 = stablehlo.multiply %237, %238 : tensor<16384x11x2xf32>
def val_main_v239 (x0 : (⟨S16384x196, .f32⟩ : BufTy).Contents (Elt F)) : (⟨S16384x11x2, .f32⟩ : BufTy).Contents (Elt F) :=
  mulf (val_main_v237 (F := F) x0) (val_main_v238 (F := F))

-- %240 = stablehlo.slice %233 [0:16384, 1:12, 0:2] : (tensor<16384x12x2xf32>) -> tensor<16384x11x2xf32>
def val_main_v240 (x0 : (⟨S16384x196, .f32⟩ : BufTy).Contents (Elt F)) : (⟨S16384x11x2, .f32⟩ : BufTy).Contents (Elt F) :=
  extractStridedSlice S16384x11x2 ![0, 1, 0] (val_main_v233 (F := F) x0) slices_S16384x12x2_S16384x11x2_0_1_0

-- %241 = stablehlo.slice %233 [0:16384, 0:11, 0:2] : (tensor<16384x12x2xf32>) -> tensor<16384x11x2xf32>
def val_main_v241 (x0 : (⟨S16384x196, .f32⟩ : BufTy).Contents (Elt F)) : (⟨S16384x11x2, .f32⟩ : BufTy).Contents (Elt F) :=
  extractStridedSlice S16384x11x2 ![0, 0, 0] (val_main_v233 (F := F) x0) slices_S16384x12x2_S16384x11x2_0_0_0

-- %242 = stablehlo.subtract %240, %241 : tensor<16384x11x2xf32>
def val_main_v242 (x0 : (⟨S16384x196, .f32⟩ : BufTy).Contents (Elt F)) : (⟨S16384x11x2, .f32⟩ : BufTy).Contents (Elt F) :=
  subf (val_main_v240 (F := F) x0) (val_main_v241 (F := F) x0)

-- %243 = stablehlo.slice %234 [0:16384, 0:11, 0:2] : (tensor<16384x12x2xf32>) -> tensor<16384x11x2xf32>
def val_main_v243 (x1 : (⟨S16384x196, .f32⟩ : BufTy).Contents (Elt F)) : (⟨S16384x11x2, .f32⟩ : BufTy).Contents (Elt F) :=
  extractStridedSlice S16384x11x2 ![0, 0, 0] (val_main_v234 (F := F) x1) slices_S16384x12x2_S16384x11x2_0_0_0

-- %244 = stablehlo.slice %234 [0:16384, 1:12, 0:2] : (tensor<16384x12x2xf32>) -> tensor<16384x11x2xf32>
def val_main_v244 (x1 : (⟨S16384x196, .f32⟩ : BufTy).Contents (Elt F)) : (⟨S16384x11x2, .f32⟩ : BufTy).Contents (Elt F) :=
  extractStridedSlice S16384x11x2 ![0, 1, 0] (val_main_v234 (F := F) x1) slices_S16384x12x2_S16384x11x2_0_1_0

-- %245 = stablehlo.add %243, %244 : tensor<16384x11x2xf32>
def val_main_v245 (x1 : (⟨S16384x196, .f32⟩ : BufTy).Contents (Elt F)) : (⟨S16384x11x2, .f32⟩ : BufTy).Contents (Elt F) :=
  addf (val_main_v243 (F := F) x1) (val_main_v244 (F := F) x1)

-- %cst_35 = stablehlo.constant dense<5.000000e-01> : tensor<f32>
def val_main_cst_35 : (⟨S_, .f32⟩ : BufTy).Contents (Elt F) :=
  constant S_ .f32 0x3F000000#32

-- %246 = stablehlo.broadcast_in_dim %cst_35, dims = [] : (tensor<f32>) -> tensor<16384x11x2xf32>
def val_main_v246 : (⟨S16384x11x2, .f32⟩ : BufTy).Contents (Elt F) :=
  broadcastInDim S16384x11x2 ![] bcast_S_S16384x11x2 (val_main_cst_35 (F := F))

-- %247 = stablehlo.multiply %245, %246 : tensor<16384x11x2xf32>
def val_main_v247 (x1 : (⟨S16384x196, .f32⟩ : BufTy).Contents (Elt F)) : (⟨S16384x11x2, .f32⟩ : BufTy).Contents (Elt F) :=
  mulf (val_main_v245 (F := F) x1) (val_main_v246 (F := F))

-- %248 = stablehlo.slice %234 [0:16384, 1:12, 0:2] : (tensor<16384x12x2xf32>) -> tensor<16384x11x2xf32>
def val_main_v248 (x1 : (⟨S16384x196, .f32⟩ : BufTy).Contents (Elt F)) : (⟨S16384x11x2, .f32⟩ : BufTy).Contents (Elt F) :=
  extractStridedSlice S16384x11x2 ![0, 1, 0] (val_main_v234 (F := F) x1) slices_S16384x12x2_S16384x11x2_0_1_0

-- %249 = stablehlo.slice %234 [0:16384, 0:11, 0:2] : (tensor<16384x12x2xf32>) -> tensor<16384x11x2xf32>
def val_main_v249 (x1 : (⟨S16384x196, .f32⟩ : BufTy).Contents (Elt F)) : (⟨S16384x11x2, .f32⟩ : BufTy).Contents (Elt F) :=
  extractStridedSlice S16384x11x2 ![0, 0, 0] (val_main_v234 (F := F) x1) slices_S16384x12x2_S16384x11x2_0_0_0

-- %250 = stablehlo.subtract %248, %249 : tensor<16384x11x2xf32>
def val_main_v250 (x1 : (⟨S16384x196, .f32⟩ : BufTy).Contents (Elt F)) : (⟨S16384x11x2, .f32⟩ : BufTy).Contents (Elt F) :=
  subf (val_main_v248 (F := F) x1) (val_main_v249 (F := F) x1)

-- %251 = stablehlo.concatenate %239, %247, dim = 1 : (tensor<16384x11x2xf32>, tensor<16384x11x2xf32>) -> tensor<16384x22x2xf32>
def val_main_v251 (x0 x1 : (⟨S16384x196, .f32⟩ : BufTy).Contents (Elt F)) : (⟨S16384x22x2, .f32⟩ : BufTy).Contents (Elt F) :=
  concatenate S16384x22x2 1 [⟨S16384x11x2, (val_main_v239 (F := F) x0)⟩, ⟨S16384x11x2, (val_main_v247 (F := F) x1)⟩] concatenates_S16384x11x2_S16384x11x2_S16384x22x2_d1

-- %252 = stablehlo.negate %250 : tensor<16384x11x2xf32>
def val_main_v252 (x1 : (⟨S16384x196, .f32⟩ : BufTy).Contents (Elt F)) : (⟨S16384x11x2, .f32⟩ : BufTy).Contents (Elt F) :=
  Host.negf (val_main_v250 (F := F) x1)

-- %253 = stablehlo.concatenate %242, %252, dim = 1 : (tensor<16384x11x2xf32>, tensor<16384x11x2xf32>) -> tensor<16384x22x2xf32>
def val_main_v253 (x0 x1 : (⟨S16384x196, .f32⟩ : BufTy).Contents (Elt F)) : (⟨S16384x22x2, .f32⟩ : BufTy).Contents (Elt F) :=
  concatenate S16384x22x2 1 [⟨S16384x11x2, (val_main_v242 (F := F) x0)⟩, ⟨S16384x11x2, (val_main_v252 (F := F) x1)⟩] concatenates_S16384x11x2_S16384x11x2_S16384x22x2_d1

-- %254 = stablehlo.broadcast_in_dim %251, dims = [0, 1, 3] : (tensor<16384x22x2xf32>) -> tensor<16384x22x1x2xf32>
def val_main_v254 (x0 x1 : (⟨S16384x196, .f32⟩ : BufTy).Contents (Elt F)) : (⟨S16384x22x1x2, .f32⟩ : BufTy).Contents (Elt F) :=
  broadcastInDim S16384x22x1x2 ![0, 1, 3] bcast_S16384x22x2_S16384x22x1x2_0_1_3 (val_main_v251 (F := F) x0 x1)

-- %255 = stablehlo.broadcast_in_dim %251, dims = [0, 2, 3] : (tensor<16384x22x2xf32>) -> tensor<16384x1x22x2xf32>
def val_main_v255 (x0 x1 : (⟨S16384x196, .f32⟩ : BufTy).Contents (Elt F)) : (⟨S16384x1x22x2, .f32⟩ : BufTy).Contents (Elt F) :=
  broadcastInDim S16384x1x22x2 ![0, 2, 3] bcast_S16384x22x2_S16384x1x22x2_0_2_3 (val_main_v251 (F := F) x0 x1)

-- %256 = stablehlo.broadcast_in_dim %254, dims = [0, 1, 2, 3] : (tensor<16384x22x1x2xf32>) -> tensor<16384x22x22x2xf32>
def val_main_v256 (x0 x1 : (⟨S16384x196, .f32⟩ : BufTy).Contents (Elt F)) : (⟨S16384x22x22x2, .f32⟩ : BufTy).Contents (Elt F) :=
  broadcastInDim S16384x22x22x2 ![0, 1, 2, 3] bcast_S16384x22x1x2_S16384x22x22x2_0_1_2_3 (val_main_v254 (F := F) x0 x1)

-- %257 = stablehlo.broadcast_in_dim %255, dims = [0, 1, 2, 3] : (tensor<16384x1x22x2xf32>) -> tensor<16384x22x22x2xf32>
def val_main_v257 (x0 x1 : (⟨S16384x196, .f32⟩ : BufTy).Contents (Elt F)) : (⟨S16384x22x22x2, .f32⟩ : BufTy).Contents (Elt F) :=
  broadcastInDim S16384x22x22x2 ![0, 1, 2, 3] bcast_S16384x1x22x2_S16384x22x22x2_0_1_2_3 (val_main_v255 (F := F) x0 x1)

-- %258 = stablehlo.subtract %256, %257 : tensor<16384x22x22x2xf32>
def val_main_v258 (x0 x1 : (⟨S16384x196, .f32⟩ : BufTy).Contents (Elt F)) : (⟨S16384x22x22x2, .f32⟩ : BufTy).Contents (Elt F) :=
  subf (val_main_v256 (F := F) x0 x1) (val_main_v257 (F := F) x0 x1)

-- %259 = stablehlo.multiply %258, %258 : tensor<16384x22x22x2xf32>
def val_main_v259 (x0 x1 : (⟨S16384x196, .f32⟩ : BufTy).Contents (Elt F)) : (⟨S16384x22x22x2, .f32⟩ : BufTy).Contents (Elt F) :=
  mulf (val_main_v258 (F := F) x0 x1) (val_main_v258 (F := F) x0 x1)

-- %cst_36 = stablehlo.constant dense<0.000000e+00> : tensor<f32>
def val_main_cst_36 : (⟨S_, .f32⟩ : BufTy).Contents (Elt F) :=
  constant S_ .f32 0x00000000#32

-- %260 = stablehlo.reduce(%259 init: %cst_36) applies stablehlo.add across dimensions = [3] : (tensor<16384x22x22x2xf32>, tensor<f32>) -> tensor<16384x22x22xf32> {
def val_main_v260 (x0 x1 : (⟨S16384x196, .f32⟩ : BufTy).Contents (Elt F)) : (⟨S16384x22x22, .f32⟩ : BufTy).Contents (Elt F) :=
  Host.reduceAdd (val_main_v259 (F := F) x0 x1) (val_main_cst_36 (F := F)) reducesTo_S16384x22x22x2_S16384x22x22_d3 h_S_

-- %261 = stablehlo.negate %260 : tensor<16384x22x22xf32>
def val_main_v261 (x0 x1 : (⟨S16384x196, .f32⟩ : BufTy).Contents (Elt F)) : (⟨S16384x22x22, .f32⟩ : BufTy).Contents (Elt F) :=
  Host.negf (val_main_v260 (F := F) x0 x1)

-- %cst_37 = stablehlo.constant dense<1.500000e+01> : tensor<f32>
def val_main_cst_37 : (⟨S_, .f32⟩ : BufTy).Contents (Elt F) :=
  constant S_ .f32 0x41700000#32

-- %262 = stablehlo.broadcast_in_dim %cst_37, dims = [] : (tensor<f32>) -> tensor<16384x22x22xf32>
def val_main_v262 : (⟨S16384x22x22, .f32⟩ : BufTy).Contents (Elt F) :=
  broadcastInDim S16384x22x22 ![] bcast_S_S16384x22x22 (val_main_cst_37 (F := F))

-- %263 = stablehlo.divide %261, %262 : tensor<16384x22x22xf32>
def val_main_v263 (x0 x1 : (⟨S16384x196, .f32⟩ : BufTy).Contents (Elt F)) : (⟨S16384x22x22, .f32⟩ : BufTy).Contents (Elt F) :=
  Host.divf (val_main_v261 (F := F) x0 x1) (val_main_v262 (F := F))

-- %264 = stablehlo.exponential %263 : tensor<16384x22x22xf32>
def val_main_v264 (x0 x1 : (⟨S16384x196, .f32⟩ : BufTy).Contents (Elt F)) : (⟨S16384x22x22, .f32⟩ : BufTy).Contents (Elt F) :=
  Host.exp (val_main_v263 (F := F) x0 x1)

-- %265 = stablehlo.dot_general %253, %253, batching_dims = [0] x [0], contracting_dims = [2] x [2], precision = [DEFAULT, DEFAULT] : (tensor<16384x22x2xf32>, tensor<16384x22x2xf32>) -> tensor<16384x22x22xf32>
def val_main_v265 (x0 x1 : (⟨S16384x196, .f32⟩ : BufTy).Contents (Elt F)) : (⟨S16384x22x22, .f32⟩ : BufTy).Contents (Elt F) :=
  Host.dotGeneral dot_S16384x22x2_S16384x22x2_S16384x22x22_2_2_1_1_0_0 none (val_main_v253 (F := F) x0 x1) (val_main_v253 (F := F) x0 x1)

-- %266 = stablehlo.multiply %264, %265 : tensor<16384x22x22xf32>
def val_main_v266 (x0 x1 : (⟨S16384x196, .f32⟩ : BufTy).Contents (Elt F)) : (⟨S16384x22x22, .f32⟩ : BufTy).Contents (Elt F) :=
  mulf (val_main_v264 (F := F) x0 x1) (val_main_v265 (F := F) x0 x1)

-- %cst_38 = stablehlo.constant dense<0.000000e+00> : tensor<f32>
def val_main_cst_38 : (⟨S_, .f32⟩ : BufTy).Contents (Elt F) :=
  constant S_ .f32 0x00000000#32

-- %267 = stablehlo.reduce(%266 init: %cst_38) applies stablehlo.add across dimensions = [1, 2] : (tensor<16384x22x22xf32>, tensor<f32>) -> tensor<16384xf32> {
def val_main_v267 (x0 x1 : (⟨S16384x196, .f32⟩ : BufTy).Contents (Elt F)) : (⟨S16384, .f32⟩ : BufTy).Contents (Elt F) :=
  Host.reduceAdd (val_main_v266 (F := F) x0 x1) (val_main_cst_38 (F := F)) reducesTo_S16384x22x22_S16384_d1_2 h_S_

-- %268 = stablehlo.add %232, %267 : tensor<16384xf32>
def val_main_v268 (x0 x1 : (⟨S16384x196, .f32⟩ : BufTy).Contents (Elt F)) : (⟨S16384, .f32⟩ : BufTy).Contents (Elt F) :=
  addf (val_main_v232 (F := F) x0 x1) (val_main_v267 (F := F) x0 x1)

-- %269 = stablehlo.slice %0 [0:16384, 88:98, 0:2] : (tensor<16384x98x2xf32>) -> tensor<16384x10x2xf32>
def val_main_v269 (x0 : (⟨S16384x196, .f32⟩ : BufTy).Contents (Elt F)) : (⟨S16384x10x2, .f32⟩ : BufTy).Contents (Elt F) :=
  extractStridedSlice S16384x10x2 ![0, 88, 0] (val_main_v0 (F := F) x0) slices_S16384x98x2_S16384x10x2_0_88_0

-- %270 = stablehlo.slice %1 [0:16384, 88:98, 0:2] : (tensor<16384x98x2xf32>) -> tensor<16384x10x2xf32>
def val_main_v270 (x1 : (⟨S16384x196, .f32⟩ : BufTy).Contents (Elt F)) : (⟨S16384x10x2, .f32⟩ : BufTy).Contents (Elt F) :=
  extractStridedSlice S16384x10x2 ![0, 88, 0] (val_main_v1 (F := F) x1) slices_S16384x98x2_S16384x10x2_0_88_0

-- %271 = stablehlo.slice %269 [0:16384, 0:9, 0:2] : (tensor<16384x10x2xf32>) -> tensor<16384x9x2xf32>
def val_main_v271 (x0 : (⟨S16384x196, .f32⟩ : BufTy).Contents (Elt F)) : (⟨S16384x9x2, .f32⟩ : BufTy).Contents (Elt F) :=
  extractStridedSlice S16384x9x2 ![0, 0, 0] (val_main_v269 (F := F) x0) slices_S16384x10x2_S16384x9x2_0_0_0

-- %272 = stablehlo.slice %269 [0:16384, 1:10, 0:2] : (tensor<16384x10x2xf32>) -> tensor<16384x9x2xf32>
def val_main_v272 (x0 : (⟨S16384x196, .f32⟩ : BufTy).Contents (Elt F)) : (⟨S16384x9x2, .f32⟩ : BufTy).Contents (Elt F) :=
  extractStridedSlice S16384x9x2 ![0, 1, 0] (val_main_v269 (F := F) x0) slices_S16384x10x2_S16384x9x2_0_1_0

-- %273 = stablehlo.add %271, %272 : tensor<16384x9x2xf32>
def val_main_v273 (x0 : (⟨S16384x196, .f32⟩ : BufTy).Contents (Elt F)) : (⟨S16384x9x2, .f32⟩ : BufTy).Contents (Elt F) :=
  addf (val_main_v271 (F := F) x0) (val_main_v272 (F := F) x0)

-- %cst_39 = stablehlo.constant dense<5.000000e-01> : tensor<f32>
def val_main_cst_39 : (⟨S_, .f32⟩ : BufTy).Contents (Elt F) :=
  constant S_ .f32 0x3F000000#32

-- %274 = stablehlo.broadcast_in_dim %cst_39, dims = [] : (tensor<f32>) -> tensor<16384x9x2xf32>
def val_main_v274 : (⟨S16384x9x2, .f32⟩ : BufTy).Contents (Elt F) :=
  broadcastInDim S16384x9x2 ![] bcast_S_S16384x9x2 (val_main_cst_39 (F := F))

-- %275 = stablehlo.multiply %273, %274 : tensor<16384x9x2xf32>
def val_main_v275 (x0 : (⟨S16384x196, .f32⟩ : BufTy).Contents (Elt F)) : (⟨S16384x9x2, .f32⟩ : BufTy).Contents (Elt F) :=
  mulf (val_main_v273 (F := F) x0) (val_main_v274 (F := F))

-- %276 = stablehlo.slice %269 [0:16384, 1:10, 0:2] : (tensor<16384x10x2xf32>) -> tensor<16384x9x2xf32>
def val_main_v276 (x0 : (⟨S16384x196, .f32⟩ : BufTy).Contents (Elt F)) : (⟨S16384x9x2, .f32⟩ : BufTy).Contents (Elt F) :=
  extractStridedSlice S16384x9x2 ![0, 1, 0] (val_main_v269 (F := F) x0) slices_S16384x10x2_S16384x9x2_0_1_0

-- %277 = stablehlo.slice %269 [0:16384, 0:9, 0:2] : (tensor<16384x10x2xf32>) -> tensor<16384x9x2xf32>
def val_main_v277 (x0 : (⟨S16384x196, .f32⟩ : BufTy).Contents (Elt F)) : (⟨S16384x9x2, .f32⟩ : BufTy).Contents (Elt F) :=
  extractStridedSlice S16384x9x2 ![0, 0, 0] (val_main_v269 (F := F) x0) slices_S16384x10x2_S16384x9x2_0_0_0

-- %278 = stablehlo.subtract %276, %277 : tensor<16384x9x2xf32>
def val_main_v278 (x0 : (⟨S16384x196, .f32⟩ : BufTy).Contents (Elt F)) : (⟨S16384x9x2, .f32⟩ : BufTy).Contents (Elt F) :=
  subf (val_main_v276 (F := F) x0) (val_main_v277 (F := F) x0)

-- %279 = stablehlo.slice %270 [0:16384, 0:9, 0:2] : (tensor<16384x10x2xf32>) -> tensor<16384x9x2xf32>
def val_main_v279 (x1 : (⟨S16384x196, .f32⟩ : BufTy).Contents (Elt F)) : (⟨S16384x9x2, .f32⟩ : BufTy).Contents (Elt F) :=
  extractStridedSlice S16384x9x2 ![0, 0, 0] (val_main_v270 (F := F) x1) slices_S16384x10x2_S16384x9x2_0_0_0

-- %280 = stablehlo.slice %270 [0:16384, 1:10, 0:2] : (tensor<16384x10x2xf32>) -> tensor<16384x9x2xf32>
def val_main_v280 (x1 : (⟨S16384x196, .f32⟩ : BufTy).Contents (Elt F)) : (⟨S16384x9x2, .f32⟩ : BufTy).Contents (Elt F) :=
  extractStridedSlice S16384x9x2 ![0, 1, 0] (val_main_v270 (F := F) x1) slices_S16384x10x2_S16384x9x2_0_1_0

-- %281 = stablehlo.add %279, %280 : tensor<16384x9x2xf32>
def val_main_v281 (x1 : (⟨S16384x196, .f32⟩ : BufTy).Contents (Elt F)) : (⟨S16384x9x2, .f32⟩ : BufTy).Contents (Elt F) :=
  addf (val_main_v279 (F := F) x1) (val_main_v280 (F := F) x1)

-- %cst_40 = stablehlo.constant dense<5.000000e-01> : tensor<f32>
def val_main_cst_40 : (⟨S_, .f32⟩ : BufTy).Contents (Elt F) :=
  constant S_ .f32 0x3F000000#32

-- %282 = stablehlo.broadcast_in_dim %cst_40, dims = [] : (tensor<f32>) -> tensor<16384x9x2xf32>
def val_main_v282 : (⟨S16384x9x2, .f32⟩ : BufTy).Contents (Elt F) :=
  broadcastInDim S16384x9x2 ![] bcast_S_S16384x9x2 (val_main_cst_40 (F := F))

-- %283 = stablehlo.multiply %281, %282 : tensor<16384x9x2xf32>
def val_main_v283 (x1 : (⟨S16384x196, .f32⟩ : BufTy).Contents (Elt F)) : (⟨S16384x9x2, .f32⟩ : BufTy).Contents (Elt F) :=
  mulf (val_main_v281 (F := F) x1) (val_main_v282 (F := F))

-- %284 = stablehlo.slice %270 [0:16384, 1:10, 0:2] : (tensor<16384x10x2xf32>) -> tensor<16384x9x2xf32>
def val_main_v284 (x1 : (⟨S16384x196, .f32⟩ : BufTy).Contents (Elt F)) : (⟨S16384x9x2, .f32⟩ : BufTy).Contents (Elt F) :=
  extractStridedSlice S16384x9x2 ![0, 1, 0] (val_main_v270 (F := F) x1) slices_S16384x10x2_S16384x9x2_0_1_0

-- %285 = stablehlo.slice %270 [0:16384, 0:9, 0:2] : (tensor<16384x10x2xf32>) -> tensor<16384x9x2xf32>
def val_main_v285 (x1 : (⟨S16384x196, .f32⟩ : BufTy).Contents (Elt F)) : (⟨S16384x9x2, .f32⟩ : BufTy).Contents (Elt F) :=
  extractStridedSlice S16384x9x2 ![0, 0, 0] (val_main_v270 (F := F) x1) slices_S16384x10x2_S16384x9x2_0_0_0

-- %286 = stablehlo.subtract %284, %285 : tensor<16384x9x2xf32>
def val_main_v286 (x1 : (⟨S16384x196, .f32⟩ : BufTy).Contents (Elt F)) : (⟨S16384x9x2, .f32⟩ : BufTy).Contents (Elt F) :=
  subf (val_main_v284 (F := F) x1) (val_main_v285 (F := F) x1)

-- %287 = stablehlo.concatenate %275, %283, dim = 1 : (tensor<16384x9x2xf32>, tensor<16384x9x2xf32>) -> tensor<16384x18x2xf32>
def val_main_v287 (x0 x1 : (⟨S16384x196, .f32⟩ : BufTy).Contents (Elt F)) : (⟨S16384x18x2, .f32⟩ : BufTy).Contents (Elt F) :=
  concatenate S16384x18x2 1 [⟨S16384x9x2, (val_main_v275 (F := F) x0)⟩, ⟨S16384x9x2, (val_main_v283 (F := F) x1)⟩] concatenates_S16384x9x2_S16384x9x2_S16384x18x2_d1

-- %288 = stablehlo.negate %286 : tensor<16384x9x2xf32>
def val_main_v288 (x1 : (⟨S16384x196, .f32⟩ : BufTy).Contents (Elt F)) : (⟨S16384x9x2, .f32⟩ : BufTy).Contents (Elt F) :=
  Host.negf (val_main_v286 (F := F) x1)

-- %289 = stablehlo.concatenate %278, %288, dim = 1 : (tensor<16384x9x2xf32>, tensor<16384x9x2xf32>) -> tensor<16384x18x2xf32>
def val_main_v289 (x0 x1 : (⟨S16384x196, .f32⟩ : BufTy).Contents (Elt F)) : (⟨S16384x18x2, .f32⟩ : BufTy).Contents (Elt F) :=
  concatenate S16384x18x2 1 [⟨S16384x9x2, (val_main_v278 (F := F) x0)⟩, ⟨S16384x9x2, (val_main_v288 (F := F) x1)⟩] concatenates_S16384x9x2_S16384x9x2_S16384x18x2_d1

-- %290 = stablehlo.broadcast_in_dim %287, dims = [0, 1, 3] : (tensor<16384x18x2xf32>) -> tensor<16384x18x1x2xf32>
def val_main_v290 (x0 x1 : (⟨S16384x196, .f32⟩ : BufTy).Contents (Elt F)) : (⟨S16384x18x1x2, .f32⟩ : BufTy).Contents (Elt F) :=
  broadcastInDim S16384x18x1x2 ![0, 1, 3] bcast_S16384x18x2_S16384x18x1x2_0_1_3 (val_main_v287 (F := F) x0 x1)

-- %291 = stablehlo.broadcast_in_dim %287, dims = [0, 2, 3] : (tensor<16384x18x2xf32>) -> tensor<16384x1x18x2xf32>
def val_main_v291 (x0 x1 : (⟨S16384x196, .f32⟩ : BufTy).Contents (Elt F)) : (⟨S16384x1x18x2, .f32⟩ : BufTy).Contents (Elt F) :=
  broadcastInDim S16384x1x18x2 ![0, 2, 3] bcast_S16384x18x2_S16384x1x18x2_0_2_3 (val_main_v287 (F := F) x0 x1)

-- %292 = stablehlo.broadcast_in_dim %290, dims = [0, 1, 2, 3] : (tensor<16384x18x1x2xf32>) -> tensor<16384x18x18x2xf32>
def val_main_v292 (x0 x1 : (⟨S16384x196, .f32⟩ : BufTy).Contents (Elt F)) : (⟨S16384x18x18x2, .f32⟩ : BufTy).Contents (Elt F) :=
  broadcastInDim S16384x18x18x2 ![0, 1, 2, 3] bcast_S16384x18x1x2_S16384x18x18x2_0_1_2_3 (val_main_v290 (F := F) x0 x1)

-- %293 = stablehlo.broadcast_in_dim %291, dims = [0, 1, 2, 3] : (tensor<16384x1x18x2xf32>) -> tensor<16384x18x18x2xf32>
def val_main_v293 (x0 x1 : (⟨S16384x196, .f32⟩ : BufTy).Contents (Elt F)) : (⟨S16384x18x18x2, .f32⟩ : BufTy).Contents (Elt F) :=
  broadcastInDim S16384x18x18x2 ![0, 1, 2, 3] bcast_S16384x1x18x2_S16384x18x18x2_0_1_2_3 (val_main_v291 (F := F) x0 x1)

-- %294 = stablehlo.subtract %292, %293 : tensor<16384x18x18x2xf32>
def val_main_v294 (x0 x1 : (⟨S16384x196, .f32⟩ : BufTy).Contents (Elt F)) : (⟨S16384x18x18x2, .f32⟩ : BufTy).Contents (Elt F) :=
  subf (val_main_v292 (F := F) x0 x1) (val_main_v293 (F := F) x0 x1)

-- %295 = stablehlo.multiply %294, %294 : tensor<16384x18x18x2xf32>
def val_main_v295 (x0 x1 : (⟨S16384x196, .f32⟩ : BufTy).Contents (Elt F)) : (⟨S16384x18x18x2, .f32⟩ : BufTy).Contents (Elt F) :=
  mulf (val_main_v294 (F := F) x0 x1) (val_main_v294 (F := F) x0 x1)

-- %cst_41 = stablehlo.constant dense<0.000000e+00> : tensor<f32>
def val_main_cst_41 : (⟨S_, .f32⟩ : BufTy).Contents (Elt F) :=
  constant S_ .f32 0x00000000#32

-- %296 = stablehlo.reduce(%295 init: %cst_41) applies stablehlo.add across dimensions = [3] : (tensor<16384x18x18x2xf32>, tensor<f32>) -> tensor<16384x18x18xf32> {
def val_main_v296 (x0 x1 : (⟨S16384x196, .f32⟩ : BufTy).Contents (Elt F)) : (⟨S16384x18x18, .f32⟩ : BufTy).Contents (Elt F) :=
  Host.reduceAdd (val_main_v295 (F := F) x0 x1) (val_main_cst_41 (F := F)) reducesTo_S16384x18x18x2_S16384x18x18_d3 h_S_

-- %297 = stablehlo.negate %296 : tensor<16384x18x18xf32>
def val_main_v297 (x0 x1 : (⟨S16384x196, .f32⟩ : BufTy).Contents (Elt F)) : (⟨S16384x18x18, .f32⟩ : BufTy).Contents (Elt F) :=
  Host.negf (val_main_v296 (F := F) x0 x1)

-- %cst_42 = stablehlo.constant dense<1.500000e+01> : tensor<f32>
def val_main_cst_42 : (⟨S_, .f32⟩ : BufTy).Contents (Elt F) :=
  constant S_ .f32 0x41700000#32

-- %298 = stablehlo.broadcast_in_dim %cst_42, dims = [] : (tensor<f32>) -> tensor<16384x18x18xf32>
def val_main_v298 : (⟨S16384x18x18, .f32⟩ : BufTy).Contents (Elt F) :=
  broadcastInDim S16384x18x18 ![] bcast_S_S16384x18x18 (val_main_cst_42 (F := F))

-- %299 = stablehlo.divide %297, %298 : tensor<16384x18x18xf32>
def val_main_v299 (x0 x1 : (⟨S16384x196, .f32⟩ : BufTy).Contents (Elt F)) : (⟨S16384x18x18, .f32⟩ : BufTy).Contents (Elt F) :=
  Host.divf (val_main_v297 (F := F) x0 x1) (val_main_v298 (F := F))

-- %300 = stablehlo.exponential %299 : tensor<16384x18x18xf32>
def val_main_v300 (x0 x1 : (⟨S16384x196, .f32⟩ : BufTy).Contents (Elt F)) : (⟨S16384x18x18, .f32⟩ : BufTy).Contents (Elt F) :=
  Host.exp (val_main_v299 (F := F) x0 x1)

-- %301 = stablehlo.dot_general %289, %289, batching_dims = [0] x [0], contracting_dims = [2] x [2], precision = [DEFAULT, DEFAULT] : (tensor<16384x18x2xf32>, tensor<16384x18x2xf32>) -> tensor<16384x18x18xf32>
def val_main_v301 (x0 x1 : (⟨S16384x196, .f32⟩ : BufTy).Contents (Elt F)) : (⟨S16384x18x18, .f32⟩ : BufTy).Contents (Elt F) :=
  Host.dotGeneral dot_S16384x18x2_S16384x18x2_S16384x18x18_2_2_1_1_0_0 none (val_main_v289 (F := F) x0 x1) (val_main_v289 (F := F) x0 x1)

-- %302 = stablehlo.multiply %300, %301 : tensor<16384x18x18xf32>
def val_main_v302 (x0 x1 : (⟨S16384x196, .f32⟩ : BufTy).Contents (Elt F)) : (⟨S16384x18x18, .f32⟩ : BufTy).Contents (Elt F) :=
  mulf (val_main_v300 (F := F) x0 x1) (val_main_v301 (F := F) x0 x1)

-- %cst_43 = stablehlo.constant dense<0.000000e+00> : tensor<f32>
def val_main_cst_43 : (⟨S_, .f32⟩ : BufTy).Contents (Elt F) :=
  constant S_ .f32 0x00000000#32

-- %303 = stablehlo.reduce(%302 init: %cst_43) applies stablehlo.add across dimensions = [1, 2] : (tensor<16384x18x18xf32>, tensor<f32>) -> tensor<16384xf32> {
def val_main_v303 (x0 x1 : (⟨S16384x196, .f32⟩ : BufTy).Contents (Elt F)) : (⟨S16384, .f32⟩ : BufTy).Contents (Elt F) :=
  Host.reduceAdd (val_main_v302 (F := F) x0 x1) (val_main_cst_43 (F := F)) reducesTo_S16384x18x18_S16384_d1_2 h_S_

-- %304 = stablehlo.add %268, %303 : tensor<16384xf32>
def val_main_v304 (x0 x1 : (⟨S16384x196, .f32⟩ : BufTy).Contents (Elt F)) : (⟨S16384, .f32⟩ : BufTy).Contents (Elt F) :=
  addf (val_main_v268 (F := F) x0 x1) (val_main_v303 (F := F) x0 x1)

-- %cst_44 = stablehlo.constant dense<9.800000e+01> : tensor<f32>
def val_main_cst_44 : (⟨S_, .f32⟩ : BufTy).Contents (Elt F) :=
  constant S_ .f32 0x42C40000#32

-- %305 = stablehlo.broadcast_in_dim %cst_44, dims = [] : (tensor<f32>) -> tensor<16384xf32>
def val_main_v305 : (⟨S16384, .f32⟩ : BufTy).Contents (Elt F) :=
  broadcastInDim S16384 ![] bcast_S_S16384 (val_main_cst_44 (F := F))

-- %306 = stablehlo.multiply %305, %12 : tensor<16384xf32>
def val_main_v306 (x1 : (⟨S16384x196, .f32⟩ : BufTy).Contents (Elt F)) : (⟨S16384, .f32⟩ : BufTy).Contents (Elt F) :=
  mulf (val_main_v305 (F := F)) (val_main_v12 (F := F) x1)

-- %307 = stablehlo.divide %304, %306 : tensor<16384xf32>
def val_main_v307 (x0 x1 : (⟨S16384x196, .f32⟩ : BufTy).Contents (Elt F)) : (⟨S16384, .f32⟩ : BufTy).Contents (Elt F) :=
  Host.divf (val_main_v304 (F := F) x0 x1) (val_main_v306 (F := F) x1)

-- %cst_45 = stablehlo.constant dense<0.000000e+00> : tensor<f32>
def val_main_cst_45 : (⟨S_, .f32⟩ : BufTy).Contents (Elt F) :=
  constant S_ .f32 0x00000000#32

-- %308 = stablehlo.reduce(%307 init: %cst_45) applies stablehlo.add across dimensions = [0] : (tensor<16384xf32>, tensor<f32>) -> tensor<f32> {
def val_main_v308 (x0 x1 : (⟨S16384x196, .f32⟩ : BufTy).Contents (Elt F)) : (⟨S_, .f32⟩ : BufTy).Contents (Elt F) :=
  Host.reduceAdd (val_main_v307 (F := F) x0 x1) (val_main_cst_45 (F := F)) reducesTo_S16384_S_d0 h_S_

-- %cst_46 = stablehlo.constant dense<1.638400e+04> : tensor<f32>
def val_main_cst_46 : (⟨S_, .f32⟩ : BufTy).Contents (Elt F) :=
  constant S_ .f32 0x46800000#32

-- %309 = stablehlo.divide %308, %cst_46 : tensor<f32>
def val_main_v309 (x0 x1 : (⟨S16384x196, .f32⟩ : BufTy).Contents (Elt F)) : (⟨S_, .f32⟩ : BufTy).Contents (Elt F) :=
  Host.divf (val_main_v308 (F := F) x0 x1) (val_main_cst_46 (F := F))

-- %cst_47 = stablehlo.constant dense<8.000000e-01> : tensor<f32>
def val_main_cst_47 : (⟨S_, .f32⟩ : BufTy).Contents (Elt F) :=
  constant S_ .f32 0x3F4CCCCD#32

-- %310 = stablehlo.multiply %cst_47, %15 : tensor<f32>
def val_main_v310 (x0 x1 : (⟨S16384x196, .f32⟩ : BufTy).Contents (Elt F)) : (⟨S_, .f32⟩ : BufTy).Contents (Elt F) :=
  mulf (val_main_cst_47 (F := F)) (val_main_v15 (F := F) x0 x1)

-- %cst_48 = stablehlo.constant dense<2.000000e-01> : tensor<f32>
def val_main_cst_48 : (⟨S_, .f32⟩ : BufTy).Contents (Elt F) :=
  constant S_ .f32 0x3E4CCCCD#32

-- %311 = stablehlo.multiply %cst_48, %309 : tensor<f32>
def val_main_v311 (x0 x1 : (⟨S16384x196, .f32⟩ : BufTy).Contents (Elt F)) : (⟨S_, .f32⟩ : BufTy).Contents (Elt F) :=
  mulf (val_main_cst_48 (F := F)) (val_main_v309 (F := F) x0 x1)

-- %312 = stablehlo.add %310, %311 : tensor<f32>
def val_main_v312 (x0 x1 : (⟨S16384x196, .f32⟩ : BufTy).Contents (Elt F)) : (⟨S_, .f32⟩ : BufTy).Contents (Elt F) :=
  addf (val_main_v310 (F := F) x0 x1) (val_main_v311 (F := F) x0 x1)

end Cert.ReferenceIdeal.Stages

end
-- ==== Proof.RefCurveLib.lean ====
/-
  Coordinate forms for the operations of one curve block of the reference.

  The forms of Forms.lean (an array of shape [a, b, c] with entry `f i j l` at (i, j, l) written `N3 a b c f`, likewise at
  the other ranks) are closed under the operations a curve block uses: pointwise arithmetic at ranks three and four, a
  scalar spread over a rank-three shape, a concatenation along the middle axis, the insertion of a unit axis and its
  filling by a broadcast, a sum along the last axis of a rank-four array, a sum over the two trailing axes of a
  rank-three array, and a batched product contracting the last axis.  Each lemma is stated at any extents.
-/
import proofs.«429135_j77395310674027_3_alg».proof.Proof.Forms
import proofs.«429135_j77395310674027_3_alg».proof.Proof.Spec
import Idealize.ShloMosaic.Lib.IdealHost

noncomputable section

namespace Cert.Forms

open Idealize.ShloMosaic Idealize.ShloMosaic.ValueIdx

variable {α : Type}

theorem N4_apply (a b c d : ℕ) (f : ℕ → ℕ → ℕ → ℕ → α) (i : Fin a) (j : Fin b) (k : Fin c) (l : Fin d) :
    N4 a b c d f (ix4 i j k l) = f i.val j.val k.val l.val := rfl

/-! ## Pointwise operations -/

section Pointwise
variable {φ : FTy}

theorem subf_N4 (a b c d : ℕ) (f g : ℕ → ℕ → ℕ → ℕ → EReal) :
    subf (F := Ideal) (φ := φ) (N4 a b c d f) (N4 a b c d g) = N4 a b c d (fun i j k l => f i j k l - g i j k l) := rfl
theorem mulf_N4 (a b c d : ℕ) (f g : ℕ → ℕ → ℕ → ℕ → EReal) :
    mulf (F := Ideal) (φ := φ) (N4 a b c d f) (N4 a b c d g) = N4 a b c d (fun i j k l => f i j k l * g i j k l) := rfl
theorem hnegf_N3 (a b c : ℕ) (f : ℕ → ℕ → ℕ → EReal) :
    Host.negf (F := Ideal) (φ := φ) (N3 a b c f) = N3 a b c (fun i j l => -(f i j l)) := rfl
theorem hdivf_N3 (a b c : ℕ) (f g : ℕ → ℕ → ℕ → EReal) :
    Host.divf (F := Ideal) (φ := φ) (N3 a b c f) (N3 a b c g) = N3 a b c (fun i j l => Ideal.div (f i j l) (g i j l)) := rfl
theorem hexp_N3 (a b c : ℕ) (f : ℕ → ℕ → ℕ → EReal) :
    Host.exp (F := Ideal) (φ := φ) (N3 a b c f) = N3 a b c (fun i j l => Ideal.exp (f i j l)) := rfl

end Pointwise

/-! ## A scalar spread over a shape -/

theorem bcast0_N3 {a b c : ℕ} (x : (⟨0, ![]⟩ : Shape).Idx → α)
    (dims : Fin (⟨0, ![]⟩ : Shape).rank → Fin (⟨3, ![a, b, c]⟩ : Shape).rank)
    (h : (⟨0, ![]⟩ : Shape).BroadcastsInDim ⟨3, ![a, b, c]⟩ dims) :
    broadcastInDim ⟨3, ![a, b, c]⟩ dims h x = N3 a b c (fun _ _ _ => x ix0) := by
  funext j
  unfold broadcastInDim
  exact congrArg x (funext fun a => a.elim0)

/-! ## A concatenation along the middle axis -/

theorem concat3_mid {a n1 n2 n c : ℕ} (f g : ℕ → ℕ → ℕ → α)
    (h : Shape.Concatenates [(⟨3, ![a, n1, c]⟩ : Shape), ⟨3, ![a, n2, c]⟩] ⟨3, ![a, n, c]⟩ 1) :
    concatenate ⟨3, ![a, n, c]⟩ 1 [⟨⟨3, ![a, n1, c]⟩, N3 a n1 c f⟩, ⟨⟨3, ![a, n2, c]⟩, N3 a n2 c g⟩] h
      = N3 a n c (fun i j l => if j < n1 then f i j l else g i (j - n1) l) := by
  funext j
  have hj0 : (j 0).val < a := (j 0).isLt
  have hj1 : (j 1).val < n := (j 1).isLt
  have hj2 : (j 2).val < c := (j 2).isLt
  have hn : n1 + n2 = n := by
    have e := h.2.2
    simpa using e
  show _ = if (j 1).val < n1 then f (j 0).val (j 1).val (j 2).val else g (j 0).val ((j 1).val - n1) (j 2).val
  by_cases hlt : (j 1).val < n1
  · rw [if_pos hlt]
    exact concatenate_pair_apply_left 1 _ _ h j rfl (ix3 ⟨(j 0).val, hj0⟩ ⟨(j 1).val, hlt⟩ ⟨(j 2).val, hj2⟩)
      (fun b => by match b with | ⟨0, _⟩ => rfl | ⟨1, _⟩ => rfl | ⟨2, _⟩ => rfl)
  · rw [if_neg hlt]
    have h2 : (j 1).val - n1 < n2 := by omega
    exact concatenate_pair_apply_right 1 _ _ h j rfl rfl (ix3 ⟨(j 0).val, hj0⟩ ⟨(j 1).val - n1, h2⟩ ⟨(j 2).val, hj2⟩)
      (fun b hb => by
        match b with
        | ⟨0, _⟩ => rfl
        | ⟨1, _⟩ => exact absurd rfl hb
        | ⟨2, _⟩ => rfl)
      (by show (j 1).val - n1 + n1 = (j 1).val; omega)

/-! ## Unit axes inserted and filled -/

/-- A unit axis inserted before the last axis. -/
theorem bcastIn_abc_ab1c {a b c : ℕ} (f : ℕ → ℕ → ℕ → α)
    (dims : Fin (⟨3, ![a, b, c]⟩ : Shape).rank → Fin (⟨4, ![a, b, 1, c]⟩ : Shape).rank)
    (h : (⟨3, ![a, b, c]⟩ : Shape).BroadcastsInDim ⟨4, ![a, b, 1, c]⟩ dims) (hd : dims = ![0, 1, 3]) :
    broadcastInDim ⟨4, ![a, b, 1, c]⟩ dims h (N3 a b c f) = N4 a b 1 c (fun i j _ l => f i j l) := by
  subst hd
  funext j
  have h0 : (j 0).val < a := (j 0).isLt
  have h1 : (j 1).val < b := (j 1).isLt
  have h3 : (j 3).val < c := (j 3).isLt
  refine (broadcastInDim_apply _ h (N3 a b c f) j (ix3 (j 0) (j 1) (j 3)) fun ax => ?_).trans rfl
  match ax with
  | ⟨0, _⟩ =>
    show (j 0).val = if a = 1 then 0 else (j 0).val
    split
    · omega
    · rfl
  | ⟨1, _⟩ =>
    show (j 1).val = if b = 1 then 0 else (j 1).val
    split
    · omega
    · rfl
  | ⟨2, _⟩ =>
    show (j 3).val = if c = 1 then 0 else (j 3).val
    split
    · omega
    · rfl

/-- A unit axis inserted after the first axis. -/
theorem bcastIn_abc_a1bc {a b c : ℕ} (f : ℕ → ℕ → ℕ → α)
    (dims : Fin (⟨3, ![a, b, c]⟩ : Shape).rank → Fin (⟨4, ![a, 1, b, c]⟩ : Shape).rank)
    (h : (⟨3, ![a, b, c]⟩ : Shape).BroadcastsInDim ⟨4, ![a, 1, b, c]⟩ dims) (hd : dims = ![0, 2, 3]) :
    broadcastInDim ⟨4, ![a, 1, b, c]⟩ dims h (N3 a b c f) = N4 a 1 b c (fun i _ j l => f i j l) := by
  subst hd
  funext j
  have h0 : (j 0).val < a := (j 0).isLt
  have h2 : (j 2).val < b := (j 2).isLt
  have h3 : (j 3).val < c := (j 3).isLt
  refine (broadcastInDim_apply _ h (N3 a b c f) j (ix3 (j 0) (j 2) (j 3)) fun ax => ?_).trans rfl
  match ax with
  | ⟨0, _⟩ =>
    show (j 0).val = if a = 1 then 0 else (j 0).val
    split
    · omega
    · rfl
  | ⟨1, _⟩ =>
    show (j 2).val = if b = 1 then 0 else (j 2).val
    split
    · omega
    · rfl
  | ⟨2, _⟩ =>
    show (j 3).val = if c = 1 then 0 else (j 3).val
    split
    · omega
    · rfl

/-- The unit third axis filled. -/
theorem bcastIn_ab1d_abcd {a b c d : ℕ} (f : ℕ → ℕ → ℕ → ℕ → α)
    (dims : Fin (⟨4, ![a, b, 1, d]⟩ : Shape).rank → Fin (⟨4, ![a, b, c, d]⟩ : Shape).rank)
    (h : (⟨4, ![a, b, 1, d]⟩ : Shape).BroadcastsInDim ⟨4, ![a, b, c, d]⟩ dims) (hd : dims = ![0, 1, 2, 3]) :
    broadcastInDim ⟨4, ![a, b, c, d]⟩ dims h (N4 a b 1 d f) = N4 a b c d (fun i j _ l => f i j 0 l) := by
  subst hd
  funext j
  have h0 : (j 0).val < a := (j 0).isLt
  have h1 : (j 1).val < b := (j 1).isLt
  have h3 : (j 3).val < d := (j 3).isLt
  refine (broadcastInDim_apply _ h (N4 a b 1 d f) j (ix4 (j 0) (j 1) (0 : Fin 1) (j 3)) fun ax => ?_).trans rfl
  match ax with
  | ⟨0, _⟩ =>
    show (j 0).val = if a = 1 then 0 else (j 0).val
    split
    · omega
    · rfl
  | ⟨1, _⟩ =>
    show (j 1).val = if b = 1 then 0 else (j 1).val
    split
    · omega
    · rfl
  | ⟨2, _⟩ => rfl
  | ⟨3, _⟩ =>
    show (j 3).val = if d = 1 then 0 else (j 3).val
    split
    · omega
    · rfl

/-- The unit second axis filled. -/
theorem bcastIn_a1cd_abcd {a b c d : ℕ} (f : ℕ → ℕ → ℕ → ℕ → α)
    (dims : Fin (⟨4, ![a, 1, c, d]⟩ : Shape).rank → Fin (⟨4, ![a, b, c, d]⟩ : Shape).rank)
    (h : (⟨4, ![a, 1, c, d]⟩ : Shape).BroadcastsInDim ⟨4, ![a, b, c, d]⟩ dims) (hd : dims = ![0, 1, 2, 3]) :
    broadcastInDim ⟨4, ![a, b, c, d]⟩ dims h (N4 a 1 c d f) = N4 a b c d (fun i _ k l => f i 0 k l) := by
  subst hd
  funext j
  have h0 : (j 0).val < a := (j 0).isLt
  have h2 : (j 2).val < c := (j 2).isLt
  have h3 : (j 3).val < d := (j 3).isLt
  refine (broadcastInDim_apply _ h (N4 a 1 c d f) j (ix4 (j 0) (0 : Fin 1) (j 2) (j 3)) fun ax => ?_).trans rfl
  match ax with
  | ⟨0, _⟩ =>
    show (j 0).val = if a = 1 then 0 else (j 0).val
    split
    · omega
    · rfl
  | ⟨1, _⟩ => rfl
  | ⟨2, _⟩ =>
    show (j 2).val = if c = 1 then 0 else (j 2).val
    split
    · omega
    · rfl
  | ⟨3, _⟩ =>
    show (j 3).val = if d = 1 then 0 else (j 3).val
    split
    · omega
    · rfl

/-! ## Sums -/

/-- The sum along the last axis of a rank-four array, from an initial value. -/
theorem hreduce4_last {a b c d : ℕ} {u : Shape} (f : ℕ → ℕ → ℕ → ℕ → EReal) (init : u.Idx → EReal)
    (h : (⟨4, ![a, b, c, d]⟩ : Shape).ReducesTo [3] ⟨3, ![a, b, c]⟩) (hu : 0 < u.numel) :
    Host.reduceAdd (F := Ideal) (φ := .f32) (N4 a b c d f) init h hu
      = N3 a b c (fun i j k => init (Shape.Idx.first hu) + ∑ l ∈ Finset.range d, f i j k l) := by
  funext j
  have hR : (⟨4, ![a, b, c, d]⟩ : Shape).Reduces [3] ⟨3, ![a, b, c]⟩ := ⟨h.1, Nat.succ_pos 2, h.2⟩
  rw [hostReduceAdd_apply, Ideal.hostReduceAdd_single h hR]
  show _ + ∑ k : Fin d, f (j 0).val (j 1).val (j 2).val k.val = _ + ∑ l ∈ Finset.range d, f (j 0).val (j 1).val (j 2).val l
  rw [Fin.sum_univ_eq_sum_range (fun l => f (j 0).val (j 1).val (j 2).val l) d]

/-- The sum over the two trailing axes of a rank-three array, from an initial value. -/
theorem hreduce3_12 {a b c : ℕ} {u : Shape} (f : ℕ → ℕ → ℕ → EReal) (init : u.Idx → EReal)
    (h : (⟨3, ![a, b, c]⟩ : Shape).ReducesTo [1, 2] ⟨1, ![a]⟩) (hu : 0 < u.numel) :
    Host.reduceAdd (F := Ideal) (φ := .f32) (N3 a b c f) init h hu
      = N1 a (fun i => init (Shape.Idx.first hu) + ∑ j ∈ Finset.range b, ∑ k ∈ Finset.range c, f i j k) := by
  funext j
  rw [hostReduceAdd_apply]
  unfold Ideal.hostReduceAdd
  show _ + _ = _ + ∑ jj ∈ Finset.range b, ∑ k ∈ Finset.range c, f (j 0).val jj k
  congr 1
  rw [← Fin.sum_univ_eq_sum_range (fun jj => ∑ k ∈ Finset.range c, f (j 0).val jj k) b]
  have e2 : ∀ jj : Fin b, ∑ k ∈ Finset.range c, f (j 0).val jj.val k = ∑ k : Fin c, f (j 0).val jj.val k.val :=
    fun jj => (Fin.sum_univ_eq_sum_range (fun k => f (j 0).val jj.val k) c).symm
  rw [Finset.sum_congr rfl fun jj _ => e2 jj, ← Fintype.sum_prod_type' (fun (jj : Fin b) (k : Fin c) => f (j 0).val jj.val k.val)]
  have hdrop : ∀ i : (⟨3, ![a, b, c]⟩ : Shape).Idx, (h.drop i 0).val = (i 0).val := fun _ => rfl
  refine Finset.sum_nbij' (fun i => (i 1, i 2)) (fun p => ix3 (j 0) p.1 p.2) ?_ ?_ ?_ ?_ ?_
  · intro i _; exact Finset.mem_univ _
  · intro p _
    refine Finset.mem_filter.2 ⟨Finset.mem_univ _, ?_⟩
    funext b0
    match b0 with
    | ⟨0, _⟩ => exact Fin.ext (hdrop _)
  · intro i hi
    have hj := (Finset.mem_filter.1 hi).2
    have h0 : (i 0).val = (j 0).val := by rw [← hdrop i, hj]
    funext ax
    match ax with
    | ⟨0, _⟩ => exact Fin.ext h0.symm
    | ⟨1, _⟩ => rfl
    | ⟨2, _⟩ => rfl
  · intro p _; rfl
  · intro i hi
    have hj := (Finset.mem_filter.1 hi).2
    have h0 : (i 0).val = (j 0).val := by rw [← hdrop i, hj]
    show f (i 0).val (i 1).val (i 2).val = f (j 0).val (i 1).val (i 2).val
    rw [h0]

/-! ## A batched product contracting the last axis -/

/-- For the dimension numbers "batch axis 0, contracting axis 2" on both sides, the product of two arrays of shape
    [B, M, C] at (i, j, j') is the sum over the last coordinate of the products of rows j and j' of batch i. -/
theorem dot3_N3 {B M C : ℕ} (D : DotDims ⟨3, ![B, M, C]⟩ ⟨3, ![B, M, C]⟩ ⟨3, ![B, M, M]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (f g : ℕ → ℕ → ℕ → EReal) :
    Host.dotGeneral (F := Ideal) (φ₁ := .f32) (φ₂ := .f32) D prec (N3 B M C f) (N3 B M C g)
      = N3 B M M (fun i j j' => ∑ l ∈ Finset.range C, f i j l * g i j' l) := by
  obtain ⟨lc, rc, ln, rn, lb, rb, wf⟩ := D
  simp only at hlc hrc hln hrn hlb hrb
  subst hlc hrc hln hrn hlb hrb
  funext j
  simp only [Host.dotGeneral]
  rw [Ideal.dotGeneral_apply]
  show _ = ∑ l ∈ Finset.range C, f (j 0).val (j 1).val l * g (j 0).val (j 2).val l
  rw [← Fin.sum_univ_eq_sum_range (fun l => f (j 0).val (j 1).val l * g (j 0).val (j 2).val l) C]
  generalize hD : (⟨[2], [2], [1], [1], [0], [0], wf⟩ : DotDims ⟨3, ![B, M, C]⟩ ⟨3, ![B, M, C]⟩ ⟨3, ![B, M, M]⟩) = D
  have hlc : D.lhsContracting = [2] := by rw [← hD]
  have hrc : D.rhsContracting = [2] := by rw [← hD]
  rw [← Equiv.sum_comp (contrEquiv1 D C (by rw [← hD]; rfl) (by subst hD; rfl)).symm]
  refine Finset.sum_congr rfl fun k _ => ?_
  have hk := contrEquiv1_symm_val D C (by rw [← hD]; rfl) (by subst hD; rfl) k
  generalize (contrEquiv1 D C (by rw [← hD]; rfl) (by subst hD; rfl)).symm k = q at hk
  have l2 : (D.lhsIdx j q 2).val = k.val := (D.lhsIdx_val_of_single hlc j q).trans hk
  have r2 : (D.rhsIdx j q 2).val = k.val := (D.rhsIdx_val_of_single hrc j q).trans hk
  have l0 : (D.lhsIdx j q 0).val = (j 0).val := by
    subst hD; unfold DotDims.lhsIdx
    rw [dif_pos (show (0 : Fin 3) ∈ ([0] : List (Fin 3)) by decide)]; rfl
  have l1 : (D.lhsIdx j q 1).val = (j 1).val := by
    subst hD; unfold DotDims.lhsIdx
    rw [dif_neg (show ¬(1 : Fin 3) ∈ ([0] : List (Fin 3)) by decide), dif_pos (show (1 : Fin 3) ∈ ([1] : List (Fin 3)) by decide)]; rfl
  have r0 : (D.rhsIdx j q 0).val = (j 0).val := by
    subst hD; unfold DotDims.rhsIdx
    rw [dif_pos (show (0 : Fin 3) ∈ ([0] : List (Fin 3)) by decide)]; rfl
  have r1 : (D.rhsIdx j q 1).val = (j 2).val := by
    subst hD; unfold DotDims.rhsIdx
    rw [dif_neg (show ¬(1 : Fin 3) ∈ ([0] : List (Fin 3)) by decide), dif_pos (show (1 : Fin 3) ∈ ([1] : List (Fin 3)) by decide)]; rfl
  show f (D.lhsIdx j q 0).val (D.lhsIdx j q 1).val (D.lhsIdx j q 2).val * g (D.rhsIdx j q 0).val (D.rhsIdx j q 1).val (D.rhsIdx j q 2).val = _
  rw [l0, l1, l2, r0, r1, r2]

/-! ## The closed form of a curve's sum -/

/-- The concatenation along the middle axis of two arrays known in coordinate form. -/
theorem concat3_mid' {α : Type} {a n1 n2 n c : ℕ} (x : (⟨3, ![a, n1, c]⟩ : Shape).Idx → α) (y : (⟨3, ![a, n2, c]⟩ : Shape).Idx → α)
    (f g : ℕ → ℕ → ℕ → α) (hx : x = N3 a n1 c f) (hy : y = N3 a n2 c g)
    (h : Shape.Concatenates [(⟨3, ![a, n1, c]⟩ : Shape), ⟨3, ![a, n2, c]⟩] ⟨3, ![a, n, c]⟩ 1) :
    concatenate ⟨3, ![a, n, c]⟩ 1 [⟨⟨3, ![a, n1, c]⟩, x⟩, ⟨⟨3, ![a, n2, c]⟩, y⟩] h
      = N3 a n c (fun i j l => if j < n1 then f i j l else g i (j - n1) l) := by
  subst hx hy
  exact concat3_mid f g h

/-- Division of a negated sum by the float 15 is the product with -1/15. -/
theorem neg_div15 (X : EReal) : Ideal.div (-X) (Ideal.ofBits .f32 0x41700000#32) = X * Cert.Spec.negInv15 := by
  have h15 : Ideal.ofBits .f32 0x41700000#32 = ((15 : ℝ) : EReal) := by
    simp [Ideal.ofBits, Ideal.ieee, -EReal.coe_mul]; norm_num
  rw [h15, Ideal.div_coe (by norm_num : (15 : ℝ) ≠ 0), Cert.Spec.negInv15,
    show ((-1 / 15 : ℝ)) = -(1 / 15 : ℝ) by norm_num, EReal.coe_neg, EReal.neg_mul, mul_neg]

/-- The reference's closed form of one curve's sum, over the midpoints and tangents of the specification, is the
    specification's curve sum: the initial zeros vanish, a sum over two coordinates is two terms, the quotient by 15 is
    the product with -1/15, and the two pair indices are summed in the other order. -/
theorem pair_sum_eq (A G : ℕ → ℕ → ℕ → EReal) (a k M s : ℕ) (hM : M = k + k) :
    Ideal.ofBits .f32 0x00000000#32 + ∑ j ∈ Finset.range M, ∑ j' ∈ Finset.range M,
        Ideal.exp (Ideal.div (-(Ideal.ofBits .f32 0x00000000#32 + ∑ l ∈ Finset.range 2,
            (Cert.Spec.cen A G a k s j l - Cert.Spec.cen A G a k s j' l) * (Cert.Spec.cen A G a k s j l - Cert.Spec.cen A G a k s j' l)))
          (Ideal.ofBits .f32 0x41700000#32))
        * ∑ l ∈ Finset.range 2, Cert.Spec.tau A G a k s j l * Cert.Spec.tau A G a k s j' l
      = Cert.Spec.curve A G a k s := by
  subst hM
  unfold Cert.Spec.curve
  rw [Ideal.ofBits_zero_f32, zero_add]
  refine Finset.sum_comm.trans (Finset.sum_congr rfl fun j' _ => Finset.sum_congr rfl fun j _ => ?_)
  unfold Cert.Spec.pair
  rw [neg_div15]
  simp only [Finset.sum_range_succ, Finset.sum_range_zero, zero_add]

end Cert.Forms

end
-- ==== Proof.RefCurves.lean ====
/- The reference's eight curve sums: for each facial curve, the stage that sums the pair terms over all pairs of the
  curve's segments is, sample by sample, the curve sum of the specification.

  Each curve block is read from the inside out in coordinate form.  The slices of the landmark arrays give the segment
  midpoints and tangents of the prediction and of the truth; their concatenations along the segment axis are the
  specification's 2k midpoints and 2k tangents; the unit axes inserted and filled, the squared differences summed over
  the two coordinates, the quotient by 15, the exponential, the batched product of the tangents and the sum over both
  segment axes then give a closed formula over those midpoints and tangents, which is the specification's curve sum
  with its two pair indices summed in the other order.
-/
import proofs.«429135_j77395310674027_3_alg».proof.Proof.RefStages
import proofs.«429135_j77395310674027_3_alg».proof.Proof.Forms
import proofs.«429135_j77395310674027_3_alg».proof.Proof.Spec
import proofs.«429135_j77395310674027_3_alg».proof.Proof.RefCurveLib

noncomputable section

namespace Cert.ReferenceIdeal.RefCurves

open Idealize.ShloMosaic Idealize.ShloMosaic.ValueIdx Cert.ReferenceIdeal Cert.ReferenceIdeal.Gen Cert.ReferenceIdeal.Stages Cert.Forms

variable (x0 x1 : (⟨S16384x196, .f32⟩ : BufTy).Contents (Elt Ideal))

/-- The prediction cut into landmarks: entry (s, n, d) is coordinate d of landmark n of sample s. -/
theorem v0_form : val_main_v0 (F := Ideal) x0 = N3 16384 98 2 (pts x0) := by
  unfold val_main_v0
  conv_lhs => rw [← N2_rd2 x0 0]
  exact cast_a_bc (by norm_num) _ _

/-- The truth cut into landmarks. -/
theorem v1_form : val_main_v1 (F := Ideal) x1 = N3 16384 98 2 (pts x1) := by
  unfold val_main_v1
  conv_lhs => rw [← N2_rd2 x1 0]
  exact cast_a_bc (by norm_num) _ _

/-! ### Curve 1: landmarks 0 to 32, 32 segments -/

/-- The midpoints of the prediction's segments. -/
theorem c1_mid_p : val_main_v23 (F := Ideal) x0 = N3 16384 32 2 (fun s j l => Cert.Spec.mid (pts x0) 0 s j l) := by
  unfold val_main_v23 val_main_v22 val_main_v21 val_main_v20 val_main_v19 val_main_v17 val_main_cst_4
  simp only [v0_form, slice3_mid, addf_N3, mulf_N3, bcast0_N3, constant_apply]
  simp only [Cert.Spec.mid, Cert.Spec.half, Nat.zero_add]

/-- The tangents of the prediction's segments. -/
theorem c1_tan_p : val_main_v26 (F := Ideal) x0 = N3 16384 32 2 (fun s j l => Cert.Spec.tan (pts x0) 0 s j l) := by
  unfold val_main_v26 val_main_v25 val_main_v24 val_main_v17
  simp only [v0_form, slice3_mid, subf_N3]
  simp only [Cert.Spec.tan, Nat.zero_add]

/-- The midpoints of the truth's segments. -/
theorem c1_mid_g : val_main_v31 (F := Ideal) x1 = N3 16384 32 2 (fun s j l => Cert.Spec.mid (pts x1) 0 s j l) := by
  unfold val_main_v31 val_main_v30 val_main_v29 val_main_v28 val_main_v27 val_main_v18 val_main_cst_5
  simp only [v1_form, slice3_mid, addf_N3, mulf_N3, bcast0_N3, constant_apply]
  simp only [Cert.Spec.mid, Cert.Spec.half, Nat.zero_add]

/-- The tangents of the truth's segments, negated. -/
theorem c1_ntan_g : val_main_v36 (F := Ideal) x1 = N3 16384 32 2 (fun s j l => -(Cert.Spec.tan (pts x1) 0 s j l)) := by
  unfold val_main_v36 val_main_v34 val_main_v33 val_main_v32 val_main_v18
  simp only [v1_form, slice3_mid, subf_N3, hnegf_N3]
  simp only [Cert.Spec.tan, Nat.zero_add]

/-- The 64 midpoints: the prediction's, then the truth's. -/
theorem c1_cen : val_main_v35 (F := Ideal) x0 x1
    = N3 16384 64 2 (fun s j l => Cert.Spec.cen (pts x0) (pts x1) 0 32 s j l) := by
  unfold val_main_v35
  exact (concat3_mid' _ _ _ _ (c1_mid_p x0) (c1_mid_g x1) _).trans rfl

/-- The 64 tangents: the prediction's, then the truth's negated. -/
theorem c1_tau : val_main_v37 (F := Ideal) x0 x1
    = N3 16384 64 2 (fun s j l => Cert.Spec.tau (pts x0) (pts x1) 0 32 s j l) := by
  unfold val_main_v37
  exact (concat3_mid' _ _ _ _ (c1_tan_p x0) (c1_ntan_g x1) _).trans rfl

/-- Curve 1: landmarks 0 to 32, 32 segments. -/
theorem curve_v51 : val_main_v51 (F := Ideal) x0 x1 = N1 16384 (fun s => Cert.Spec.curve (pts x0) (pts x1) 0 32 s) := by
  have hdot := dot3_N3 dot_S16384x64x2_S16384x64x2_S16384x64x64_2_2_1_1_0_0 rfl rfl rfl rfl rfl rfl none
  unfold val_main_v51 val_main_v50 val_main_v49 val_main_v48 val_main_v47 val_main_v46 val_main_v45 val_main_v44 val_main_v43 val_main_v42 val_main_v41 val_main_v40 val_main_v39 val_main_v38 val_main_cst_6 val_main_cst_7 val_main_cst_8
  simp only [c1_cen, c1_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 0 32 64 s rfl)

/-! ### Curve 2: landmarks 33 to 41, 8 segments -/

/-- The midpoints of the prediction's segments. -/
theorem c2_mid_p : val_main_v59 (F := Ideal) x0 = N3 16384 8 2 (fun s j l => Cert.Spec.mid (pts x0) 33 s j l) := by
  unfold val_main_v59 val_main_v58 val_main_v57 val_main_v56 val_main_v55 val_main_v53 val_main_cst_9
  simp only [v0_form, slice3_mid, addf_N3, mulf_N3, bcast0_N3, constant_apply]
  simp only [Cert.Spec.mid, Cert.Spec.half, Nat.zero_add]

/-- The tangents of the prediction's segments. -/
theorem c2_tan_p : val_main_v62 (F := Ideal) x0 = N3 16384 8 2 (fun s j l => Cert.Spec.tan (pts x0) 33 s j l) := by
  unfold val_main_v62 val_main_v61 val_main_v60 val_main_v53
  simp only [v0_form, slice3_mid, subf_N3]
  simp only [Cert.Spec.tan, Nat.zero_add]

/-- The midpoints of the truth's segments. -/
theorem c2_mid_g : val_main_v67 (F := Ideal) x1 = N3 16384 8 2 (fun s j l => Cert.Spec.mid (pts x1) 33 s j l) := by
  unfold val_main_v67 val_main_v66 val_main_v65 val_main_v64 val_main_v63 val_main_v54 val_main_cst_10
  simp only [v1_form, slice3_mid, addf_N3, mulf_N3, bcast0_N3, constant_apply]
  simp only [Cert.Spec.mid, Cert.Spec.half, Nat.zero_add]

/-- The tangents of the truth's segments, negated. -/
theorem c2_ntan_g : val_main_v72 (F := Ideal) x1 = N3 16384 8 2 (fun s j l => -(Cert.Spec.tan (pts x1) 33 s j l)) := by
  unfold val_main_v72 val_main_v70 val_main_v69 val_main_v68 val_main_v54
  simp only [v1_form, slice3_mid, subf_N3, hnegf_N3]
  simp only [Cert.Spec.tan, Nat.zero_add]

/-- The 16 midpoints: the prediction's, then the truth's. -/
theorem c2_cen : val_main_v71 (F := Ideal) x0 x1
    = N3 16384 16 2 (fun s j l => Cert.Spec.cen (pts x0) (pts x1) 33 8 s j l) := by
  unfold val_main_v71
  exact (concat3_mid' _ _ _ _ (c2_mid_p x0) (c2_mid_g x1) _).trans rfl

/-- The 16 tangents: the prediction's, then the truth's negated. -/
theorem c2_tau : val_main_v73 (F := Ideal) x0 x1
    = N3 16384 16 2 (fun s j l => Cert.Spec.tau (pts x0) (pts x1) 33 8 s j l) := by
  unfold val_main_v73
  exact (concat3_mid' _ _ _ _ (c2_tan_p x0) (c2_ntan_g x1) _).trans rfl

/-- Curve 2: landmarks 33 to 41, 8 segments. -/
theorem curve_v87 : val_main_v87 (F := Ideal) x0 x1 = N1 16384 (fun s => Cert.Spec.curve (pts x0) (pts x1) 33 8 s) := by
  have hdot := dot3_N3 dot_S16384x16x2_S16384x16x2_S16384x16x16_2_2_1_1_0_0 rfl rfl rfl rfl rfl rfl none
  unfold val_main_v87 val_main_v86 val_main_v85 val_main_v84 val_main_v83 val_main_v82 val_main_v81 val_main_v80 val_main_v79 val_main_v78 val_main_v77 val_main_v76 val_main_v75 val_main_v74 val_main_cst_11 val_main_cst_12 val_main_cst_13
  simp only [c2_cen, c2_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 33 8 16 s rfl)

/-! ### Curve 3: landmarks 42 to 50, 8 segments -/

/-- The midpoints of the prediction's segments. -/
theorem c3_mid_p : val_main_v95 (F := Ideal) x0 = N3 16384 8 2 (fun s j l => Cert.Spec.mid (pts x0) 42 s j l) := by
  unfold val_main_v95 val_main_v94 val_main_v93 val_main_v92 val_main_v91 val_main_v89 val_main_cst_14
  simp only [v0_form, slice3_mid, addf_N3, mulf_N3, bcast0_N3, constant_apply]
  simp only [Cert.Spec.mid, Cert.Spec.half, Nat.zero_add]

/-- The tangents of the prediction's segments. -/
theorem c3_tan_p : val_main_v98 (F := Ideal) x0 = N3 16384 8 2 (fun s j l => Cert.Spec.tan (pts x0) 42 s j l) := by
  unfold val_main_v98 val_main_v97 val_main_v96 val_main_v89
  simp only [v0_form, slice3_mid, subf_N3]
  simp only [Cert.Spec.tan, Nat.zero_add]

/-- The midpoints of the truth's segments. -/
theorem c3_mid_g : val_main_v103 (F := Ideal) x1 = N3 16384 8 2 (fun s j l => Cert.Spec.mid (pts x1) 42 s j l) := by
  unfold val_main_v103 val_main_v102 val_main_v101 val_main_v100 val_main_v99 val_main_v90 val_main_cst_15
  simp only [v1_form, slice3_mid, addf_N3, mulf_N3, bcast0_N3, constant_apply]
  simp only [Cert.Spec.mid, Cert.Spec.half, Nat.zero_add]

/-- The tangents of the truth's segments, negated. -/
theorem c3_ntan_g : val_main_v108 (F := Ideal) x1 = N3 16384 8 2 (fun s j l => -(Cert.Spec.tan (pts x1) 42 s j l)) := by
  unfold val_main_v108 val_main_v106 val_main_v105 val_main_v104 val_main_v90
  simp only [v1_form, slice3_mid, subf_N3, hnegf_N3]
  simp only [Cert.Spec.tan, Nat.zero_add]

/-- The 16 midpoints: the prediction's, then the truth's. -/
theorem c3_cen : val_main_v107 (F := Ideal) x0 x1
    = N3 16384 16 2 (fun s j l => Cert.Spec.cen (pts x0) (pts x1) 42 8 s j l) := by
  unfold val_main_v107
  exact (concat3_mid' _ _ _ _ (c3_mid_p x0) (c3_mid_g x1) _).trans rfl

/-- The 16 tangents: the prediction's, then the truth's negated. -/
theorem c3_tau : val_main_v109 (F := Ideal) x0 x1
    = N3 16384 16 2 (fun s j l => Cert.Spec.tau (pts x0) (pts x1) 42 8 s j l) := by
  unfold val_main_v109
  exact (concat3_mid' _ _ _ _ (c3_tan_p x0) (c3_ntan_g x1) _).trans rfl

/-- Curve 3: landmarks 42 to 50, 8 segments. -/
theorem curve_v123 : val_main_v123 (F := Ideal) x0 x1 = N1 16384 (fun s => Cert.Spec.curve (pts x0) (pts x1) 42 8 s) := by
  have hdot := dot3_N3 dot_S16384x16x2_S16384x16x2_S16384x16x16_2_2_1_1_0_0 rfl rfl rfl rfl rfl rfl none
  unfold val_main_v123 val_main_v122 val_main_v121 val_main_v120 val_main_v119 val_main_v118 val_main_v117 val_main_v116 val_main_v115 val_main_v114 val_main_v113 val_main_v112 val_main_v111 val_main_v110 val_main_cst_16 val_main_cst_17 val_main_cst_18
  simp only [c3_cen, c3_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 42 8 16 s rfl)

/-! ### Curve 4: landmarks 51 to 59, 8 segments -/

/-- The midpoints of the prediction's segments. -/
theorem c4_mid_p : val_main_v131 (F := Ideal) x0 = N3 16384 8 2 (fun s j l => Cert.Spec.mid (pts x0) 51 s j l) := by
  unfold val_main_v131 val_main_v130 val_main_v129 val_main_v128 val_main_v127 val_main_v125 val_main_cst_19
  simp only [v0_form, slice3_mid, addf_N3, mulf_N3, bcast0_N3, constant_apply]
  simp only [Cert.Spec.mid, Cert.Spec.half, Nat.zero_add]

/-- The tangents of the prediction's segments. -/
theorem c4_tan_p : val_main_v134 (F := Ideal) x0 = N3 16384 8 2 (fun s j l => Cert.Spec.tan (pts x0) 51 s j l) := by
  unfold val_main_v134 val_main_v133 val_main_v132 val_main_v125
  simp only [v0_form, slice3_mid, subf_N3]
  simp only [Cert.Spec.tan, Nat.zero_add]

/-- The midpoints of the truth's segments. -/
theorem c4_mid_g : val_main_v139 (F := Ideal) x1 = N3 16384 8 2 (fun s j l => Cert.Spec.mid (pts x1) 51 s j l) := by
  unfold val_main_v139 val_main_v138 val_main_v137 val_main_v136 val_main_v135 val_main_v126 val_main_cst_20
  simp only [v1_form, slice3_mid, addf_N3, mulf_N3, bcast0_N3, constant_apply]
  simp only [Cert.Spec.mid, Cert.Spec.half, Nat.zero_add]

/-- The tangents of the truth's segments, negated. -/
theorem c4_ntan_g : val_main_v144 (F := Ideal) x1 = N3 16384 8 2 (fun s j l => -(Cert.Spec.tan (pts x1) 51 s j l)) := by
  unfold val_main_v144 val_main_v142 val_main_v141 val_main_v140 val_main_v126
  simp only [v1_form, slice3_mid, subf_N3, hnegf_N3]
  simp only [Cert.Spec.tan, Nat.zero_add]

/-- The 16 midpoints: the prediction's, then the truth's. -/
theorem c4_cen : val_main_v143 (F := Ideal) x0 x1
    = N3 16384 16 2 (fun s j l => Cert.Spec.cen (pts x0) (pts x1) 51 8 s j l) := by
  unfold val_main_v143
  exact (concat3_mid' _ _ _ _ (c4_mid_p x0) (c4_mid_g x1) _).trans rfl

/-- The 16 tangents: the prediction's, then the truth's negated. -/
theorem c4_tau : val_main_v145 (F := Ideal) x0 x1
    = N3 16384 16 2 (fun s j l => Cert.Spec.tau (pts x0) (pts x1) 51 8 s j l) := by
  unfold val_main_v145
  exact (concat3_mid' _ _ _ _ (c4_tan_p x0) (c4_ntan_g x1) _).trans rfl

/-- Curve 4: landmarks 51 to 59, 8 segments. -/
theorem curve_v159 : val_main_v159 (F := Ideal) x0 x1 = N1 16384 (fun s => Cert.Spec.curve (pts x0) (pts x1) 51 8 s) := by
  have hdot := dot3_N3 dot_S16384x16x2_S16384x16x2_S16384x16x16_2_2_1_1_0_0 rfl rfl rfl rfl rfl rfl none
  unfold val_main_v159 val_main_v158 val_main_v157 val_main_v156 val_main_v155 val_main_v154 val_main_v153 val_main_v152 val_main_v151 val_main_v150 val_main_v149 val_main_v148 val_main_v147 val_main_v146 val_main_cst_21 val_main_cst_22 val_main_cst_23
  simp only [c4_cen, c4_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 51 8 16 s rfl)

/-! ### Curve 5: landmarks 60 to 67, 7 segments -/

/-- The midpoints of the prediction's segments. -/
theorem c5_mid_p : val_main_v167 (F := Ideal) x0 = N3 16384 7 2 (fun s j l => Cert.Spec.mid (pts x0) 60 s j l) := by
  unfold val_main_v167 val_main_v166 val_main_v165 val_main_v164 val_main_v163 val_main_v161 val_main_cst_24
  simp only [v0_form, slice3_mid, addf_N3, mulf_N3, bcast0_N3, constant_apply]
  simp only [Cert.Spec.mid, Cert.Spec.half, Nat.zero_add]

/-- The tangents of the prediction's segments. -/
theorem c5_tan_p : val_main_v170 (F := Ideal) x0 = N3 16384 7 2 (fun s j l => Cert.Spec.tan (pts x0) 60 s j l) := by
  unfold val_main_v170 val_main_v169 val_main_v168 val_main_v161
  simp only [v0_form, slice3_mid, subf_N3]
  simp only [Cert.Spec.tan, Nat.zero_add]

/-- The midpoints of the truth's segments. -/
theorem c5_mid_g : val_main_v175 (F := Ideal) x1 = N3 16384 7 2 (fun s j l => Cert.Spec.mid (pts x1) 60 s j l) := by
  unfold val_main_v175 val_main_v174 val_main_v173 val_main_v172 val_main_v171 val_main_v162 val_main_cst_25
  simp only [v1_form, slice3_mid, addf_N3, mulf_N3, bcast0_N3, constant_apply]
  simp only [Cert.Spec.mid, Cert.Spec.half, Nat.zero_add]

/-- The tangents of the truth's segments, negated. -/
theorem c5_ntan_g : val_main_v180 (F := Ideal) x1 = N3 16384 7 2 (fun s j l => -(Cert.Spec.tan (pts x1) 60 s j l)) := by
  unfold val_main_v180 val_main_v178 val_main_v177 val_main_v176 val_main_v162
  simp only [v1_form, slice3_mid, subf_N3, hnegf_N3]
  simp only [Cert.Spec.tan, Nat.zero_add]

/-- The 14 midpoints: the prediction's, then the truth's. -/
theorem c5_cen : val_main_v179 (F := Ideal) x0 x1
    = N3 16384 14 2 (fun s j l => Cert.Spec.cen (pts x0) (pts x1) 60 7 s j l) := by
  unfold val_main_v179
  exact (concat3_mid' _ _ _ _ (c5_mid_p x0) (c5_mid_g x1) _).trans rfl

/-- The 14 tangents: the prediction's, then the truth's negated. -/
theorem c5_tau : val_main_v181 (F := Ideal) x0 x1
    = N3 16384 14 2 (fun s j l => Cert.Spec.tau (pts x0) (pts x1) 60 7 s j l) := by
  unfold val_main_v181
  exact (concat3_mid' _ _ _ _ (c5_tan_p x0) (c5_ntan_g x1) _).trans rfl

/-- Curve 5: landmarks 60 to 67, 7 segments. -/
theorem curve_v195 : val_main_v195 (F := Ideal) x0 x1 = N1 16384 (fun s => Cert.Spec.curve (pts x0) (pts x1) 60 7 s) := by
  have hdot := dot3_N3 dot_S16384x14x2_S16384x14x2_S16384x14x14_2_2_1_1_0_0 rfl rfl rfl rfl rfl rfl none
  unfold val_main_v195 val_main_v194 val_main_v193 val_main_v192 val_main_v191 val_main_v190 val_main_v189 val_main_v188 val_main_v187 val_main_v186 val_main_v185 val_main_v184 val_main_v183 val_main_v182 val_main_cst_26 val_main_cst_27 val_main_cst_28
  simp only [c5_cen, c5_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 60 7 14 s rfl)

/-! ### Curve 6: landmarks 68 to 75, 7 segments -/

/-- The midpoints of the prediction's segments. -/
theorem c6_mid_p : val_main_v203 (F := Ideal) x0 = N3 16384 7 2 (fun s j l => Cert.Spec.mid (pts x0) 68 s j l) := by
  unfold val_main_v203 val_main_v202 val_main_v201 val_main_v200 val_main_v199 val_main_v197 val_main_cst_29
  simp only [v0_form, slice3_mid, addf_N3, mulf_N3, bcast0_N3, constant_apply]
  simp only [Cert.Spec.mid, Cert.Spec.half, Nat.zero_add]

/-- The tangents of the prediction's segments. -/
theorem c6_tan_p : val_main_v206 (F := Ideal) x0 = N3 16384 7 2 (fun s j l => Cert.Spec.tan (pts x0) 68 s j l) := by
  unfold val_main_v206 val_main_v205 val_main_v204 val_main_v197
  simp only [v0_form, slice3_mid, subf_N3]
  simp only [Cert.Spec.tan, Nat.zero_add]

/-- The midpoints of the truth's segments. -/
theorem c6_mid_g : val_main_v211 (F := Ideal) x1 = N3 16384 7 2 (fun s j l => Cert.Spec.mid (pts x1) 68 s j l) := by
  unfold val_main_v211 val_main_v210 val_main_v209 val_main_v208 val_main_v207 val_main_v198 val_main_cst_30
  simp only [v1_form, slice3_mid, addf_N3, mulf_N3, bcast0_N3, constant_apply]
  simp only [Cert.Spec.mid, Cert.Spec.half, Nat.zero_add]

/-- The tangents of the truth's segments, negated. -/
theorem c6_ntan_g : val_main_v216 (F := Ideal) x1 = N3 16384 7 2 (fun s j l => -(Cert.Spec.tan (pts x1) 68 s j l)) := by
  unfold val_main_v216 val_main_v214 val_main_v213 val_main_v212 val_main_v198
  simp only [v1_form, slice3_mid, subf_N3, hnegf_N3]
  simp only [Cert.Spec.tan, Nat.zero_add]

/-- The 14 midpoints: the prediction's, then the truth's. -/
theorem c6_cen : val_main_v215 (F := Ideal) x0 x1
    = N3 16384 14 2 (fun s j l => Cert.Spec.cen (pts x0) (pts x1) 68 7 s j l) := by
  unfold val_main_v215
  exact (concat3_mid' _ _ _ _ (c6_mid_p x0) (c6_mid_g x1) _).trans rfl

/-- The 14 tangents: the prediction's, then the truth's negated. -/
theorem c6_tau : val_main_v217 (F := Ideal) x0 x1
    = N3 16384 14 2 (fun s j l => Cert.Spec.tau (pts x0) (pts x1) 68 7 s j l) := by
  unfold val_main_v217
  exact (concat3_mid' _ _ _ _ (c6_tan_p x0) (c6_ntan_g x1) _).trans rfl

/-- Curve 6: landmarks 68 to 75, 7 segments. -/
theorem curve_v231 : val_main_v231 (F := Ideal) x0 x1 = N1 16384 (fun s => Cert.Spec.curve (pts x0) (pts x1) 68 7 s) := by
  have hdot := dot3_N3 dot_S16384x14x2_S16384x14x2_S16384x14x14_2_2_1_1_0_0 rfl rfl rfl rfl rfl rfl none
  unfold val_main_v231 val_main_v230 val_main_v229 val_main_v228 val_main_v227 val_main_v226 val_main_v225 val_main_v224 val_main_v223 val_main_v222 val_main_v221 val_main_v220 val_main_v219 val_main_v218 val_main_cst_31 val_main_cst_32 val_main_cst_33
  simp only [c6_cen, c6_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 68 7 14 s rfl)

/-! ### Curve 7: landmarks 76 to 87, 11 segments -/

/-- The midpoints of the prediction's segments. -/
theorem c7_mid_p : val_main_v239 (F := Ideal) x0 = N3 16384 11 2 (fun s j l => Cert.Spec.mid (pts x0) 76 s j l) := by
  unfold val_main_v239 val_main_v238 val_main_v237 val_main_v236 val_main_v235 val_main_v233 val_main_cst_34
  simp only [v0_form, slice3_mid, addf_N3, mulf_N3, bcast0_N3, constant_apply]
  simp only [Cert.Spec.mid, Cert.Spec.half, Nat.zero_add]

/-- The tangents of the prediction's segments. -/
theorem c7_tan_p : val_main_v242 (F := Ideal) x0 = N3 16384 11 2 (fun s j l => Cert.Spec.tan (pts x0) 76 s j l) := by
  unfold val_main_v242 val_main_v241 val_main_v240 val_main_v233
  simp only [v0_form, slice3_mid, subf_N3]
  simp only [Cert.Spec.tan, Nat.zero_add]

/-- The midpoints of the truth's segments. -/
theorem c7_mid_g : val_main_v247 (F := Ideal) x1 = N3 16384 11 2 (fun s j l => Cert.Spec.mid (pts x1) 76 s j l) := by
  unfold val_main_v247 val_main_v246 val_main_v245 val_main_v244 val_main_v243 val_main_v234 val_main_cst_35
  simp only [v1_form, slice3_mid, addf_N3, mulf_N3, bcast0_N3, constant_apply]
  simp only [Cert.Spec.mid, Cert.Spec.half, Nat.zero_add]

/-- The tangents of the truth's segments, negated. -/
theorem c7_ntan_g : val_main_v252 (F := Ideal) x1 = N3 16384 11 2 (fun s j l => -(Cert.Spec.tan (pts x1) 76 s j l)) := by
  unfold val_main_v252 val_main_v250 val_main_v249 val_main_v248 val_main_v234
  simp only [v1_form, slice3_mid, subf_N3, hnegf_N3]
  simp only [Cert.Spec.tan, Nat.zero_add]

/-- The 22 midpoints: the prediction's, then the truth's. -/
theorem c7_cen : val_main_v251 (F := Ideal) x0 x1
    = N3 16384 22 2 (fun s j l => Cert.Spec.cen (pts x0) (pts x1) 76 11 s j l) := by
  unfold val_main_v251
  exact (concat3_mid' _ _ _ _ (c7_mid_p x0) (c7_mid_g x1) _).trans rfl

/-- The 22 tangents: the prediction's, then the truth's negated. -/
theorem c7_tau : val_main_v253 (F := Ideal) x0 x1
    = N3 16384 22 2 (fun s j l => Cert.Spec.tau (pts x0) (pts x1) 76 11 s j l) := by
  unfold val_main_v253
  exact (concat3_mid' _ _ _ _ (c7_tan_p x0) (c7_ntan_g x1) _).trans rfl

/-- Curve 7: landmarks 76 to 87, 11 segments. -/
theorem curve_v267 : val_main_v267 (F := Ideal) x0 x1 = N1 16384 (fun s => Cert.Spec.curve (pts x0) (pts x1) 76 11 s) := by
  have hdot := dot3_N3 dot_S16384x22x2_S16384x22x2_S16384x22x22_2_2_1_1_0_0 rfl rfl rfl rfl rfl rfl none
  unfold val_main_v267 val_main_v266 val_main_v265 val_main_v264 val_main_v263 val_main_v262 val_main_v261 val_main_v260 val_main_v259 val_main_v258 val_main_v257 val_main_v256 val_main_v255 val_main_v254 val_main_cst_36 val_main_cst_37 val_main_cst_38
  simp only [c7_cen, c7_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 76 11 22 s rfl)

/-! ### Curve 8: landmarks 88 to 97, 9 segments -/

/-- The midpoints of the prediction's segments. -/
theorem c8_mid_p : val_main_v275 (F := Ideal) x0 = N3 16384 9 2 (fun s j l => Cert.Spec.mid (pts x0) 88 s j l) := by
  unfold val_main_v275 val_main_v274 val_main_v273 val_main_v272 val_main_v271 val_main_v269 val_main_cst_39
  simp only [v0_form, slice3_mid, addf_N3, mulf_N3, bcast0_N3, constant_apply]
  simp only [Cert.Spec.mid, Cert.Spec.half, Nat.zero_add]

/-- The tangents of the prediction's segments. -/
theorem c8_tan_p : val_main_v278 (F := Ideal) x0 = N3 16384 9 2 (fun s j l => Cert.Spec.tan (pts x0) 88 s j l) := by
  unfold val_main_v278 val_main_v277 val_main_v276 val_main_v269
  simp only [v0_form, slice3_mid, subf_N3]
  simp only [Cert.Spec.tan, Nat.zero_add]

/-- The midpoints of the truth's segments. -/
theorem c8_mid_g : val_main_v283 (F := Ideal) x1 = N3 16384 9 2 (fun s j l => Cert.Spec.mid (pts x1) 88 s j l) := by
  unfold val_main_v283 val_main_v282 val_main_v281 val_main_v280 val_main_v279 val_main_v270 val_main_cst_40
  simp only [v1_form, slice3_mid, addf_N3, mulf_N3, bcast0_N3, constant_apply]
  simp only [Cert.Spec.mid, Cert.Spec.half, Nat.zero_add]

/-- The tangents of the truth's segments, negated. -/
theorem c8_ntan_g : val_main_v288 (F := Ideal) x1 = N3 16384 9 2 (fun s j l => -(Cert.Spec.tan (pts x1) 88 s j l)) := by
  unfold val_main_v288 val_main_v286 val_main_v285 val_main_v284 val_main_v270
  simp only [v1_form, slice3_mid, subf_N3, hnegf_N3]
  simp only [Cert.Spec.tan, Nat.zero_add]

/-- The 18 midpoints: the prediction's, then the truth's. -/
theorem c8_cen : val_main_v287 (F := Ideal) x0 x1
    = N3 16384 18 2 (fun s j l => Cert.Spec.cen (pts x0) (pts x1) 88 9 s j l) := by
  unfold val_main_v287
  exact (concat3_mid' _ _ _ _ (c8_mid_p x0) (c8_mid_g x1) _).trans rfl

/-- The 18 tangents: the prediction's, then the truth's negated. -/
theorem c8_tau : val_main_v289 (F := Ideal) x0 x1
    = N3 16384 18 2 (fun s j l => Cert.Spec.tau (pts x0) (pts x1) 88 9 s j l) := by
  unfold val_main_v289
  exact (concat3_mid' _ _ _ _ (c8_tan_p x0) (c8_ntan_g x1) _).trans rfl

/-- Curve 8: landmarks 88 to 97, 9 segments. -/
theorem curve_v303 : val_main_v303 (F := Ideal) x0 x1 = N1 16384 (fun s => Cert.Spec.curve (pts x0) (pts x1) 88 9 s) := by
  have hdot := dot3_N3 dot_S16384x18x2_S16384x18x2_S16384x18x18_2_2_1_1_0_0 rfl rfl rfl rfl rfl rfl none
  unfold val_main_v303 val_main_v302 val_main_v301 val_main_v300 val_main_v299 val_main_v298 val_main_v297 val_main_v296 val_main_v295 val_main_v294 val_main_v293 val_main_v292 val_main_v291 val_main_v290 val_main_cst_41 val_main_cst_42 val_main_cst_43
  simp only [c8_cen, c8_tau, bcastIn_abc_ab1c, bcastIn_abc_a1bc, bcastIn_ab1d_abcd, bcastIn_a1cd_abcd, subf_N4, mulf_N4,
    hreduce4_last, hnegf_N3, bcast0_N3, hdivf_N3, hexp_N3, hdot, mulf_N3, hreduce3_12, constant_apply]
  exact congrArg (N1 16384) (funext fun s => pair_sum_eq (pts x0) (pts x1) 88 9 18 s rfl)

end Cert.ReferenceIdeal.RefCurves

end
-- ==== Proof.RefValue.lean ====
/-
  The reference's last stage is the loss of the two inputs.

  The reference's stages outside the eight curve blocks are read in coordinate form: the two inputs cut into
  landmarks, the mean landmark distance, the eye distance, the running total of the curve sums, and the final
  weighted means.  Each stretch of stages is evaluated from the inside out and then compared with the
  specification's formula by the algebra of the extended reals (a commutative monoid under + and under ·).
-/
import proofs.«429135_j77395310674027_3_alg».proof.Proof.RefStages
import proofs.«429135_j77395310674027_3_alg».proof.Proof.RefCurves
import proofs.«429135_j77395310674027_3_alg».proof.Proof.Forms
import proofs.«429135_j77395310674027_3_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Gen Cert.ReferenceIdeal.Stages Cert.Forms

/-! ## Host operations in coordinate form -/

section HostForms
variable {φ : FTy}

/-- A rank-zero constant holds the value of its word. -/
theorem constant_N0 (b : BitVec φ.bits) :
    constant (F := Ideal) (⟨0, ![]⟩ : Shape) φ b = N0 (Ideal.ofBits φ b) := rfl

/-- A scalar broadcast to a vector is the constant function. -/
theorem bcast_N0_N1 {a : ℕ} (x : EReal) (h : (⟨0, ![]⟩ : Shape).BroadcastsInDim ⟨1, ![a]⟩ ![]) :
    broadcastInDim (⟨1, ![a]⟩ : Shape) ![] h (N0 x) = N1 a (fun _ => x) := by
  funext j
  exact broadcastInDim_scalar_apply h (N0 x) j

theorem hsqrt_N1 (a : ℕ) (f : ℕ → EReal) :
    Host.sqrt (F := Ideal) (φ := φ) (N1 a f) = N1 a (fun i => Ideal.sqrt (f i)) := rfl
theorem hsqrt_N2 (a b : ℕ) (f : ℕ → ℕ → EReal) :
    Host.sqrt (F := Ideal) (φ := φ) (N2 a b f) = N2 a b (fun i l => Ideal.sqrt (f i l)) := rfl
theorem hdivf_N0 (x y : EReal) :
    Host.divf (F := Ideal) (φ := φ) (N0 x) (N0 y) = N0 (Ideal.div x y) := rfl
theorem hdivf_N1 (a : ℕ) (f g : ℕ → EReal) :
    Host.divf (F := Ideal) (φ := φ) (N1 a f) (N1 a g) = N1 a (fun i => Ideal.div (f i) (g i)) := rfl
theorem mulf_N0 (x y : EReal) :
    mulf (F := Ideal) (φ := φ) (N0 x) (N0 y) = N0 (x * y) := rfl
theorem addf_N0 (x y : EReal) :
    addf (F := Ideal) (φ := φ) (N0 x) (N0 y) = N0 (x + y) := rfl
theorem mulf_N1 (a : ℕ) (f g : ℕ → EReal) :
    mulf (F := Ideal) (φ := φ) (N1 a f) (N1 a g) = N1 a (fun i => f i * g i) := rfl

/-- The host's sum over the last axis of a rank-three array, from an initial value. -/
theorem hreduce_N3_last {a b c : ℕ} (f : ℕ → ℕ → ℕ → EReal) (z : EReal)
    (h : (⟨3, ![a, b, c]⟩ : Shape).ReducesTo [2] ⟨2, ![a, b]⟩) (hu : 0 < (⟨0, ![]⟩ : Shape).numel) :
    Host.reduceAdd (F := Ideal) (φ := φ) (N3 a b c f) (N0 z) h hu
      = N2 a b (fun i j => z + ∑ k ∈ Finset.range c, f i j k) := by
  funext j
  have hr : (⟨3, ![a, b, c]⟩ : Shape).Reduces [2] ⟨2, ![a, b]⟩ := ⟨h.1, Nat.zero_lt_succ _, h.2⟩
  rw [hostReduceAdd_apply, Ideal.hostReduceAdd_single h hr]
  show z + ∑ k : Fin c, f (j 0).val (j 1).val k.val = z + ∑ k ∈ Finset.range c, f (j 0).val (j 1).val k
  rw [Fin.sum_univ_eq_sum_range (fun k => f (j 0).val (j 1).val k) c]

/-- The host's sum over the last axis of a rank-two array, from an initial value. -/
theorem hreduce_N2_last {a b : ℕ} (f : ℕ → ℕ → EReal) (z : EReal)
    (h : (⟨2, ![a, b]⟩ : Shape).ReducesTo [1] ⟨1, ![a]⟩) (hu : 0 < (⟨0, ![]⟩ : Shape).numel) :
    Host.reduceAdd (F := Ideal) (φ := φ) (N2 a b f) (N0 z) h hu
      = N1 a (fun i => z + ∑ k ∈ Finset.range b, f i k) := by
  funext j
  have hr : (⟨2, ![a, b]⟩ : Shape).Reduces [1] ⟨1, ![a]⟩ := ⟨h.1, Nat.zero_lt_succ _, h.2⟩
  rw [hostReduceAdd_apply, Ideal.hostReduceAdd_single h hr]
  show z + ∑ k : Fin b, f (j 0).val k.val = z + ∑ k ∈ Finset.range b, f (j 0).val k
  rw [Fin.sum_univ_eq_sum_range (fun k => f (j 0).val k) b]

/-- A rank-one index set is its coordinate's range. -/
def idxEquiv1 {n : ℕ} : (⟨1, ![n]⟩ : Shape).Idx ≃ Fin n where
  toFun i := i 0
  invFun p := ix1 p
  left_inv i := (eq_ix1 i).symm
  right_inv _ := rfl

/-- The host's sum of a vector to a scalar, from an initial value. -/
theorem hreduce_N1_all {a : ℕ} (f : ℕ → EReal) (z : EReal)
    (h : (⟨1, ![a]⟩ : Shape).ReducesTo [0] ⟨0, ![]⟩) (hu : 0 < (⟨0, ![]⟩ : Shape).numel) :
    Host.reduceAdd (F := Ideal) (φ := φ) (N1 a f) (N0 z) h hu
      = N0 (z + ∑ k ∈ Finset.range a, f k) := by
  funext j
  rw [hostReduceAdd_apply, Ideal.hostReduceAdd_total h (fun b => b.elim0)]
  show z + ∑ i : (⟨1, ![a]⟩ : Shape).Idx, N1 a f i = z + ∑ k ∈ Finset.range a, f k
  rw [← Equiv.sum_comp (idxEquiv1 (n := a)).symm (N1 a f), ← Fin.sum_univ_eq_sum_range f a]
  rfl

end HostForms

/-! ## The inputs cut into landmarks -/

variable (x0 x1 : (⟨S16384x196, .f32⟩ : BufTy).Contents (Elt Ideal))

/-- A rank-two array of 196 columns recut as 98 pairs: entry (s, n, d) is column n * 2 + d of row s. -/
theorem recut (x : (⟨S16384x196, .f32⟩ : BufTy).Contents (Elt Ideal)) :
    shapeCast (⟨3, ![16384, 98, 2]⟩ : Shape) x shapeCasts_S16384x196_S16384x98x2 = N3 16384 98 2 (pts x) := by
  have e := cast_a_bc (a := 16384) (bc := 196) (b := 98) (c := 2) rfl (rd2 x 0) shapeCasts_S16384x196_S16384x98x2
  rw [N2_rd2] at e
  exact e

theorem v0_form : val_main_v0 (F := Ideal) x0 = N3 16384 98 2 (pts x0) := recut x0
theorem v1_form : val_main_v1 (F := Ideal) x1 = N3 16384 98 2 (pts x1) := recut x1

/-! ## The float words as reals -/

theorem w98_real : Ideal.ofBits .f32 0x42C40000#32 = ((98 : ℝ) : EReal) := by
  simp [Ideal.ofBits, Ideal.ieee, -EReal.coe_mul]; norm_num

/-- The host's sum of two coordinates from the zero word. -/
theorem sum_two (f : ℕ → EReal) :
    Ideal.ofBits .f32 0x00000000#32 + ∑ d ∈ Finset.range 2, f d = f 0 + f 1 := by
  rw [Ideal.ofBits_zero_f32, zero_add, Finset.sum_range_succ, Finset.sum_range_succ, Finset.sum_range_zero, zero_add]

/-! ## The eye distance and the landmark term -/

/-- The reference's eye distance (stage 12), sample by sample. -/
theorem v12_form : val_main_v12 (F := Ideal) x1 = N1 16384 (fun s => Cert.Spec.eye (pts x1) s) := by
  unfold val_main_v12 val_main_call1_v1 val_main_call1_v0 val_main_call1_cst val_main_v11 val_main_v10 val_main_v9
    val_main_v8 val_main_v7
  simp only [v1_form, slice3_mid, cast_a1c_ac, subf_N2, mulf_N2, constant_N0, hreduce_N2_last, hsqrt_N1]
  simp only [sum_two]
  rfl

/-- The reference's landmark term (stage 13), sample by sample. -/
theorem v13_form : val_main_v13 (F := Ideal) x0 x1 = N1 16384 (fun s => Cert.Spec.land (pts x0) (pts x1) s) := by
  unfold val_main_v13
  rw [v12_form]
  unfold val_main_v6 val_main_v5 val_main_cst_0 val_main_v4 val_main_cst val_main_v3 val_main_call0_v1 val_main_call0_cst
    val_main_call0_v0 val_main_v2
  simp only [v0_form, v1_form, subf_N3, mulf_N3, constant_N0, hreduce_N3_last, hsqrt_N2, hreduce_N2_last, sum_two]
  rw [bcast_N0_N1]
  simp only [hdivf_N1]
  refine congrArg (N1 16384) (funext fun s => ?_)
  unfold Cert.Spec.land Cert.Spec.dist Cert.Spec.inv98
  rw [Ideal.ofBits_zero_f32, zero_add, w98_real, Ideal.div_coe (by norm_num)]

/-! ## The running total of the curve sums -/

/-- The total starts from zero. -/
theorem v16_form : val_main_v16 (F := Ideal) = N1 16384 (fun _ => (0 : EReal)) := by
  unfold val_main_v16 val_main_cst_3
  rw [constant_N0, bcast_N0_N1, Ideal.ofBits_zero_f32]

/-- After the eighth curve the running total (stage 304) is the specification's sum of the eight curves. -/
theorem v304_form :
    val_main_v304 (F := Ideal) x0 x1 = N1 16384 (fun s => Cert.Spec.curves (pts x0) (pts x1) s) := by
  unfold val_main_v304 val_main_v268 val_main_v232 val_main_v196 val_main_v160 val_main_v124 val_main_v88 val_main_v52
  rw [v16_form, RefCurves.curve_v51, RefCurves.curve_v87, RefCurves.curve_v123, RefCurves.curve_v159,
    RefCurves.curve_v195, RefCurves.curve_v231, RefCurves.curve_v267, RefCurves.curve_v303]
  simp only [addf_N1]
  rfl

/-- The curve term (stage 307): the total divided by 98 times the eye distance. -/
theorem v307_form :
    val_main_v307 (F := Ideal) x0 x1 = N1 16384 (fun s => Cert.Spec.curveTerm (pts x0) (pts x1) s) := by
  unfold val_main_v307 val_main_v306 val_main_v305 val_main_cst_44
  rw [v304_form, v12_form, constant_N0, bcast_N0_N1]
  simp only [mulf_N1, hdivf_N1]
  refine congrArg (N1 16384) (funext fun s => ?_)
  unfold Cert.Spec.curveTerm Cert.Spec.w98
  rw [mul_comm (Ideal.ofBits .f32 0x42C40000#32) _]

/-! ## The loss -/

theorem ref_value (x0 x1 : (⟨S16384x196, .f32⟩ : BufTy).Contents (Elt Ideal)) :
    val_main_v312 (F := Ideal) x0 x1 = N0 (Cert.Spec.loss (pts x0) (pts x1)) := by
  unfold val_main_v312 val_main_v311 val_main_v310 val_main_v309 val_main_v308 val_main_v15 val_main_v14
    val_main_cst_48 val_main_cst_47 val_main_cst_46 val_main_cst_45 val_main_cst_2 val_main_cst_1
  rw [v307_form, v13_form]
  simp only [constant_N0, hreduce_N1_all, hdivf_N0, mulf_N0, addf_N0]
  rw [Ideal.ofBits_zero_f32, zero_add, zero_add]
  rfl

end Cert.ReferenceIdeal.RefValue

end
-- ==== Proof.RefRunInv.lean ====
/- The reference program is a line of 369 host operations, each writing a buffer of its own. Cut the line at
   0, 28, 66, 69, 110, 126, 151, 186, 192, 233, 246, 274, 306, 315, 356, 366, 369. `Inv<c> W x0 x1` says of a valuation `W` of the device's buffers what holds once
   the first c operations have run from argument contents x0, x1: each buffer that was written by then and is read
   later (with the two arguments, which nothing writes, and at the end the result) holds its stage, the value
   Stages.val_<buffer> of the arguments. The run is these invariants carried from cut to cut. -/
import proofs.«429135_j77395310674027_3_alg».proof.Proof.RefStages
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- The buffers read after the first 0 operations, each at its stage. -/
structure Inv0 (W : Valuation τ sig (Elt F)) (x0 x1 : (⟨S16384x196, .f32⟩ : BufTy).Contents (Elt F)) : Prop where
  arg0 : W (Proc.devRef .tc main_arg0) = x0
  arg1 : W (Proc.devRef .tc main_arg1) = x1

/-- The buffers read after the first 28 operations, each at its stage. -/
structure Inv28 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v16 : W (Proc.devRef .tc main_v16) = val_main_v16 (F := F)

/-- The buffers read after the first 66 operations, each at its stage. -/
structure Inv66 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v16 : W (Proc.devRef .tc main_v16) = val_main_v16 (F := F)
  v50 : W (Proc.devRef .tc main_v50) = val_main_v50 (F := F) x0 x1

/-- The buffers read after the first 69 operations, each at its stage. -/
structure Inv69 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v52 : W (Proc.devRef .tc main_v52) = val_main_v52 (F := F) x0 x1

/-- The buffers read after the first 110 operations, each at its stage. -/
structure Inv110 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v88 : W (Proc.devRef .tc main_v88) = val_main_v88 (F := F) x0 x1

/-- The buffers read after the first 126 operations, each at its stage. -/
structure Inv126 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v88 : W (Proc.devRef .tc main_v88) = val_main_v88 (F := F) x0 x1
  v90 : W (Proc.devRef .tc main_v90) = val_main_v90 (F := F) x1
  v95 : W (Proc.devRef .tc main_v95) = val_main_v95 (F := F) x0
  v98 : W (Proc.devRef .tc main_v98) = val_main_v98 (F := F) x0
  v101 : W (Proc.devRef .tc main_v101) = val_main_v101 (F := F) x1
  v102 : W (Proc.devRef .tc main_v102) = val_main_v102 (F := F)

/-- The buffers read after the first 151 operations, each at its stage. -/
structure Inv151 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v124 : W (Proc.devRef .tc main_v124) = val_main_v124 (F := F) x0 x1

/-- The buffers read after the first 186 operations, each at its stage. -/
structure Inv186 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v124 : W (Proc.devRef .tc main_v124) = val_main_v124 (F := F) x0 x1
  v145 : W (Proc.devRef .tc main_v145) = val_main_v145 (F := F) x0 x1
  v155 : W (Proc.devRef .tc main_v155) = val_main_v155 (F := F) x0 x1

/-- The buffers read after the first 192 operations, each at its stage. -/
structure Inv192 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v160 : W (Proc.devRef .tc main_v160) = val_main_v160 (F := F) x0 x1

/-- The buffers read after the first 233 operations, each at its stage. -/
structure Inv233 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v196 : W (Proc.devRef .tc main_v196) = val_main_v196 (F := F) x0 x1

/-- The buffers read after the first 246 operations, each at its stage. -/
structure Inv246 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v196 : W (Proc.devRef .tc main_v196) = val_main_v196 (F := F) x0 x1
  v198 : W (Proc.devRef .tc main_v198) = val_main_v198 (F := F) x1
  v203 : W (Proc.devRef .tc main_v203) = val_main_v203 (F := F) x0
  v206 : W (Proc.devRef .tc main_v206) = val_main_v206 (F := F) x0
  v207 : W (Proc.devRef .tc main_v207) = val_main_v207 (F := F) x1
  v208 : W (Proc.devRef .tc main_v208) = val_main_v208 (F := F) x1

/-- The buffers read after the first 274 operations, each at its stage. -/
structure Inv274 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v232 : W (Proc.devRef .tc main_v232) = val_main_v232 (F := F) x0 x1

/-- The buffers read after the first 306 operations, each at its stage. -/
structure Inv306 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v232 : W (Proc.devRef .tc main_v232) = val_main_v232 (F := F) x0 x1
  v253 : W (Proc.devRef .tc main_v253) = val_main_v253 (F := F) x0 x1
  v261 : W (Proc.devRef .tc main_v261) = val_main_v261 (F := F) x0 x1

/-- The buffers read after the first 315 operations, each at its stage. -/
structure Inv315 (W : Valuation τ sig (Elt F)) (x0 x1 : (⟨S16384x196, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v12 : W (Proc.devRef .tc main_v12) = val_main_v12 (F := F) x1
  v15 : W (Proc.devRef .tc main_v15) = val_main_v15 (F := F) x0 x1
  v268 : W (Proc.devRef .tc main_v268) = val_main_v268 (F := F) x0 x1

/-- The buffers read after the first 356 operations, each at its stage. -/
structure Inv356 (W : Valuation τ sig (Elt F)) (x0 x1 : (⟨S16384x196, .f32⟩ : BufTy).Contents (Elt F)) : Prop where
  arg0 : W (Proc.devRef .tc main_arg0) = x0
  arg1 : W (Proc.devRef .tc main_arg1) = x1
  v12 : W (Proc.devRef .tc main_v12) = val_main_v12 (F := F) x1
  v15 : W (Proc.devRef .tc main_v15) = val_main_v15 (F := F) x0 x1
  v304 : W (Proc.devRef .tc main_v304) = val_main_v304 (F := F) x0 x1

/-- The buffers read after the first 366 operations, each at its stage. -/
structure Inv366 (W : Valuation τ sig (Elt F)) (x0 x1 : (⟨S16384x196, .f32⟩ : BufTy).Contents (Elt F)) : Prop where
  arg0 : W (Proc.devRef .tc main_arg0) = x0
  arg1 : W (Proc.devRef .tc main_arg1) = x1
  v309 : W (Proc.devRef .tc main_v309) = val_main_v309 (F := F) x0 x1
  v310 : W (Proc.devRef .tc main_v310) = val_main_v310 (F := F) x0 x1

/-- The buffers read after the first 369 operations, each at its stage. -/
structure Inv369 (W : Valuation τ sig (Elt F)) (x0 x1 : (⟨S16384x196, .f32⟩ : BufTy).Contents (Elt F)) : Prop where
  arg0 : W (Proc.devRef .tc main_arg0) = x0
  arg1 : W (Proc.devRef .tc main_arg1) = x1
  v312 : W (Proc.devRef .tc main_v312) = val_main_v312 (F := F) x0 x1

end Cert.ReferenceIdeal.RefRun

end
-- ==== Proof.RefRunCat.lean ====
/-
  A two-operand concatenation as a function of its two operands.

  `concatenate` takes its operands as a list of (shape, contents) pairs, and its side condition is stated about that
  list; a simplification that goes through a term argument by argument does not enter the list. `cat2` is the same
  value with the two contents as arguments of their own, so that a value computed through a concatenation can be
  simplified operand by operand. `concatenate_pair` turns the one spelling into the other; both unfold to one term.
-/
import Idealize.ShloMosaic.PureOps.ShapeOps

namespace Cert.ReferenceIdeal.RefRun

open Idealize.ShloMosaic

/-- The concatenation along axis `k` of an array of shape `s₁` and one of shape `s₂`, as a function of the two. -/
def cat2 {α : Type} (t : Shape) (k : Fin t.rank) (s₁ s₂ : Shape) (h : Shape.Concatenates [s₁, s₂] t k)
    (a : s₁.Idx → α) (b : s₂.Idx → α) : t.Idx → α :=
  concatenate t k [⟨s₁, a⟩, ⟨s₂, b⟩] h

theorem concatenate_pair {α : Type} (t : Shape) (k : Fin t.rank) (s₁ s₂ : Shape) (h : Shape.Concatenates [s₁, s₂] t k)
    (a : s₁.Idx → α) (b : s₂.Idx → α) : concatenate t k [⟨s₁, a⟩, ⟨s₂, b⟩] h = cat2 t k s₁ s₂ h a b := rfl

end Cert.ReferenceIdeal.RefRun
-- ==== Proof.RefRunC01.lean ====
/- Operations 1 to 28 of the reference's 369, as a list `ops01`, and the invariant's step across them: if before
   them every buffer of `Inv0` holds its stage, then after them every buffer of `Inv28` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 1 to 28 of @main, in order (a called function's operations stand at its call, spelt `TRef.…`). -/
abbrev ops01 : List (HloOp τ sig (Elt F)) :=
  [ reshape main_arg0 main_v0 rfl shapeCasts_S16384x196_S16384x98x2,
    reshape main_arg1 main_v1 rfl shapeCasts_S16384x196_S16384x98x2,
    binary main_v0 main_v1 main_v2 (subf : (⟨S16384x98x2, .f32⟩ : BufTy).Contents (Elt F) → (⟨S16384x98x2, .f32⟩ : BufTy).Contents (Elt F) → (⟨S16384x98x2, .f32⟩ : BufTy).Contents (Elt F)),
    TRef.binary (TRef.of (T := ⟨S16384x98x2, .f32⟩) main_v2) (TRef.of (T := ⟨S16384x98x2, .f32⟩) main_v2) (TRef.of (T := ⟨S16384x98x2, .f32⟩) main_call0_v0) mulf,
    TRef.nullary (TRef.of (T := ⟨S_, .f32⟩) main_call0_cst) (constant S_ .f32 0x00000000#32),
    TRef.binary (TRef.of (T := ⟨S16384x98x2, .f32⟩) main_call0_v0) (TRef.of (T := ⟨S_, .f32⟩) main_call0_cst) (TRef.of (T := ⟨S16384x98, .f32⟩) main_call0_v1) (fun x v => Host.reduceAdd x v reducesTo_S16384x98x2_S16384x98_d2 h_S_),
    TRef.unary (TRef.of (T := ⟨S16384x98, .f32⟩) main_call0_v1) (TRef.of (T := ⟨S16384x98, .f32⟩) main_v3) Host.sqrt,
    nullary main_cst (constant S_ .f32 0x00000000#32),
    binary main_v3 main_cst main_v4 ((fun x v => Host.reduceAdd x v reducesTo_S16384x98_S16384_d1 h_S_) : (⟨S16384x98, .f32⟩ : BufTy).Contents (Elt F) → (⟨S_, .f32⟩ : BufTy).Contents (Elt F) → (⟨S16384, .f32⟩ : BufTy).Contents (Elt F)),
    nullary main_cst_0 (constant S_ .f32 0x42C40000#32),
    unary main_cst_0 main_v5 (broadcastInDim S16384 ![] bcast_S_S16384 : (⟨S_, .f32⟩ : BufTy).Contents (Elt F) → (⟨S16384, .f32⟩ : BufTy).Contents (Elt F)),
    binary main_v4 main_v5 main_v6 (Host.divf : (⟨S16384, .f32⟩ : BufTy).Contents (Elt F) → (⟨S16384, .f32⟩ : BufTy).Contents (Elt F) → (⟨S16384, .f32⟩ : BufTy).Contents (Elt F)),
    unary main_v1 main_v7 ((extractStridedSlice S16384x1x2 ![0, 60, 0] · slices_S16384x98x2_S16384x1x2_0_60_0) : (⟨S16384x98x2, .f32⟩ : BufTy).Contents (Elt F) → (⟨S16384x1x2, .f32⟩ : BufTy).Contents (Elt F)),
    reshape main_v7 main_v8 rfl shapeCasts_S16384x1x2_S16384x2,
    unary main_v1 main_v9 ((extractStridedSlice S16384x1x2 ![0, 72, 0] · slices_S16384x98x2_S16384x1x2_0_72_0) : (⟨S16384x98x2, .f32⟩ : BufTy).Contents (Elt F) → (⟨S16384x1x2, .f32⟩ : BufTy).Contents (Elt F)),
    reshape main_v9 main_v10 rfl shapeCasts_S16384x1x2_S16384x2,
    binary main_v8 main_v10 main_v11 (subf : (⟨S16384x2, .f32⟩ : BufTy).Contents (Elt F) → (⟨S16384x2, .f32⟩ : BufTy).Contents (Elt F) → (⟨S16384x2, .f32⟩ : BufTy).Contents (Elt F)),
    TRef.binary (TRef.of (T := ⟨S16384x2, .f32⟩) main_v11) (TRef.of (T := ⟨S16384x2, .f32⟩) main_v11) (TRef.of (T := ⟨S16384x2, .f32⟩) main_call1_v0) mulf,
    TRef.nullary (TRef.of (T := ⟨S_, .f32⟩) main_call1_cst) (constant S_ .f32 0x00000000#32),
    TRef.binary (TRef.of (T := ⟨S16384x2, .f32⟩) main_call1_v0) (TRef.of (T := ⟨S_, .f32⟩) main_call1_cst) (TRef.of (T := ⟨S16384, .f32⟩) main_call1_v1) (fun x v => Host.reduceAdd x v reducesTo_S16384x2_S16384_d1 h_S_),
    TRef.unary (TRef.of (T := ⟨S16384, .f32⟩) main_call1_v1) (TRef.of (T := ⟨S16384, .f32⟩) main_v12) Host.sqrt,
    binary main_v6 main_v12 main_v13 (Host.divf : (⟨S16384, .f32⟩ : BufTy).Contents (Elt F) → (⟨S16384, .f32⟩ : BufTy).Contents (Elt F) → (⟨S16384, .f32⟩ : BufTy).Contents (Elt F)),
    nullary main_cst_1 (constant S_ .f32 0x00000000#32),
    binary main_v13 main_cst_1 main_v14 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_2 (constant S_ .f32 0x46800000#32),
    binary main_v14 main_cst_2 main_v15 (Host.divf : (⟨S_, .f32⟩ : BufTy).Contents (Elt F) → (⟨S_, .f32⟩ : BufTy).Contents (Elt F) → (⟨S_, .f32⟩ : BufTy).Contents (Elt F)),
    nullary main_cst_3 (constant S_ .f32 0x00000000#32),
    unary main_cst_3 main_v16 (broadcastInDim S16384 ![] bcast_S_S16384 : (⟨S_, .f32⟩ : BufTy).Contents (Elt F) → (⟨S16384, .f32⟩ : BufTy).Contents (Elt F)) ]

theorem ops01_sub : (ops01 : List (HloOp τ sig (Elt F))).Forall fun op => op.bufs ⊆ tcRefs τ sig :=
  ⟨reshape_bufs_sub .., reshape_bufs_sub .., binary_bufs_sub .., binary_bufs_sub .., nullary_bufs_sub .., binary_bufs_sub .., unary_bufs_sub .., nullary_bufs_sub .., binary_bufs_sub .., nullary_bufs_sub .., unary_bufs_sub .., binary_bufs_sub .., unary_bufs_sub .., reshape_bufs_sub .., unary_bufs_sub .., reshape_bufs_sub .., binary_bufs_sub .., binary_bufs_sub .., nullary_bufs_sub .., binary_bufs_sub .., unary_bufs_sub .., binary_bufs_sub .., nullary_bufs_sub .., binary_bufs_sub .., nullary_bufs_sub .., binary_bufs_sub .., nullary_bufs_sub .., unary_bufs_sub ..⟩

theorem ops01_fresh : ∀ op ∈ (ops01 : List (HloOp τ sig (Elt F))), op.fresh = ∅ := by
  intro _ h; (repeat (cases h with | head => rfl | tail _ h => ?_)); exact nomatch h

set_option maxHeartbeats 4000000 in  -- one budget for all the fields: each computes a fold of up to forty operations
theorem step01 {W : Valuation τ sig (Elt F)} {x0 x1 : (⟨S16384x196, .f32⟩ : BufTy).Contents (Elt F)} (h : Inv0 W x0 x1) :
    Inv28 (after ops01 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1]; rfl
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1]; rfl
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1]; rfl
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1]; rfl
  v16 := by simp (disch := decide) only [after_cons, after_nil, nullary_result', unary_result', binary_result', reshape_result', nullary_result_ne', unary_result_ne', binary_result_ne', reshape_result_ne', TRef.ofBuf, TRef.toBuf, cast_eq, concatenate_pair, h.arg0, h.arg1]; rfl

end Cert.ReferenceIdeal.RefRun

end
-- ==== Proof.RefRunC02.lean ====
/- Operations 29 to 66 of the reference's 369, as a list `ops02`, and the invariant's step across them: if before
   them every buffer of `Inv28` holds its stage, then after them every buffer of `Inv66` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 29 to 66 of @main, in order (a called function's operations stand at its call, spelt `TRef.…`). -/
abbrev ops02 : List (HloOp τ sig (Elt F)) :=
  [ unary main_v0 main_v17 ((extractStridedSlice S16384x33x2 ![0, 0, 0] · slices_S16384x98x2_S16384x33x2_0_0_0) : (⟨S16384x98x2, .f32⟩ : BufTy).Contents (Elt F) → (⟨S16384x33x2, .f32⟩ : BufTy).Contents (Elt F)),
    unary main_v1 main_v18 ((extractStridedSlice S16384x33x2 ![0, 0, 0] · slices_S16384x98x2_S16384x33x2_0_0_0) : (⟨S16384x98x2, .f32⟩ : BufTy).Contents (Elt F) → (⟨S16384x33x2, .f32⟩ : BufTy).Contents (Elt F)),
    unary main_v17 main_v19 ((extractStridedSlice S16384x32x2 ![0, 0, 0] · slices_S16384x33x2_S16384x32x2_0_0_0) : (⟨S16384x33x2, .f32⟩ : BufTy).Contents (Elt F) → (⟨S16384x32x2, .f32⟩ : BufTy).Contents (Elt F)),
    unary main_v17 main_v20 ((extractStridedSlice S16384x32x2 ![0, 1, 0] · slices_S16384x33x2_S16384x32x2_0_1_0) : (⟨S16384x33x2, .f32⟩ : BufTy).Contents (Elt F) → (⟨S16384x32x2, .f32⟩ : BufTy).Contents (Elt F)),
    binary main_v19 main_v20 main_v21 (addf : (⟨S16384x32x2, .f32⟩ : BufTy).Contents (Elt F) → (⟨S16384x32x2, .f32⟩ : BufTy).Contents (Elt F) → (⟨S16384x32x2, .f32⟩ : BufTy).Contents (Elt F)),
    nullary main_cst_4 (constant S_ .f32 0x3F000000#32),
    unary main_cst_4 main_v22 (broadcastInDim S16384x32x2 ![] bcast_S_S16384x32x2 : (⟨S_, .f32⟩ : BufTy).Contents (Elt F) → (⟨S16384x32x2, .f32⟩ : BufTy).Contents (Elt F)),
    binary main_v21 main_v22 main_v23 (mulf : (⟨S16384x32x2, .f32⟩ : BufTy).Contents (Elt F) → (⟨S16384x32x2, .f32⟩ : BufTy).Contents (Elt F) → (⟨S16384x32x2, .f32⟩ : BufTy).Contents (Elt F)),
    unary main_v17 main_v24 ((extractStridedSlice S16384x32x2 ![0, 1, 0] · slices_S16384x33x2_S16384x32x2_0_1_0) : (⟨S16384x33x2, .f32⟩ : BufTy).Contents (Elt F) → (⟨S16384x32x2, .f32⟩ : BufTy).Contents (Elt F)),
    unary main_v17 main_v25 ((extractStridedSlice S16384x32x2 ![0, 0, 0] · slices_S16384x33x2_S16384x32x2_0_0_0) : (⟨S16384x33x2, .f32⟩ : BufTy).Contents (Elt F) → (⟨S16384x32x2, .f32⟩ : BufTy).Contents (Elt F)),
    binary main_v24 main_v25 main_v26 (subf : (⟨S16384x32x2, .f32⟩ : BufTy).Contents (Elt F) → (⟨S16384x32x2, .f32⟩ : BufTy).Contents (Elt F) → (⟨S16384x32x2, .f32⟩ : BufTy).Contents (Elt F)),
    unary main_v18 main_v27 ((extractStridedSlice S16384x32x2 ![0, 0, 0] · slices_S16384x33x2_S16384x32x2_0_0_0) : (⟨S16384x33x2, .f32⟩ : BufTy).Contents (Elt F) → (⟨S16384x32x2, .f32⟩ : BufTy).Contents (Elt F)),
    unary main_v18 main_v28 ((extractStridedSlice S16384x32x2 ![0, 1, 0] · slices_S16384x33x2_S16384x32x2_0_1_0) : (⟨S16384x33x2, .f32⟩ : BufTy).Contents (Elt F) → (⟨S16384x32x2, .f32⟩ : BufTy).Contents (Elt F)),
    binary main_v27 main_v28 main_v29 (addf : (⟨S16384x32x2, .f32⟩ : BufTy).Contents (Elt F) → (⟨S16384x32x2, .f32⟩ : BufTy).Contents (Elt F) → (⟨S16384x32x2, .f32⟩ : BufTy).Contents (Elt F)),
    nullary main_cst_5 (constant S_ .f32 0x3F000000#32),
    unary main_cst_5 main_v30 (broadcastInDim S16384x32x2 ![] bcast_S_S16384x32x2 : (⟨S_, .f32⟩ : BufTy).Contents (Elt F) → (⟨S16384x32x2, .f32⟩ : BufTy).Contents (Elt F)),
    binary main_v29 main_v30 main_v31 (mulf : (⟨S16384x32x2, .f32⟩ : BufTy).Contents (Elt F) → (⟨S16384x32x2, .f32⟩ : BufTy).Contents (Elt F) → (⟨S16384x32x2, .f32⟩ : BufTy).Contents (Elt F)),
    unary main_v18 main_v32 ((extractStridedSlice S16384x32x2 ![0, 1, 0] · slices_S16384x33x2_S16384x32x2_0_1_0) : (⟨S16384x33x2, .f32⟩ : BufTy).Contents (Elt F) → (⟨S16384x32x2, .f32⟩ : BufTy).Contents (Elt F)),
    unary main_v18 main_v33 ((extractStridedSlice S16384x32x2 ![0, 0, 0] · slices_S16384x33x2_S16384x32x2_0_0_0) : (⟨S16384x33x2, .f32⟩ : BufTy).Contents (Elt F) → (⟨S16384x32x2, .f32⟩ : BufTy).Contents (Elt F)),
    binary main_v32 main_v33 main_v34 (subf : (⟨S16384x32x2, .f32⟩ : BufTy).Contents (Elt F) → (⟨S16384x32x2, .f32⟩ : BufTy).Contents (Elt F) → (⟨S16384x32x2, .f32⟩ : BufTy).Contents (Elt F)),
    binary main_v23 main_v31 main_v35 ((fun a b => concatenate S16384x64x2 1 [⟨S16384x32x2, a⟩, ⟨S16384x32x2, b⟩] concatenates_S16384x32x2_S16384x32x2_S16384x64x2_d1) : (⟨S16384x32x2, .f32⟩ : BufTy).Contents (Elt F) → (⟨S16384x32x2, .f32⟩ : BufTy).Contents (Elt F) → (⟨S16384x64x2, .f32⟩ : BufTy).Contents (Elt F)),
    unary main_v34 main_v36 (Host.negf : (⟨S16384x32x2, .f32⟩ : BufTy).Contents (Elt F) → (⟨S16384x32x2, .f32⟩ : BufTy).Contents (Elt F)),
    binary main_v26 main_v36 main_v37 ((fun a b => concatenate S16384x64x2 1 [⟨S16384x32x2, a⟩, ⟨S16384x32x2, b⟩] concatenates_S16384x32x2_S16384x32x2_S16384x64x2_d1) : (⟨S16384x32x2, .f32⟩ : BufTy).Contents (Elt F) → (⟨S16384x32x2, .f32⟩ : BufTy).Contents (Elt F) → (⟨S16384x64x2, .f32⟩ : BufTy).Contents (Elt F)),
    unary main_v35 main_v38 (broadcastInDim S16384x64x1x2 ![0, 1, 3] bcast_S16384x64x2_S16384x64x1x2_0_1_3 : (⟨S16384x64x2, .f32⟩ : BufTy).Contents (Elt F) → (⟨S16384x64x1x2, .f32⟩ : BufTy).Contents (Elt F)),
    unary main_v35 main_v39 (broadcastInDim S16384x1x64x2 ![0, 2, 3] bcast_S16384x64x2_S16384x1x64x2_0_2_3 : (⟨S16384x64x2, .f32⟩ : BufTy).Contents (Elt F) → (⟨S16384x1x64x2, .f32⟩ : BufTy).Contents (Elt F)),
    unary main_v38 main_v40 (broadcastInDim S16384x64x64x2 ![0, 1, 2, 3] bcast_S16384x64x1x2_S16384x64x64x2_0_1_2_3 : (⟨S16384x64x1x2, .f32⟩ : BufTy).Contents (Elt F) → (⟨S16384x64x64x2, .f32⟩ : BufTy).Contents (Elt F)),
    unary main_v39 main_v41 (broadcastInDim S16384x64x64x2 ![0, 1, 2, 3] bcast_S16384x1x64x2_S16384x64x64x2_0_1_2_3 : (⟨S16384x1x64x2, .f32⟩ : BufTy).Contents (Elt F) → (⟨S16384x64x64x2, .f32⟩ : BufTy).Contents (Elt F)),
    binary main_v40 main_v41 main_v42 (subf : (⟨S16384x64x64x2, .f32⟩ : BufTy).Contents (Elt F) → (⟨S16384x64x64x2, .f32⟩ : BufTy).Contents (Elt F) → (⟨S16384x64x64x2, .f32⟩ : BufTy).Contents (Elt F)),
    binary main_v42 main_v42 main_v43 (mulf : (⟨S16384x64x64x2, .f32⟩ : BufTy).Contents (Elt F) → (⟨S16384x64x64x2, .f32⟩ : BufTy).Contents (Elt F) → (⟨S16384x64x64x2, .f32⟩ : BufTy).Contents (Elt F)),
    nullary main_cst_6 (constant S_ .f32 0x00000000#32),
    binary main_v43 main_cst_6 main_v44 ((fun x v => Host.reduceAdd x v reducesTo_S16384x64x64x2_S16384x64x64_d3 h_S_) : (⟨S16384x64x64x2, .f32⟩ : BufTy).Contents (Elt F) → (⟨S_, .f32⟩ : BufTy).Contents (Elt F) → (⟨S16384x64x64, .f32⟩ : BufTy).Contents (Elt F)),
    unary main_v44 main_v45 (Host.negf : (⟨S16384x64x64, .f32⟩ : BufTy).Contents (Elt F) → (⟨S16384x64x64, .f32⟩ : BufTy).Contents (Elt F)),
    nullary main_cst_7 (constant S_ .f32 0x41700000#32),
    unary main_cst_7 main_v46 (broadcastInDim S16384x64x64 ![] bcast_S_S16384x64x64 : (⟨S_, .f32⟩ : BufTy).Contents (Elt F) → (⟨S16384x64x64, .f32⟩ : BufTy).Contents (Elt F)),
    binary main_v45 main_v46 main_v47 (Host.divf : (⟨S16384x64x64, .f32⟩ : BufTy).Contents (Elt F) → (⟨S16384x64x64, .f32⟩ : BufTy).Contents (Elt F) → (⟨S16384x64x64, .f32⟩ : BufTy).Contents (Elt F)),
    unary main_v47 main_v48 (Host.exp : (⟨S16384x64x64, .f32⟩ : BufTy).Contents (Elt F) → (⟨S16384x64x64, .f32⟩ : BufTy).Contents (Elt F)),
    binary main_v37 main_v37 main_v49 ((fun l r => Host.dotGeneral dot_S16384x64x2_S16384x64x2_S16384x64x64_2_2_1_1_0_0 none l r) : (⟨S16384x64x2, .f32⟩ : BufTy).Contents (Elt F) → (⟨S16384x64x2, .f32⟩ : BufTy).Contents (Elt F) → (⟨S16384x64x64, .f32⟩ : BufTy).Contents (Elt F)),
    binary main_v48 main_v49 main_v50 (mulf : (⟨S16384x64x64, .f32⟩ : BufTy).Contents (Elt F) → (⟨S16384x64x64, .f32⟩ : BufTy).Contents (Elt F) → (⟨S16384x64x64, .f32⟩ : BufTy).Contents (Elt F)) ]

theorem ops02_sub : (ops02 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub ..⟩

theorem ops02_fresh : ∀ op ∈ (ops02 : List (HloOp τ sig (Elt F))), op.fresh = ∅ := by
  intro _ h; (repeat (cases h with | head => rfl | tail _ h => ?_)); exact nomatch h

set_option maxHeartbeats 4000000 in  -- one budget for all the fields: each computes a fold of up to forty operations
theorem step02 {W : Valuation τ sig (Elt F)} {x0 x1 : (⟨S16384x196, .f32⟩ : BufTy).Contents (Elt F)} (h : Inv28 W x0 x1) :
    Inv66 (after ops02 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]
  v16 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]
  v50 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16]; rfl

end Cert.ReferenceIdeal.RefRun

end
-- ==== Proof.RefRunC03.lean ====
/- Operations 67 to 69 of the reference's 369, as a list `ops03`, and the invariant's step across them: if before
   them every buffer of `Inv66` holds its stage, then after them every buffer of `Inv69` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 67 to 69 of @main, in order (a called function's operations stand at its call, spelt `TRef.…`). -/
abbrev ops03 : List (HloOp τ sig (Elt F)) :=
  [ nullary main_cst_8 (constant S_ .f32 0x00000000#32),
    binary main_v50 main_cst_8 main_v51 ((fun x v => Host.reduceAdd x v reducesTo_S16384x64x64_S16384_d1_2 h_S_) : (⟨S16384x64x64, .f32⟩ : BufTy).Contents (Elt F) → (⟨S_, .f32⟩ : BufTy).Contents (Elt F) → (⟨S16384, .f32⟩ : BufTy).Contents (Elt F)),
    binary main_v16 main_v51 main_v52 (addf : (⟨S16384, .f32⟩ : BufTy).Contents (Elt F) → (⟨S16384, .f32⟩ : BufTy).Contents (Elt F) → (⟨S16384, .f32⟩ : BufTy).Contents (Elt F)) ]

theorem ops03_sub : (ops03 : List (HloOp τ sig (Elt F))).Forall fun op => op.bufs ⊆ tcRefs τ sig :=
  ⟨nullary_bufs_sub .., binary_bufs_sub .., binary_bufs_sub ..⟩

theorem ops03_fresh : ∀ op ∈ (ops03 : List (HloOp τ sig (Elt F))), op.fresh = ∅ := by
  intro _ h; (repeat (cases h with | head => rfl | tail _ h => ?_)); exact nomatch h

set_option maxHeartbeats 4000000 in  -- one budget for all the fields: each computes a fold of up to forty operations
theorem step03 {W : Valuation τ sig (Elt F)} {x0 x1 : (⟨S16384x196, .f32⟩ : BufTy).Contents (Elt F)} (h : Inv66 W x0 x1) :
    Inv69 (after ops03 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16, h.v50]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16, h.v50]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16, h.v50]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16, h.v50]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16, h.v50]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16, h.v50]
  v52 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v16, h.v50]; rfl

end Cert.ReferenceIdeal.RefRun

end
-- ==== Proof.RefRunC04.lean ====
/- Operations 70 to 110 of the reference's 369, as a list `ops04`, and the invariant's step across them: if before
   them every buffer of `Inv69` holds its stage, then after them every buffer of `Inv110` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 70 to 110 of @main, in order (a called function's operations stand at its call, spelt `TRef.…`). -/
abbrev ops04 : List (HloOp τ sig (Elt F)) :=
  [ unary main_v0 main_v53 ((extractStridedSlice S16384x9x2 ![0, 33, 0] · slices_S16384x98x2_S16384x9x2_0_33_0) : (⟨S16384x98x2, .f32⟩ : BufTy).Contents (Elt F) → (⟨S16384x9x2, .f32⟩ : BufTy).Contents (Elt F)),
    unary main_v1 main_v54 ((extractStridedSlice S16384x9x2 ![0, 33, 0] · slices_S16384x98x2_S16384x9x2_0_33_0) : (⟨S16384x98x2, .f32⟩ : BufTy).Contents (Elt F) → (⟨S16384x9x2, .f32⟩ : BufTy).Contents (Elt F)),
    unary main_v53 main_v55 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    unary main_v53 main_v56 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    binary main_v55 main_v56 main_v57 (addf : (⟨S16384x8x2, .f32⟩ : BufTy).Contents (Elt F) → (⟨S16384x8x2, .f32⟩ : BufTy).Contents (Elt F) → (⟨S16384x8x2, .f32⟩ : BufTy).Contents (Elt F)),
    nullary main_cst_9 (constant S_ .f32 0x3F000000#32),
    unary main_cst_9 main_v58 (broadcastInDim S16384x8x2 ![] bcast_S_S16384x8x2 : (⟨S_, .f32⟩ : BufTy).Contents (Elt F) → (⟨S16384x8x2, .f32⟩ : BufTy).Contents (Elt F)),
    binary main_v57 main_v58 main_v59 (mulf : (⟨S16384x8x2, .f32⟩ : BufTy).Contents (Elt F) → (⟨S16384x8x2, .f32⟩ : BufTy).Contents (Elt F) → (⟨S16384x8x2, .f32⟩ : BufTy).Contents (Elt F)),
    unary main_v53 main_v60 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    unary main_v53 main_v61 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    binary main_v60 main_v61 main_v62 (subf : (⟨S16384x8x2, .f32⟩ : BufTy).Contents (Elt F) → (⟨S16384x8x2, .f32⟩ : BufTy).Contents (Elt F) → (⟨S16384x8x2, .f32⟩ : BufTy).Contents (Elt F)),
    unary main_v54 main_v63 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    unary main_v54 main_v64 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    binary main_v63 main_v64 main_v65 (addf : (⟨S16384x8x2, .f32⟩ : BufTy).Contents (Elt F) → (⟨S16384x8x2, .f32⟩ : BufTy).Contents (Elt F) → (⟨S16384x8x2, .f32⟩ : BufTy).Contents (Elt F)),
    nullary main_cst_10 (constant S_ .f32 0x3F000000#32),
    unary main_cst_10 main_v66 (broadcastInDim S16384x8x2 ![] bcast_S_S16384x8x2 : (⟨S_, .f32⟩ : BufTy).Contents (Elt F) → (⟨S16384x8x2, .f32⟩ : BufTy).Contents (Elt F)),
    binary main_v65 main_v66 main_v67 (mulf : (⟨S16384x8x2, .f32⟩ : BufTy).Contents (Elt F) → (⟨S16384x8x2, .f32⟩ : BufTy).Contents (Elt F) → (⟨S16384x8x2, .f32⟩ : BufTy).Contents (Elt F)),
    unary main_v54 main_v68 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    unary main_v54 main_v69 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    binary main_v68 main_v69 main_v70 (subf : (⟨S16384x8x2, .f32⟩ : BufTy).Contents (Elt F) → (⟨S16384x8x2, .f32⟩ : BufTy).Contents (Elt F) → (⟨S16384x8x2, .f32⟩ : BufTy).Contents (Elt F)),
    binary main_v59 main_v67 main_v71 ((fun a b => concatenate S16384x16x2 1 [⟨S16384x8x2, a⟩, ⟨S16384x8x2, b⟩] concatenates_S16384x8x2_S16384x8x2_S16384x16x2_d1) : (⟨S16384x8x2, .f32⟩ : BufTy).Contents (Elt F) → (⟨S16384x8x2, .f32⟩ : BufTy).Contents (Elt F) → (⟨S16384x16x2, .f32⟩ : BufTy).Contents (Elt F)),
    unary main_v70 main_v72 (Host.negf : (⟨S16384x8x2, .f32⟩ : BufTy).Contents (Elt F) → (⟨S16384x8x2, .f32⟩ : BufTy).Contents (Elt F)),
    binary main_v62 main_v72 main_v73 ((fun a b => concatenate S16384x16x2 1 [⟨S16384x8x2, a⟩, ⟨S16384x8x2, b⟩] concatenates_S16384x8x2_S16384x8x2_S16384x16x2_d1) : (⟨S16384x8x2, .f32⟩ : BufTy).Contents (Elt F) → (⟨S16384x8x2, .f32⟩ : BufTy).Contents (Elt F) → (⟨S16384x16x2, .f32⟩ : BufTy).Contents (Elt F)),
    unary main_v71 main_v74 (broadcastInDim S16384x16x1x2 ![0, 1, 3] bcast_S16384x16x2_S16384x16x1x2_0_1_3 : (⟨S16384x16x2, .f32⟩ : BufTy).Contents (Elt F) → (⟨S16384x16x1x2, .f32⟩ : BufTy).Contents (Elt F)),
    unary main_v71 main_v75 (broadcastInDim S16384x1x16x2 ![0, 2, 3] bcast_S16384x16x2_S16384x1x16x2_0_2_3 : (⟨S16384x16x2, .f32⟩ : BufTy).Contents (Elt F) → (⟨S16384x1x16x2, .f32⟩ : BufTy).Contents (Elt F)),
    unary main_v74 main_v76 (broadcastInDim S16384x16x16x2 ![0, 1, 2, 3] bcast_S16384x16x1x2_S16384x16x16x2_0_1_2_3 : (⟨S16384x16x1x2, .f32⟩ : BufTy).Contents (Elt F) → (⟨S16384x16x16x2, .f32⟩ : BufTy).Contents (Elt F)),
    unary main_v75 main_v77 (broadcastInDim S16384x16x16x2 ![0, 1, 2, 3] bcast_S16384x1x16x2_S16384x16x16x2_0_1_2_3 : (⟨S16384x1x16x2, .f32⟩ : BufTy).Contents (Elt F) → (⟨S16384x16x16x2, .f32⟩ : BufTy).Contents (Elt F)),
    binary main_v76 main_v77 main_v78 (subf : (⟨S16384x16x16x2, .f32⟩ : BufTy).Contents (Elt F) → (⟨S16384x16x16x2, .f32⟩ : BufTy).Contents (Elt F) → (⟨S16384x16x16x2, .f32⟩ : BufTy).Contents (Elt F)),
    binary main_v78 main_v78 main_v79 (mulf : (⟨S16384x16x16x2, .f32⟩ : BufTy).Contents (Elt F) → (⟨S16384x16x16x2, .f32⟩ : BufTy).Contents (Elt F) → (⟨S16384x16x16x2, .f32⟩ : BufTy).Contents (Elt F)),
    nullary main_cst_11 (constant S_ .f32 0x00000000#32),
    binary main_v79 main_cst_11 main_v80 ((fun x v => Host.reduceAdd x v reducesTo_S16384x16x16x2_S16384x16x16_d3 h_S_) : (⟨S16384x16x16x2, .f32⟩ : BufTy).Contents (Elt F) → (⟨S_, .f32⟩ : BufTy).Contents (Elt F) → (⟨S16384x16x16, .f32⟩ : BufTy).Contents (Elt F)),
    unary main_v80 main_v81 (Host.negf : (⟨S16384x16x16, .f32⟩ : BufTy).Contents (Elt F) → (⟨S16384x16x16, .f32⟩ : BufTy).Contents (Elt F)),
    nullary main_cst_12 (constant S_ .f32 0x41700000#32),
    unary main_cst_12 main_v82 (broadcastInDim S16384x16x16 ![] bcast_S_S16384x16x16 : (⟨S_, .f32⟩ : BufTy).Contents (Elt F) → (⟨S16384x16x16, .f32⟩ : BufTy).Contents (Elt F)),
    binary main_v81 main_v82 main_v83 (Host.divf : (⟨S16384x16x16, .f32⟩ : BufTy).Contents (Elt F) → (⟨S16384x16x16, .f32⟩ : BufTy).Contents (Elt F) → (⟨S16384x16x16, .f32⟩ : BufTy).Contents (Elt F)),
    unary main_v83 main_v84 (Host.exp : (⟨S16384x16x16, .f32⟩ : BufTy).Contents (Elt F) → (⟨S16384x16x16, .f32⟩ : BufTy).Contents (Elt F)),
    binary main_v73 main_v73 main_v85 ((fun l r => Host.dotGeneral dot_S16384x16x2_S16384x16x2_S16384x16x16_2_2_1_1_0_0 none l r) : (⟨S16384x16x2, .f32⟩ : BufTy).Contents (Elt F) → (⟨S16384x16x2, .f32⟩ : BufTy).Contents (Elt F) → (⟨S16384x16x16, .f32⟩ : BufTy).Contents (Elt F)),
    binary main_v84 main_v85 main_v86 (mulf : (⟨S16384x16x16, .f32⟩ : BufTy).Contents (Elt F) → (⟨S16384x16x16, .f32⟩ : BufTy).Contents (Elt F) → (⟨S16384x16x16, .f32⟩ : BufTy).Contents (Elt F)),
    nullary main_cst_13 (constant S_ .f32 0x00000000#32),
    binary main_v86 main_cst_13 main_v87 ((fun x v => Host.reduceAdd x v reducesTo_S16384x16x16_S16384_d1_2 h_S_) : (⟨S16384x16x16, .f32⟩ : BufTy).Contents (Elt F) → (⟨S_, .f32⟩ : BufTy).Contents (Elt F) → (⟨S16384, .f32⟩ : BufTy).Contents (Elt F)),
    binary main_v52 main_v87 main_v88 (addf : (⟨S16384, .f32⟩ : BufTy).Contents (Elt F) → (⟨S16384, .f32⟩ : BufTy).Contents (Elt F) → (⟨S16384, .f32⟩ : BufTy).Contents (Elt F)) ]

theorem ops04_sub : (ops04 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub ..⟩

theorem ops04_fresh : ∀ op ∈ (ops04 : List (HloOp τ sig (Elt F))), op.fresh = ∅ := by
  intro _ h; (repeat (cases h with | head => rfl | tail _ h => ?_)); exact nomatch h

set_option maxHeartbeats 4000000 in  -- one budget for all the fields: each computes a fold of up to forty operations
theorem step04 {W : Valuation τ sig (Elt F)} {x0 x1 : (⟨S16384x196, .f32⟩ : BufTy).Contents (Elt F)} (h : Inv69 W x0 x1) :
    Inv110 (after ops04 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v52]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v52]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v52]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v52]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v52]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v52]
  v88 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v52]; rfl

end Cert.ReferenceIdeal.RefRun

end
-- ==== Proof.RefRunC05.lean ====
/- Operations 111 to 126 of the reference's 369, as a list `ops05`, and the invariant's step across them: if before
   them every buffer of `Inv110` holds its stage, then after them every buffer of `Inv126` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 111 to 126 of @main, in order (a called function's operations stand at its call, spelt `TRef.…`). -/
abbrev ops05 : List (HloOp τ sig (Elt F)) :=
  [ unary main_v0 main_v89 ((extractStridedSlice S16384x9x2 ![0, 42, 0] · slices_S16384x98x2_S16384x9x2_0_42_0) : (⟨S16384x98x2, .f32⟩ : BufTy).Contents (Elt F) → (⟨S16384x9x2, .f32⟩ : BufTy).Contents (Elt F)),
    unary main_v1 main_v90 ((extractStridedSlice S16384x9x2 ![0, 42, 0] · slices_S16384x98x2_S16384x9x2_0_42_0) : (⟨S16384x98x2, .f32⟩ : BufTy).Contents (Elt F) → (⟨S16384x9x2, .f32⟩ : BufTy).Contents (Elt F)),
    unary main_v89 main_v91 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    unary main_v89 main_v92 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    binary main_v91 main_v92 main_v93 (addf : (⟨S16384x8x2, .f32⟩ : BufTy).Contents (Elt F) → (⟨S16384x8x2, .f32⟩ : BufTy).Contents (Elt F) → (⟨S16384x8x2, .f32⟩ : BufTy).Contents (Elt F)),
    nullary main_cst_14 (constant S_ .f32 0x3F000000#32),
    unary main_cst_14 main_v94 (broadcastInDim S16384x8x2 ![] bcast_S_S16384x8x2 : (⟨S_, .f32⟩ : BufTy).Contents (Elt F) → (⟨S16384x8x2, .f32⟩ : BufTy).Contents (Elt F)),
    binary main_v93 main_v94 main_v95 (mulf : (⟨S16384x8x2, .f32⟩ : BufTy).Contents (Elt F) → (⟨S16384x8x2, .f32⟩ : BufTy).Contents (Elt F) → (⟨S16384x8x2, .f32⟩ : BufTy).Contents (Elt F)),
    unary main_v89 main_v96 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    unary main_v89 main_v97 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    binary main_v96 main_v97 main_v98 (subf : (⟨S16384x8x2, .f32⟩ : BufTy).Contents (Elt F) → (⟨S16384x8x2, .f32⟩ : BufTy).Contents (Elt F) → (⟨S16384x8x2, .f32⟩ : BufTy).Contents (Elt F)),
    unary main_v90 main_v99 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    unary main_v90 main_v100 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    binary main_v99 main_v100 main_v101 (addf : (⟨S16384x8x2, .f32⟩ : BufTy).Contents (Elt F) → (⟨S16384x8x2, .f32⟩ : BufTy).Contents (Elt F) → (⟨S16384x8x2, .f32⟩ : BufTy).Contents (Elt F)),
    nullary main_cst_15 (constant S_ .f32 0x3F000000#32),
    unary main_cst_15 main_v102 (broadcastInDim S16384x8x2 ![] bcast_S_S16384x8x2 : (⟨S_, .f32⟩ : BufTy).Contents (Elt F) → (⟨S16384x8x2, .f32⟩ : BufTy).Contents (Elt F)) ]

theorem ops05_sub : (ops05 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub ..⟩

theorem ops05_fresh : ∀ op ∈ (ops05 : List (HloOp τ sig (Elt F))), op.fresh = ∅ := by
  intro _ h; (repeat (cases h with | head => rfl | tail _ h => ?_)); exact nomatch h

set_option maxHeartbeats 4000000 in  -- one budget for all the fields: each computes a fold of up to forty operations
theorem step05 {W : Valuation τ sig (Elt F)} {x0 x1 : (⟨S16384x196, .f32⟩ : BufTy).Contents (Elt F)} (h : Inv110 W x0 x1) :
    Inv126 (after ops05 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]
  v88 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]
  v90 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]; rfl
  v95 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]; rfl
  v98 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]; rfl
  v101 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]; rfl
  v102 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88]; rfl

end Cert.ReferenceIdeal.RefRun

end
-- ==== Proof.RefRunC06.lean ====
/- Operations 127 to 151 of the reference's 369, as a list `ops06`, and the invariant's step across them: if before
   them every buffer of `Inv126` holds its stage, then after them every buffer of `Inv151` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 127 to 151 of @main, in order (a called function's operations stand at its call, spelt `TRef.…`). -/
abbrev ops06 : List (HloOp τ sig (Elt F)) :=
  [ binary main_v101 main_v102 main_v103 (mulf : (⟨S16384x8x2, .f32⟩ : BufTy).Contents (Elt F) → (⟨S16384x8x2, .f32⟩ : BufTy).Contents (Elt F) → (⟨S16384x8x2, .f32⟩ : BufTy).Contents (Elt F)),
    unary main_v90 main_v104 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    unary main_v90 main_v105 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    binary main_v104 main_v105 main_v106 (subf : (⟨S16384x8x2, .f32⟩ : BufTy).Contents (Elt F) → (⟨S16384x8x2, .f32⟩ : BufTy).Contents (Elt F) → (⟨S16384x8x2, .f32⟩ : BufTy).Contents (Elt F)),
    binary main_v95 main_v103 main_v107 ((fun a b => concatenate S16384x16x2 1 [⟨S16384x8x2, a⟩, ⟨S16384x8x2, b⟩] concatenates_S16384x8x2_S16384x8x2_S16384x16x2_d1) : (⟨S16384x8x2, .f32⟩ : BufTy).Contents (Elt F) → (⟨S16384x8x2, .f32⟩ : BufTy).Contents (Elt F) → (⟨S16384x16x2, .f32⟩ : BufTy).Contents (Elt F)),
    unary main_v106 main_v108 (Host.negf : (⟨S16384x8x2, .f32⟩ : BufTy).Contents (Elt F) → (⟨S16384x8x2, .f32⟩ : BufTy).Contents (Elt F)),
    binary main_v98 main_v108 main_v109 ((fun a b => concatenate S16384x16x2 1 [⟨S16384x8x2, a⟩, ⟨S16384x8x2, b⟩] concatenates_S16384x8x2_S16384x8x2_S16384x16x2_d1) : (⟨S16384x8x2, .f32⟩ : BufTy).Contents (Elt F) → (⟨S16384x8x2, .f32⟩ : BufTy).Contents (Elt F) → (⟨S16384x16x2, .f32⟩ : BufTy).Contents (Elt F)),
    unary main_v107 main_v110 (broadcastInDim S16384x16x1x2 ![0, 1, 3] bcast_S16384x16x2_S16384x16x1x2_0_1_3 : (⟨S16384x16x2, .f32⟩ : BufTy).Contents (Elt F) → (⟨S16384x16x1x2, .f32⟩ : BufTy).Contents (Elt F)),
    unary main_v107 main_v111 (broadcastInDim S16384x1x16x2 ![0, 2, 3] bcast_S16384x16x2_S16384x1x16x2_0_2_3 : (⟨S16384x16x2, .f32⟩ : BufTy).Contents (Elt F) → (⟨S16384x1x16x2, .f32⟩ : BufTy).Contents (Elt F)),
    unary main_v110 main_v112 (broadcastInDim S16384x16x16x2 ![0, 1, 2, 3] bcast_S16384x16x1x2_S16384x16x16x2_0_1_2_3 : (⟨S16384x16x1x2, .f32⟩ : BufTy).Contents (Elt F) → (⟨S16384x16x16x2, .f32⟩ : BufTy).Contents (Elt F)),
    unary main_v111 main_v113 (broadcastInDim S16384x16x16x2 ![0, 1, 2, 3] bcast_S16384x1x16x2_S16384x16x16x2_0_1_2_3 : (⟨S16384x1x16x2, .f32⟩ : BufTy).Contents (Elt F) → (⟨S16384x16x16x2, .f32⟩ : BufTy).Contents (Elt F)),
    binary main_v112 main_v113 main_v114 (subf : (⟨S16384x16x16x2, .f32⟩ : BufTy).Contents (Elt F) → (⟨S16384x16x16x2, .f32⟩ : BufTy).Contents (Elt F) → (⟨S16384x16x16x2, .f32⟩ : BufTy).Contents (Elt F)),
    binary main_v114 main_v114 main_v115 (mulf : (⟨S16384x16x16x2, .f32⟩ : BufTy).Contents (Elt F) → (⟨S16384x16x16x2, .f32⟩ : BufTy).Contents (Elt F) → (⟨S16384x16x16x2, .f32⟩ : BufTy).Contents (Elt F)),
    nullary main_cst_16 (constant S_ .f32 0x00000000#32),
    binary main_v115 main_cst_16 main_v116 ((fun x v => Host.reduceAdd x v reducesTo_S16384x16x16x2_S16384x16x16_d3 h_S_) : (⟨S16384x16x16x2, .f32⟩ : BufTy).Contents (Elt F) → (⟨S_, .f32⟩ : BufTy).Contents (Elt F) → (⟨S16384x16x16, .f32⟩ : BufTy).Contents (Elt F)),
    unary main_v116 main_v117 (Host.negf : (⟨S16384x16x16, .f32⟩ : BufTy).Contents (Elt F) → (⟨S16384x16x16, .f32⟩ : BufTy).Contents (Elt F)),
    nullary main_cst_17 (constant S_ .f32 0x41700000#32),
    unary main_cst_17 main_v118 (broadcastInDim S16384x16x16 ![] bcast_S_S16384x16x16 : (⟨S_, .f32⟩ : BufTy).Contents (Elt F) → (⟨S16384x16x16, .f32⟩ : BufTy).Contents (Elt F)),
    binary main_v117 main_v118 main_v119 (Host.divf : (⟨S16384x16x16, .f32⟩ : BufTy).Contents (Elt F) → (⟨S16384x16x16, .f32⟩ : BufTy).Contents (Elt F) → (⟨S16384x16x16, .f32⟩ : BufTy).Contents (Elt F)),
    unary main_v119 main_v120 (Host.exp : (⟨S16384x16x16, .f32⟩ : BufTy).Contents (Elt F) → (⟨S16384x16x16, .f32⟩ : BufTy).Contents (Elt F)),
    binary main_v109 main_v109 main_v121 ((fun l r => Host.dotGeneral dot_S16384x16x2_S16384x16x2_S16384x16x16_2_2_1_1_0_0 none l r) : (⟨S16384x16x2, .f32⟩ : BufTy).Contents (Elt F) → (⟨S16384x16x2, .f32⟩ : BufTy).Contents (Elt F) → (⟨S16384x16x16, .f32⟩ : BufTy).Contents (Elt F)),
    binary main_v120 main_v121 main_v122 (mulf : (⟨S16384x16x16, .f32⟩ : BufTy).Contents (Elt F) → (⟨S16384x16x16, .f32⟩ : BufTy).Contents (Elt F) → (⟨S16384x16x16, .f32⟩ : BufTy).Contents (Elt F)),
    nullary main_cst_18 (constant S_ .f32 0x00000000#32),
    binary main_v122 main_cst_18 main_v123 ((fun x v => Host.reduceAdd x v reducesTo_S16384x16x16_S16384_d1_2 h_S_) : (⟨S16384x16x16, .f32⟩ : BufTy).Contents (Elt F) → (⟨S_, .f32⟩ : BufTy).Contents (Elt F) → (⟨S16384, .f32⟩ : BufTy).Contents (Elt F)),
    binary main_v88 main_v123 main_v124 (addf : (⟨S16384, .f32⟩ : BufTy).Contents (Elt F) → (⟨S16384, .f32⟩ : BufTy).Contents (Elt F) → (⟨S16384, .f32⟩ : BufTy).Contents (Elt F)) ]

theorem ops06_sub : (ops06 : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub ..⟩

theorem ops06_fresh : ∀ op ∈ (ops06 : List (HloOp τ sig (Elt F))), op.fresh = ∅ := by
  intro _ h; (repeat (cases h with | head => rfl | tail _ h => ?_)); exact nomatch h

set_option maxHeartbeats 4000000 in  -- one budget for all the fields: each computes a fold of up to forty operations
theorem step06 {W : Valuation τ sig (Elt F)} {x0 x1 : (⟨S16384x196, .f32⟩ : BufTy).Contents (Elt F)} (h : Inv126 W x0 x1) :
    Inv151 (after ops06 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88, h.v90, h.v95, h.v98, h.v101, h.v102]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88, h.v90, h.v95, h.v98, h.v101, h.v102]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88, h.v90, h.v95, h.v98, h.v101, h.v102]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88, h.v90, h.v95, h.v98, h.v101, h.v102]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88, h.v90, h.v95, h.v98, h.v101, h.v102]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88, h.v90, h.v95, h.v98, h.v101, h.v102]
  v124 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v88, h.v90, h.v95, h.v98, h.v101, h.v102]; rfl

end Cert.ReferenceIdeal.RefRun

end
-- ==== Proof.RefRunC07.lean ====
/- Operations 152 to 186 of the reference's 369, as a list `ops07`, and the invariant's step across them: if before
   them every buffer of `Inv151` holds its stage, then after them every buffer of `Inv186` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 152 to 186 of @main, in order (a called function's operations stand at its call, spelt `TRef.…`). -/
abbrev ops07 : List (HloOp τ sig (Elt F)) :=
  [ unary main_v0 main_v125 ((extractStridedSlice S16384x9x2 ![0, 51, 0] · slices_S16384x98x2_S16384x9x2_0_51_0) : (⟨S16384x98x2, .f32⟩ : BufTy).Contents (Elt F) → (⟨S16384x9x2, .f32⟩ : BufTy).Contents (Elt F)),
    unary main_v1 main_v126 ((extractStridedSlice S16384x9x2 ![0, 51, 0] · slices_S16384x98x2_S16384x9x2_0_51_0) : (⟨S16384x98x2, .f32⟩ : BufTy).Contents (Elt F) → (⟨S16384x9x2, .f32⟩ : BufTy).Contents (Elt F)),
    unary main_v125 main_v127 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    unary main_v125 main_v128 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    binary main_v127 main_v128 main_v129 (addf : (⟨S16384x8x2, .f32⟩ : BufTy).Contents (Elt F) → (⟨S16384x8x2, .f32⟩ : BufTy).Contents (Elt F) → (⟨S16384x8x2, .f32⟩ : BufTy).Contents (Elt F)),
    nullary main_cst_19 (constant S_ .f32 0x3F000000#32),
    unary main_cst_19 main_v130 (broadcastInDim S16384x8x2 ![] bcast_S_S16384x8x2 : (⟨S_, .f32⟩ : BufTy).Contents (Elt F) → (⟨S16384x8x2, .f32⟩ : BufTy).Contents (Elt F)),
    binary main_v129 main_v130 main_v131 (mulf : (⟨S16384x8x2, .f32⟩ : BufTy).Contents (Elt F) → (⟨S16384x8x2, .f32⟩ : BufTy).Contents (Elt F) → (⟨S16384x8x2, .f32⟩ : BufTy).Contents (Elt F)),
    unary main_v125 main_v132 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    unary main_v125 main_v133 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    binary main_v132 main_v133 main_v134 (subf : (⟨S16384x8x2, .f32⟩ : BufTy).Contents (Elt F) → (⟨S16384x8x2, .f32⟩ : BufTy).Contents (Elt F) → (⟨S16384x8x2, .f32⟩ : BufTy).Contents (Elt F)),
    unary main_v126 main_v135 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    unary main_v126 main_v136 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    binary main_v135 main_v136 main_v137 (addf : (⟨S16384x8x2, .f32⟩ : BufTy).Contents (Elt F) → (⟨S16384x8x2, .f32⟩ : BufTy).Contents (Elt F) → (⟨S16384x8x2, .f32⟩ : BufTy).Contents (Elt F)),
    nullary main_cst_20 (constant S_ .f32 0x3F000000#32),
    unary main_cst_20 main_v138 (broadcastInDim S16384x8x2 ![] bcast_S_S16384x8x2 : (⟨S_, .f32⟩ : BufTy).Contents (Elt F) → (⟨S16384x8x2, .f32⟩ : BufTy).Contents (Elt F)),
    binary main_v137 main_v138 main_v139 (mulf : (⟨S16384x8x2, .f32⟩ : BufTy).Contents (Elt F) → (⟨S16384x8x2, .f32⟩ : BufTy).Contents (Elt F) → (⟨S16384x8x2, .f32⟩ : BufTy).Contents (Elt F)),
    unary main_v126 main_v140 ((extractStridedSlice S16384x8x2 ![0, 1, 0] · slices_S16384x9x2_S16384x8x2_0_1_0) : (⟨S16384x9x2, .f32⟩ : BufTy).Contents (Elt F) → (⟨S16384x8x2, .f32⟩ : BufTy).Contents (Elt F)),
    unary main_v126 main_v141 ((extractStridedSlice S16384x8x2 ![0, 0, 0] · slices_S16384x9x2_S16384x8x2_0_0_0) : (⟨S16384x9x2, .f32⟩ : BufTy).Contents (Elt F) → (⟨S16384x8x2, .f32⟩ : BufTy).Contents (Elt F)),
    binary main_v140 main_v141 main_v142 (subf : (⟨S16384x8x2, .f32⟩ : BufTy).Contents (Elt F) → (⟨S16384x8x2, .f32⟩ : BufTy).Contents (Elt F) → (⟨S16384x8x2, .f32⟩ : BufTy).Contents (Elt F)),
    binary main_v131 main_v139 main_v143 ((fun a b => concatenate S16384x16x2 1 [⟨S16384x8x2, a⟩, ⟨S16384x8x2, b⟩] concatenates_S16384x8x2_S16384x8x2_S16384x16x2_d1) : (⟨S16384x8x2, .f32⟩ : BufTy).Contents (Elt F) → (⟨S16384x8x2, .f32⟩ : BufTy).Contents (Elt F) → (⟨S16384x16x2, .f32⟩ : BufTy).Contents (Elt F)),
    unary main_v142 main_v144 (Host.negf : (⟨S16384x8x2, .f32⟩ : BufTy).Contents (Elt F) → (⟨S16384x8x2, .f32⟩ : BufTy).Contents (Elt F)),
    binary main_v134 main_v144 main_v145 ((fun a b => concatenate S16384x16x2 1 [⟨S16384x8x2, a⟩, ⟨S16384x8x2, b⟩] concatenates_S16384x8x2_S16384x8x2_S16384x16x2_d1) : (⟨S16384x8x2, .f32⟩ : BufTy).Contents (Elt F) → (⟨S16384x8x2, .f32⟩ : BufTy).Contents (Elt F) → (⟨S16384x16x2, .f32⟩ : BufTy).Contents (Elt F)),
    unary main_v143 main_v146 (broadcastInDim S16384x16x1x2 ![0, 1, 3] bcast_S16384x16x2_S16384x16x1x2_0_1_3 : (⟨S16384x16x2, .f32⟩ : BufTy).Contents (Elt F) → (⟨S16384x16x1x2, .f32⟩ : BufTy).Contents (Elt F)),
    unary main_v143 main_v147 (broadcastInDim S16384x1x16x2 ![0, 2, 3] bcast_S16384x16x2_S16384x1x16x2_0_2_3 : (⟨S16384x16x2, .f32⟩ : BufTy).Contents (Elt F) → (⟨S16384x1x16x2, .f32⟩ : BufTy).Contents (Elt F)),
    unary main_v146 main_v148 (broadcastInDim S16384x16x16x2 ![0, 1, 2, 3] bcast_S16384x16x1x2_S16384x16x16x2_0_1_2_3 : (⟨S16384x16x1x2, .f32⟩ : BufTy).Contents (Elt F) → (⟨S16384x16x16x2, .f32⟩ : BufTy).Contents (Elt F)),
    unary main_v147 main_v149 (broadcastInDim S16384x16x16x2 ![0, 1, 2, 3] bcast_S16384x1x16x2_S16384x16x16x2_0_1_2_3 : (⟨S16384x1x16x2, .f32⟩ : BufTy).Contents (Elt F) → (⟨S16384x16x16x2, .f32⟩ : BufTy).Contents (Elt F)),
    binary main_v148 main_v149 main_v150 (subf : (⟨S16384x16x16x2, .f32⟩ : BufTy).Contents (Elt F) → (⟨S16384x16x16x2, .f32⟩ : BufTy).Contents (Elt F) → (⟨S16384x16x16x2, .f32⟩ : BufTy).Contents (Elt F)),
    binary main_v150 main_v150 main_v151 (mulf : (⟨S16384x16x16x2, .f32⟩ : BufTy).Contents (Elt F) → (⟨S16384x16x16x2, .f32⟩ : BufTy).Contents (Elt F) → (⟨S16384x16x16x2, .f32⟩ : BufTy).Contents (Elt F)),
    nullary main_cst_21 (constant S_ .f32 0x00000000#32),
    binary main_v151 main_cst_21 main_v152 ((fun x v => Host.reduceAdd x v reducesTo_S16384x16x16x2_S16384x16x16_d3 h_S_) : (⟨S16384x16x16x2, .f32⟩ : BufTy).Contents (Elt F) → (⟨S_, .f32⟩ : BufTy).Contents (Elt F) → (⟨S16384x16x16, .f32⟩ : BufTy).Contents (Elt F)),
    unary main_v152 main_v153 (Host.negf : (⟨S16384x16x16, .f32⟩ : BufTy).Contents (Elt F) → (⟨S16384x16x16, .f32⟩ : BufTy).Contents (Elt F)),
    nullary main_cst_22 (constant S_ .f32 0x41700000#32),
    unary main_cst_22 main_v154 (broadcastInDim S16384x16x16 ![] bcast_S_S16384x16x16 : (⟨S_, .f32⟩ : BufTy).Contents (Elt F) → (⟨S16384x16x16, .f32⟩ : BufTy).Contents (Elt F)),
    binary main_v153 main_v154 main_v155 (Host.divf : (⟨S16384x16x16, .f32⟩ : BufTy).Contents (Elt F) → (⟨S16384x16x16, .f32⟩ : BufTy).Contents (Elt F) → (⟨S16384x16x16, .f32⟩ : BufTy).Contents (Elt F)) ]

theorem ops07_sub : (ops07 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub ..⟩

theorem ops07_fresh : ∀ op ∈ (ops07 : List (HloOp τ sig (Elt F))), op.fresh = ∅ := by
  intro _ h; (repeat (cases h with | head => rfl | tail _ h => ?_)); exact nomatch h

set_option maxHeartbeats 4000000 in  -- one budget for all the fields: each computes a fold of up to forty operations
theorem step07 {W : Valuation τ sig (Elt F)} {x0 x1 : (⟨S16384x196, .f32⟩ : BufTy).Contents (Elt F)} (h : Inv151 W x0 x1) :
    Inv186 (after ops07 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]
  v124 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]
  v145 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]; rfl
  v155 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124]; rfl

end Cert.ReferenceIdeal.RefRun

end
-- ==== Proof.RefRunC08.lean ====
/- Operations 187 to 192 of the reference's 369, as a list `ops08`, and the invariant's step across them: if before
   them every buffer of `Inv186` holds its stage, then after them every buffer of `Inv192` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 187 to 192 of @main, in order (a called function's operations stand at its call, spelt `TRef.…`). -/
abbrev ops08 : List (HloOp τ sig (Elt F)) :=
  [ unary main_v155 main_v156 (Host.exp : (⟨S16384x16x16, .f32⟩ : BufTy).Contents (Elt F) → (⟨S16384x16x16, .f32⟩ : BufTy).Contents (Elt F)),
    binary main_v145 main_v145 main_v157 ((fun l r => Host.dotGeneral dot_S16384x16x2_S16384x16x2_S16384x16x16_2_2_1_1_0_0 none l r) : (⟨S16384x16x2, .f32⟩ : BufTy).Contents (Elt F) → (⟨S16384x16x2, .f32⟩ : BufTy).Contents (Elt F) → (⟨S16384x16x16, .f32⟩ : BufTy).Contents (Elt F)),
    binary main_v156 main_v157 main_v158 (mulf : (⟨S16384x16x16, .f32⟩ : BufTy).Contents (Elt F) → (⟨S16384x16x16, .f32⟩ : BufTy).Contents (Elt F) → (⟨S16384x16x16, .f32⟩ : BufTy).Contents (Elt F)),
    nullary main_cst_23 (constant S_ .f32 0x00000000#32),
    binary main_v158 main_cst_23 main_v159 ((fun x v => Host.reduceAdd x v reducesTo_S16384x16x16_S16384_d1_2 h_S_) : (⟨S16384x16x16, .f32⟩ : BufTy).Contents (Elt F) → (⟨S_, .f32⟩ : BufTy).Contents (Elt F) → (⟨S16384, .f32⟩ : BufTy).Contents (Elt F)),
    binary main_v124 main_v159 main_v160 (addf : (⟨S16384, .f32⟩ : BufTy).Contents (Elt F) → (⟨S16384, .f32⟩ : BufTy).Contents (Elt F) → (⟨S16384, .f32⟩ : BufTy).Contents (Elt F)) ]

theorem ops08_sub : (ops08 : List (HloOp τ sig (Elt F))).Forall fun op => op.bufs ⊆ tcRefs τ sig :=
  ⟨unary_bufs_sub .., binary_bufs_sub .., binary_bufs_sub .., nullary_bufs_sub .., binary_bufs_sub .., binary_bufs_sub ..⟩

theorem ops08_fresh : ∀ op ∈ (ops08 : List (HloOp τ sig (Elt F))), op.fresh = ∅ := by
  intro _ h; (repeat (cases h with | head => rfl | tail _ h => ?_)); exact nomatch h

set_option maxHeartbeats 4000000 in  -- one budget for all the fields: each computes a fold of up to forty operations
theorem step08 {W : Valuation τ sig (Elt F)} {x0 x1 : (⟨S16384x196, .f32⟩ : BufTy).Contents (Elt F)} (h : Inv186 W x0 x1) :
    Inv192 (after ops08 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124, h.v145, h.v155]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124, h.v145, h.v155]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124, h.v145, h.v155]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124, h.v145, h.v155]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124, h.v145, h.v155]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124, h.v145, h.v155]
  v160 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v124, h.v145, h.v155]; rfl

end Cert.ReferenceIdeal.RefRun

end
-- ==== Proof.RefRunC09.lean ====
/- Operations 193 to 233 of the reference's 369, as a list `ops09`, and the invariant's step across them: if before
   them every buffer of `Inv192` holds its stage, then after them every buffer of `Inv233` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 193 to 233 of @main, in order (a called function's operations stand at its call, spelt `TRef.…`). -/
abbrev ops09 : List (HloOp τ sig (Elt F)) :=
  [ unary main_v0 main_v161 ((extractStridedSlice S16384x8x2 ![0, 60, 0] · slices_S16384x98x2_S16384x8x2_0_60_0) : (⟨S16384x98x2, .f32⟩ : BufTy).Contents (Elt F) → (⟨S16384x8x2, .f32⟩ : BufTy).Contents (Elt F)),
    unary main_v1 main_v162 ((extractStridedSlice S16384x8x2 ![0, 60, 0] · slices_S16384x98x2_S16384x8x2_0_60_0) : (⟨S16384x98x2, .f32⟩ : BufTy).Contents (Elt F) → (⟨S16384x8x2, .f32⟩ : BufTy).Contents (Elt F)),
    unary main_v161 main_v163 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    unary main_v161 main_v164 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)),
    binary main_v163 main_v164 main_v165 (addf : (⟨S16384x7x2, .f32⟩ : BufTy).Contents (Elt F) → (⟨S16384x7x2, .f32⟩ : BufTy).Contents (Elt F) → (⟨S16384x7x2, .f32⟩ : BufTy).Contents (Elt F)),
    nullary main_cst_24 (constant S_ .f32 0x3F000000#32),
    unary main_cst_24 main_v166 (broadcastInDim S16384x7x2 ![] bcast_S_S16384x7x2 : (⟨S_, .f32⟩ : BufTy).Contents (Elt F) → (⟨S16384x7x2, .f32⟩ : BufTy).Contents (Elt F)),
    binary main_v165 main_v166 main_v167 (mulf : (⟨S16384x7x2, .f32⟩ : BufTy).Contents (Elt F) → (⟨S16384x7x2, .f32⟩ : BufTy).Contents (Elt F) → (⟨S16384x7x2, .f32⟩ : BufTy).Contents (Elt F)),
    unary main_v161 main_v168 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)),
    unary main_v161 main_v169 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    binary main_v168 main_v169 main_v170 (subf : (⟨S16384x7x2, .f32⟩ : BufTy).Contents (Elt F) → (⟨S16384x7x2, .f32⟩ : BufTy).Contents (Elt F) → (⟨S16384x7x2, .f32⟩ : BufTy).Contents (Elt F)),
    unary main_v162 main_v171 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    unary main_v162 main_v172 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)),
    binary main_v171 main_v172 main_v173 (addf : (⟨S16384x7x2, .f32⟩ : BufTy).Contents (Elt F) → (⟨S16384x7x2, .f32⟩ : BufTy).Contents (Elt F) → (⟨S16384x7x2, .f32⟩ : BufTy).Contents (Elt F)),
    nullary main_cst_25 (constant S_ .f32 0x3F000000#32),
    unary main_cst_25 main_v174 (broadcastInDim S16384x7x2 ![] bcast_S_S16384x7x2 : (⟨S_, .f32⟩ : BufTy).Contents (Elt F) → (⟨S16384x7x2, .f32⟩ : BufTy).Contents (Elt F)),
    binary main_v173 main_v174 main_v175 (mulf : (⟨S16384x7x2, .f32⟩ : BufTy).Contents (Elt F) → (⟨S16384x7x2, .f32⟩ : BufTy).Contents (Elt F) → (⟨S16384x7x2, .f32⟩ : BufTy).Contents (Elt F)),
    unary main_v162 main_v176 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)),
    unary main_v162 main_v177 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    binary main_v176 main_v177 main_v178 (subf : (⟨S16384x7x2, .f32⟩ : BufTy).Contents (Elt F) → (⟨S16384x7x2, .f32⟩ : BufTy).Contents (Elt F) → (⟨S16384x7x2, .f32⟩ : BufTy).Contents (Elt F)),
    binary main_v167 main_v175 main_v179 ((fun a b => concatenate S16384x14x2 1 [⟨S16384x7x2, a⟩, ⟨S16384x7x2, b⟩] concatenates_S16384x7x2_S16384x7x2_S16384x14x2_d1) : (⟨S16384x7x2, .f32⟩ : BufTy).Contents (Elt F) → (⟨S16384x7x2, .f32⟩ : BufTy).Contents (Elt F) → (⟨S16384x14x2, .f32⟩ : BufTy).Contents (Elt F)),
    unary main_v178 main_v180 (Host.negf : (⟨S16384x7x2, .f32⟩ : BufTy).Contents (Elt F) → (⟨S16384x7x2, .f32⟩ : BufTy).Contents (Elt F)),
    binary main_v170 main_v180 main_v181 ((fun a b => concatenate S16384x14x2 1 [⟨S16384x7x2, a⟩, ⟨S16384x7x2, b⟩] concatenates_S16384x7x2_S16384x7x2_S16384x14x2_d1) : (⟨S16384x7x2, .f32⟩ : BufTy).Contents (Elt F) → (⟨S16384x7x2, .f32⟩ : BufTy).Contents (Elt F) → (⟨S16384x14x2, .f32⟩ : BufTy).Contents (Elt F)),
    unary main_v179 main_v182 (broadcastInDim S16384x14x1x2 ![0, 1, 3] bcast_S16384x14x2_S16384x14x1x2_0_1_3 : (⟨S16384x14x2, .f32⟩ : BufTy).Contents (Elt F) → (⟨S16384x14x1x2, .f32⟩ : BufTy).Contents (Elt F)),
    unary main_v179 main_v183 (broadcastInDim S16384x1x14x2 ![0, 2, 3] bcast_S16384x14x2_S16384x1x14x2_0_2_3 : (⟨S16384x14x2, .f32⟩ : BufTy).Contents (Elt F) → (⟨S16384x1x14x2, .f32⟩ : BufTy).Contents (Elt F)),
    unary main_v182 main_v184 (broadcastInDim S16384x14x14x2 ![0, 1, 2, 3] bcast_S16384x14x1x2_S16384x14x14x2_0_1_2_3 : (⟨S16384x14x1x2, .f32⟩ : BufTy).Contents (Elt F) → (⟨S16384x14x14x2, .f32⟩ : BufTy).Contents (Elt F)),
    unary main_v183 main_v185 (broadcastInDim S16384x14x14x2 ![0, 1, 2, 3] bcast_S16384x1x14x2_S16384x14x14x2_0_1_2_3 : (⟨S16384x1x14x2, .f32⟩ : BufTy).Contents (Elt F) → (⟨S16384x14x14x2, .f32⟩ : BufTy).Contents (Elt F)),
    binary main_v184 main_v185 main_v186 (subf : (⟨S16384x14x14x2, .f32⟩ : BufTy).Contents (Elt F) → (⟨S16384x14x14x2, .f32⟩ : BufTy).Contents (Elt F) → (⟨S16384x14x14x2, .f32⟩ : BufTy).Contents (Elt F)),
    binary main_v186 main_v186 main_v187 (mulf : (⟨S16384x14x14x2, .f32⟩ : BufTy).Contents (Elt F) → (⟨S16384x14x14x2, .f32⟩ : BufTy).Contents (Elt F) → (⟨S16384x14x14x2, .f32⟩ : BufTy).Contents (Elt F)),
    nullary main_cst_26 (constant S_ .f32 0x00000000#32),
    binary main_v187 main_cst_26 main_v188 ((fun x v => Host.reduceAdd x v reducesTo_S16384x14x14x2_S16384x14x14_d3 h_S_) : (⟨S16384x14x14x2, .f32⟩ : BufTy).Contents (Elt F) → (⟨S_, .f32⟩ : BufTy).Contents (Elt F) → (⟨S16384x14x14, .f32⟩ : BufTy).Contents (Elt F)),
    unary main_v188 main_v189 (Host.negf : (⟨S16384x14x14, .f32⟩ : BufTy).Contents (Elt F) → (⟨S16384x14x14, .f32⟩ : BufTy).Contents (Elt F)),
    nullary main_cst_27 (constant S_ .f32 0x41700000#32),
    unary main_cst_27 main_v190 (broadcastInDim S16384x14x14 ![] bcast_S_S16384x14x14 : (⟨S_, .f32⟩ : BufTy).Contents (Elt F) → (⟨S16384x14x14, .f32⟩ : BufTy).Contents (Elt F)),
    binary main_v189 main_v190 main_v191 (Host.divf : (⟨S16384x14x14, .f32⟩ : BufTy).Contents (Elt F) → (⟨S16384x14x14, .f32⟩ : BufTy).Contents (Elt F) → (⟨S16384x14x14, .f32⟩ : BufTy).Contents (Elt F)),
    unary main_v191 main_v192 (Host.exp : (⟨S16384x14x14, .f32⟩ : BufTy).Contents (Elt F) → (⟨S16384x14x14, .f32⟩ : BufTy).Contents (Elt F)),
    binary main_v181 main_v181 main_v193 ((fun l r => Host.dotGeneral dot_S16384x14x2_S16384x14x2_S16384x14x14_2_2_1_1_0_0 none l r) : (⟨S16384x14x2, .f32⟩ : BufTy).Contents (Elt F) → (⟨S16384x14x2, .f32⟩ : BufTy).Contents (Elt F) → (⟨S16384x14x14, .f32⟩ : BufTy).Contents (Elt F)),
    binary main_v192 main_v193 main_v194 (mulf : (⟨S16384x14x14, .f32⟩ : BufTy).Contents (Elt F) → (⟨S16384x14x14, .f32⟩ : BufTy).Contents (Elt F) → (⟨S16384x14x14, .f32⟩ : BufTy).Contents (Elt F)),
    nullary main_cst_28 (constant S_ .f32 0x00000000#32),
    binary main_v194 main_cst_28 main_v195 ((fun x v => Host.reduceAdd x v reducesTo_S16384x14x14_S16384_d1_2 h_S_) : (⟨S16384x14x14, .f32⟩ : BufTy).Contents (Elt F) → (⟨S_, .f32⟩ : BufTy).Contents (Elt F) → (⟨S16384, .f32⟩ : BufTy).Contents (Elt F)),
    binary main_v160 main_v195 main_v196 (addf : (⟨S16384, .f32⟩ : BufTy).Contents (Elt F) → (⟨S16384, .f32⟩ : BufTy).Contents (Elt F) → (⟨S16384, .f32⟩ : BufTy).Contents (Elt F)) ]

theorem ops09_sub : (ops09 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub ..⟩

theorem ops09_fresh : ∀ op ∈ (ops09 : List (HloOp τ sig (Elt F))), op.fresh = ∅ := by
  intro _ h; (repeat (cases h with | head => rfl | tail _ h => ?_)); exact nomatch h

set_option maxHeartbeats 4000000 in  -- one budget for all the fields: each computes a fold of up to forty operations
theorem step09 {W : Valuation τ sig (Elt F)} {x0 x1 : (⟨S16384x196, .f32⟩ : BufTy).Contents (Elt F)} (h : Inv192 W x0 x1) :
    Inv233 (after ops09 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v160]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v160]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v160]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v160]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v160]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v160]
  v196 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v160]; rfl

end Cert.ReferenceIdeal.RefRun

end
-- ==== Proof.RefRunC10.lean ====
/- Operations 234 to 246 of the reference's 369, as a list `ops10`, and the invariant's step across them: if before
   them every buffer of `Inv233` holds its stage, then after them every buffer of `Inv246` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 234 to 246 of @main, in order (a called function's operations stand at its call, spelt `TRef.…`). -/
abbrev ops10 : List (HloOp τ sig (Elt F)) :=
  [ unary main_v0 main_v197 ((extractStridedSlice S16384x8x2 ![0, 68, 0] · slices_S16384x98x2_S16384x8x2_0_68_0) : (⟨S16384x98x2, .f32⟩ : BufTy).Contents (Elt F) → (⟨S16384x8x2, .f32⟩ : BufTy).Contents (Elt F)),
    unary main_v1 main_v198 ((extractStridedSlice S16384x8x2 ![0, 68, 0] · slices_S16384x98x2_S16384x8x2_0_68_0) : (⟨S16384x98x2, .f32⟩ : BufTy).Contents (Elt F) → (⟨S16384x8x2, .f32⟩ : BufTy).Contents (Elt F)),
    unary main_v197 main_v199 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    unary main_v197 main_v200 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)),
    binary main_v199 main_v200 main_v201 (addf : (⟨S16384x7x2, .f32⟩ : BufTy).Contents (Elt F) → (⟨S16384x7x2, .f32⟩ : BufTy).Contents (Elt F) → (⟨S16384x7x2, .f32⟩ : BufTy).Contents (Elt F)),
    nullary main_cst_29 (constant S_ .f32 0x3F000000#32),
    unary main_cst_29 main_v202 (broadcastInDim S16384x7x2 ![] bcast_S_S16384x7x2 : (⟨S_, .f32⟩ : BufTy).Contents (Elt F) → (⟨S16384x7x2, .f32⟩ : BufTy).Contents (Elt F)),
    binary main_v201 main_v202 main_v203 (mulf : (⟨S16384x7x2, .f32⟩ : BufTy).Contents (Elt F) → (⟨S16384x7x2, .f32⟩ : BufTy).Contents (Elt F) → (⟨S16384x7x2, .f32⟩ : BufTy).Contents (Elt F)),
    unary main_v197 main_v204 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)),
    unary main_v197 main_v205 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    binary main_v204 main_v205 main_v206 (subf : (⟨S16384x7x2, .f32⟩ : BufTy).Contents (Elt F) → (⟨S16384x7x2, .f32⟩ : BufTy).Contents (Elt F) → (⟨S16384x7x2, .f32⟩ : BufTy).Contents (Elt F)),
    unary main_v198 main_v207 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    unary main_v198 main_v208 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)) ]

theorem ops10_sub : (ops10 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub ..⟩

theorem ops10_fresh : ∀ op ∈ (ops10 : List (HloOp τ sig (Elt F))), op.fresh = ∅ := by
  intro _ h; (repeat (cases h with | head => rfl | tail _ h => ?_)); exact nomatch h

set_option maxHeartbeats 4000000 in  -- one budget for all the fields: each computes a fold of up to forty operations
theorem step10 {W : Valuation τ sig (Elt F)} {x0 x1 : (⟨S16384x196, .f32⟩ : BufTy).Contents (Elt F)} (h : Inv233 W x0 x1) :
    Inv246 (after ops10 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]
  v196 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]
  v198 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]; rfl
  v203 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]; rfl
  v206 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]; rfl
  v207 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]; rfl
  v208 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196]; rfl

end Cert.ReferenceIdeal.RefRun

end
-- ==== Proof.RefRunC11.lean ====
/- Operations 247 to 274 of the reference's 369, as a list `ops11`, and the invariant's step across them: if before
   them every buffer of `Inv246` holds its stage, then after them every buffer of `Inv274` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 247 to 274 of @main, in order (a called function's operations stand at its call, spelt `TRef.…`). -/
abbrev ops11 : List (HloOp τ sig (Elt F)) :=
  [ binary main_v207 main_v208 main_v209 (addf : (⟨S16384x7x2, .f32⟩ : BufTy).Contents (Elt F) → (⟨S16384x7x2, .f32⟩ : BufTy).Contents (Elt F) → (⟨S16384x7x2, .f32⟩ : BufTy).Contents (Elt F)),
    nullary main_cst_30 (constant S_ .f32 0x3F000000#32),
    unary main_cst_30 main_v210 (broadcastInDim S16384x7x2 ![] bcast_S_S16384x7x2 : (⟨S_, .f32⟩ : BufTy).Contents (Elt F) → (⟨S16384x7x2, .f32⟩ : BufTy).Contents (Elt F)),
    binary main_v209 main_v210 main_v211 (mulf : (⟨S16384x7x2, .f32⟩ : BufTy).Contents (Elt F) → (⟨S16384x7x2, .f32⟩ : BufTy).Contents (Elt F) → (⟨S16384x7x2, .f32⟩ : BufTy).Contents (Elt F)),
    unary main_v198 main_v212 ((extractStridedSlice S16384x7x2 ![0, 1, 0] · slices_S16384x8x2_S16384x7x2_0_1_0) : (⟨S16384x8x2, .f32⟩ : BufTy).Contents (Elt F) → (⟨S16384x7x2, .f32⟩ : BufTy).Contents (Elt F)),
    unary main_v198 main_v213 ((extractStridedSlice S16384x7x2 ![0, 0, 0] · slices_S16384x8x2_S16384x7x2_0_0_0) : (⟨S16384x8x2, .f32⟩ : BufTy).Contents (Elt F) → (⟨S16384x7x2, .f32⟩ : BufTy).Contents (Elt F)),
    binary main_v212 main_v213 main_v214 (subf : (⟨S16384x7x2, .f32⟩ : BufTy).Contents (Elt F) → (⟨S16384x7x2, .f32⟩ : BufTy).Contents (Elt F) → (⟨S16384x7x2, .f32⟩ : BufTy).Contents (Elt F)),
    binary main_v203 main_v211 main_v215 ((fun a b => concatenate S16384x14x2 1 [⟨S16384x7x2, a⟩, ⟨S16384x7x2, b⟩] concatenates_S16384x7x2_S16384x7x2_S16384x14x2_d1) : (⟨S16384x7x2, .f32⟩ : BufTy).Contents (Elt F) → (⟨S16384x7x2, .f32⟩ : BufTy).Contents (Elt F) → (⟨S16384x14x2, .f32⟩ : BufTy).Contents (Elt F)),
    unary main_v214 main_v216 (Host.negf : (⟨S16384x7x2, .f32⟩ : BufTy).Contents (Elt F) → (⟨S16384x7x2, .f32⟩ : BufTy).Contents (Elt F)),
    binary main_v206 main_v216 main_v217 ((fun a b => concatenate S16384x14x2 1 [⟨S16384x7x2, a⟩, ⟨S16384x7x2, b⟩] concatenates_S16384x7x2_S16384x7x2_S16384x14x2_d1) : (⟨S16384x7x2, .f32⟩ : BufTy).Contents (Elt F) → (⟨S16384x7x2, .f32⟩ : BufTy).Contents (Elt F) → (⟨S16384x14x2, .f32⟩ : BufTy).Contents (Elt F)),
    unary main_v215 main_v218 (broadcastInDim S16384x14x1x2 ![0, 1, 3] bcast_S16384x14x2_S16384x14x1x2_0_1_3 : (⟨S16384x14x2, .f32⟩ : BufTy).Contents (Elt F) → (⟨S16384x14x1x2, .f32⟩ : BufTy).Contents (Elt F)),
    unary main_v215 main_v219 (broadcastInDim S16384x1x14x2 ![0, 2, 3] bcast_S16384x14x2_S16384x1x14x2_0_2_3 : (⟨S16384x14x2, .f32⟩ : BufTy).Contents (Elt F) → (⟨S16384x1x14x2, .f32⟩ : BufTy).Contents (Elt F)),
    unary main_v218 main_v220 (broadcastInDim S16384x14x14x2 ![0, 1, 2, 3] bcast_S16384x14x1x2_S16384x14x14x2_0_1_2_3 : (⟨S16384x14x1x2, .f32⟩ : BufTy).Contents (Elt F) → (⟨S16384x14x14x2, .f32⟩ : BufTy).Contents (Elt F)),
    unary main_v219 main_v221 (broadcastInDim S16384x14x14x2 ![0, 1, 2, 3] bcast_S16384x1x14x2_S16384x14x14x2_0_1_2_3 : (⟨S16384x1x14x2, .f32⟩ : BufTy).Contents (Elt F) → (⟨S16384x14x14x2, .f32⟩ : BufTy).Contents (Elt F)),
    binary main_v220 main_v221 main_v222 (subf : (⟨S16384x14x14x2, .f32⟩ : BufTy).Contents (Elt F) → (⟨S16384x14x14x2, .f32⟩ : BufTy).Contents (Elt F) → (⟨S16384x14x14x2, .f32⟩ : BufTy).Contents (Elt F)),
    binary main_v222 main_v222 main_v223 (mulf : (⟨S16384x14x14x2, .f32⟩ : BufTy).Contents (Elt F) → (⟨S16384x14x14x2, .f32⟩ : BufTy).Contents (Elt F) → (⟨S16384x14x14x2, .f32⟩ : BufTy).Contents (Elt F)),
    nullary main_cst_31 (constant S_ .f32 0x00000000#32),
    binary main_v223 main_cst_31 main_v224 ((fun x v => Host.reduceAdd x v reducesTo_S16384x14x14x2_S16384x14x14_d3 h_S_) : (⟨S16384x14x14x2, .f32⟩ : BufTy).Contents (Elt F) → (⟨S_, .f32⟩ : BufTy).Contents (Elt F) → (⟨S16384x14x14, .f32⟩ : BufTy).Contents (Elt F)),
    unary main_v224 main_v225 (Host.negf : (⟨S16384x14x14, .f32⟩ : BufTy).Contents (Elt F) → (⟨S16384x14x14, .f32⟩ : BufTy).Contents (Elt F)),
    nullary main_cst_32 (constant S_ .f32 0x41700000#32),
    unary main_cst_32 main_v226 (broadcastInDim S16384x14x14 ![] bcast_S_S16384x14x14 : (⟨S_, .f32⟩ : BufTy).Contents (Elt F) → (⟨S16384x14x14, .f32⟩ : BufTy).Contents (Elt F)),
    binary main_v225 main_v226 main_v227 (Host.divf : (⟨S16384x14x14, .f32⟩ : BufTy).Contents (Elt F) → (⟨S16384x14x14, .f32⟩ : BufTy).Contents (Elt F) → (⟨S16384x14x14, .f32⟩ : BufTy).Contents (Elt F)),
    unary main_v227 main_v228 (Host.exp : (⟨S16384x14x14, .f32⟩ : BufTy).Contents (Elt F) → (⟨S16384x14x14, .f32⟩ : BufTy).Contents (Elt F)),
    binary main_v217 main_v217 main_v229 ((fun l r => Host.dotGeneral dot_S16384x14x2_S16384x14x2_S16384x14x14_2_2_1_1_0_0 none l r) : (⟨S16384x14x2, .f32⟩ : BufTy).Contents (Elt F) → (⟨S16384x14x2, .f32⟩ : BufTy).Contents (Elt F) → (⟨S16384x14x14, .f32⟩ : BufTy).Contents (Elt F)),
    binary main_v228 main_v229 main_v230 (mulf : (⟨S16384x14x14, .f32⟩ : BufTy).Contents (Elt F) → (⟨S16384x14x14, .f32⟩ : BufTy).Contents (Elt F) → (⟨S16384x14x14, .f32⟩ : BufTy).Contents (Elt F)),
    nullary main_cst_33 (constant S_ .f32 0x00000000#32),
    binary main_v230 main_cst_33 main_v231 ((fun x v => Host.reduceAdd x v reducesTo_S16384x14x14_S16384_d1_2 h_S_) : (⟨S16384x14x14, .f32⟩ : BufTy).Contents (Elt F) → (⟨S_, .f32⟩ : BufTy).Contents (Elt F) → (⟨S16384, .f32⟩ : BufTy).Contents (Elt F)),
    binary main_v196 main_v231 main_v232 (addf : (⟨S16384, .f32⟩ : BufTy).Contents (Elt F) → (⟨S16384, .f32⟩ : BufTy).Contents (Elt F) → (⟨S16384, .f32⟩ : BufTy).Contents (Elt F)) ]

theorem ops11_sub : (ops11 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub ..⟩

theorem ops11_fresh : ∀ op ∈ (ops11 : List (HloOp τ sig (Elt F))), op.fresh = ∅ := by
  intro _ h; (repeat (cases h with | head => rfl | tail _ h => ?_)); exact nomatch h

set_option maxHeartbeats 4000000 in  -- one budget for all the fields: each computes a fold of up to forty operations
theorem step11 {W : Valuation τ sig (Elt F)} {x0 x1 : (⟨S16384x196, .f32⟩ : BufTy).Contents (Elt F)} (h : Inv246 W x0 x1) :
    Inv274 (after ops11 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196, h.v198, h.v203, h.v206, h.v207, h.v208]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196, h.v198, h.v203, h.v206, h.v207, h.v208]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196, h.v198, h.v203, h.v206, h.v207, h.v208]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196, h.v198, h.v203, h.v206, h.v207, h.v208]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196, h.v198, h.v203, h.v206, h.v207, h.v208]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196, h.v198, h.v203, h.v206, h.v207, h.v208]
  v232 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v196, h.v198, h.v203, h.v206, h.v207, h.v208]; rfl

end Cert.ReferenceIdeal.RefRun

end
-- ==== Proof.RefRunC12.lean ====
/- Operations 275 to 306 of the reference's 369, as a list `ops12`, and the invariant's step across them: if before
   them every buffer of `Inv274` holds its stage, then after them every buffer of `Inv306` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 275 to 306 of @main, in order (a called function's operations stand at its call, spelt `TRef.…`). -/
abbrev ops12 : List (HloOp τ sig (Elt F)) :=
  [ unary main_v0 main_v233 ((extractStridedSlice S16384x12x2 ![0, 76, 0] · slices_S16384x98x2_S16384x12x2_0_76_0) : (⟨S16384x98x2, .f32⟩ : BufTy).Contents (Elt F) → (⟨S16384x12x2, .f32⟩ : BufTy).Contents (Elt F)),
    unary main_v1 main_v234 ((extractStridedSlice S16384x12x2 ![0, 76, 0] · slices_S16384x98x2_S16384x12x2_0_76_0) : (⟨S16384x98x2, .f32⟩ : BufTy).Contents (Elt F) → (⟨S16384x12x2, .f32⟩ : BufTy).Contents (Elt F)),
    unary main_v233 main_v235 ((extractStridedSlice S16384x11x2 ![0, 0, 0] · slices_S16384x12x2_S16384x11x2_0_0_0) : (⟨S16384x12x2, .f32⟩ : BufTy).Contents (Elt F) → (⟨S16384x11x2, .f32⟩ : BufTy).Contents (Elt F)),
    unary main_v233 main_v236 ((extractStridedSlice S16384x11x2 ![0, 1, 0] · slices_S16384x12x2_S16384x11x2_0_1_0) : (⟨S16384x12x2, .f32⟩ : BufTy).Contents (Elt F) → (⟨S16384x11x2, .f32⟩ : BufTy).Contents (Elt F)),
    binary main_v235 main_v236 main_v237 (addf : (⟨S16384x11x2, .f32⟩ : BufTy).Contents (Elt F) → (⟨S16384x11x2, .f32⟩ : BufTy).Contents (Elt F) → (⟨S16384x11x2, .f32⟩ : BufTy).Contents (Elt F)),
    nullary main_cst_34 (constant S_ .f32 0x3F000000#32),
    unary main_cst_34 main_v238 (broadcastInDim S16384x11x2 ![] bcast_S_S16384x11x2 : (⟨S_, .f32⟩ : BufTy).Contents (Elt F) → (⟨S16384x11x2, .f32⟩ : BufTy).Contents (Elt F)),
    binary main_v237 main_v238 main_v239 (mulf : (⟨S16384x11x2, .f32⟩ : BufTy).Contents (Elt F) → (⟨S16384x11x2, .f32⟩ : BufTy).Contents (Elt F) → (⟨S16384x11x2, .f32⟩ : BufTy).Contents (Elt F)),
    unary main_v233 main_v240 ((extractStridedSlice S16384x11x2 ![0, 1, 0] · slices_S16384x12x2_S16384x11x2_0_1_0) : (⟨S16384x12x2, .f32⟩ : BufTy).Contents (Elt F) → (⟨S16384x11x2, .f32⟩ : BufTy).Contents (Elt F)),
    unary main_v233 main_v241 ((extractStridedSlice S16384x11x2 ![0, 0, 0] · slices_S16384x12x2_S16384x11x2_0_0_0) : (⟨S16384x12x2, .f32⟩ : BufTy).Contents (Elt F) → (⟨S16384x11x2, .f32⟩ : BufTy).Contents (Elt F)),
    binary main_v240 main_v241 main_v242 (subf : (⟨S16384x11x2, .f32⟩ : BufTy).Contents (Elt F) → (⟨S16384x11x2, .f32⟩ : BufTy).Contents (Elt F) → (⟨S16384x11x2, .f32⟩ : BufTy).Contents (Elt F)),
    unary main_v234 main_v243 ((extractStridedSlice S16384x11x2 ![0, 0, 0] · slices_S16384x12x2_S16384x11x2_0_0_0) : (⟨S16384x12x2, .f32⟩ : BufTy).Contents (Elt F) → (⟨S16384x11x2, .f32⟩ : BufTy).Contents (Elt F)),
    unary main_v234 main_v244 ((extractStridedSlice S16384x11x2 ![0, 1, 0] · slices_S16384x12x2_S16384x11x2_0_1_0) : (⟨S16384x12x2, .f32⟩ : BufTy).Contents (Elt F) → (⟨S16384x11x2, .f32⟩ : BufTy).Contents (Elt F)),
    binary main_v243 main_v244 main_v245 (addf : (⟨S16384x11x2, .f32⟩ : BufTy).Contents (Elt F) → (⟨S16384x11x2, .f32⟩ : BufTy).Contents (Elt F) → (⟨S16384x11x2, .f32⟩ : BufTy).Contents (Elt F)),
    nullary main_cst_35 (constant S_ .f32 0x3F000000#32),
    unary main_cst_35 main_v246 (broadcastInDim S16384x11x2 ![] bcast_S_S16384x11x2 : (⟨S_, .f32⟩ : BufTy).Contents (Elt F) → (⟨S16384x11x2, .f32⟩ : BufTy).Contents (Elt F)),
    binary main_v245 main_v246 main_v247 (mulf : (⟨S16384x11x2, .f32⟩ : BufTy).Contents (Elt F) → (⟨S16384x11x2, .f32⟩ : BufTy).Contents (Elt F) → (⟨S16384x11x2, .f32⟩ : BufTy).Contents (Elt F)),
    unary main_v234 main_v248 ((extractStridedSlice S16384x11x2 ![0, 1, 0] · slices_S16384x12x2_S16384x11x2_0_1_0) : (⟨S16384x12x2, .f32⟩ : BufTy).Contents (Elt F) → (⟨S16384x11x2, .f32⟩ : BufTy).Contents (Elt F)),
    unary main_v234 main_v249 ((extractStridedSlice S16384x11x2 ![0, 0, 0] · slices_S16384x12x2_S16384x11x2_0_0_0) : (⟨S16384x12x2, .f32⟩ : BufTy).Contents (Elt F) → (⟨S16384x11x2, .f32⟩ : BufTy).Contents (Elt F)),
    binary main_v248 main_v249 main_v250 (subf : (⟨S16384x11x2, .f32⟩ : BufTy).Contents (Elt F) → (⟨S16384x11x2, .f32⟩ : BufTy).Contents (Elt F) → (⟨S16384x11x2, .f32⟩ : BufTy).Contents (Elt F)),
    binary main_v239 main_v247 main_v251 ((fun a b => concatenate S16384x22x2 1 [⟨S16384x11x2, a⟩, ⟨S16384x11x2, b⟩] concatenates_S16384x11x2_S16384x11x2_S16384x22x2_d1) : (⟨S16384x11x2, .f32⟩ : BufTy).Contents (Elt F) → (⟨S16384x11x2, .f32⟩ : BufTy).Contents (Elt F) → (⟨S16384x22x2, .f32⟩ : BufTy).Contents (Elt F)),
    unary main_v250 main_v252 (Host.negf : (⟨S16384x11x2, .f32⟩ : BufTy).Contents (Elt F) → (⟨S16384x11x2, .f32⟩ : BufTy).Contents (Elt F)),
    binary main_v242 main_v252 main_v253 ((fun a b => concatenate S16384x22x2 1 [⟨S16384x11x2, a⟩, ⟨S16384x11x2, b⟩] concatenates_S16384x11x2_S16384x11x2_S16384x22x2_d1) : (⟨S16384x11x2, .f32⟩ : BufTy).Contents (Elt F) → (⟨S16384x11x2, .f32⟩ : BufTy).Contents (Elt F) → (⟨S16384x22x2, .f32⟩ : BufTy).Contents (Elt F)),
    unary main_v251 main_v254 (broadcastInDim S16384x22x1x2 ![0, 1, 3] bcast_S16384x22x2_S16384x22x1x2_0_1_3 : (⟨S16384x22x2, .f32⟩ : BufTy).Contents (Elt F) → (⟨S16384x22x1x2, .f32⟩ : BufTy).Contents (Elt F)),
    unary main_v251 main_v255 (broadcastInDim S16384x1x22x2 ![0, 2, 3] bcast_S16384x22x2_S16384x1x22x2_0_2_3 : (⟨S16384x22x2, .f32⟩ : BufTy).Contents (Elt F) → (⟨S16384x1x22x2, .f32⟩ : BufTy).Contents (Elt F)),
    unary main_v254 main_v256 (broadcastInDim S16384x22x22x2 ![0, 1, 2, 3] bcast_S16384x22x1x2_S16384x22x22x2_0_1_2_3 : (⟨S16384x22x1x2, .f32⟩ : BufTy).Contents (Elt F) → (⟨S16384x22x22x2, .f32⟩ : BufTy).Contents (Elt F)),
    unary main_v255 main_v257 (broadcastInDim S16384x22x22x2 ![0, 1, 2, 3] bcast_S16384x1x22x2_S16384x22x22x2_0_1_2_3 : (⟨S16384x1x22x2, .f32⟩ : BufTy).Contents (Elt F) → (⟨S16384x22x22x2, .f32⟩ : BufTy).Contents (Elt F)),
    binary main_v256 main_v257 main_v258 (subf : (⟨S16384x22x22x2, .f32⟩ : BufTy).Contents (Elt F) → (⟨S16384x22x22x2, .f32⟩ : BufTy).Contents (Elt F) → (⟨S16384x22x22x2, .f32⟩ : BufTy).Contents (Elt F)),
    binary main_v258 main_v258 main_v259 (mulf : (⟨S16384x22x22x2, .f32⟩ : BufTy).Contents (Elt F) → (⟨S16384x22x22x2, .f32⟩ : BufTy).Contents (Elt F) → (⟨S16384x22x22x2, .f32⟩ : BufTy).Contents (Elt F)),
    nullary main_cst_36 (constant S_ .f32 0x00000000#32),
    binary main_v259 main_cst_36 main_v260 ((fun x v => Host.reduceAdd x v reducesTo_S16384x22x22x2_S16384x22x22_d3 h_S_) : (⟨S16384x22x22x2, .f32⟩ : BufTy).Contents (Elt F) → (⟨S_, .f32⟩ : BufTy).Contents (Elt F) → (⟨S16384x22x22, .f32⟩ : BufTy).Contents (Elt F)),
    unary main_v260 main_v261 (Host.negf : (⟨S16384x22x22, .f32⟩ : BufTy).Contents (Elt F) → (⟨S16384x22x22, .f32⟩ : BufTy).Contents (Elt F)) ]

theorem ops12_sub : (ops12 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub ..⟩

theorem ops12_fresh : ∀ op ∈ (ops12 : List (HloOp τ sig (Elt F))), op.fresh = ∅ := by
  intro _ h; (repeat (cases h with | head => rfl | tail _ h => ?_)); exact nomatch h

set_option maxHeartbeats 4000000 in  -- one budget for all the fields: each computes a fold of up to forty operations
theorem step12 {W : Valuation τ sig (Elt F)} {x0 x1 : (⟨S16384x196, .f32⟩ : BufTy).Contents (Elt F)} (h : Inv274 W x0 x1) :
    Inv306 (after ops12 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]
  v232 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]
  v253 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]; rfl
  v261 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232]; rfl

end Cert.ReferenceIdeal.RefRun

end
-- ==== Proof.RefRunC13.lean ====
/- Operations 307 to 315 of the reference's 369, as a list `ops13`, and the invariant's step across them: if before
   them every buffer of `Inv306` holds its stage, then after them every buffer of `Inv315` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 307 to 315 of @main, in order (a called function's operations stand at its call, spelt `TRef.…`). -/
abbrev ops13 : List (HloOp τ sig (Elt F)) :=
  [ nullary main_cst_37 (constant S_ .f32 0x41700000#32),
    unary main_cst_37 main_v262 (broadcastInDim S16384x22x22 ![] bcast_S_S16384x22x22 : (⟨S_, .f32⟩ : BufTy).Contents (Elt F) → (⟨S16384x22x22, .f32⟩ : BufTy).Contents (Elt F)),
    binary main_v261 main_v262 main_v263 (Host.divf : (⟨S16384x22x22, .f32⟩ : BufTy).Contents (Elt F) → (⟨S16384x22x22, .f32⟩ : BufTy).Contents (Elt F) → (⟨S16384x22x22, .f32⟩ : BufTy).Contents (Elt F)),
    unary main_v263 main_v264 (Host.exp : (⟨S16384x22x22, .f32⟩ : BufTy).Contents (Elt F) → (⟨S16384x22x22, .f32⟩ : BufTy).Contents (Elt F)),
    binary main_v253 main_v253 main_v265 ((fun l r => Host.dotGeneral dot_S16384x22x2_S16384x22x2_S16384x22x22_2_2_1_1_0_0 none l r) : (⟨S16384x22x2, .f32⟩ : BufTy).Contents (Elt F) → (⟨S16384x22x2, .f32⟩ : BufTy).Contents (Elt F) → (⟨S16384x22x22, .f32⟩ : BufTy).Contents (Elt F)),
    binary main_v264 main_v265 main_v266 (mulf : (⟨S16384x22x22, .f32⟩ : BufTy).Contents (Elt F) → (⟨S16384x22x22, .f32⟩ : BufTy).Contents (Elt F) → (⟨S16384x22x22, .f32⟩ : BufTy).Contents (Elt F)),
    nullary main_cst_38 (constant S_ .f32 0x00000000#32),
    binary main_v266 main_cst_38 main_v267 ((fun x v => Host.reduceAdd x v reducesTo_S16384x22x22_S16384_d1_2 h_S_) : (⟨S16384x22x22, .f32⟩ : BufTy).Contents (Elt F) → (⟨S_, .f32⟩ : BufTy).Contents (Elt F) → (⟨S16384, .f32⟩ : BufTy).Contents (Elt F)),
    binary main_v232 main_v267 main_v268 (addf : (⟨S16384, .f32⟩ : BufTy).Contents (Elt F) → (⟨S16384, .f32⟩ : BufTy).Contents (Elt F) → (⟨S16384, .f32⟩ : BufTy).Contents (Elt F)) ]

theorem ops13_sub : (ops13 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., binary_bufs_sub .., binary_bufs_sub ..⟩

theorem ops13_fresh : ∀ op ∈ (ops13 : List (HloOp τ sig (Elt F))), op.fresh = ∅ := by
  intro _ h; (repeat (cases h with | head => rfl | tail _ h => ?_)); exact nomatch h

set_option maxHeartbeats 4000000 in  -- one budget for all the fields: each computes a fold of up to forty operations
theorem step13 {W : Valuation τ sig (Elt F)} {x0 x1 : (⟨S16384x196, .f32⟩ : BufTy).Contents (Elt F)} (h : Inv306 W x0 x1) :
    Inv315 (after ops13 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232, h.v253, h.v261]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232, h.v253, h.v261]
  v0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232, h.v253, h.v261]
  v1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232, h.v253, h.v261]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232, h.v253, h.v261]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232, h.v253, h.v261]
  v268 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v232, h.v253, h.v261]; rfl

end Cert.ReferenceIdeal.RefRun

end
-- ==== Proof.RefRunC14.lean ====
/- Operations 316 to 356 of the reference's 369, as a list `ops14`, and the invariant's step across them: if before
   them every buffer of `Inv315` holds its stage, then after them every buffer of `Inv356` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 316 to 356 of @main, in order (a called function's operations stand at its call, spelt `TRef.…`). -/
abbrev ops14 : List (HloOp τ sig (Elt F)) :=
  [ unary main_v0 main_v269 ((extractStridedSlice S16384x10x2 ![0, 88, 0] · slices_S16384x98x2_S16384x10x2_0_88_0) : (⟨S16384x98x2, .f32⟩ : BufTy).Contents (Elt F) → (⟨S16384x10x2, .f32⟩ : BufTy).Contents (Elt F)),
    unary main_v1 main_v270 ((extractStridedSlice S16384x10x2 ![0, 88, 0] · slices_S16384x98x2_S16384x10x2_0_88_0) : (⟨S16384x98x2, .f32⟩ : BufTy).Contents (Elt F) → (⟨S16384x10x2, .f32⟩ : BufTy).Contents (Elt F)),
    unary main_v269 main_v271 ((extractStridedSlice S16384x9x2 ![0, 0, 0] · slices_S16384x10x2_S16384x9x2_0_0_0) : (⟨S16384x10x2, .f32⟩ : BufTy).Contents (Elt F) → (⟨S16384x9x2, .f32⟩ : BufTy).Contents (Elt F)),
    unary main_v269 main_v272 ((extractStridedSlice S16384x9x2 ![0, 1, 0] · slices_S16384x10x2_S16384x9x2_0_1_0) : (⟨S16384x10x2, .f32⟩ : BufTy).Contents (Elt F) → (⟨S16384x9x2, .f32⟩ : BufTy).Contents (Elt F)),
    binary main_v271 main_v272 main_v273 (addf : (⟨S16384x9x2, .f32⟩ : BufTy).Contents (Elt F) → (⟨S16384x9x2, .f32⟩ : BufTy).Contents (Elt F) → (⟨S16384x9x2, .f32⟩ : BufTy).Contents (Elt F)),
    nullary main_cst_39 (constant S_ .f32 0x3F000000#32),
    unary main_cst_39 main_v274 (broadcastInDim S16384x9x2 ![] bcast_S_S16384x9x2 : (⟨S_, .f32⟩ : BufTy).Contents (Elt F) → (⟨S16384x9x2, .f32⟩ : BufTy).Contents (Elt F)),
    binary main_v273 main_v274 main_v275 (mulf : (⟨S16384x9x2, .f32⟩ : BufTy).Contents (Elt F) → (⟨S16384x9x2, .f32⟩ : BufTy).Contents (Elt F) → (⟨S16384x9x2, .f32⟩ : BufTy).Contents (Elt F)),
    unary main_v269 main_v276 ((extractStridedSlice S16384x9x2 ![0, 1, 0] · slices_S16384x10x2_S16384x9x2_0_1_0) : (⟨S16384x10x2, .f32⟩ : BufTy).Contents (Elt F) → (⟨S16384x9x2, .f32⟩ : BufTy).Contents (Elt F)),
    unary main_v269 main_v277 ((extractStridedSlice S16384x9x2 ![0, 0, 0] · slices_S16384x10x2_S16384x9x2_0_0_0) : (⟨S16384x10x2, .f32⟩ : BufTy).Contents (Elt F) → (⟨S16384x9x2, .f32⟩ : BufTy).Contents (Elt F)),
    binary main_v276 main_v277 main_v278 (subf : (⟨S16384x9x2, .f32⟩ : BufTy).Contents (Elt F) → (⟨S16384x9x2, .f32⟩ : BufTy).Contents (Elt F) → (⟨S16384x9x2, .f32⟩ : BufTy).Contents (Elt F)),
    unary main_v270 main_v279 ((extractStridedSlice S16384x9x2 ![0, 0, 0] · slices_S16384x10x2_S16384x9x2_0_0_0) : (⟨S16384x10x2, .f32⟩ : BufTy).Contents (Elt F) → (⟨S16384x9x2, .f32⟩ : BufTy).Contents (Elt F)),
    unary main_v270 main_v280 ((extractStridedSlice S16384x9x2 ![0, 1, 0] · slices_S16384x10x2_S16384x9x2_0_1_0) : (⟨S16384x10x2, .f32⟩ : BufTy).Contents (Elt F) → (⟨S16384x9x2, .f32⟩ : BufTy).Contents (Elt F)),
    binary main_v279 main_v280 main_v281 (addf : (⟨S16384x9x2, .f32⟩ : BufTy).Contents (Elt F) → (⟨S16384x9x2, .f32⟩ : BufTy).Contents (Elt F) → (⟨S16384x9x2, .f32⟩ : BufTy).Contents (Elt F)),
    nullary main_cst_40 (constant S_ .f32 0x3F000000#32),
    unary main_cst_40 main_v282 (broadcastInDim S16384x9x2 ![] bcast_S_S16384x9x2 : (⟨S_, .f32⟩ : BufTy).Contents (Elt F) → (⟨S16384x9x2, .f32⟩ : BufTy).Contents (Elt F)),
    binary main_v281 main_v282 main_v283 (mulf : (⟨S16384x9x2, .f32⟩ : BufTy).Contents (Elt F) → (⟨S16384x9x2, .f32⟩ : BufTy).Contents (Elt F) → (⟨S16384x9x2, .f32⟩ : BufTy).Contents (Elt F)),
    unary main_v270 main_v284 ((extractStridedSlice S16384x9x2 ![0, 1, 0] · slices_S16384x10x2_S16384x9x2_0_1_0) : (⟨S16384x10x2, .f32⟩ : BufTy).Contents (Elt F) → (⟨S16384x9x2, .f32⟩ : BufTy).Contents (Elt F)),
    unary main_v270 main_v285 ((extractStridedSlice S16384x9x2 ![0, 0, 0] · slices_S16384x10x2_S16384x9x2_0_0_0) : (⟨S16384x10x2, .f32⟩ : BufTy).Contents (Elt F) → (⟨S16384x9x2, .f32⟩ : BufTy).Contents (Elt F)),
    binary main_v284 main_v285 main_v286 (subf : (⟨S16384x9x2, .f32⟩ : BufTy).Contents (Elt F) → (⟨S16384x9x2, .f32⟩ : BufTy).Contents (Elt F) → (⟨S16384x9x2, .f32⟩ : BufTy).Contents (Elt F)),
    binary main_v275 main_v283 main_v287 ((fun a b => concatenate S16384x18x2 1 [⟨S16384x9x2, a⟩, ⟨S16384x9x2, b⟩] concatenates_S16384x9x2_S16384x9x2_S16384x18x2_d1) : (⟨S16384x9x2, .f32⟩ : BufTy).Contents (Elt F) → (⟨S16384x9x2, .f32⟩ : BufTy).Contents (Elt F) → (⟨S16384x18x2, .f32⟩ : BufTy).Contents (Elt F)),
    unary main_v286 main_v288 (Host.negf : (⟨S16384x9x2, .f32⟩ : BufTy).Contents (Elt F) → (⟨S16384x9x2, .f32⟩ : BufTy).Contents (Elt F)),
    binary main_v278 main_v288 main_v289 ((fun a b => concatenate S16384x18x2 1 [⟨S16384x9x2, a⟩, ⟨S16384x9x2, b⟩] concatenates_S16384x9x2_S16384x9x2_S16384x18x2_d1) : (⟨S16384x9x2, .f32⟩ : BufTy).Contents (Elt F) → (⟨S16384x9x2, .f32⟩ : BufTy).Contents (Elt F) → (⟨S16384x18x2, .f32⟩ : BufTy).Contents (Elt F)),
    unary main_v287 main_v290 (broadcastInDim S16384x18x1x2 ![0, 1, 3] bcast_S16384x18x2_S16384x18x1x2_0_1_3 : (⟨S16384x18x2, .f32⟩ : BufTy).Contents (Elt F) → (⟨S16384x18x1x2, .f32⟩ : BufTy).Contents (Elt F)),
    unary main_v287 main_v291 (broadcastInDim S16384x1x18x2 ![0, 2, 3] bcast_S16384x18x2_S16384x1x18x2_0_2_3 : (⟨S16384x18x2, .f32⟩ : BufTy).Contents (Elt F) → (⟨S16384x1x18x2, .f32⟩ : BufTy).Contents (Elt F)),
    unary main_v290 main_v292 (broadcastInDim S16384x18x18x2 ![0, 1, 2, 3] bcast_S16384x18x1x2_S16384x18x18x2_0_1_2_3 : (⟨S16384x18x1x2, .f32⟩ : BufTy).Contents (Elt F) → (⟨S16384x18x18x2, .f32⟩ : BufTy).Contents (Elt F)),
    unary main_v291 main_v293 (broadcastInDim S16384x18x18x2 ![0, 1, 2, 3] bcast_S16384x1x18x2_S16384x18x18x2_0_1_2_3 : (⟨S16384x1x18x2, .f32⟩ : BufTy).Contents (Elt F) → (⟨S16384x18x18x2, .f32⟩ : BufTy).Contents (Elt F)),
    binary main_v292 main_v293 main_v294 (subf : (⟨S16384x18x18x2, .f32⟩ : BufTy).Contents (Elt F) → (⟨S16384x18x18x2, .f32⟩ : BufTy).Contents (Elt F) → (⟨S16384x18x18x2, .f32⟩ : BufTy).Contents (Elt F)),
    binary main_v294 main_v294 main_v295 (mulf : (⟨S16384x18x18x2, .f32⟩ : BufTy).Contents (Elt F) → (⟨S16384x18x18x2, .f32⟩ : BufTy).Contents (Elt F) → (⟨S16384x18x18x2, .f32⟩ : BufTy).Contents (Elt F)),
    nullary main_cst_41 (constant S_ .f32 0x00000000#32),
    binary main_v295 main_cst_41 main_v296 ((fun x v => Host.reduceAdd x v reducesTo_S16384x18x18x2_S16384x18x18_d3 h_S_) : (⟨S16384x18x18x2, .f32⟩ : BufTy).Contents (Elt F) → (⟨S_, .f32⟩ : BufTy).Contents (Elt F) → (⟨S16384x18x18, .f32⟩ : BufTy).Contents (Elt F)),
    unary main_v296 main_v297 (Host.negf : (⟨S16384x18x18, .f32⟩ : BufTy).Contents (Elt F) → (⟨S16384x18x18, .f32⟩ : BufTy).Contents (Elt F)),
    nullary main_cst_42 (constant S_ .f32 0x41700000#32),
    unary main_cst_42 main_v298 (broadcastInDim S16384x18x18 ![] bcast_S_S16384x18x18 : (⟨S_, .f32⟩ : BufTy).Contents (Elt F) → (⟨S16384x18x18, .f32⟩ : BufTy).Contents (Elt F)),
    binary main_v297 main_v298 main_v299 (Host.divf : (⟨S16384x18x18, .f32⟩ : BufTy).Contents (Elt F) → (⟨S16384x18x18, .f32⟩ : BufTy).Contents (Elt F) → (⟨S16384x18x18, .f32⟩ : BufTy).Contents (Elt F)),
    unary main_v299 main_v300 (Host.exp : (⟨S16384x18x18, .f32⟩ : BufTy).Contents (Elt F) → (⟨S16384x18x18, .f32⟩ : BufTy).Contents (Elt F)),
    binary main_v289 main_v289 main_v301 ((fun l r => Host.dotGeneral dot_S16384x18x2_S16384x18x2_S16384x18x18_2_2_1_1_0_0 none l r) : (⟨S16384x18x2, .f32⟩ : BufTy).Contents (Elt F) → (⟨S16384x18x2, .f32⟩ : BufTy).Contents (Elt F) → (⟨S16384x18x18, .f32⟩ : BufTy).Contents (Elt F)),
    binary main_v300 main_v301 main_v302 (mulf : (⟨S16384x18x18, .f32⟩ : BufTy).Contents (Elt F) → (⟨S16384x18x18, .f32⟩ : BufTy).Contents (Elt F) → (⟨S16384x18x18, .f32⟩ : BufTy).Contents (Elt F)),
    nullary main_cst_43 (constant S_ .f32 0x00000000#32),
    binary main_v302 main_cst_43 main_v303 ((fun x v => Host.reduceAdd x v reducesTo_S16384x18x18_S16384_d1_2 h_S_) : (⟨S16384x18x18, .f32⟩ : BufTy).Contents (Elt F) → (⟨S_, .f32⟩ : BufTy).Contents (Elt F) → (⟨S16384, .f32⟩ : BufTy).Contents (Elt F)),
    binary main_v268 main_v303 main_v304 (addf : (⟨S16384, .f32⟩ : BufTy).Contents (Elt F) → (⟨S16384, .f32⟩ : BufTy).Contents (Elt F) → (⟨S16384, .f32⟩ : BufTy).Contents (Elt F)) ]

theorem ops14_sub : (ops14 : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub ..⟩

theorem ops14_fresh : ∀ op ∈ (ops14 : List (HloOp τ sig (Elt F))), op.fresh = ∅ := by
  intro _ h; (repeat (cases h with | head => rfl | tail _ h => ?_)); exact nomatch h

set_option maxHeartbeats 4000000 in  -- one budget for all the fields: each computes a fold of up to forty operations
theorem step14 {W : Valuation τ sig (Elt F)} {x0 x1 : (⟨S16384x196, .f32⟩ : BufTy).Contents (Elt F)} (h : Inv315 W x0 x1) :
    Inv356 (after ops14 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v268]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v268]
  v12 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v268]
  v15 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v268]
  v304 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v0, h.v1, h.v12, h.v15, h.v268]; rfl

end Cert.ReferenceIdeal.RefRun

end
-- ==== Proof.RefRunC15.lean ====
/- Operations 357 to 366 of the reference's 369, as a list `ops15`, and the invariant's step across them: if before
   them every buffer of `Inv356` holds its stage, then after them every buffer of `Inv366` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 357 to 366 of @main, in order (a called function's operations stand at its call, spelt `TRef.…`). -/
abbrev ops15 : List (HloOp τ sig (Elt F)) :=
  [ nullary main_cst_44 (constant S_ .f32 0x42C40000#32),
    unary main_cst_44 main_v305 (broadcastInDim S16384 ![] bcast_S_S16384 : (⟨S_, .f32⟩ : BufTy).Contents (Elt F) → (⟨S16384, .f32⟩ : BufTy).Contents (Elt F)),
    binary main_v305 main_v12 main_v306 (mulf : (⟨S16384, .f32⟩ : BufTy).Contents (Elt F) → (⟨S16384, .f32⟩ : BufTy).Contents (Elt F) → (⟨S16384, .f32⟩ : BufTy).Contents (Elt F)),
    binary main_v304 main_v306 main_v307 (Host.divf : (⟨S16384, .f32⟩ : BufTy).Contents (Elt F) → (⟨S16384, .f32⟩ : BufTy).Contents (Elt F) → (⟨S16384, .f32⟩ : BufTy).Contents (Elt F)),
    nullary main_cst_45 (constant S_ .f32 0x00000000#32),
    binary main_v307 main_cst_45 main_v308 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_46 (constant S_ .f32 0x46800000#32),
    binary main_v308 main_cst_46 main_v309 (Host.divf : (⟨S_, .f32⟩ : BufTy).Contents (Elt F) → (⟨S_, .f32⟩ : BufTy).Contents (Elt F) → (⟨S_, .f32⟩ : BufTy).Contents (Elt F)),
    nullary main_cst_47 (constant S_ .f32 0x3F4CCCCD#32),
    binary main_cst_47 main_v15 main_v310 (mulf : (⟨S_, .f32⟩ : BufTy).Contents (Elt F) → (⟨S_, .f32⟩ : BufTy).Contents (Elt F) → (⟨S_, .f32⟩ : BufTy).Contents (Elt F)) ]

theorem ops15_sub : (ops15 : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., binary_bufs_sub .., nullary_bufs_sub .., binary_bufs_sub ..⟩

theorem ops15_fresh : ∀ op ∈ (ops15 : List (HloOp τ sig (Elt F))), op.fresh = ∅ := by
  intro _ h; (repeat (cases h with | head => rfl | tail _ h => ?_)); exact nomatch h

set_option maxHeartbeats 4000000 in  -- one budget for all the fields: each computes a fold of up to forty operations
theorem step15 {W : Valuation τ sig (Elt F)} {x0 x1 : (⟨S16384x196, .f32⟩ : BufTy).Contents (Elt F)} (h : Inv356 W x0 x1) :
    Inv366 (after ops15 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v12, h.v15, h.v304]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v12, h.v15, h.v304]
  v309 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v12, h.v15, h.v304]; rfl
  v310 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v12, h.v15, h.v304]; rfl

end Cert.ReferenceIdeal.RefRun

end
-- ==== Proof.RefRunC16.lean ====
/- Operations 367 to 369 of the reference's 369, as a list `ops16`, and the invariant's step across them: if before
   them every buffer of `Inv366` holds its stage, then after them every buffer of `Inv369` does. One field per buffer: the
   fold `after` is computed at that buffer (an operation's result at its own buffer is its function of what its operands
   hold, at any other buffer what was there; a two-operand concatenation is read as `cat2` of its operands so that they
   are computed too), buffers written earlier are replaced by their stages, and what is left is the stage's definition
   unfolded. -/
import proofs.«429135_j77395310674027_3_alg».proof.Proof.RefRunInv
import proofs.«429135_j77395310674027_3_alg».proof.Proof.RefRunCat
import Idealize.ShloMosaic.Lib.StableHlo.Run

noncomputable section

namespace Cert.ReferenceIdeal.RefRun

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- Operations 367 to 369 of @main, in order (a called function's operations stand at its call, spelt `TRef.…`). -/
abbrev ops16 : List (HloOp τ sig (Elt F)) :=
  [ nullary main_cst_48 (constant S_ .f32 0x3E4CCCCD#32),
    binary main_cst_48 main_v309 main_v311 (mulf : (⟨S_, .f32⟩ : BufTy).Contents (Elt F) → (⟨S_, .f32⟩ : BufTy).Contents (Elt F) → (⟨S_, .f32⟩ : BufTy).Contents (Elt F)),
    binary main_v310 main_v311 main_v312 (addf : (⟨S_, .f32⟩ : BufTy).Contents (Elt F) → (⟨S_, .f32⟩ : BufTy).Contents (Elt F) → (⟨S_, .f32⟩ : BufTy).Contents (Elt F)) ]

theorem ops16_sub : (ops16 : List (HloOp τ sig (Elt F))).Forall fun op => op.bufs ⊆ tcRefs τ sig :=
  ⟨nullary_bufs_sub .., binary_bufs_sub .., binary_bufs_sub ..⟩

theorem ops16_fresh : ∀ op ∈ (ops16 : List (HloOp τ sig (Elt F))), op.fresh = ∅ := by
  intro _ h; (repeat (cases h with | head => rfl | tail _ h => ?_)); exact nomatch h

set_option maxHeartbeats 4000000 in  -- one budget for all the fields: each computes a fold of up to forty operations
theorem step16 {W : Valuation τ sig (Elt F)} {x0 x1 : (⟨S16384x196, .f32⟩ : BufTy).Contents (Elt F)} (h : Inv366 W x0 x1) :
    Inv369 (after ops16 W) x0 x1 where
  arg0 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v309, h.v310]
  arg1 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v309, h.v310]
  v312 := by simp (disch := decide) only [after_cons, after_nil, nullary_result', unary_result', binary_result', reshape_result', nullary_result_ne', unary_result_ne', binary_result_ne', reshape_result_ne', TRef.ofBuf, TRef.toBuf, cast_eq, concatenate_pair, h.arg0, h.arg1, h.v309, h.v310]; rfl

end Cert.ReferenceIdeal.RefRun

end
-- ==== Proof.RefRun.lean ====
/-
  The reference's run: every execution ends with the result buffer at the last stage's value of the arguments.

  @main is a line of 369 host operations, printed in seven windows. The line is cut into sixteen stretches
  (`ops01` … `ops16`); each window is `seq` of its stretches by computation, so @main is `seq` of the whole line
  (`main_eq`), and `run_seq` gives every buffer after the run as the fold `after` of the line over the launch
  contents. The fold over a concatenation is the folds in turn (`after_append`), and each stretch carries the
  invariant "every buffer still to be read holds its stage" from its cut to the next (`step01` … `step16`). The
  last invariant says that the result buffer holds the last stage and that the two arguments are what they were.
-/
import proofs.«429135_j77395310674027_3_alg».proof.Proof.RefRunC01
import proofs.«429135_j77395310674027_3_alg».proof.Proof.RefRunC02
import proofs.«429135_j77395310674027_3_alg».proof.Proof.RefRunC03
import proofs.«429135_j77395310674027_3_alg».proof.Proof.RefRunC04
import proofs.«429135_j77395310674027_3_alg».proof.Proof.RefRunC05
import proofs.«429135_j77395310674027_3_alg».proof.Proof.RefRunC06
import proofs.«429135_j77395310674027_3_alg».proof.Proof.RefRunC07
import proofs.«429135_j77395310674027_3_alg».proof.Proof.RefRunC08
import proofs.«429135_j77395310674027_3_alg».proof.Proof.RefRunC09
import proofs.«429135_j77395310674027_3_alg».proof.Proof.RefRunC10
import proofs.«429135_j77395310674027_3_alg».proof.Proof.RefRunC11
import proofs.«429135_j77395310674027_3_alg».proof.Proof.RefRunC12
import proofs.«429135_j77395310674027_3_alg».proof.Proof.RefRunC13
import proofs.«429135_j77395310674027_3_alg».proof.Proof.RefRunC14
import proofs.«429135_j77395310674027_3_alg».proof.Proof.RefRunC15
import proofs.«429135_j77395310674027_3_alg».proof.Proof.RefRunC16
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 369 operations: the sixteen stretches in order. -/
abbrev ops : List (HloOp τ sig (Elt F)) :=
  ops01 ++ (ops02 ++ (ops03 ++ (ops04 ++ (ops05 ++ (ops06 ++ (ops07 ++ (ops08 ++ (ops09 ++ (ops10 ++ (ops11 ++ (ops12 ++ (ops13 ++ (ops14 ++ (ops15 ++ (ops16)))))))))))))))

/-! Each printed window of @main is the line of its stretches: both sides are one chain of `hlo` steps (the two
    called functions' bodies unfold to their four operations each). -/

set_option maxRecDepth 8192 in
set_option maxHeartbeats 4000000 in
theorem main_part0_eq (d : Dev nD) : main_part0 (F := F) d = seq (ops01 ++ ops02) := rfl
set_option maxRecDepth 8192 in
set_option maxHeartbeats 4000000 in
theorem main_part1_eq (d : Dev nD) : main_part1 (F := F) d = seq (ops03 ++ (ops04 ++ ops05)) := rfl
set_option maxRecDepth 8192 in
set_option maxHeartbeats 4000000 in
theorem main_part2_eq (d : Dev nD) : main_part2 (F := F) d = seq (ops06 ++ ops07) := rfl
set_option maxRecDepth 8192 in
set_option maxHeartbeats 4000000 in
theorem main_part3_eq (d : Dev nD) : main_part3 (F := F) d = seq (ops08 ++ (ops09 ++ ops10)) := rfl
set_option maxRecDepth 8192 in
set_option maxHeartbeats 4000000 in
theorem main_part4_eq (d : Dev nD) : main_part4 (F := F) d = seq (ops11 ++ ops12) := rfl
set_option maxRecDepth 8192 in
set_option maxHeartbeats 4000000 in
theorem main_part5_eq (d : Dev nD) : main_part5 (F := F) d = seq (ops13 ++ (ops14 ++ ops15)) := rfl
set_option maxRecDepth 8192 in
set_option maxHeartbeats 4000000 in
theorem main_part6_eq (d : Dev nD) : main_part6 (F := F) d = seq ops16 := rfl

/-- @main is the whole line: the windows in order, each the line of its stretches, and a line of two lists in a
    row is the first then the second (`seq_append`), the sequencing reassociated. -/
theorem main_eq (d : Dev nD) : main (F := F) d = seq ops := by
  simp only [main, main_part0_eq, main_part1_eq, main_part2_eq, main_part3_eq, main_part4_eq, main_part5_eq, main_part6_eq,
    ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only: stretch by stretch. -/
theorem ops_sub : (ops : List (HloOp τ sig (Elt F))).Forall fun op => op.bufs ⊆ tcRefs τ sig := by
  simp only [ops, List.forall_append]
  exact ⟨ops01_sub, ops02_sub, ops03_sub, ops04_sub, ops05_sub, ops06_sub, ops07_sub, ops08_sub, ops09_sub, ops10_sub,
    ops11_sub, ops12_sub, ops13_sub, ops14_sub, ops15_sub, ops16_sub⟩

/-- Every operation of the line determines its results: stretch by stretch. -/
theorem ops_fresh : ∀ op ∈ (ops : List (HloOp τ sig (Elt F))), op.fresh = ∅ := by
  intro op hop
  simp only [ops, List.mem_append] at hop
  rcases hop with h | h | h | h | h | h | h | h | h | h | h | h | h | h | h | h
  exacts [ops01_fresh op h, ops02_fresh op h, ops03_fresh op h, ops04_fresh op h, ops05_fresh op h, ops06_fresh op h,
    ops07_fresh op h, ops08_fresh op h, ops09_fresh op h, ops10_fresh op h, ops11_fresh op h, ops12_fresh op h,
    ops13_fresh op h, ops14_fresh op h, ops15_fresh op h, ops16_fresh op h]

/-- The fold of the whole line over any contents `V`: the invariant holds trivially before the first operation (only
    the arguments are there to be read, at what `V` gives them), each stretch carries it to the next cut, and the
    fold over the concatenation is the stretches' folds in turn. -/
theorem after_ops (V : Valuation τ sig (Elt F)) :
    Inv369 (after ops V) (V (Proc.devRef .tc main_arg0)) (V (Proc.devRef .tc main_arg1)) := by
  have h := step16 (step15 (step14 (step13 (step12 (step11 (step10 (step09 (step08 (step07 (step06 (step05 (step04 (step03 (step02 (step01 (W := V) (x0 := V (Proc.devRef .tc main_arg0)) (x1 := V (Proc.devRef .tc main_arg1)) ⟨rfl, rfl⟩)))))))))))))))
  simpa only [ops, after_append] using h

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v312)
          = Cert.ReferenceIdeal.Stages.val_main_v312 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have I := after_ops (F := F) (launchContents m c)
      ⟨(h c main_v312).trans I.v312, (h c main_arg0).trans I.arg0, (h c main_arg1).trans I.arg1⟩)
    (run_seq scopedRefs_eq scopedSems_eq defs main (fun _ => ops) main_eq (fun _ => ops_sub) m ρ (fun _ => ops_fresh))

end Cert.ReferenceIdeal.RefRun

end
-- ==== Proof.lean ====
/-
  The certificate: the landmark-and-curve loss kernel against its jnp reference, over the extended reals.

  Both programs compute, from 16384 samples of 98 predicted and 98 true planar landmarks, 0.8 times the mean landmark
  term plus 0.2 times the mean curve term (the specification's loss, written once in Spec.lean).
  * The kernel lays each coordinate out with the samples along the lanes, computes 128 samples per grid point, writes
    one eighth of each sample's two terms on each of 8 rows of its output blocks, and sums the two output arrays on the
    host: its result is the loss (KerArrays.lean, over KerBody.lean's reading of one point's body).
  * The reference computes the same terms sample by sample with the coordinates on a trailing axis: its last stage is the
    loss (RefValue.lean over RefCurves.lean), and its run ends with the result buffer at that stage (RefRun.lean).
  The two differ by the association of sums, by the kernel's named reciprocals 1/98 and -1/15 against the reference's
  quotients by 98 and 15, and by 0 - x against -x; all are equalities on the extended reals.
-/
import proofs.«429135_j77395310674027_3_alg».proof.Defs
import proofs.«429135_j77395310674027_3_alg».proof.Proof.Gen.Kernel
import proofs.«429135_j77395310674027_3_alg».proof.Proof.Gen.Kernel.Skeleton
import proofs.«429135_j77395310674027_3_alg».proof.Proof.Gen.Kernel.Launch
import proofs.«429135_j77395310674027_3_alg».proof.Proof.Gen.Kernel.Points
import proofs.«429135_j77395310674027_3_alg».proof.Proof.Gen.Kernel.Frame
import proofs.«429135_j77395310674027_3_alg».proof.Proof.Gen.KernelIdeal
import proofs.«429135_j77395310674027_3_alg».proof.Proof.Gen.KernelIdeal.Skeleton
import proofs.«429135_j77395310674027_3_alg».proof.Proof.Gen.KernelIdeal.Launch
import proofs.«429135_j77395310674027_3_alg».proof.Proof.Gen.KernelIdeal.Points
import proofs.«429135_j77395310674027_3_alg».proof.Proof.Gen.KernelIdeal.Frame
import proofs.«429135_j77395310674027_3_alg».proof.Proof.Gen.ReferenceIdeal
import proofs.«429135_j77395310674027_3_alg».proof.Proof.Gen.Pre_finite_inputs
import proofs.«429135_j77395310674027_3_alg».proof.Proof.KerArrays
import proofs.«429135_j77395310674027_3_alg».proof.Proof.RefValue
import proofs.«429135_j77395310674027_3_alg».proof.Proof.RefRun
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The nine named constants: 1/98 once and -1/15 once per curve. -/
theorem preserves : Cert.preserves_Kernel_KernelIdeal :=
  ⟨IdealRules.named_const.statement Cert.KernelIdeal.κ "inv_98" .f32 0x3C272F05#32 ((1 / 98 : ℝ) : EReal) rfl,
   IdealRules.named_const.statement Cert.KernelIdeal.κ "neg_inv_15" .f32 0xBD888889#32 ((-1 / 15 : ℝ) : EReal) rfl,
   IdealRules.named_const.statement Cert.KernelIdeal.κ "neg_inv_15" .f32 0xBD888889#32 ((-1 / 15 : ℝ) : EReal) rfl,
   IdealRules.named_const.statement Cert.KernelIdeal.κ "neg_inv_15" .f32 0xBD888889#32 ((-1 / 15 : ℝ) : EReal) rfl,
   IdealRules.named_const.statement Cert.KernelIdeal.κ "neg_inv_15" .f32 0xBD888889#32 ((-1 / 15 : ℝ) : EReal) rfl,
   IdealRules.named_const.statement Cert.KernelIdeal.κ "neg_inv_15" .f32 0xBD888889#32 ((-1 / 15 : ℝ) : EReal) rfl,
   IdealRules.named_const.statement Cert.KernelIdeal.κ "neg_inv_15" .f32 0xBD888889#32 ((-1 / 15 : ℝ) : EReal) rfl,
   IdealRules.named_const.statement Cert.KernelIdeal.κ "neg_inv_15" .f32 0xBD888889#32 ((-1 / 15 : ℝ) : EReal) rfl,
   IdealRules.named_const.statement Cert.KernelIdeal.κ "neg_inv_15" .f32 0xBD888889#32 ((-1 / 15 : ℝ) : EReal) rfl⟩

/-- Both idealized programs end at the loss of the (agreeing) arguments. -/
theorem algebraic : Cert.algebraic_KernelIdeal_ReferenceIdeal := by
  intro m ρ m' ρ' _ hagree
  refine ⟨_, Cert.KernelIdeal.Arrays.kernel_run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_value, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
